-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S32x512 : Shape := ⟨2, ![32, 512]⟩
abbrev S32 : Shape := ⟨1, ![32]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : FVec F S8192x8192 .f32) (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_cst_14 : FVec F S_ .f32 := constant S_ .f32 0x00000000#32
  let main_v39 : FVec F S8192 .f32 := (fun x v => Host.reduceAdd x v reducesTo_S8192x8192_S8192_d0 h_S_) main_arg1 main_cst_14
  let main_cst_15 : FVec F S_ .f32 := constant S_ .f32 0x00000000#32
  let main_v40 : FVec F S8192 .f32 := broadcastInDim S8192 ![] bcast_S_S8192 main_cst_15
  let main_v41 : IVec S8192 1 := cmpf .ogt main_v39 main_v40
  let main_c_16 : IVec S_ 1 := constantI S_ 1 1#1
  let main_v42 : IVec S_ 1 := (fun x v => Host.reduce IntOp.andi x v reducesTo_S8192_S_d0 h_S_) main_v41 main_c_16
  let main_v43 : IVec S_ 1 := andi main_v38 main_v42
  main_v43

def fn_part1 {F : FTy → Type} [FloatOps F] (main_arg1 : FVec F S8192x8192 .f32) (main_arg4 : FVec F S512x512 .f32) (main_arg5 : FVec F S512 .f32) (main_arg6 : FVec F S32x512 .f32) (main_arg7 : FVec F S32 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg1 main_arg7 main_v33

def fn {F : FTy → Type} [FloatOps F] (main_arg0 : FVec F S8192x512 .f32) (main_arg1 : FVec F S8192x8192 .f32) (main_arg2 : FVec F S512x512 .f32) (main_arg3 : FVec F S512 .f32) (main_arg4 : FVec F S512x512 .f32) (main_arg5 : FVec F S512 .f32) (main_arg6 : FVec F S32x512 .f32) (main_arg7 : FVec F S32 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg4 main_arg5 main_arg6 main_arg7 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S32x512 : Shape := ⟨2, ![32, 512]⟩
abbrev S32 : Shape := ⟨1, ![32]⟩
abbrev S1x8192 : Shape := ⟨2, ![1, 8192]⟩
abbrev S1024x1024 : Shape := ⟨2, ![1024, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S1024x1 : Shape := ⟨2, ![1024, 1]⟩
abbrev S1024x512 : Shape := ⟨2, ![1024, 512]⟩
abbrev S1x512 : Shape := ⟨2, ![1, 512]⟩
abbrev S2048x512 : Shape := ⟨2, ![2048, 512]⟩
abbrev S512x32 : Shape := ⟨2, ![512, 32]⟩
abbrev S1x32 : Shape := ⟨2, ![1, 32]⟩
abbrev S8192x32 : Shape := ⟨2, ![8192, 32]⟩
abbrev S2048x32 : Shape := ⟨2, ![2048, 32]⟩

abbrev nBuf : Space → Nat
  | .hbm => 24
  | .vmem => 44
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S32x512, .f32⟩
  | .hbm, ⟨7, _⟩ => ⟨S32, .f32⟩
  | .hbm, ⟨8, _⟩ => ⟨S1x8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x512, .f32⟩
  | .hbm, ⟨13, _⟩ => ⟨S512x512, .f32⟩
  | .hbm, ⟨14, _⟩ => ⟨S1x512, .f32⟩
  | .hbm, ⟨15, _⟩ => ⟨S8192x512, .f32⟩
  | .hbm, ⟨16, _⟩ => ⟨S8192x1, .f32⟩
  | .hbm, ⟨17, _⟩ => ⟨S8192x512, .f32⟩
  | .hbm, ⟨18, _⟩ => ⟨S512x512, .f32⟩
  | .hbm, ⟨19, _⟩ => ⟨S1x512, .f32⟩
  | .hbm, ⟨20, _⟩ => ⟨S8192x512, .f32⟩
  | .hbm, ⟨21, _⟩ => ⟨S512x32, .f32⟩
  | .hbm, ⟨22, _⟩ => ⟨S1x32, .f32⟩
  | .hbm, ⟨23, _⟩ => ⟨S8192x32, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S2048x512, .f32⟩
  | .local _ .vmem, ⟨16, _⟩ => ⟨S2048x512, .f32⟩
  | .local _ .vmem, ⟨17, _⟩ => ⟨S512x512, .f32⟩
  | .local _ .vmem, ⟨18, _⟩ => ⟨S1x512, .f32⟩
  | .local _ .vmem, ⟨19, _⟩ => ⟨S2048x512, .f32⟩
  | .local _ .vmem, ⟨20, _⟩ => ⟨S2048x512, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1024, .f32⟩
  | .local _ .vmem, ⟨26, _⟩ => ⟨S1024x1024, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S2048x512, .f32⟩
  | .local _ .vmem, ⟨33, _⟩ => ⟨S2048x512, .f32⟩
  | .local _ .vmem, ⟨34, _⟩ => ⟨S512x512, .f32⟩
  | .local _ .vmem, ⟨35, _⟩ => ⟨S1x512, .f32⟩
  | .local _ .vmem, ⟨36, _⟩ => ⟨S2048x512, .f32⟩
  | .local _ .vmem, ⟨37, _⟩ => ⟨S2048x512, .f32⟩
  | .local _ .vmem, ⟨38, _⟩ => ⟨S2048x512, .f32⟩
  | .local _ .vmem, ⟨39, _⟩ => ⟨S2048x512, .f32⟩
  | .local _ .vmem, ⟨40, _⟩ => ⟨S512x32, .f32⟩
  | .local _ .vmem, ⟨41, _⟩ => ⟨S1x32, .f32⟩
  | .local _ .vmem, ⟨42, _⟩ => ⟨S2048x32, .f32⟩
  | .local _ .vmem, ⟨43, _⟩ => ⟨S2048x32, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2048x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1x8192_S8192 : S1x8192.ShapeCasts S8192
  shapeCasts_S8192_S8192x1 : S8192.ShapeCasts S8192x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  bitsLt_bf16_f32 : FTy.bits .bf16 < FTy.bits .f32
  transposes_S512x512_S512x512_1_0 : S512x512.Transposes [1, 0] S512x512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  transposes_S32x512_S512x32_1_0 : S32x512.Transposes [1, 0] S512x32
  shapeCasts_S32_S1x32 : S32.ShapeCasts S1x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  dot_S1024x1024_S1024x512_S1024x512_1_0_0_1_n_n_wf : DotDims.WF S1024x1024 S1024x512 S1024x512 [1] [0] [0] [1] [] []
  dot_S2048x512_S512x512_S2048x512_1_0_0_1_n_n_wf : DotDims.WF S2048x512 S512x512 S2048x512 [1] [0] [0] [1] [] []
  dot_S2048x512_S512x32_S2048x32_1_0_0_1_n_n_wf : DotDims.WF S2048x512 S512x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .f32 = 32 ∨ (Rect.block (s := S8192x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S8192x512.size a
  hwx2_3 : ∀ i : grid2.Coords, EltTy.bits .f32 = 32 ∨ (Rect.block (s := S8192x512) S2048x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1.size a ≤ S8192x1.size a
  hwx3_0 : ∀ i : grid3.Coords, EltTy.bits .f32 = 32 ∨ (Rect.block (s := S8192x1) S1024x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S8192x1.size a
  hwx3_1 : ∀ i : grid3.Coords, EltTy.bits .f32 = 32 ∨ (Rect.block (s := S8192x1) S1024x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x8192.size a
  hwx3_2 : ∀ i : grid3.Coords, EltTy.bits .f32 = 32 ∨ (Rect.block (s := S8192x8192) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .f32 = 32 ∨ (Rect.block (s := S8192x512) S1024x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S8192x512.size a
  hwx3_4 : ∀ i : grid3.Coords, EltTy.bits .f32 = 32 ∨ (Rect.block (s := S8192x512) S1024x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S8192x512.size a
  hwx4_0 : ∀ i : grid4.Coords, EltTy.bits .f32 = 32 ∨ (Rect.block (s := S8192x512) S2048x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S8192x512.size a
  hwx4_3 : ∀ i : grid4.Coords, EltTy.bits .f32 = 32 ∨ (Rect.block (s := S8192x512) S2048x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x512.size a ≤ S8192x512.size a
  hwx5_0 : ∀ i : grid5.Coords, EltTy.bits .f32 = 32 ∨ (Rect.block (s := S8192x512) S2048x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x32.size a ≤ S512x32.size a
  hwx5_1 : ∀ i : grid5.Coords, EltTy.bits .f32 = 32 ∨ (Rect.block (s := S512x32) S512x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x32.size a ≤ S8192x32.size a
  hwx5_3 : ∀ i : grid5.Coords, EltTy.bits .f32 = 32 ∨ (Rect.block (s := S8192x32) S2048x32.size (cc5_transform_3 i) (hinb5_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v4) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v8) S1024x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1024x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v9) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S2048x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v12) S2048x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S512x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v14) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v15) S2048x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S32x512 : Shape := ⟨2, ![32, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩
abbrev S512x32 : Shape := ⟨2, ![512, 32]⟩
abbrev S8192x32 : Shape := ⟨2, ![8192, 32]⟩
abbrev S1x32 : Shape := ⟨2, ![1, 32]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S32x512, .f32⟩
  | .hbm, ⟨7, _⟩ => ⟨S32, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S512x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S512x512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S512x32, .f32⟩
  | .hbm, ⟨36, _⟩ => ⟨S8192x32, .f32⟩
  | .hbm, ⟨37, _⟩ => ⟨S1x32, .f32⟩
  | .hbm, ⟨38, _⟩ => ⟨S8192x32, .f32⟩
  | .hbm, ⟨39, _⟩ => ⟨S8192x32, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S8192x8192_S8192_d0 : S8192x8192.ReducesTo [0] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  transposes_S32x512_S512x32_1_0 : S32x512.Transposes [1, 0] S512x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []
  dot_S8192x512_S512x32_S8192x32_1_0_0_1_n_n_wf : DotDims.WF S8192x512 S512x32 S8192x32 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf

class Facts : Prop extends Facts₀ where

variable [Facts]
-- ==== Proof.K.Colsum.lean ====
/-
  The first kernel of the network: the column sums of the adjacency matrix.

  The matrix `A` (8192 x 8192) is cut into 8 x 8 tiles of 1024 x 1024. The grid point `(c, r)` (column tile `c`,
  row tile `r`, `r` running fastest) sees tile `(r, c)` of `A` and the 1 x 1024 strip `c` of the result. The strip is
  visited by the eight consecutive points of one column tile and is written back to the result only after the
  last of them; in between it keeps what the point before left. At `r = 0` the body first fills the strip with
  zeros; at every point it then adds to each lane of the strip the sum of that lane's 1024 entries of the tile.

  So the strip after point `(c, r)` is, by recursion on the point,
      strip(c, 0)     = 0 + tilesum(c, 0)
      strip(c, r + 1) = strip(c, r) + tilesum(c, r + 1),
  where `tilesum` reduces a tile along its rows. This file states that recursion (`strip0`), shows that one run of
  the body takes the strip from one value to the next in each of its two cases (`run_first`, `run_later`), and
  packs the result as the data the pipeline's frame rule asks for (`dat0`, `body_obligation0`). Nothing here
  depends on what the float operations are: the sums are whatever `addf` and the lane reduction compute.
-/
import proofs.«143233_j59193239273550_1_alg».proof.Proof.Gen.Kernel.Launch
import proofs.«143233_j59193239273550_1_alg».proof.Proof.Gen.Kernel.Skeleton
import proofs.«143233_j59193239273550_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.KI

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two cases of the body -/

/-- The body's test "this is the first row tile", as it computes it from the grid coordinates: `r == 0`,
    widened to a word and compared with zero again. -/
abbrev firstRow (i : grid0.Coords) : Prop :=
  (Scalar.cmpi .ne (Scalar.extui (Scalar.cmpi .eq (BitVec.ofNat 32 (i 1).val) 0#32)) 0#32) = 1#1

/-- With `r` the fast axis of an 8 x 8 grid, the test holds exactly at the points divisible by 8. -/
theorem firstRow_iff : ∀ t : Fin cfg0.N, firstRow (grid0.coords t) ↔ t.val % 8 = 0 :=
  (by decide +kernel : ∀ t : Fin grid0.N, firstRow (grid0.coords t) ↔ t.val % 8 = 0)

/-- The offsets `(0, 0)` are the zero offsets. -/
theorem off00 : (![0, 0] : Fin 2 → Nat) = fun _ => 0 := funext fun a => by fin_cases a <;> rfl

/-- The strip of zeros the first row tile starts from. -/
abbrev zeros : Vec F S1x1024 .f32 := k0_pay1 (F := F)

/-- One accumulation: the strip `acc` plus, lane by lane, the sum of the tile `x` along its rows. -/
abbrev addTile (acc : Vec F S1x1024 .f32) (x : Vec F S1024x1024 .f32) : Vec F S1x1024 .f32 := k0_pay2 acc x

set_option maxHeartbeats 1000000 in
/-- FIRST ROW TILE. Whatever the strip's buffer held, the body overwrites all of it with zeros, reads the zeros
    back, and stores `0 + tilesum`: both stores cover the whole 1 x 1024 buffer, so the last one decides its
    contents, and the value it read back is the first store's. The tile's buffer is only read. -/
theorem run_first (c : Dev nD) (E : Set ℕ) (i : grid0.Coords)
    (tile : Memref sig .tc .vmem S1024x1024 .f32) (htile : tile.IsWhole)
    (strip : Memref sig .tc .vmem S1x1024 .f32) (hstrip : strip.IsWhole)
    (hc : firstRow i) (x : Vec F S1024x1024 .f32) (K : PUnit → sProp 𝕄) :
    iprop(owns (c : Thread nD τ) tile fullShare x ∗ (∃ d, owns (c : Thread nD τ) strip fullShare d)
        ∗ (iprop(owns (c : Thread nD τ) tile fullShare x ∗ owns (c : Thread nD τ) strip fullShare (addTile zeros x)) -∗ K ⟨⟩))
      ⊢ wp frame (wpE (defs₀ (F := F)) Variants.none c none) E (cc0__colsum_kernel i tile htile strip hstrip) K := by
  simp only [cc0__colsum_kernel_eq_skeleton]; unfold cc0__colsum_kernel_skel
  unfold owns
  iintro ⟨⟨%f0, %hf0, H0⟩, ⟨%d1, %f1, -, H1⟩, Hk⟩
  subst hf0
  sl_exec (disch := first | exact hc)
  sl_step
  iapply Hk
  isplitl [H0]
  · iexists f0; isplitr; · ipureintro; rfl
    iexact H0
  iexists _; isplitr
  swap; · iexact H1
  ipureintro
  rw [View.read_writes_eq_canon _ _ _ (fun y => ⟨_, List.mem_cons_self, View.mem_set_unit_zero off00 inb_S1x1024_S1x1024_0_0 y⟩),
    View.canon_cons_unit_zero (S := S1x1024) off00]
  sl_unfold_words
  rw [View.readCov_unit_zero (S := S1x1024) _ off00, View.readAt_eq_ld, View.ld_unit_zero (S := S1024x1024) off00]

set_option maxHeartbeats 1000000 in
/-- LATER ROW TILES. The test fails, nothing is reset: the body reads the strip `acc` the point before left and
    the tile, and stores `acc + tilesum` over the whole strip. -/
theorem run_later (c : Dev nD) (E : Set ℕ) (i : grid0.Coords)
    (tile : Memref sig .tc .vmem S1024x1024 .f32) (htile : tile.IsWhole)
    (strip : Memref sig .tc .vmem S1x1024 .f32) (hstrip : strip.IsWhole)
    (hc : ¬firstRow i) (x : Vec F S1024x1024 .f32) (acc : Vec F S1x1024 .f32) (K : PUnit → sProp 𝕄) :
    iprop(owns (c : Thread nD τ) tile fullShare x ∗ owns (c : Thread nD τ) strip fullShare acc
        ∗ (iprop(owns (c : Thread nD τ) tile fullShare x ∗ owns (c : Thread nD τ) strip fullShare (addTile acc x)) -∗ K ⟨⟩))
      ⊢ wp frame (wpE (defs₀ (F := F)) Variants.none c none) E (cc0__colsum_kernel i tile htile strip hstrip) K := by
  simp only [cc0__colsum_kernel_eq_skeleton]; unfold cc0__colsum_kernel_skel
  unfold owns
  iintro ⟨⟨%f0, %hf0, H0⟩, ⟨%f1, %hf1, H1⟩, Hk⟩
  subst hf0; subst hf1
  sl_exec (disch := first | exact hc)
  sl_step
  iapply Hk
  isplitl [H0]
  · iexists f0; isplitr; · ipureintro; rfl
    iexact H0
  iexists _; isplitr
  swap; · iexact H1
  ipureintro
  rw [View.read_writes_eq_canon _ _ _ (fun y => ⟨_, List.mem_cons_self, View.mem_set_unit_zero off00 inb_S1x1024_S1x1024_0_0 y⟩),
    View.canon_cons_unit_zero (S := S1x1024) off00]
  simp only [View.readAt_eq_ld, View.ld_unit_zero (S := S1x1024) off00, View.ld_unit_zero (S := S1024x1024) off00]

/-! ## The strip, point by point, over the contents the kernel is entered with -/

section Region
-- what each buffer of the core holds when the kernel is entered
variable (V : (c : Dev nD) → (b : Ref sig .tc) → Buf (Elt F) ((c : Thread nD τ).loc b))

/-- The block of window `w` at point `t`, read off its array as the kernel finds it: for the matrix, tile `(r, c)`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RECURSION. What the strip's buffer holds after the body at point `n`: at a multiple of 8 (a first row tile)
    `0 + tilesum`, elsewhere what point `n - 1` left plus `tilesum`. -/
def strip0 (c : Dev nD) : (n : ℕ) → n < cfg0.N → Vec F S1x1024 .f32
  | 0, h => addTile zeros (iblk0 V c 0 ⟨0, h⟩)
  | n + 1, h =>
    if (n + 1) % 8 = 0 then addTile zeros (iblk0 V c 0 ⟨n + 1, h⟩)
    else addTile (strip0 c n (Nat.lt_of_succ_lt h)) (iblk0 V c 0 ⟨n + 1, h⟩)

/-- The recursion at a first row tile. -/
theorem strip0_first (c : Dev nD) (t : Fin cfg0.N) (h0 : t.val % 8 = 0) :
    strip0 V c t.val t.isLt = addTile zeros (iblk0 V c 0 t) := by
  obtain ⟨n, hn⟩ := t
  cases n with
  | zero => rfl
  | succ n => exact if_pos h0

/-- The recursion at a later row tile. -/
theorem strip0_later (c : Dev nD) (t : Fin cfg0.N) (h0 : ¬t.val % 8 = 0) :
    strip0 V c t.val t.isLt
      = addTile (strip0 V c (t.val - 1) (Nat.lt_of_le_of_lt (Nat.sub_le _ _) t.isLt)) (iblk0 V c 0 t) := by
  obtain ⟨n, hn⟩ := t
  cases n with
  | zero => exact absurd (Nat.zero_mod _) h0
  | succ n => exact if_neg h0

/-! ## The data of the pipeline's frame rule -/

/-- The arrays as the kernel finds them; after the body at point `t` the tile's buffer still holds the tile and the
    strip's buffer holds `strip0` at `t`; the rest of the core passes through untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => strip0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = strip0 V c t.val t.isLt := by dsimp only [dat0]

/-- The tile's buffer holds tile `(r, c)` when the body runs at `(c, r)`: the window moves at every point and its
    blocks lie inside the matrix, so each point's fetch brings exactly that tile. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- At a later row tile the strip's buffer holds what the point before left: that point is in the same column tile
    and not its last row tile, so the strip was not written back in between, and the block lies inside its array. -/
theorem before0_1_later (c : Dev nD) (t : Fin cfg0.N) (h0 : ¬t.val % 8 = 0) (d) :
    (dat0 V c).before 1 t d = strip0 V c (t.val - 1) (Nat.lt_of_le_of_lt (Nat.sub_le _ _) t.isLt) := by
  rw [Dat.before_out_kept _ 1 rfl t (by omega)
    (Bool.eq_false_iff.mpr fun h => by have := (flush0_1 _).mp h; dsimp only at this; omega)
    (fun _ => rfl) (fun _ _ => rfl)]
  dsimp only [dat0]

/-! ## The body at a point of the grid -/

/-- What the pipeline hands the body at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: a multiple of 8 is a first row tile, where the strip's buffer may hold anything and
    ends at `0 + tilesum`; any other point finds the strip of the point before and adds to it. Either way the
    recursion `strip0` says the same. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [strip0_first V c t h0]
    iintro ⟨HΦ, Ho, ⟨%d0, H0⟩, ⟨%d1, H1⟩⟩
    iapply (run_first c Set.univ (grid0.coords t) _ _ _ _ ((firstRow_iff t).mpr h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [strip0_later V c t h0]
    simp only [before0_1_later V c t h0]
    iintro ⟨HΦ, Ho, ⟨%d0, H0⟩, ⟨%d1, H1⟩⟩
    iapply (run_later c Set.univ (grid0.coords t) _ _ _ _ (fun h => h0 ((firstRow_iff t).mp h)) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The body meets its obligation at every point of the grid. -/
theorem body_obligation0 (c : Dev nD) : BodyObligation (dat0 (F := F) V c) (defs₀ (F := F)) Variants.none () Set.univ := fun t => by
  rw [bigSep_W0, bigSep_W0]
  exact sound_body0 V c t

end Region

end Cert.Kernel.KI

end
-- ==== Proof.K.Gcn1.lean ====
/-
  The propagation kernel of the first layer, region by itself: one grid point of an 8 x 8 grid handles the
  1024 x 1024 block (i, k) of the adjacency matrix. Along a row of the grid (k = 0 … 7) a 1024 x 512 accumulator
  kept in scratch memory is cleared at k = 0, receives at every k the product of the adjacency block with the feature
  block k whose rows were first scaled by the column block k of the scale vector, and at k = 7 is scaled row by row
  by the block i of the same vector and stored as the output block i. The scale vector reaches the kernel twice,
  through two windows of one array, so each window holds half of it.

  This module states what the accumulator holds before every point (`acc1`), the proof data of the pipeline (`dat1`)
  and proves the obligation of the body at every point, for any float instance: nothing here reads a value.
-/
import proofs.«143233_j59193239273550_1_alg».proof.Proof.Gen.Kernel.Launch
import proofs.«143233_j59193239273550_1_alg».proof.Proof.Gen.Kernel.Skeleton
import proofs.«143233_j59193239273550_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.KI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at point `t`, read off the array the region finds at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at point `t = 8 i + k` under their literal shapes: rows `i` of the scale vector, rows `k` of
    the same vector, block `(i, k)` of the adjacency matrix, rows `k` of the features. -/
abbrev drow1 (c : Dev nD) (t : Fin cfg1.N) : Vec F S1024x1 .f32 := iblk1 V c 0 t
abbrev dcol1 (c : Dev nD) (t : Fin cfg1.N) : Vec F S1024x1 .f32 := iblk1 V c 1 t
abbrev ablk1 (c : Dev nD) (t : Fin cfg1.N) : Vec F S1024x1024 .f32 := iblk1 V c 2 t
abbrev bblk1 (c : Dev nD) (t : Fin cfg1.N) : Vec F S1024x512 .f32 := iblk1 V c 3 t

/-! ## The accumulator -/

/-- One step of the accumulation, at point `t`: the accumulator `a` plus the adjacency block times the feature block
    whose rows are scaled by the column block of the scale vector — the value the body stores into the scratch. -/
def step1 (c : Dev nD) (t : Fin cfg1.N) (a : Vec F S1024x512 .f32) : Vec F S1024x512 .f32 :=
  k1_pay2 (bblk1 V c t) (dcol1 V c t) (ablk1 V c t) a

/-- What the scratch holds BEFORE point `n` (after point `n - 1`): a step from zero where the point before began a row of the
    grid (`k = 0`), else a step from what it held before that point. Before a point that begins a row the value is never
    read (the body clears the scratch there); before the first point it is set to zero for definiteness. -/
def acc1 (c : Dev nD) : (n : Nat) → Vec F S1024x512 .f32
  | 0 => k1_pay1
  | n + 1 => if h : n < cfg1.N then step1 V c ⟨n, h⟩ (if n % 8 = 0 then k1_pay1 else acc1 c n) else acc1 c n

theorem acc1_zero (c : Dev nD) : acc1 V c 0 = k1_pay1 := rfl

/-- After point `t`: one step from zero at the start of a row, from the previous contents elsewhere. -/
theorem acc1_succ (c : Dev nD) (t : Fin cfg1.N) :
    acc1 V c (t.val + 1) = step1 V c t (if t.val % 8 = 0 then k1_pay1 else acc1 V c t.val) := by
  obtain ⟨n, hn⟩ := t
  show (if h : n < cfg1.N then step1 V c ⟨n, h⟩ (if n % 8 = 0 then k1_pay1 else acc1 V c n) else acc1 V c n) = _
  rw [dif_pos hn]

theorem acc1_succ_first (c : Dev nD) (t : Fin cfg1.N) (h : t.val % 8 = 0) :
    acc1 V c (t.val + 1) = step1 V c t k1_pay1 := by rw [acc1_succ, if_pos h]

theorem acc1_succ_later (c : Dev nD) (t : Fin cfg1.N) (h : ¬ t.val % 8 = 0) :
    acc1 V c (t.val + 1) = step1 V c t (acc1 V c t.val) := by rw [acc1_succ, if_neg h]

/-- What the body stores into the output's buffer at the end of a row: the accumulator after the point, its rows scaled by
    the row block of the scale vector. -/
def out1 (c : Dev nD) (t : Fin cfg1.N) : Vec F S1024x512 .f32 := k1_pay3 (acc1 V c (t.val + 1)) (drow1 V c t)

/-! ## The invariant between points -/

/-- The accumulator: a scoped buffer of the kernel's own, whole. -/
abbrev scM1 : Memref sig .tc .vmem S1024x512 .f32 := Memref.whole cc1_scratch0

/-- Before point `n`: the scratch at some contents, which inside a row of the grid are the accumulator's (`acc1`) and at the start
    of a row are anything; the other scoped buffers no window stages, untouched; the generator register at some state. -/
def Phi1 (c : Dev nD) (n : ℕ) : sProp 𝕄 :=
  iprop((∃ d, owns (c : Thread nD τ) scM1 fullShare d ∗ ⌜n % 8 ≠ 0 → d = acc1 V c n⌝)
    ∗ Pipeline.scopedRestBut (Ix := Unit) (Name := ℕ) (U := UR sig nD τ) (Lvl := ℕ) (Val := Elt F) spec1 c [cc1_scratch0]
    ∗ ∃ r, prngReg c r)

/-! ## The proof data -/

/-- The pipeline's proof data on core `c`: the arrays as the region finds them; after the body every input's buffer at its block and
    the output's at the scaled accumulator (`out1`: what the body stores there at the end of a row, the only points that write the block back);
    the invariant `Phi1`; the two windows on the scale vector hold its left and its right half share, the other inputs theirs whole;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

theorem Phi1_eq (c : Dev nD) (t : Fin (cfg1.N + 1)) : (dat1 V c).Φ t = Phi1 V c t.val := by dsimp only [dat1]
theorem owed1_eq (c : Dev nD) (t : Fin (cfg1.N + 1)) : (dat1 V c).owed t = 0 := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]

/-! ## Where the body branches, and where the output window is idle -/

/-- The body clears the scratch where the second grid coordinate is zero: the points `≡ 0 (mod 8)`. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- It stores the output where that coordinate is seven: the points `≡ 7 (mod 8)`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- Elsewhere the output window is idle and its block is not written back; at those points it is live. -/
theorem idle1_4 : ∀ t : Fin cfg1.N, ¬ t.val % 8 = 7 → cfg1.idle 4 (grid1.coords t) = true :=
  (by decide +kernel : ∀ t : Fin grid1.N, ¬ t.val % 8 = 7 → idle1 4 (grid1.coords t) = true)
theorem live1_4 : ∀ t : Fin cfg1.N, t.val % 8 = 7 → cfg1.idle 4 (grid1.coords t) = false :=
  (by decide +kernel : ∀ t : Fin grid1.N, t.val % 8 = 7 → idle1 4 (grid1.coords t) = false)
theorem noFlush1_4 (t : Fin cfg1.N) (h : ¬ t.val % 8 = 7) : (cfg1.win 4).flush t = false := by
  cases hf : (cfg1.win 4).flush t
  · rfl
  · exact absurd ((flush1_4 t).mp hf) h

/-! ## What the body finds in the input windows' buffers -/

/-- Each input window's current buffer holds its block at every point, fetched there or not: where it is not fetched its block
    index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## Entering and leaving the region -/

theorem Phi1_first' (c : Dev nD) : (Pipeline.ΦA spec1 c : sProp 𝕄) ⊢ Phi1 V c 0 := by
  unfold Pipeline.ΦA Phi1; rw [scopedRest1_split]
  iintro ⟨⟨⟨%f, Hs⟩, Hrest⟩, Hr⟩
  isplitl [Hs]
  · iexists f; isplitl [Hs]
    · rw [owns_whole]; iexact Hs
    · ipureintro; intro h; exact absurd rfl h
  isplitl [Hrest]; · iexact Hrest
  iexact Hr

theorem Phi1_last' (c : Dev nD) (n : ℕ) : Phi1 V c n ⊢ (Pipeline.ΦA spec1 c : sProp 𝕄) := by
  unfold Pipeline.ΦA Phi1; rw [scopedRest1_split]; simp only [owns_whole]
  iintro ⟨⟨%d, Hs, -⟩, Hrest, Hr⟩
  isplitl [Hs Hrest]
  · isplitl [Hs]
    · iexists d; iexact Hs
    · iexact Hrest
  iexact Hr

/-! ## The body on any staging memrefs

Every access of the body is through the whole of a memref: a load reads the contents, a store leaves its payload. -/

theorem hz2 : (![0, 0] : Fin 2 → Nat) = fun _ => 0 := funext fun a => by fin_cases a <;> rfl

set_option maxHeartbeats 1000000 in
/-- Inside a row of the grid (`0 < k < 7`): from the inputs' memrefs at their contents and the scratch at `xs`, the body leaves in
    the scratch one step of the accumulation from `xs`, and everything else, the output's memref included, as it was. -/
theorem sound_kernel1_mid (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond1_0 i) (hc1 : ¬cond1_1 i)
    (xr xc : Vec F S1024x1 .f32) (xa : Vec F S1024x1024 .f32) (xb xo xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k1_pay2 xb xc xa xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

set_option maxHeartbeats 1000000 in
/-- At the start of a row (`k = 0`): whatever the scratch holds, the body clears it and leaves in it one step of the accumulation from
    zero; everything else, the output's memref included, as it was. -/
theorem sound_kernel1_first (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : cond1_0 i) (hc1 : ¬cond1_1 i)
    (xr xc : Vec F S1024x1 .f32) (xa : Vec F S1024x1024 .f32) (xb xo : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ (∃ d, owns (c : Thread nD τ) arg7 fullShare d)
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k1_pay2 xb xc xa k1_pay1)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_cons_unit_zero (S := S1024x512) hz2, View.readCov_unit_zero (S := S1024x512) _ hz2]
  simp only [View.readAt_eq_ld, harg2.read_unread, harg3.read_unread, harg4.read_unread, harg5.read_unread,
    View.ld_unit_zero (S := S1024x512) hz2, View.ld_unit_zero (S := S1024x1) hz2, View.ld_unit_zero (S := S1024x1024) hz2]

set_option maxHeartbeats 1000000 in
/-- At the end of a row (`k = 7`): the step as inside a row, and then the output's memref, whatever it held, receives the new
    accumulator with its rows scaled. -/
theorem sound_kernel1_last (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond1_0 i) (hc1 : cond1_1 i)
    (xr xc : Vec F S1024x1 .f32) (xa : Vec F S1024x1024 .f32) (xb xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ (∃ d, owns (c : Thread nD τ) arg6 fullShare d) ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare (k1_pay3 (k1_pay2 xb xc xa xs) xr)
            ∗ owns (c : Thread nD τ) arg7 fullShare (k1_pay2 xb xc xa xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_cons_self, View.mem_set_unit_zero hz2 inb_S1024x512_S1024x512_0_0 y⟩)]
    rw [View.canon_unit_zero hz2, View.readCov_unit_zero (S := S1024x512) _ hz2]
    simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

/-! ## The body obligation, at a generic point -/

theorem live1_0 (t : Fin cfg1.N) : cfg1.idle 0 (grid1.coords t) = false := rfl
theorem live1_1 (t : Fin cfg1.N) : cfg1.idle 1 (grid1.coords t) = false := rfl
theorem live1_2 (t : Fin cfg1.N) : cfg1.idle 2 (grid1.coords t) = false := rfl
theorem live1_3 (t : Fin cfg1.N) : cfg1.idle 3 (grid1.coords t) = false := rfl

/-- What the body is called with at point `t`: the invariant, the core's dues, every window's current buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the next invariant, the dues, every buffer at what the body leaves in it (the output's, away from the
    end of a row, as it was handed it). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The input buffers hold their blocks; the position in the row says which of the three runs applies; the
    invariant hands the run the scratch — at the accumulator inside a row, at anything at its start — and takes it back at the
    accumulator after the point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, Phi1_eq, Phi1_eq]
  simp only [Fin.coe_castSucc, Fin.val_succ]
  rw [show (dat1 V c).leavesExact 0 t = owns (c : Thread nD τ) (st1_0 t) fullShare ((dat1 V c).after 0 t) from by
      unfold Dat.leavesExact; rw [live1_0 t], after1_0,
    show (dat1 V c).leavesExact 1 t = owns (c : Thread nD τ) (st1_1 t) fullShare ((dat1 V c).after 1 t) from by
      unfold Dat.leavesExact; rw [live1_1 t], after1_1,
    show (dat1 V c).leavesExact 2 t = owns (c : Thread nD τ) (st1_2 t) fullShare ((dat1 V c).after 2 t) from by
      unfold Dat.leavesExact; rw [live1_2 t], after1_2,
    show (dat1 V c).leavesExact 3 t = owns (c : Thread nD τ) (st1_3 t) fullShare ((dat1 V c).after 3 t) from by
      unfold Dat.leavesExact; rw [live1_3 t], after1_3]
  unfold Phi1
  by_cases h7 : t.val % 8 = 7
  · have h0 : ¬ t.val % 8 = 0 := by omega
    rw [show (dat1 V c).leavesExact 4 t = owns (c : Thread nD τ) (st1_4 t) fullShare ((dat1 V c).after 4 t) from by
      unfold Dat.leavesExact; rw [live1_4 t h7], after1_4]
    unfold out1; rw [acc1_succ_later V c t h0]; unfold step1
    iintro ⟨⟨⟨%d, HS, %hd⟩, Hrest, Hg⟩, Ho, ⟨%d0, H0⟩, ⟨%d1, H1⟩, ⟨%d2, H2⟩, ⟨%d3, H3⟩, ⟨%d4, H4⟩⟩
    obtain rfl := hd h0
    iapply (sound_kernel1_last c Set.univ (grid1.coords t) _ _ _ _ _ _ _ _ _ _ _ _ (fun h => h0 ((hcond1_0 t).mp h)) ((hcond1_1 t).mpr h7)
      (drow1 V c t) (dcol1 V c t) (ablk1 V c t) (bblk1 V c t) (acc1 V c t.val) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idle1_4 t h7) (noFlush1_4 t h7)]
    by_cases h0 : t.val % 8 = 0
    · rw [acc1_succ_first V c t h0]; unfold step1
      iintro ⟨⟨⟨%d, HS, -⟩, Hrest, Hg⟩, Ho, ⟨%d0, H0⟩, ⟨%d1, H1⟩, ⟨%d2, H2⟩, ⟨%d3, H3⟩, ⟨%d4, H4⟩⟩
      iapply (sound_kernel1_first c Set.univ (grid1.coords t) _ _ _ _ _ _ _ _ _ _ _ _ ((hcond1_0 t).mpr h0) (fun h => h7 ((hcond1_1 t).mp h))
        (drow1 V c t) (dcol1 V c t) (ablk1 V c t) (bblk1 V c t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4
    · rw [acc1_succ_later V c t h0]; unfold step1
      iintro ⟨⟨⟨%d, HS, %hd⟩, Hrest, Hg⟩, Ho, ⟨%d0, H0⟩, ⟨%d1, H1⟩, ⟨%d2, H2⟩, ⟨%d3, H3⟩, ⟨%d4, H4⟩⟩
      obtain rfl := hd h0
      iapply (sound_kernel1_mid c Set.univ (grid1.coords t) _ _ _ _ _ _ _ _ _ _ _ _ (fun h => h0 ((hcond1_0 t).mp h)) (fun h => h7 ((hcond1_1 t).mp h))
        (drow1 V c t) (dcol1 V c t) (ablk1 V c t) (bblk1 V c t) ((dat1 V c).before 4 t d4) (acc1 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Entering the region: the class invariant (every scoped buffer no window stages at some contents, the generator register at some
    state) is the invariant before the first point: there the scratch may hold anything. -/
theorem Phi1_first (c : Dev nD) : (Pipeline.ΦA spec1 c : sProp 𝕄) ⊢ (dat1 V c).Φ 0 := by
  rw [Phi1_eq]; exact Phi1_first' V c

/-- Leaving it: after the last point the invariant gives the class invariant back, the scratch's contents forgotten. -/
theorem Phi1_last (c : Dev nD) : (dat1 V c).Φ (Fin.last cfg1.N) ⊢ (Pipeline.ΦA spec1 c : sProp 𝕄) := by
  rw [Phi1_eq]; exact Phi1_last' V c _

end Cert.Kernel.KI

end
-- ==== Proof.K.Lin2.lean ====
/- The first dense layer of the network, as one region of the program: relu (X · Wt + b), computed
   2048 rows of X at a time.  The region walks a grid of four points; at point t it sees rows
   2048·t … 2048·t + 2047 of X (window 0), all of Wt (window 1), all of the bias row (window 2), and
   produces the same rows of the result (window 3).  The body reads its three inputs whole, does one
   matrix product into a zero accumulator, adds the bias row to every row, clamps below at zero and
   writes the block whole.  It also reads the output buffer once and throws the value away.

   This file fixes, for arbitrary contents V of the core's buffers when the region is entered, what
   every window's buffer holds after the body at each point, and proves that the body does exactly
   that at any point.  Nothing here depends on the float instance. -/
import proofs.«143233_j59193239273550_1_alg».proof.Proof.Gen.Kernel.Launch
import proofs.«143233_j59193239273550_1_alg».proof.Proof.Gen.Kernel.Skeleton
import proofs.«143233_j59193239273550_1_alg».proof.Proof.Gen.Kernel.Points
import Idealize.ShloMosaic.Lib.Pipeline.FrameBody
import Idealize.ShloMosaic.Lib.Ring
import Idealize.ShloMosaic.Lib.Tactic

-- deciding that one rectangle as large as its buffer covers it walks the long axis coordinate by coordinate
set_option maxRecDepth 16384

noncomputable section

namespace Cert.Kernel.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the shape of one block of the result, and the fact that a rectangle of that size at the origin fits in it
local notation "OB" => S2048x512
local notation "inbOB" => inb_S2048x512_S2048x512_0_0

-- what the core's buffers hold when the region is entered
variable (V : (c : Dev nD) → (b : Ref sig .tc) → Buf (Elt F) ((c : Thread nD τ).loc b))

/-! ## Blocks -/

/-- The part of window `w`'s array that point `t` looks at: rows 2048·t … of X or of the result, or
    the whole of Wt or of the bias row. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body writes -/

/-- Each of the four buffers, whole: every access of the body is through one of these. -/
abbrev whole2_x : Rect S2048x512 := Rect.unit (s := S2048x512) ![0, 0] S2048x512.size inb_S2048x512_S2048x512_0_0
abbrev whole2_w : Rect S512x512 := Rect.unit (s := S512x512) ![0, 0] S512x512.size inb_S512x512_S512x512_0_0
abbrev whole2_b : Rect S1x512 := Rect.unit (s := S1x512) ![0, 0] S1x512.size inb_S1x512_S1x512_0_0
abbrev whole2_o : Rect OB := Rect.unit (s := OB) ![0, 0] (Shape.size OB) inbOB

/-- The output buffer after the body, as a function of the three input buffers: the body's one
    store, over everything, of the skeleton's payload of what the three loads read. -/
def out2_3 (x0 : Vec F S2048x512 .f32) (x1 : Vec F S512x512 .f32) (x2 : Vec F S1x512 .f32) : Vec F OB .f32 :=
  View.canon [⟨whole2_o, k2_pay1 (View.ld x0 whole2_x) (View.ld x1 whole2_w) (View.ld x2 whole2_b)⟩]

/-- One store over the whole buffer leaves no index unwritten. -/
theorem out2_3_covers (p : Vec F OB .f32) (y : Shape.Idx OB) :
    ∃ pc ∈ ([⟨whole2_o, p⟩] : List (View.Piece (Elt F) OB .f32)), y ∈ pc.1.set :=
  View.cover_of_tiled [⟨whole2_o, p⟩] (Shape.size OB) (by rfl) y

/-! ## The body on four whole buffers -/

set_option maxHeartbeats 1000000 in
/-- Run on four whole buffers — the inputs reading `x0`, `x1`, `x2`, the output holding anything — the
    body ends with the inputs unchanged and the output reading `out2_3 x0 x1 x2`.  The load of the
    output buffer before the store reads whatever was there and the value is dropped. -/
theorem body2_on_buffers (c : Dev nD) (E : Set ℕ) (i : grid2.Coords)
    (bx : Memref sig .tc .vmem S2048x512 .f32) (hbx : bx.IsWhole) (bw : Memref sig .tc .vmem S512x512 .f32) (hbw : bw.IsWhole)
    (bb : Memref sig .tc .vmem S1x512 .f32) (hbb : bb.IsWhole) (bo : Memref sig .tc .vmem OB .f32) (hbo : bo.IsWhole)
    (x0 : Vec F S2048x512 .f32) (x1 : Vec F S512x512 .f32) (x2 : Vec F S1x512 .f32) (K : PUnit → sProp 𝕄) :
    iprop(owns (c : Thread nD τ) bx fullShare x0 ∗ owns (c : Thread nD τ) bw fullShare x1 ∗ owns (c : Thread nD τ) bb fullShare x2
        ∗ (∃ d, owns (c : Thread nD τ) bo fullShare d)
        ∗ (iprop(owns (c : Thread nD τ) bx fullShare x0 ∗ owns (c : Thread nD τ) bw fullShare x1 ∗ owns (c : Thread nD τ) bb fullShare x2
            ∗ owns (c : Thread nD τ) bo fullShare (out2_3 x0 x1 x2)) -∗ K ⟨⟩))
      ⊢ wp frame (wpE (defs₀ (F := F)) Variants.none c none) E (cc2__linear_kernel i bx hbx bw hbw bb hbb bo hbo) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output holds its old contents overwritten by the one store, which covers it
  iexists _; isplitr
  swap; · iexact H3
  ipureintro
  exact View.read_writes_eq_canon _ _ _ (out2_3_covers _)

/-! ## The region's proof data -/

/-- For core `c`: each window's array is what the region finds (`V`); after the body at point `t` an
    input buffer still holds its block and the output buffer holds `out2_3` of the three input
    blocks; the body keeps no state of its own, owes no other core anything and holds every array
    outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-! ## What the body finds in its input buffers

An input buffer holds its window's block at every point.  Where the pipeline fetched at that point
this is what a fetch does.  Where it did not — Wt and the bias row are fetched once, at the first
point — the block index has not moved since the previous point, the body left the block in place
there, and the two blocks are the same. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body at a point of the grid -/

/-- What the body is handed at point `t`: the invariant, the core's dues, and the four current
    buffers, each at what it holds before the body. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back: the same, each buffer at what the proof data say it holds after the body. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body does what `body2_on_buffers` says
    with the blocks for `x0`, `x1`, `x2`; the invariant and the dues are not looked at. -/
theorem body2_at (c : Dev nD) (t : Fin cfg2.N) :
    given2 V c t ⊢ wp frame (wpE (defs₀ (F := F)) Variants.none c none) Set.univ (bodyAt2 t) (fun _ => left2 V c t) := by
  unfold given2 left2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body2_on_buffers c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation2 (c : Dev nD) : BodyObligation (dat2 (F := F) V c) (defs₀ (F := F)) Variants.none () Set.univ := fun t => by
  rw [bigSep_W2, bigSep_W2]
  exact body2_at V c t

end Cert.Kernel.KI

end
-- ==== Proof.K.Gcn3.lean ====
/-
  The propagation kernel of the second layer, region by itself: one grid point of an 8 x 8 grid handles the
  1024 x 1024 block (i, k) of the adjacency matrix. Along a row of the grid (k = 0 … 7) a 1024 x 512 accumulator
  kept in scratch memory is cleared at k = 0, receives at every k the product of the adjacency block with the feature
  block k whose rows were first scaled by the column block k of the scale vector, and at k = 7 is scaled row by row
  by the block i of the same vector and stored as the output block i. The scale vector reaches the kernel twice,
  through two windows of one array, so each window holds half of it.

  This module states what the accumulator holds before every point (`acc3`), the proof data of the pipeline (`dat3`)
  and proves the obligation of the body at every point, for any float instance: nothing here reads a value.
-/
import proofs.«143233_j59193239273550_1_alg».proof.Proof.Gen.Kernel.Launch
import proofs.«143233_j59193239273550_1_alg».proof.Proof.Gen.Kernel.Skeleton
import proofs.«143233_j59193239273550_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.KI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at point `t`, read off the array the region finds at entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The four input blocks at point `t = 8 i + k` under their literal shapes: rows `i` of the scale vector, rows `k` of
    the same vector, block `(i, k)` of the adjacency matrix, rows `k` of the features. -/
abbrev drow3 (c : Dev nD) (t : Fin cfg3.N) : Vec F S1024x1 .f32 := iblk3 V c 0 t
abbrev dcol3 (c : Dev nD) (t : Fin cfg3.N) : Vec F S1024x1 .f32 := iblk3 V c 1 t
abbrev ablk3 (c : Dev nD) (t : Fin cfg3.N) : Vec F S1024x1024 .f32 := iblk3 V c 2 t
abbrev bblk3 (c : Dev nD) (t : Fin cfg3.N) : Vec F S1024x512 .f32 := iblk3 V c 3 t

/-! ## The accumulator -/

/-- One step of the accumulation, at point `t`: the accumulator `a` plus the adjacency block times the feature block
    whose rows are scaled by the column block of the scale vector — the value the body stores into the scratch. -/
def step3 (c : Dev nD) (t : Fin cfg3.N) (a : Vec F S1024x512 .f32) : Vec F S1024x512 .f32 :=
  k3_pay2 (bblk3 V c t) (dcol3 V c t) (ablk3 V c t) a

/-- What the scratch holds BEFORE point `n` (after point `n - 1`): a step from zero where the point before began a row of the
    grid (`k = 0`), else a step from what it held before that point. Before a point that begins a row the value is never
    read (the body clears the scratch there); before the first point it is set to zero for definiteness. -/
def acc3 (c : Dev nD) : (n : Nat) → Vec F S1024x512 .f32
  | 0 => k3_pay1
  | n + 1 => if h : n < cfg3.N then step3 V c ⟨n, h⟩ (if n % 8 = 0 then k3_pay1 else acc3 c n) else acc3 c n

theorem acc3_zero (c : Dev nD) : acc3 V c 0 = k3_pay1 := rfl

/-- After point `t`: one step from zero at the start of a row, from the previous contents elsewhere. -/
theorem acc3_succ (c : Dev nD) (t : Fin cfg3.N) :
    acc3 V c (t.val + 1) = step3 V c t (if t.val % 8 = 0 then k3_pay1 else acc3 V c t.val) := by
  obtain ⟨n, hn⟩ := t
  show (if h : n < cfg3.N then step3 V c ⟨n, h⟩ (if n % 8 = 0 then k3_pay1 else acc3 V c n) else acc3 V c n) = _
  rw [dif_pos hn]

theorem acc3_succ_first (c : Dev nD) (t : Fin cfg3.N) (h : t.val % 8 = 0) :
    acc3 V c (t.val + 1) = step3 V c t k3_pay1 := by rw [acc3_succ, if_pos h]

theorem acc3_succ_later (c : Dev nD) (t : Fin cfg3.N) (h : ¬ t.val % 8 = 0) :
    acc3 V c (t.val + 1) = step3 V c t (acc3 V c t.val) := by rw [acc3_succ, if_neg h]

/-- What the body stores into the output's buffer at the end of a row: the accumulator after the point, its rows scaled by
    the row block of the scale vector. -/
def out3 (c : Dev nD) (t : Fin cfg3.N) : Vec F S1024x512 .f32 := k3_pay3 (acc3 V c (t.val + 1)) (drow3 V c t)

/-! ## The invariant between points -/

/-- The accumulator: a scoped buffer of the kernel's own, whole. -/
abbrev scM3 : Memref sig .tc .vmem S1024x512 .f32 := Memref.whole cc3_scratch0

/-- Before point `n`: the scratch at some contents, which inside a row of the grid are the accumulator's (`acc3`) and at the start
    of a row are anything; the other scoped buffers no window stages, untouched; the generator register at some state. -/
def Phi3 (c : Dev nD) (n : ℕ) : sProp 𝕄 :=
  iprop((∃ d, owns (c : Thread nD τ) scM3 fullShare d ∗ ⌜n % 8 ≠ 0 → d = acc3 V c n⌝)
    ∗ Pipeline.scopedRestBut (Ix := Unit) (Name := ℕ) (U := UR sig nD τ) (Lvl := ℕ) (Val := Elt F) spec3 c [cc3_scratch0]
    ∗ ∃ r, prngReg c r)

/-! ## The proof data -/

/-- The pipeline's proof data on core `c`: the arrays as the region finds them; after the body every input's buffer at its block and
    the output's at the scaled accumulator (`out3`: what the body stores there at the end of a row, the only points that write the block back);
    the invariant `Phi3`; the two windows on the scale vector hold its left and its right half share, the other inputs theirs whole;
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := Phi3 V c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem Phi3_eq (c : Dev nD) (t : Fin (cfg3.N + 1)) : (dat3 V c).Φ t = Phi3 V c t.val := by dsimp only [dat3]
theorem owed3_eq (c : Dev nD) (t : Fin (cfg3.N + 1)) : (dat3 V c).owed t = 0 := by dsimp only [dat3]
theorem q3_0 (c : Dev nD) : (dat3 V c).q 0 = fullShare.left := by dsimp only [dat3]
theorem q3_1 (c : Dev nD) : (dat3 V c).q 1 = fullShare.right := by dsimp only [dat3]
theorem q3_2 (c : Dev nD) : (dat3 V c).q 2 = fullShare := by dsimp only [dat3]
theorem q3_3 (c : Dev nD) : (dat3 V c).q 3 = fullShare := by dsimp only [dat3]

/-! ## Where the body branches, and where the output window is idle -/

/-- The body clears the scratch where the second grid coordinate is zero: the points `≡ 0 (mod 8)`. -/
abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- It stores the output where that coordinate is seven: the points `≡ 7 (mod 8)`. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- Elsewhere the output window is idle and its block is not written back; at those points it is live. -/
theorem idle3_4 : ∀ t : Fin cfg3.N, ¬ t.val % 8 = 7 → cfg3.idle 4 (grid3.coords t) = true :=
  (by decide +kernel : ∀ t : Fin grid3.N, ¬ t.val % 8 = 7 → idle3 4 (grid3.coords t) = true)
theorem live3_4 : ∀ t : Fin cfg3.N, t.val % 8 = 7 → cfg3.idle 4 (grid3.coords t) = false :=
  (by decide +kernel : ∀ t : Fin grid3.N, t.val % 8 = 7 → idle3 4 (grid3.coords t) = false)
theorem noFlush3_4 (t : Fin cfg3.N) (h : ¬ t.val % 8 = 7) : (cfg3.win 4).flush t = false := by
  cases hf : (cfg3.win 4).flush t
  · rfl
  · exact absurd ((flush3_4 t).mp hf) h

/-! ## What the body finds in the input windows' buffers -/

/-- Each input window's current buffer holds its block at every point, fetched there or not: where it is not fetched its block
    index has not moved, and the body leaves the block in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## Entering and leaving the region -/

theorem Phi3_first' (c : Dev nD) : (Pipeline.ΦA spec3 c : sProp 𝕄) ⊢ Phi3 V c 0 := by
  unfold Pipeline.ΦA Phi3; rw [scopedRest3_split]
  iintro ⟨⟨⟨%f, Hs⟩, Hrest⟩, Hr⟩
  isplitl [Hs]
  · iexists f; isplitl [Hs]
    · rw [owns_whole]; iexact Hs
    · ipureintro; intro h; exact absurd rfl h
  isplitl [Hrest]; · iexact Hrest
  iexact Hr

theorem Phi3_last' (c : Dev nD) (n : ℕ) : Phi3 V c n ⊢ (Pipeline.ΦA spec3 c : sProp 𝕄) := by
  unfold Pipeline.ΦA Phi3; rw [scopedRest3_split]; simp only [owns_whole]
  iintro ⟨⟨%d, Hs, -⟩, Hrest, Hr⟩
  isplitl [Hs Hrest]
  · isplitl [Hs]
    · iexists d; iexact Hs
    · iexact Hrest
  iexact Hr

/-! ## The body on any staging memrefs

Every access of the body is through the whole of a memref: a load reads the contents, a store leaves its payload. -/

theorem hz2 : (![0, 0] : Fin 2 → Nat) = fun _ => 0 := funext fun a => by fin_cases a <;> rfl

set_option maxHeartbeats 1000000 in
/-- Inside a row of the grid (`0 < k < 7`): from the inputs' memrefs at their contents and the scratch at `xs`, the body leaves in
    the scratch one step of the accumulation from `xs`, and everything else, the output's memref included, as it was. -/
theorem sound_kernel3_mid (c : Dev nD) (E : Set ℕ) (i : grid3.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond3_0 i) (hc1 : ¬cond3_1 i)
    (xr xc : Vec F S1024x1 .f32) (xa : Vec F S1024x1024 .f32) (xb xo xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k3_pay2 xb xc xa xs)) -∗ K ⟨⟩))
      ⊢ wp frame (wpE (defs₀ (F := F)) Variants.none c none) E (cc3__gcn_matmul_kernel i arg2 harg2 arg3 harg3 arg4 harg4 arg5 harg5 arg6 harg6 arg7 harg7) K := by
  simp only [cc3__gcn_matmul_kernel_eq_skeleton]; unfold cc3__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

set_option maxHeartbeats 1000000 in
/-- At the start of a row (`k = 0`): whatever the scratch holds, the body clears it and leaves in it one step of the accumulation from
    zero; everything else, the output's memref included, as it was. -/
theorem sound_kernel3_first (c : Dev nD) (E : Set ℕ) (i : grid3.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : cond3_0 i) (hc1 : ¬cond3_1 i)
    (xr xc : Vec F S1024x1 .f32) (xa : Vec F S1024x1024 .f32) (xb xo : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ (∃ d, owns (c : Thread nD τ) arg7 fullShare d)
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k3_pay2 xb xc xa k3_pay1)) -∗ K ⟨⟩))
      ⊢ wp frame (wpE (defs₀ (F := F)) Variants.none c none) E (cc3__gcn_matmul_kernel i arg2 harg2 arg3 harg3 arg4 harg4 arg5 harg5 arg6 harg6 arg7 harg7) K := by
  simp only [cc3__gcn_matmul_kernel_eq_skeleton]; unfold cc3__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_cons_unit_zero (S := S1024x512) hz2, View.readCov_unit_zero (S := S1024x512) _ hz2]
  simp only [View.readAt_eq_ld, harg2.read_unread, harg3.read_unread, harg4.read_unread, harg5.read_unread,
    View.ld_unit_zero (S := S1024x512) hz2, View.ld_unit_zero (S := S1024x1) hz2, View.ld_unit_zero (S := S1024x1024) hz2]

set_option maxHeartbeats 1000000 in
/-- At the end of a row (`k = 7`): the step as inside a row, and then the output's memref, whatever it held, receives the new
    accumulator with its rows scaled. -/
theorem sound_kernel3_last (c : Dev nD) (E : Set ℕ) (i : grid3.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond3_0 i) (hc1 : cond3_1 i)
    (xr xc : Vec F S1024x1 .f32) (xa : Vec F S1024x1024 .f32) (xb xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ (∃ d, owns (c : Thread nD τ) arg6 fullShare d) ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare (k3_pay3 (k3_pay2 xb xc xa xs) xr)
            ∗ owns (c : Thread nD τ) arg7 fullShare (k3_pay2 xb xc xa xs)) -∗ K ⟨⟩))
      ⊢ wp frame (wpE (defs₀ (F := F)) Variants.none c none) E (cc3__gcn_matmul_kernel i arg2 harg2 arg3 harg3 arg4 harg4 arg5 harg5 arg6 harg6 arg7 harg7) K := by
  simp only [cc3__gcn_matmul_kernel_eq_skeleton]; unfold cc3__gcn_matmul_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_cons_self, View.mem_set_unit_zero hz2 inb_S1024x512_S1024x512_0_0 y⟩)]
    rw [View.canon_unit_zero hz2, View.readCov_unit_zero (S := S1024x512) _ hz2]
    simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

/-! ## The body obligation, at a generic point -/

theorem live3_0 (t : Fin cfg3.N) : cfg3.idle 0 (grid3.coords t) = false := rfl
theorem live3_1 (t : Fin cfg3.N) : cfg3.idle 1 (grid3.coords t) = false := rfl
theorem live3_2 (t : Fin cfg3.N) : cfg3.idle 2 (grid3.coords t) = false := rfl
theorem live3_3 (t : Fin cfg3.N) : cfg3.idle 3 (grid3.coords t) = false := rfl

/-- What the body is called with at point `t`: the invariant, the core's dues, every window's current buffer at what it then holds; -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns: the next invariant, the dues, every buffer at what the body leaves in it (the output's, away from the
    end of a row, as it was handed it). -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The input buffers hold their blocks; the position in the row says which of the three runs applies; the
    invariant hands the run the scratch — at the accumulator inside a row, at anything at its start — and takes it back at the
    accumulator after the point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl, Phi3_eq, Phi3_eq]
  simp only [Fin.coe_castSucc, Fin.val_succ]
  rw [show (dat3 V c).leavesExact 0 t = owns (c : Thread nD τ) (st3_0 t) fullShare ((dat3 V c).after 0 t) from by
      unfold Dat.leavesExact; rw [live3_0 t], after3_0,
    show (dat3 V c).leavesExact 1 t = owns (c : Thread nD τ) (st3_1 t) fullShare ((dat3 V c).after 1 t) from by
      unfold Dat.leavesExact; rw [live3_1 t], after3_1,
    show (dat3 V c).leavesExact 2 t = owns (c : Thread nD τ) (st3_2 t) fullShare ((dat3 V c).after 2 t) from by
      unfold Dat.leavesExact; rw [live3_2 t], after3_2,
    show (dat3 V c).leavesExact 3 t = owns (c : Thread nD τ) (st3_3 t) fullShare ((dat3 V c).after 3 t) from by
      unfold Dat.leavesExact; rw [live3_3 t], after3_3]
  unfold Phi3
  by_cases h7 : t.val % 8 = 7
  · have h0 : ¬ t.val % 8 = 0 := by omega
    rw [show (dat3 V c).leavesExact 4 t = owns (c : Thread nD τ) (st3_4 t) fullShare ((dat3 V c).after 4 t) from by
      unfold Dat.leavesExact; rw [live3_4 t h7], after3_4]
    unfold out3; rw [acc3_succ_later V c t h0]; unfold step3
    iintro ⟨⟨⟨%d, HS, %hd⟩, Hrest, Hg⟩, Ho, ⟨%d0, H0⟩, ⟨%d1, H1⟩, ⟨%d2, H2⟩, ⟨%d3, H3⟩, ⟨%d4, H4⟩⟩
    obtain rfl := hd h0
    iapply (sound_kernel3_last c Set.univ (grid3.coords t) _ _ _ _ _ _ _ _ _ _ _ _ (fun h => h0 ((hcond3_0 t).mp h)) ((hcond3_1 t).mpr h7)
      (drow3 V c t) (dcol3 V c t) (ablk3 V c t) (bblk3 V c t) (acc3 V c t.val) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idle3_4 t h7) (noFlush3_4 t h7)]
    by_cases h0 : t.val % 8 = 0
    · rw [acc3_succ_first V c t h0]; unfold step3
      iintro ⟨⟨⟨%d, HS, -⟩, Hrest, Hg⟩, Ho, ⟨%d0, H0⟩, ⟨%d1, H1⟩, ⟨%d2, H2⟩, ⟨%d3, H3⟩, ⟨%d4, H4⟩⟩
      iapply (sound_kernel3_first c Set.univ (grid3.coords t) _ _ _ _ _ _ _ _ _ _ _ _ ((hcond3_0 t).mpr h0) (fun h => h7 ((hcond3_1 t).mp h))
        (drow3 V c t) (dcol3 V c t) (ablk3 V c t) (bblk3 V c t) ((dat3 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4
    · rw [acc3_succ_later V c t h0]; unfold step3
      iintro ⟨⟨⟨%d, HS, %hd⟩, Hrest, Hg⟩, Ho, ⟨%d0, H0⟩, ⟨%d1, H1⟩, ⟨%d2, H2⟩, ⟨%d3, H3⟩, ⟨%d4, H4⟩⟩
      obtain rfl := hd h0
      iapply (sound_kernel3_mid c Set.univ (grid3.coords t) _ _ _ _ _ _ _ _ _ _ _ _ (fun h => h0 ((hcond3_0 t).mp h)) (fun h => h7 ((hcond3_1 t).mp h))
        (drow3 V c t) (dcol3 V c t) (ablk3 V c t) (bblk3 V c t) ((dat3 V c).before 4 t d4) (acc3 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- Entering the region: the class invariant (every scoped buffer no window stages at some contents, the generator register at some
    state) is the invariant before the first point: there the scratch may hold anything. -/
theorem Phi3_first (c : Dev nD) : (Pipeline.ΦA spec3 c : sProp 𝕄) ⊢ (dat3 V c).Φ 0 := by
  rw [Phi3_eq]; exact Phi3_first' V c

/-- Leaving it: after the last point the invariant gives the class invariant back, the scratch's contents forgotten. -/
theorem Phi3_last (c : Dev nD) : (dat3 V c).Φ (Fin.last cfg3.N) ⊢ (Pipeline.ΦA spec3 c : sProp 𝕄) := by
  rw [Phi3_eq]; exact Phi3_last' V c _

end Cert.Kernel.KI

end
-- ==== Proof.K.Lin4.lean ====
/- The second dense layer of the network, as one region of the program: relu (X · Wt + b), computed
   2048 rows of X at a time.  The region walks a grid of four points; at point t it sees rows
   2048·t … 2048·t + 2047 of X (window 0), all of Wt (window 1), all of the bias row (window 2), and
   produces the same rows of the result (window 3).  The body reads its three inputs whole, does one
   matrix product into a zero accumulator, adds the bias row to every row, clamps below at zero and
   writes the block whole.  It also reads the output buffer once and throws the value away.

   This file fixes, for arbitrary contents V of the core's buffers when the region is entered, what
   every window's buffer holds after the body at each point, and proves that the body does exactly
   that at any point.  Nothing here depends on the float instance. -/
import proofs.«143233_j59193239273550_1_alg».proof.Proof.Gen.Kernel.Launch
import proofs.«143233_j59193239273550_1_alg».proof.Proof.Gen.Kernel.Skeleton
import proofs.«143233_j59193239273550_1_alg».proof.Proof.Gen.Kernel.Points
import Idealize.ShloMosaic.Lib.Pipeline.FrameBody
import Idealize.ShloMosaic.Lib.Ring
import Idealize.ShloMosaic.Lib.Tactic

-- deciding that one rectangle as large as its buffer covers it walks the long axis coordinate by coordinate
set_option maxRecDepth 16384

noncomputable section

namespace Cert.Kernel.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the shape of one block of the result, and the fact that a rectangle of that size at the origin fits in it
local notation "OB" => S2048x512
local notation "inbOB" => inb_S2048x512_S2048x512_0_0

-- what the core's buffers hold when the region is entered
variable (V : (c : Dev nD) → (b : Ref sig .tc) → Buf (Elt F) ((c : Thread nD τ).loc b))

/-! ## Blocks -/

/-- The part of window `w`'s array that point `t` looks at: rows 2048·t … of X or of the result, or
    the whole of Wt or of the bias row. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body writes -/

/-- Each of the four buffers, whole: every access of the body is through one of these. -/
abbrev whole4_x : Rect S2048x512 := Rect.unit (s := S2048x512) ![0, 0] S2048x512.size inb_S2048x512_S2048x512_0_0
abbrev whole4_w : Rect S512x512 := Rect.unit (s := S512x512) ![0, 0] S512x512.size inb_S512x512_S512x512_0_0
abbrev whole4_b : Rect S1x512 := Rect.unit (s := S1x512) ![0, 0] S1x512.size inb_S1x512_S1x512_0_0
abbrev whole4_o : Rect OB := Rect.unit (s := OB) ![0, 0] (Shape.size OB) inbOB

/-- The output buffer after the body, as a function of the three input buffers: the body's one
    store, over everything, of the skeleton's payload of what the three loads read. -/
def out4_3 (x0 : Vec F S2048x512 .f32) (x1 : Vec F S512x512 .f32) (x2 : Vec F S1x512 .f32) : Vec F OB .f32 :=
  View.canon [⟨whole4_o, k4_pay1 (View.ld x0 whole4_x) (View.ld x1 whole4_w) (View.ld x2 whole4_b)⟩]

/-- One store over the whole buffer leaves no index unwritten. -/
theorem out4_3_covers (p : Vec F OB .f32) (y : Shape.Idx OB) :
    ∃ pc ∈ ([⟨whole4_o, p⟩] : List (View.Piece (Elt F) OB .f32)), y ∈ pc.1.set :=
  View.cover_of_tiled [⟨whole4_o, p⟩] (Shape.size OB) (by rfl) y

/-! ## The body on four whole buffers -/

set_option maxHeartbeats 1000000 in
/-- Run on four whole buffers — the inputs reading `x0`, `x1`, `x2`, the output holding anything — the
    body ends with the inputs unchanged and the output reading `out4_3 x0 x1 x2`.  The load of the
    output buffer before the store reads whatever was there and the value is dropped. -/
theorem body4_on_buffers (c : Dev nD) (E : Set ℕ) (i : grid4.Coords)
    (bx : Memref sig .tc .vmem S2048x512 .f32) (hbx : bx.IsWhole) (bw : Memref sig .tc .vmem S512x512 .f32) (hbw : bw.IsWhole)
    (bb : Memref sig .tc .vmem S1x512 .f32) (hbb : bb.IsWhole) (bo : Memref sig .tc .vmem OB .f32) (hbo : bo.IsWhole)
    (x0 : Vec F S2048x512 .f32) (x1 : Vec F S512x512 .f32) (x2 : Vec F S1x512 .f32) (K : PUnit → sProp 𝕄) :
    iprop(owns (c : Thread nD τ) bx fullShare x0 ∗ owns (c : Thread nD τ) bw fullShare x1 ∗ owns (c : Thread nD τ) bb fullShare x2
        ∗ (∃ d, owns (c : Thread nD τ) bo fullShare d)
        ∗ (iprop(owns (c : Thread nD τ) bx fullShare x0 ∗ owns (c : Thread nD τ) bw fullShare x1 ∗ owns (c : Thread nD τ) bb fullShare x2
            ∗ owns (c : Thread nD τ) bo fullShare (out4_3 x0 x1 x2)) -∗ K ⟨⟩))
      ⊢ wp frame (wpE (defs₀ (F := F)) Variants.none c none) E (cc4__linear_kernel i bx hbx bw hbw bb hbb bo hbo) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output holds its old contents overwritten by the one store, which covers it
  iexists _; isplitr
  swap; · iexact H3
  ipureintro
  exact View.read_writes_eq_canon _ _ _ (out4_3_covers _)

/-! ## The region's proof data -/

/-- For core `c`: each window's array is what the region finds (`V`); after the body at point `t` an
    input buffer still holds its block and the output buffer holds `out4_3` of the three input
    blocks; the body keeps no state of its own, owes no other core anything and holds every array
    outright. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-! ## What the body finds in its input buffers

An input buffer holds its window's block at every point.  Where the pipeline fetched at that point
this is what a fetch does.  Where it did not — Wt and the bias row are fetched once, at the first
point — the block index has not moved since the previous point, the body left the block in place
there, and the two blocks are the same. -/

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-! ## The body at a point of the grid -/

/-- What the body is handed at point `t`: the invariant, the core's dues, and the four current
    buffers, each at what it holds before the body. -/
def given4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What it hands back: the same, each buffer at what the proof data say it holds after the body. -/
def left4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any point the input buffers hold their blocks, so the body does what `body4_on_buffers` says
    with the blocks for `x0`, `x1`, `x2`; the invariant and the dues are not looked at. -/
theorem body4_at (c : Dev nD) (t : Fin cfg4.N) :
    given4 V c t ⊢ wp frame (wpE (defs₀ (F := F)) Variants.none c none) Set.univ (bodyAt4 t) (fun _ => left4 V c t) := by
  unfold given4 left4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body4_on_buffers c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation4 (c : Dev nD) : BodyObligation (dat4 (F := F) V c) (defs₀ (F := F)) Variants.none () Set.univ := fun t => by
  rw [bigSep_W4, bigSep_W4]
  exact body4_at V c t

end Cert.Kernel.KI

end
-- ==== Proof.K.Lin5.lean ====
/- The classifier head of the network, as one region of the program: X · Wt + b, computed
   2048 rows of X at a time.  The region walks a grid of four points; at point t it sees rows
   2048·t … 2048·t + 2047 of X (window 0), all of Wt (window 1), all of the bias row (window 2), and
   produces the same rows of the result (window 3).  The body reads its three inputs whole, does one
   matrix product into a zero accumulator, adds the bias row to every row and
   writes the block whole.  It also reads the output buffer once and throws the value away.

   This file fixes, for arbitrary contents V of the core's buffers when the region is entered, what
   every window's buffer holds after the body at each point, and proves that the body does exactly
   that at any point.  Nothing here depends on the float instance. -/
import proofs.«143233_j59193239273550_1_alg».proof.Proof.Gen.Kernel.Launch
import proofs.«143233_j59193239273550_1_alg».proof.Proof.Gen.Kernel.Skeleton
import proofs.«143233_j59193239273550_1_alg».proof.Proof.Gen.Kernel.Points
import Idealize.ShloMosaic.Lib.Pipeline.FrameBody
import Idealize.ShloMosaic.Lib.Ring
import Idealize.ShloMosaic.Lib.Tactic

-- deciding that one rectangle as large as its buffer covers it walks the long axis coordinate by coordinate
set_option maxRecDepth 16384

noncomputable section

namespace Cert.Kernel.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the shape of one block of the result, and the fact that a rectangle of that size at the origin fits in it
local notation "OB" => S2048x32
local notation "inbOB" => inb_S2048x32_S2048x32_0_0

-- what the core's buffers hold when the region is entered
variable (V : (c : Dev nD) → (b : Ref sig .tc) → Buf (Elt F) ((c : Thread nD τ).loc b))

/-! ## Blocks -/

/-- The part of window `w`'s array that point `t` looks at: rows 2048·t … of X or of the result, or
    the whole of Wt or of the bias row. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body writes -/

/-- Each of the four buffers, whole: every access of the body is through one of these. -/
abbrev whole5_x : Rect S2048x512 := Rect.unit (s := S2048x512) ![0, 0] S2048x512.size inb_S2048x512_S2048x512_0_0
abbrev whole5_w : Rect S512x32 := Rect.unit (s := S512x32) ![0, 0] S512x32.size inb_S512x32_S512x32_0_0
abbrev whole5_b : Rect S1x32 := Rect.unit (s := S1x32) ![0, 0] S1x32.size inb_S1x32_S1x32_0_0
abbrev whole5_o : Rect OB := Rect.unit (s := OB) ![0, 0] (Shape.size OB) inbOB

/-- The output buffer after the body, as a function of the three input buffers: the body's one
    store, over everything, of the skeleton's payload of what the three loads read. -/
def out5_3 (x0 : Vec F S2048x512 .f32) (x1 : Vec F S512x32 .f32) (x2 : Vec F S1x32 .f32) : Vec F OB .f32 :=
  View.canon [⟨whole5_o, k5_pay1 (View.ld x0 whole5_x) (View.ld x1 whole5_w) (View.ld x2 whole5_b)⟩]

/-- One store over the whole buffer leaves no index unwritten. -/
theorem out5_3_covers (p : Vec F OB .f32) (y : Shape.Idx OB) :
    ∃ pc ∈ ([⟨whole5_o, p⟩] : List (View.Piece (Elt F) OB .f32)), y ∈ pc.1.set :=
  View.cover_of_tiled [⟨whole5_o, p⟩] (Shape.size OB) (by rfl) y

/-! ## The body on four whole buffers -/

set_option maxHeartbeats 1000000 in
/-- Run on four whole buffers — the inputs reading `x0`, `x1`, `x2`, the output holding anything — the
    body ends with the inputs unchanged and the output reading `out5_3 x0 x1 x2`.  The load of the
    output buffer before the store reads whatever was there and the value is dropped. -/
theorem body5_on_buffers (c : Dev nD) (E : Set ℕ) (i : grid5.Coords)
    (bx : Memref sig .tc .vmem S2048x512 .f32) (hbx : bx.IsWhole) (bw : Memref sig .tc .vmem S512x32 .f32) (hbw : bw.IsWhole)
    (bb : Memref sig .tc .vmem S1x32 .f32) (hbb : bb.IsWhole) (bo : Memref sig .tc .vmem OB .f32) (hbo : bo.IsWhole)
    (x0 : Vec F S2048x512 .f32) (x1 : Vec F S512x32 .f32) (x2 : Vec F S1x32 .f32) (K : PUnit → sProp 𝕄) :
    iprop(owns (c : Thread nD τ) bx fullShare x0 ∗ owns (c : Thread nD τ) bw fullShare x1 ∗ owns (c : Thread nD τ) bb fullShare x2
        ∗ (∃ d, owns (c : Thread nD τ) bo fullShare d)
        ∗ (iprop(owns (c : Thread nD τ) bx fullShare x0 ∗ owns (c : Thread nD τ) bw fullShare x1 ∗ owns (c : Thread nD τ) bb fullShare x2
            ∗ owns (c : Thread nD τ) bo fullShare (out5_3 x0 x1 x2)) -∗ K ⟨⟩))
      ⊢ wp frame (wpE (defs₀ (F := F)) Variants.none c none) E (cc5__linear_kernel i bx hbx bw hbw bb hbb bo hbo) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output holds its old contents overwritten by the one store, which covers it
  iexists _; isplitr
  swap; · iexact H3
  ipureintro
  exact View.read_writes_eq_canon _ _ _ (out5_3_covers _)

/-! ## The region's proof data -/

/-- For core `c`: each window's array is what the region finds (`V`); after the body at point `t` an
    input buffer still holds its block and the output buffer holds `out5_3` of the three input
    blocks; the body keeps no state of its own, owes no other core anything and holds every array
    outright. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-! ## What the body finds in its input buffers

An input buffer holds its window's block at every point.  Where the pipeline fetched at that point
this is what a fetch does.  Where it did not — Wt and the bias row are fetched once, at the first
point — the block index has not moved since the previous point, the body left the block in place
there, and the two blocks are the same. -/

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

/-! ## The body at a point of the grid -/

/-- What the body is handed at point `t`: the invariant, the core's dues, and the four current
    buffers, each at what it holds before the body. -/
def given5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- What it hands back: the same, each buffer at what the proof data say it holds after the body. -/
def left5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At any point the input buffers hold their blocks, so the body does what `body5_on_buffers` says
    with the blocks for `x0`, `x1`, `x2`; the invariant and the dues are not looked at. -/
theorem body5_at (c : Dev nD) (t : Fin cfg5.N) :
    given5 V c t ⊢ wp frame (wpE (defs₀ (F := F)) Variants.none c none) Set.univ (bodyAt5 t) (fun _ => left5 V c t) := by
  unfold given5 left5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (body5_on_buffers c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation5 (c : Dev nD) : BodyObligation (dat5 (F := F) V c) (defs₀ (F := F)) Variants.none () Set.univ := fun t => by
  rw [bigSep_W5, bigSep_W5]
  exact body5_at V c t

end Cert.Kernel.KI

end
-- ==== Proof.K.Run.lean ====
/- The whole program, run from start to finish.

   The network is computed by six kernel regions — the column sums of the adjacency matrix, a propagation, a dense
   layer, a second propagation, a second dense layer, the classifier — and between consecutive regions a few
   elementary operations on whole arrays that prepare the next region's operands: the column sums become the scale
   column (reshape, reciprocal square root, reshape), a weight matrix is transposed, a bias vector becomes a row.

   This file follows the contents of every buffer through those eleven items.  Each region changes one buffer, its
   result, to what its write-backs leave there; each stretch between regions changes the buffers it computes.  From
   the launch memory this fixes a chain of twelve valuations, and the statement proved is that every fair execution
   terminates and ends with every buffer at the last valuation of the chain.  Since no item writes an argument, the
   arguments end as launched; the two results end at what the second dense layer and the classifier wrote; and each
   region's inputs are read off the chain in terms of the arguments and the earlier regions' results.

   Nothing here depends on what the regions compute, only on which buffers they read and write, and nothing depends
   on the float instance. -/
import proofs.«143233_j59193239273550_1_alg».proof.Proof.Gen.Kernel.Regions
import proofs.«143233_j59193239273550_1_alg».proof.Proof.K.Colsum
import proofs.«143233_j59193239273550_1_alg».proof.Proof.K.Gcn1
import proofs.«143233_j59193239273550_1_alg».proof.Proof.K.Lin2
import proofs.«143233_j59193239273550_1_alg».proof.Proof.K.Gcn3
import proofs.«143233_j59193239273550_1_alg».proof.Proof.K.Lin4
import proofs.«143233_j59193239273550_1_alg».proof.Proof.K.Lin5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## What the core's buffers hold between the items of the program

The program is eleven items: six kernel regions, and between consecutive regions a short stretch of reshapes,
transposes and one reciprocal square root.  A region changes exactly one buffer, its result; a stretch changes the
two or three buffers it computes.  So the contents after each item are the contents before it, overwritten in
those few places. -/

/-- A valuation of the device's buffers, read at the TensorCore's own references. -/
abbrev atTc (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := Gen.V0 m c
/-- After the column sums: `main_v0` holds what the first region's write-backs leave. -/
def W1 (c : Dev nD) : Valuation τ sig (Elt F) :=
  Function.update (W0 m c) main_v0 ((dat0 (atTc (W0 m)) c).arrAt 1 cfg0.N)
/-- After the scale vector is computed and reshaped to a column. -/
def W2 (c : Dev nD) : Valuation τ sig (Elt F) := StableHlo.after hostOps1 (W1 m c)
/-- After the first propagation: `main_v4`. -/
def W3 (c : Dev nD) : Valuation τ sig (Elt F) :=
  Function.update (W2 m c) main_v4 ((dat1 (atTc (W2 m)) c).arrAt 4 cfg1.N)
/-- After the first layer's weights are transposed and its bias made a row. -/
def W4 (c : Dev nD) : Valuation τ sig (Elt F) := StableHlo.after hostOps2 (W3 m c)
/-- After the first dense layer: `main_v7`. -/
def W5 (c : Dev nD) : Valuation τ sig (Elt F) :=
  Function.update (W4 m c) main_v7 ((dat2 (atTc (W4 m)) c).arrAt 3 cfg2.N)
/-- After the scale vector is reshaped a second time. -/
def W6 (c : Dev nD) : Valuation τ sig (Elt F) := StableHlo.after hostOps3 (W5 m c)
/-- After the second propagation: `main_v9`. -/
def W7 (c : Dev nD) : Valuation τ sig (Elt F) :=
  Function.update (W6 m c) main_v9 ((dat3 (atTc (W6 m)) c).arrAt 4 cfg3.N)
/-- After the second layer's weights and bias are prepared. -/
def W8 (c : Dev nD) : Valuation τ sig (Elt F) := StableHlo.after hostOps4 (W7 m c)
/-- After the second dense layer: `main_v12`, the hidden features. -/
def W9 (c : Dev nD) : Valuation τ sig (Elt F) :=
  Function.update (W8 m c) main_v12 ((dat4 (atTc (W8 m)) c).arrAt 3 cfg4.N)
/-- After the classifier's weights and bias are prepared. -/
def W10 (c : Dev nD) : Valuation τ sig (Elt F) := StableHlo.after hostOps5 (W9 m c)
/-- After the classifier: `main_v15`, the scores.  This is what the program ends with. -/
def W11 (c : Dev nD) : Valuation τ sig (Elt F) :=
  Function.update (W10 m c) main_v15 ((dat5 (atTc (W10 m)) c).arrAt 3 cfg5.N)
/-- The contents at the end of the program. -/
abbrev Wlast (c : Dev nD) : Valuation τ sig (Elt F) := W11 m c

/-! ### Reading the chain: at the buffer an item writes, and everywhere else -/

theorem W1_at (c : Dev nD) : W1 m c main_v0 = (dat0 (atTc (W0 m)) c).arrAt 1 cfg0.N := by
  unfold W1; exact Function.update_self _ _ _
theorem W1_off (c : Dev nD) (r : Ref sig .tc) (h : r ≠ main_v0) : W1 m c r = W0 m c r := by
  unfold W1; exact Function.update_of_ne (StableHlo.devRef_ne_of_ne h) _ _
theorem W2_off (c : Dev nD) (r : Ref sig .tc) (h : r ∉ Gen.hostOps1_W) : W2 m c r = W1 m c r :=
  StableHlo.after_of_writes_sub hostOps1 _ Gen.hostOps1_writes h
theorem W3_at (c : Dev nD) : W3 m c main_v4 = (dat1 (atTc (W2 m)) c).arrAt 4 cfg1.N := by
  unfold W3; exact Function.update_self _ _ _
theorem W3_off (c : Dev nD) (r : Ref sig .tc) (h : r ≠ main_v4) : W3 m c r = W2 m c r := by
  unfold W3; exact Function.update_of_ne (StableHlo.devRef_ne_of_ne h) _ _
theorem W4_off (c : Dev nD) (r : Ref sig .tc) (h : r ∉ Gen.hostOps2_W) : W4 m c r = W3 m c r :=
  StableHlo.after_of_writes_sub hostOps2 _ Gen.hostOps2_writes h
theorem W5_at (c : Dev nD) : W5 m c main_v7 = (dat2 (atTc (W4 m)) c).arrAt 3 cfg2.N := by
  unfold W5; exact Function.update_self _ _ _
theorem W5_off (c : Dev nD) (r : Ref sig .tc) (h : r ≠ main_v7) : W5 m c r = W4 m c r := by
  unfold W5; exact Function.update_of_ne (StableHlo.devRef_ne_of_ne h) _ _
theorem W6_off (c : Dev nD) (r : Ref sig .tc) (h : r ∉ Gen.hostOps3_W) : W6 m c r = W5 m c r :=
  StableHlo.after_of_writes_sub hostOps3 _ Gen.hostOps3_writes h
theorem W7_at (c : Dev nD) : W7 m c main_v9 = (dat3 (atTc (W6 m)) c).arrAt 4 cfg3.N := by
  unfold W7; exact Function.update_self _ _ _
theorem W7_off (c : Dev nD) (r : Ref sig .tc) (h : r ≠ main_v9) : W7 m c r = W6 m c r := by
  unfold W7; exact Function.update_of_ne (StableHlo.devRef_ne_of_ne h) _ _
theorem W8_off (c : Dev nD) (r : Ref sig .tc) (h : r ∉ Gen.hostOps4_W) : W8 m c r = W7 m c r :=
  StableHlo.after_of_writes_sub hostOps4 _ Gen.hostOps4_writes h
theorem W9_at (c : Dev nD) : W9 m c main_v12 = (dat4 (atTc (W8 m)) c).arrAt 3 cfg4.N := by
  unfold W9; exact Function.update_self _ _ _
theorem W9_off (c : Dev nD) (r : Ref sig .tc) (h : r ≠ main_v12) : W9 m c r = W8 m c r := by
  unfold W9; exact Function.update_of_ne (StableHlo.devRef_ne_of_ne h) _ _
theorem W10_off (c : Dev nD) (r : Ref sig .tc) (h : r ∉ Gen.hostOps5_W) : W10 m c r = W9 m c r :=
  StableHlo.after_of_writes_sub hostOps5 _ Gen.hostOps5_writes h
theorem W11_at (c : Dev nD) : W11 m c main_v15 = (dat5 (atTc (W10 m)) c).arrAt 3 cfg5.N := by
  unfold W11; exact Function.update_self _ _ _
theorem W11_off (c : Dev nD) (r : Ref sig .tc) (h : r ≠ main_v15) : W11 m c r = W10 m c r := by
  unfold W11; exact Function.update_of_ne (StableHlo.devRef_ne_of_ne h) _ _

/-! ## The proof data of the six regions, each taken at the contents its region is entered from -/

/-- One literal arm per region, so that the family at a numeral is that region's own data. -/
def pdats : (p : Fin 6) → (c : Dev nD) → Dat τ (Elt F) Unit ℕ (UR sig nD τ) ℕ (Pipeline.pin (pcfgs (F := F)) Gen.adm p) c
  | ⟨0, _⟩ => fun c => dat0 (atTc (W0 m)) c
  | ⟨1, _⟩ => fun c => dat1 (atTc (W2 m)) c
  | ⟨2, _⟩ => fun c => dat2 (atTc (W4 m)) c
  | ⟨3, _⟩ => fun c => dat3 (atTc (W6 m)) c
  | ⟨4, _⟩ => fun c => dat4 (atTc (W8 m)) c
  | ⟨5, _⟩ => fun c => dat5 (atTc (W10 m)) c

abbrev noVariants : Variants := Variants.none
/-- No core waits on another: no pair of a cell and an index carries a level. -/
abbrev noPairs : GSem nD τ sig → Finset Unit := fun _ => ∅
abbrev noLevel : GSem nD τ sig → Unit → ℕ := fun _ _ => 0

/-- What a core carries from item to item beside its buffers: its random-number register, in whatever state, and the
    record that it owes no other core anything. -/
abbrev carried (c : Dev nD) : sProp 𝕄 :=
  iprop((∃ r, prngReg c r) ∗ ∃ W, owes (c : Thread nD τ) (0 : CellTallies nD τ sig Unit) W)

/-- The state of a core between two items: every unscoped buffer at the contents `W`, and `carried`. -/
abbrev between (W : Dev nD → Valuation τ sig (Elt F)) (c : Dev nD) : sProp 𝕄 :=
  iprop(StableHlo.held (c : Thread nD τ) (Pipeline.ucRefs τ sig) (W c) ∗ carried c)

/-- A stretch of host operations run from the contents `W`: it ends at those contents pushed through the operations. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-! ## Small entailments used by every region -/

/-- Owing nothing, with no constraint on which waits were recorded, is what a region's data ask at a point where they
    owe nothing and bound nothing. -/
theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Dat.owesAt Pipeline.owesWithin Dat.bound
  rw [h0, hr]
  iintro ⟨%W, HO⟩
  iexists W
  isplitr
  · ipureintro; exact fun _ _ => Or.inl trivial
  iexact HO

/-- And back. -/
theorem owes_out {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Dat.owesAt Pipeline.owesWithin
  rw [h0]
  iintro ⟨%W, -, HO⟩
  iexists W
  iexact HO

/-! ## A region two of whose windows read one array

The two propagation regions are handed the scale column twice: once to be read along the rows of the block and once
along its columns.  The two windows cannot both own the buffer, so each holds one half of it: the full share of the
buffer is cut into its left and right halves on the way in and glued back on the way out.  The other windows own
their arrays outright, as everywhere else. -/

/-- A region's arrays as points-tos of the buffers behind them, each at the share the region's data say. -/
theorem arrays_shares {cfg : Cfg sig Λ₀} {c : Dev nD} (dat : Dat τ (Elt F) Unit ℕ (UR sig nD τ) ℕ cfg c)
    (harr : ∀ w, (cfg.spec w).arr.IsWhole)
    (G : (w : Fin cfg.W) → Buf (Elt F) ((cfg.win w).arr.view.loc (c : Thread nD τ))) :
    (dat.arrays G : sProp 𝕄)
      = bigSep Finset.univ fun w => ((((c : Thread nD τ).loc (Pipeline.arrRef cfg.spec w)) ↦{dat.share w} G w : sProp 𝕄)) := by
  unfold Dat.arrays
  exact bigSep_congr fun w _ => by rw [(harr w).set_eq_univ]

/-! ## Region 0: the column sums of the adjacency matrix -/

/-- When the region ends, each of its windows' arrays holds what the chain says: an input is as it was found, the
    result is what the write-backs left. -/
theorem exit0 (c : Dev nD) : ∀ w : Fin cfg0.W, (dat0 (atTc (W0 m)) c).arrAt w cfg0.N = atTc (W1 m) c (Pipeline.arrRef spec0 w)
  | ⟨0, _⟩ => ((dat0 (atTc (W0 m)) c).arrAt_in 0 rfl _).trans ((A_eq0 (atTc (W0 m)) c 0).trans (W1_off m c main_arg1 (by decide)).symm)
  | ⟨1, _⟩ => (W1_at m c).symm

/-- Every buffer that is none of the region's arrays is as the region found it. -/
theorem keep0 (c : Dev nD) (b : Ref sig .tc) (hb : b ∉ Finset.univ.image (Pipeline.arrRef spec0)) :
    atTc (W1 m) c b = atTc (W0 m) c b :=
  W1_off m c b fun e => hb (e ▸ Finset.mem_image.mpr ⟨1, Finset.mem_univ _, rfl⟩)

-- the library's lemmas are stated at a pipeline index under `Pipeline.pin`; matching them against this region's own
-- configuration unfolds definitions inside types
set_option backward.isDefEq.respectTransparency.types false in
/-- The first region as an item of the program: entered with the buffers as launched, left with `main_v0` holding the column sums' buffer.  Its two arrays are taken out of the core's buffers and put back; the register goes into the region's invariant and comes back; nothing is owed; the kernel has no semaphore of its own. -/
def reg0 : Pipeline.RegionSeg (pcfgs (F := F)) Gen.adm (pdats m) () defs₀ noVariants noPairs noLevel 0 where
  win := Gen.launch0.win.to₀
  block_pos := Gen.launch0.block_pos
  stage_whole := Gen.launch0.stage_whole
  K := PEmpty
  osem k := k.elim
  ho := Pipeline.OwnSemFacts.none _
  hbody c := (body_obligation0 (atTc (W0 m)) c).loose
  hwaits := Pipeline.hwaits_of_owed_zero _ _ _ _ noPairs noLevel 0 fun _ _ => rfl
  pre := between (W0 m)
  post := between (W1 m)
  X c := iprop(∃ r, prngReg c r)
  Y c := iprop(∃ r, prngReg c r)
  Z c := Pipeline.unscopedRest (Ix := Unit) (Name := ℕ) (U := UR sig nD τ) (Lvl := ℕ) spec0 c (atTc (W0 m) c)
  hentry c := by
    rw [Pipeline.ownSems0_none]
    have hs := Pipeline.arrays_of_unscopedBufs (p := 0) (pcfgs (F := F)) Gen.adm (pdats m) Gen.launch0.win Gen.launch0.arr_whole c
      ((pdats m 0 c).share_full fun _ => rfl) (atTc (W0 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 0 c) 0 rfl rfl); iexact Ho
    isplitl [Hg]; · iexact Hg
    iexact Hz
  hin c := by
    rw [show (pdats m 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]; unfold Pipeline.ΦA
    iintro ⟨Hs, Hg⟩
    isplitl [Hg]; · iexact Hg
    isplitr; · iempintro
    iexact Hs
  hexit c := by
    have hj := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (atTc (W0 m) c) (atTc (W1 m) c) ((pdats m 0 c).arrAt · cfg0.N) (exit0 m c) (keep0 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 0 c) (Fin.last _) rfl); iexact Ho

/-! ## Region 1: the first propagation -/

/-- The four buffers behind the region's five windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_arg1) ↦{fullShare} V main_arg1)
          ∗ (((c : Thread nD τ).loc main_arg0) ↦{fullShare} V main_arg0) ∗ (((c : Thread nD τ).loc main_v4) ↦{fullShare} V main_v4)) := by
  unfold Pipeline.arrBufs
  exact bigSep_eq_bigSepL_of_eq [main_v3, main_arg1, main_arg0, main_v4] (by decide) (by decide) _

section
variable (V : (c : Dev nD) → (b : Ref sig .tc) → Buf (Elt F) ((c : Thread nD τ).loc b))

/-- The share each window holds its array at: the two readers of the scale column a half each, the rest everything. -/
theorem share1_0 (c : Dev nD) : (dat1 V c).share 0 = fullShare.left := by
  unfold Dat.share; exact (if_neg (by decide)).trans (q1_0 V c)
theorem share1_1 (c : Dev nD) : (dat1 V c).share 1 = fullShare.right := by
  unfold Dat.share; exact (if_neg (by decide)).trans (q1_1 V c)
theorem share1_2 (c : Dev nD) : (dat1 V c).share 2 = fullShare := by
  unfold Dat.share; exact (if_neg (by decide)).trans (q1_2 V c)
theorem share1_3 (c : Dev nD) : (dat1 V c).share 3 = fullShare := by
  unfold Dat.share; exact (if_neg (by decide)).trans (q1_3 V c)
theorem share1_4 (c : Dev nD) : (dat1 V c).share 4 = fullShare := by
  unfold Dat.share; exact if_pos (by decide)

/-- The region's arrays, window by window, over those four buffers. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_arg1) ↦{fullShare} G 2) ∗ (((c : Thread nD τ).loc main_arg0) ↦{fullShare} G 3)
          ∗ (((c : Thread nD τ).loc main_v4) ↦{fullShare} G 4)) := by
  rw [arrays_shares (dat1 V c) Gen.arr_whole1 G, Gen.bigSep_W1, share1_0, share1_1, share1_2, share1_3, share1_4]
end

/-- When the region ends, each of its windows' arrays holds what the chain says. -/
theorem exit1 (c : Dev nD) : ∀ w : Fin cfg1.W, (dat1 (atTc (W2 m)) c).arrAt w cfg1.N = atTc (W3 m) c (Pipeline.arrRef spec1 w)
  | ⟨0, _⟩ => ((dat1 (atTc (W2 m)) c).arrAt_in 0 rfl _).trans ((A_eq1 (atTc (W2 m)) c 0).trans (W3_off m c main_v3 (by decide)).symm)
  | ⟨1, _⟩ => ((dat1 (atTc (W2 m)) c).arrAt_in 1 rfl _).trans ((A_eq1 (atTc (W2 m)) c 1).trans (W3_off m c main_v3 (by decide)).symm)
  | ⟨2, _⟩ => ((dat1 (atTc (W2 m)) c).arrAt_in 2 rfl _).trans ((A_eq1 (atTc (W2 m)) c 2).trans (W3_off m c main_arg1 (by decide)).symm)
  | ⟨3, _⟩ => ((dat1 (atTc (W2 m)) c).arrAt_in 3 rfl _).trans ((A_eq1 (atTc (W2 m)) c 3).trans (W3_off m c main_arg0 (by decide)).symm)
  | ⟨4, _⟩ => (W3_at m c).symm

/-- Every buffer that is none of the region's arrays is as the region found it. -/
theorem keep1 (c : Dev nD) (b : Ref sig .tc) (hb : b ∉ Finset.univ.image (Pipeline.arrRef spec1)) :
    atTc (W3 m) c b = atTc (W2 m) c b :=
  W3_off m c b fun e => hb (e ▸ Finset.mem_image.mpr ⟨4, Finset.mem_univ _, rfl⟩)

/-- Going in: the core's buffers are the region's arrays, the scale column cut in two, and the rest. -/
theorem enter1 (c : Dev nD) :
    (StableHlo.held (c : Thread nD τ) (Pipeline.ucRefs τ sig) (W2 m c) : sProp 𝕄)
      ⊢ iprop((dat1 (atTc (W2 m)) c).arrays ((dat1 (atTc (W2 m)) c).arrAt · 0)
          ∗ Pipeline.unscopedRest (Ix := Unit) (Name := ℕ) (U := UR sig nD τ) (Lvl := ℕ) spec1 c (atTc (W2 m) c)) := by
  have hG : ((dat1 (atTc (W2 m)) c).arrAt · 0) = fun w => atTc (W2 m) c (Pipeline.arrRef spec1 w) :=
    funext fun w => A_eq1 (atTc (W2 m)) c w
  rw [← Pipeline.unscopedBufs_held (Ix := Unit) (Name := ℕ) (U := UR sig nD τ) (Lvl := ℕ) c (W2 m c),
    Pipeline.unscopedBufs_split₀ cfgs 1 Gen.winFacts₀1.arr_unscoped c, hG, arrays1_eq,
    show (Pipeline.arrBufs (cfgs 1).spec c (fun b => W2 m c b) : sProp 𝕄) = Pipeline.arrBufs spec1 c (atTc (W2 m) c) from rfl,
    arrBufs1_eq]
  refine sep_mono ?_ .rfl
  iintro ⟨Hd, HA, HB, HO⟩
  ihave Hd := (pointsTo_share (PosShare.mem_left_op_right fullShare)).1 $$ Hd
  icases Hd with ⟨Hl, Hr⟩
  isplitl [Hl]; · iexact Hl
  isplitl [Hr]; · iexact Hr
  isplitl [HA]; · iexact HA
  isplitl [HB]; · iexact HB
  iexact HO

/-- Coming out: the halves glued back, the result in place, the rest untouched. -/
theorem leave1 (c : Dev nD) :
    (iprop((dat1 (atTc (W2 m)) c).arrays ((dat1 (atTc (W2 m)) c).arrAt · cfg1.N)
          ∗ Pipeline.unscopedRest (Ix := Unit) (Name := ℕ) (U := UR sig nD τ) (Lvl := ℕ) spec1 c (atTc (W2 m) c)) : sProp 𝕄)
      ⊢ StableHlo.held (c : Thread nD τ) (Pipeline.ucRefs τ sig) (W3 m c) := by
  have hG : ((dat1 (atTc (W2 m)) c).arrAt · cfg1.N) = fun w => atTc (W3 m) c (Pipeline.arrRef spec1 w) :=
    funext fun w => exit1 m c w
  rw [← Pipeline.unscopedBufs_held (Ix := Unit) (Name := ℕ) (U := UR sig nD τ) (Lvl := ℕ) c (W3 m c),
    Pipeline.unscopedBufs_split₀ cfgs 1 Gen.winFacts₀1.arr_unscoped c, hG, arrays1_eq,
    show (Pipeline.arrBufs (cfgs 1).spec c (fun b => W3 m c b) : sProp 𝕄) = Pipeline.arrBufs spec1 c (atTc (W3 m) c) from rfl,
    arrBufs1_eq]
  refine sep_mono ?_ (Entails.of_eq ?_)
  · iintro ⟨Hl, Hr, HA, HB, HO⟩
    isplitl [Hl Hr]
    · iapply (pointsTo_share (PosShare.mem_left_op_right fullShare)).2
      isplitl [Hl]; · iexact Hl
      iexact Hr
    isplitl [HA]; · iexact HA
    isplitl [HB]; · iexact HB
    iexact HO
  · unfold Pipeline.unscopedRest
    exact bigSep_congr fun b hb => congrArg (fun f : Buf (Elt F) ((c : Thread nD τ).loc b) => ((((c : Thread nD τ).loc b) ↦{fullShare} f : sProp 𝕄)))
      (keep1 m c b (Finset.mem_sdiff.mp hb).2).symm

-- the library's lemmas are stated at a pipeline index under `Pipeline.pin`; matching them against this region's own
-- configuration unfolds definitions inside types
set_option backward.isDefEq.respectTransparency.types false in
/-- The second region as an item of the program: entered after the scale column is computed, left with `main_v4` holding the propagated input features.  Besides what every region does, the scale column's buffer is cut in two for its two readers and glued back, and the accumulator the kernel keeps between grid points is found among the core's scoped buffers and returned to them. -/
def reg1 : Pipeline.RegionSeg (pcfgs (F := F)) Gen.adm (pdats m) () defs₀ noVariants noPairs noLevel 1 where
  win := Gen.winFacts₀1
  block_pos := Gen.block_pos1
  stage_whole := Gen.stage_whole1
  K := PEmpty
  osem k := k.elim
  ho := Pipeline.OwnSemFacts.none _
  hbody c := (body_obligation1 (atTc (W2 m)) c).loose
  hwaits := Pipeline.hwaits_of_owed_zero _ _ _ _ noPairs noLevel 1 fun _ _ => rfl
  pre := between (W2 m)
  post := between (W3 m)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none]
    iintro ⟨⟨Hb, Hg, Ho⟩, -, -⟩
    ihave Hs := (enter1 m c) $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 1 c) 0 rfl rfl); iexact Ho
    isplitl [Hg]; · iexact Hg
    iexact Hz
  hin c := by
    refine .trans ?_ (Phi1_first (atTc (W2 m)) c)
    unfold Pipeline.ΦA
    iintro ⟨Hg, -, Hs⟩
    isplitl [Hs]; · iexact Hs
    iexact Hg
  hout c := by
    rw [Pipeline.ownSems0_none]
    refine (Phi1_last (atTc (W2 m)) c).trans ?_
    unfold Pipeline.ΦA
    iintro ⟨Hs, Hg⟩
    isplitl [Hg]; · iexact Hg
    isplitr; · iempintro
    iexact Hs
  hexit c := by
    iintro ⟨Ha, Ho, Hg, Hz⟩
    imodintro
    isplitl [Ha Hz]
    · iapply (leave1 m c)
      isplitl [Ha]; · iexact Ha
      iexact Hz
    isplitl [Hg]; · iexact Hg
    iapply (owes_out (pdats m 1 c) (Fin.last _) rfl); iexact Ho

/-! ## Region 2: the first dense layer -/

/-- When the region ends, each of its windows' arrays holds what the chain says: an input is as it was found, the
    result is what the write-backs left. -/
theorem exit2 (c : Dev nD) : ∀ w : Fin cfg2.W, (dat2 (atTc (W4 m)) c).arrAt w cfg2.N = atTc (W5 m) c (Pipeline.arrRef spec2 w)
  | ⟨0, _⟩ => ((dat2 (atTc (W4 m)) c).arrAt_in 0 rfl _).trans ((A_eq2 (atTc (W4 m)) c 0).trans (W5_off m c main_v4 (by decide)).symm)
  | ⟨1, _⟩ => ((dat2 (atTc (W4 m)) c).arrAt_in 1 rfl _).trans ((A_eq2 (atTc (W4 m)) c 1).trans (W5_off m c main_v5 (by decide)).symm)
  | ⟨2, _⟩ => ((dat2 (atTc (W4 m)) c).arrAt_in 2 rfl _).trans ((A_eq2 (atTc (W4 m)) c 2).trans (W5_off m c main_v6 (by decide)).symm)
  | ⟨3, _⟩ => (W5_at m c).symm

/-- Every buffer that is none of the region's arrays is as the region found it. -/
theorem keep2 (c : Dev nD) (b : Ref sig .tc) (hb : b ∉ Finset.univ.image (Pipeline.arrRef spec2)) :
    atTc (W5 m) c b = atTc (W4 m) c b :=
  W5_off m c b fun e => hb (e ▸ Finset.mem_image.mpr ⟨3, Finset.mem_univ _, rfl⟩)

-- the library's lemmas are stated at a pipeline index under `Pipeline.pin`; matching them against this region's own
-- configuration unfolds definitions inside types
set_option backward.isDefEq.respectTransparency.types false in
/-- The third region as an item of the program: entered after the first layer's weights are prepared, left with `main_v7` holding the layer's output. -/
def reg2 : Pipeline.RegionSeg (pcfgs (F := F)) Gen.adm (pdats m) () defs₀ noVariants noPairs noLevel 2 where
  win := Gen.launch2.win.to₀
  block_pos := Gen.launch2.block_pos
  stage_whole := Gen.launch2.stage_whole
  K := PEmpty
  osem k := k.elim
  ho := Pipeline.OwnSemFacts.none _
  hbody c := (body_obligation2 (atTc (W4 m)) c).loose
  hwaits := Pipeline.hwaits_of_owed_zero _ _ _ _ noPairs noLevel 2 fun _ _ => rfl
  pre := between (W4 m)
  post := between (W5 m)
  X c := iprop(∃ r, prngReg c r)
  Y c := iprop(∃ r, prngReg c r)
  Z c := Pipeline.unscopedRest (Ix := Unit) (Name := ℕ) (U := UR sig nD τ) (Lvl := ℕ) spec2 c (atTc (W4 m) c)
  hentry c := by
    rw [Pipeline.ownSems0_none]
    have hs := Pipeline.arrays_of_unscopedBufs (p := 2) (pcfgs (F := F)) Gen.adm (pdats m) Gen.launch2.win Gen.launch2.arr_whole c
      ((pdats m 2 c).share_full fun _ => rfl) (atTc (W4 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 2 c) 0 rfl rfl); iexact Ho
    isplitl [Hg]; · iexact Hg
    iexact Hz
  hin c := by
    rw [show (pdats m 2 c).Φ 0 = Pipeline.ΦA spec2 c from rfl]; unfold Pipeline.ΦA
    iintro ⟨Hg, -, Hs⟩
    isplitl [Hs]; · iexact Hs
    iexact Hg
  hout c := by
    rw [Pipeline.ownSems0_none, show (pdats m 2 c).Φ (Fin.last _) = Pipeline.ΦA spec2 c from rfl]; unfold Pipeline.ΦA
    iintro ⟨Hs, Hg⟩
    isplitl [Hg]; · iexact Hg
    isplitr; · iempintro
    iexact Hs
  hexit c := by
    have hj := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (atTc (W4 m) c) (atTc (W5 m) c) ((pdats m 2 c).arrAt · cfg2.N) (exit2 m c) (keep2 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 2 c) (Fin.last _) rfl); iexact Ho

/-! ## Region 3: the second propagation -/

/-- The four buffers behind the region's five windows. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v8) ↦{fullShare} V main_v8) ∗ (((c : Thread nD τ).loc main_arg1) ↦{fullShare} V main_arg1)
          ∗ (((c : Thread nD τ).loc main_v7) ↦{fullShare} V main_v7) ∗ (((c : Thread nD τ).loc main_v9) ↦{fullShare} V main_v9)) := by
  unfold Pipeline.arrBufs
  exact bigSep_eq_bigSepL_of_eq [main_v8, main_arg1, main_v7, main_v9] (by decide) (by decide) _

section
variable (V : (c : Dev nD) → (b : Ref sig .tc) → Buf (Elt F) ((c : Thread nD τ).loc b))

/-- The share each window holds its array at: the two readers of the scale column a half each, the rest everything. -/
theorem share3_0 (c : Dev nD) : (dat3 V c).share 0 = fullShare.left := by
  unfold Dat.share; exact (if_neg (by decide)).trans (q3_0 V c)
theorem share3_1 (c : Dev nD) : (dat3 V c).share 1 = fullShare.right := by
  unfold Dat.share; exact (if_neg (by decide)).trans (q3_1 V c)
theorem share3_2 (c : Dev nD) : (dat3 V c).share 2 = fullShare := by
  unfold Dat.share; exact (if_neg (by decide)).trans (q3_2 V c)
theorem share3_3 (c : Dev nD) : (dat3 V c).share 3 = fullShare := by
  unfold Dat.share; exact (if_neg (by decide)).trans (q3_3 V c)
theorem share3_4 (c : Dev nD) : (dat3 V c).share 4 = fullShare := by
  unfold Dat.share; exact if_pos (by decide)

/-- The region's arrays, window by window, over those four buffers. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v8) ↦{fullShare.left} G 0) ∗ (((c : Thread nD τ).loc main_v8) ↦{fullShare.right} G 1)
          ∗ (((c : Thread nD τ).loc main_arg1) ↦{fullShare} G 2) ∗ (((c : Thread nD τ).loc main_v7) ↦{fullShare} G 3)
          ∗ (((c : Thread nD τ).loc main_v9) ↦{fullShare} G 4)) := by
  rw [arrays_shares (dat3 V c) Gen.arr_whole3 G, Gen.bigSep_W3, share3_0, share3_1, share3_2, share3_3, share3_4]
end

/-- When the region ends, each of its windows' arrays holds what the chain says. -/
theorem exit3 (c : Dev nD) : ∀ w : Fin cfg3.W, (dat3 (atTc (W6 m)) c).arrAt w cfg3.N = atTc (W7 m) c (Pipeline.arrRef spec3 w)
  | ⟨0, _⟩ => ((dat3 (atTc (W6 m)) c).arrAt_in 0 rfl _).trans ((A_eq3 (atTc (W6 m)) c 0).trans (W7_off m c main_v8 (by decide)).symm)
  | ⟨1, _⟩ => ((dat3 (atTc (W6 m)) c).arrAt_in 1 rfl _).trans ((A_eq3 (atTc (W6 m)) c 1).trans (W7_off m c main_v8 (by decide)).symm)
  | ⟨2, _⟩ => ((dat3 (atTc (W6 m)) c).arrAt_in 2 rfl _).trans ((A_eq3 (atTc (W6 m)) c 2).trans (W7_off m c main_arg1 (by decide)).symm)
  | ⟨3, _⟩ => ((dat3 (atTc (W6 m)) c).arrAt_in 3 rfl _).trans ((A_eq3 (atTc (W6 m)) c 3).trans (W7_off m c main_v7 (by decide)).symm)
  | ⟨4, _⟩ => (W7_at m c).symm

/-- Every buffer that is none of the region's arrays is as the region found it. -/
theorem keep3 (c : Dev nD) (b : Ref sig .tc) (hb : b ∉ Finset.univ.image (Pipeline.arrRef spec3)) :
    atTc (W7 m) c b = atTc (W6 m) c b :=
  W7_off m c b fun e => hb (e ▸ Finset.mem_image.mpr ⟨4, Finset.mem_univ _, rfl⟩)

/-- Going in: the core's buffers are the region's arrays, the scale column cut in two, and the rest. -/
theorem enter3 (c : Dev nD) :
    (StableHlo.held (c : Thread nD τ) (Pipeline.ucRefs τ sig) (W6 m c) : sProp 𝕄)
      ⊢ iprop((dat3 (atTc (W6 m)) c).arrays ((dat3 (atTc (W6 m)) c).arrAt · 0)
          ∗ Pipeline.unscopedRest (Ix := Unit) (Name := ℕ) (U := UR sig nD τ) (Lvl := ℕ) spec3 c (atTc (W6 m) c)) := by
  have hG : ((dat3 (atTc (W6 m)) c).arrAt · 0) = fun w => atTc (W6 m) c (Pipeline.arrRef spec3 w) :=
    funext fun w => A_eq3 (atTc (W6 m)) c w
  rw [← Pipeline.unscopedBufs_held (Ix := Unit) (Name := ℕ) (U := UR sig nD τ) (Lvl := ℕ) c (W6 m c),
    Pipeline.unscopedBufs_split₀ cfgs 3 Gen.winFacts₀3.arr_unscoped c, hG, arrays3_eq,
    show (Pipeline.arrBufs (cfgs 3).spec c (fun b => W6 m c b) : sProp 𝕄) = Pipeline.arrBufs spec3 c (atTc (W6 m) c) from rfl,
    arrBufs3_eq]
  refine sep_mono ?_ .rfl
  iintro ⟨Hd, HA, HB, HO⟩
  ihave Hd := (pointsTo_share (PosShare.mem_left_op_right fullShare)).1 $$ Hd
  icases Hd with ⟨Hl, Hr⟩
  isplitl [Hl]; · iexact Hl
  isplitl [Hr]; · iexact Hr
  isplitl [HA]; · iexact HA
  isplitl [HB]; · iexact HB
  iexact HO

/-- Coming out: the halves glued back, the result in place, the rest untouched. -/
theorem leave3 (c : Dev nD) :
    (iprop((dat3 (atTc (W6 m)) c).arrays ((dat3 (atTc (W6 m)) c).arrAt · cfg3.N)
          ∗ Pipeline.unscopedRest (Ix := Unit) (Name := ℕ) (U := UR sig nD τ) (Lvl := ℕ) spec3 c (atTc (W6 m) c)) : sProp 𝕄)
      ⊢ StableHlo.held (c : Thread nD τ) (Pipeline.ucRefs τ sig) (W7 m c) := by
  have hG : ((dat3 (atTc (W6 m)) c).arrAt · cfg3.N) = fun w => atTc (W7 m) c (Pipeline.arrRef spec3 w) :=
    funext fun w => exit3 m c w
  rw [← Pipeline.unscopedBufs_held (Ix := Unit) (Name := ℕ) (U := UR sig nD τ) (Lvl := ℕ) c (W7 m c),
    Pipeline.unscopedBufs_split₀ cfgs 3 Gen.winFacts₀3.arr_unscoped c, hG, arrays3_eq,
    show (Pipeline.arrBufs (cfgs 3).spec c (fun b => W7 m c b) : sProp 𝕄) = Pipeline.arrBufs spec3 c (atTc (W7 m) c) from rfl,
    arrBufs3_eq]
  refine sep_mono ?_ (Entails.of_eq ?_)
  · iintro ⟨Hl, Hr, HA, HB, HO⟩
    isplitl [Hl Hr]
    · iapply (pointsTo_share (PosShare.mem_left_op_right fullShare)).2
      isplitl [Hl]; · iexact Hl
      iexact Hr
    isplitl [HA]; · iexact HA
    isplitl [HB]; · iexact HB
    iexact HO
  · unfold Pipeline.unscopedRest
    exact bigSep_congr fun b hb => congrArg (fun f : Buf (Elt F) ((c : Thread nD τ).loc b) => ((((c : Thread nD τ).loc b) ↦{fullShare} f : sProp 𝕄)))
      (keep3 m c b (Finset.mem_sdiff.mp hb).2).symm

-- the library's lemmas are stated at a pipeline index under `Pipeline.pin`; matching them against this region's own
-- configuration unfolds definitions inside types
set_option backward.isDefEq.respectTransparency.types false in
/-- The fourth region as an item of the program: entered after the scale column is reshaped again, left with `main_v9` holding the propagated first-layer features; otherwise as the first propagation. -/
def reg3 : Pipeline.RegionSeg (pcfgs (F := F)) Gen.adm (pdats m) () defs₀ noVariants noPairs noLevel 3 where
  win := Gen.winFacts₀3
  block_pos := Gen.block_pos3
  stage_whole := Gen.stage_whole3
  K := PEmpty
  osem k := k.elim
  ho := Pipeline.OwnSemFacts.none _
  hbody c := (body_obligation3 (atTc (W6 m)) c).loose
  hwaits := Pipeline.hwaits_of_owed_zero _ _ _ _ noPairs noLevel 3 fun _ _ => rfl
  pre := between (W6 m)
  post := between (W7 m)
  X c := iprop(∃ r, prngReg c r)
  Y c := iprop(∃ r, prngReg c r)
  Z c := Pipeline.unscopedRest (Ix := Unit) (Name := ℕ) (U := UR sig nD τ) (Lvl := ℕ) spec3 c (atTc (W6 m) c)
  hentry c := by
    rw [Pipeline.ownSems0_none]
    iintro ⟨⟨Hb, Hg, Ho⟩, -, -⟩
    ihave Hs := (enter3 m c) $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 3 c) 0 rfl rfl); iexact Ho
    isplitl [Hg]; · iexact Hg
    iexact Hz
  hin c := by
    refine .trans ?_ (Phi3_first (atTc (W6 m)) c)
    unfold Pipeline.ΦA
    iintro ⟨Hg, -, Hs⟩
    isplitl [Hs]; · iexact Hs
    iexact Hg
  hout c := by
    rw [Pipeline.ownSems0_none]
    refine (Phi3_last (atTc (W6 m)) c).trans ?_
    unfold Pipeline.ΦA
    iintro ⟨Hs, Hg⟩
    isplitl [Hg]; · iexact Hg
    isplitr; · iempintro
    iexact Hs
  hexit c := by
    iintro ⟨Ha, Ho, Hg, Hz⟩
    imodintro
    isplitl [Ha Hz]
    · iapply (leave3 m c)
      isplitl [Ha]; · iexact Ha
      iexact Hz
    isplitl [Hg]; · iexact Hg
    iapply (owes_out (pdats m 3 c) (Fin.last _) rfl); iexact Ho

/-! ## Region 4: the second dense layer -/

/-- When the region ends, each of its windows' arrays holds what the chain says: an input is as it was found, the
    result is what the write-backs left. -/
theorem exit4 (c : Dev nD) : ∀ w : Fin cfg4.W, (dat4 (atTc (W8 m)) c).arrAt w cfg4.N = atTc (W9 m) c (Pipeline.arrRef spec4 w)
  | ⟨0, _⟩ => ((dat4 (atTc (W8 m)) c).arrAt_in 0 rfl _).trans ((A_eq4 (atTc (W8 m)) c 0).trans (W9_off m c main_v9 (by decide)).symm)
  | ⟨1, _⟩ => ((dat4 (atTc (W8 m)) c).arrAt_in 1 rfl _).trans ((A_eq4 (atTc (W8 m)) c 1).trans (W9_off m c main_v10 (by decide)).symm)
  | ⟨2, _⟩ => ((dat4 (atTc (W8 m)) c).arrAt_in 2 rfl _).trans ((A_eq4 (atTc (W8 m)) c 2).trans (W9_off m c main_v11 (by decide)).symm)
  | ⟨3, _⟩ => (W9_at m c).symm

/-- Every buffer that is none of the region's arrays is as the region found it. -/
theorem keep4 (c : Dev nD) (b : Ref sig .tc) (hb : b ∉ Finset.univ.image (Pipeline.arrRef spec4)) :
    atTc (W9 m) c b = atTc (W8 m) c b :=
  W9_off m c b fun e => hb (e ▸ Finset.mem_image.mpr ⟨3, Finset.mem_univ _, rfl⟩)

-- the library's lemmas are stated at a pipeline index under `Pipeline.pin`; matching them against this region's own
-- configuration unfolds definitions inside types
set_option backward.isDefEq.respectTransparency.types false in
/-- The fifth region as an item of the program: entered after the second layer's weights are prepared, left with `main_v12` holding the hidden features. -/
def reg4 : Pipeline.RegionSeg (pcfgs (F := F)) Gen.adm (pdats m) () defs₀ noVariants noPairs noLevel 4 where
  win := Gen.launch4.win.to₀
  block_pos := Gen.launch4.block_pos
  stage_whole := Gen.launch4.stage_whole
  K := PEmpty
  osem k := k.elim
  ho := Pipeline.OwnSemFacts.none _
  hbody c := (body_obligation4 (atTc (W8 m)) c).loose
  hwaits := Pipeline.hwaits_of_owed_zero _ _ _ _ noPairs noLevel 4 fun _ _ => rfl
  pre := between (W8 m)
  post := between (W9 m)
  X c := iprop(∃ r, prngReg c r)
  Y c := iprop(∃ r, prngReg c r)
  Z c := Pipeline.unscopedRest (Ix := Unit) (Name := ℕ) (U := UR sig nD τ) (Lvl := ℕ) spec4 c (atTc (W8 m) c)
  hentry c := by
    rw [Pipeline.ownSems0_none]
    have hs := Pipeline.arrays_of_unscopedBufs (p := 4) (pcfgs (F := F)) Gen.adm (pdats m) Gen.launch4.win Gen.launch4.arr_whole c
      ((pdats m 4 c).share_full fun _ => rfl) (atTc (W8 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 4 c) 0 rfl rfl); iexact Ho
    isplitl [Hg]; · iexact Hg
    iexact Hz
  hin c := by
    rw [show (pdats m 4 c).Φ 0 = Pipeline.ΦA spec4 c from rfl]; unfold Pipeline.ΦA
    iintro ⟨Hg, -, Hs⟩
    isplitl [Hs]; · iexact Hs
    iexact Hg
  hout c := by
    rw [Pipeline.ownSems0_none, show (pdats m 4 c).Φ (Fin.last _) = Pipeline.ΦA spec4 c from rfl]; unfold Pipeline.ΦA
    iintro ⟨Hs, Hg⟩
    isplitl [Hg]; · iexact Hg
    isplitr; · iempintro
    iexact Hs
  hexit c := by
    have hj := Pipeline.unscopedBufs_of_arrays (p := 4) (pcfgs (F := F)) Gen.adm (Ix := Unit) (Name := ℕ) (U := UR sig nD τ) (Lvl := ℕ)
      Gen.launch4.win Gen.launch4.arr_whole c (pdats m) ((pdats m 4 c).share_full fun _ => rfl)
      (atTc (W8 m) c) (atTc (W9 m) c) ((pdats m 4 c).arrAt · cfg4.N) (exit4 m c) (keep4 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 4 c) (Fin.last _) rfl); iexact Ho

/-! ## Region 5: the classifier -/

/-- When the region ends, each of its windows' arrays holds what the chain says: an input is as it was found, the
    result is what the write-backs left. -/
theorem exit5 (c : Dev nD) : ∀ w : Fin cfg5.W, (dat5 (atTc (W10 m)) c).arrAt w cfg5.N = atTc (W11 m) c (Pipeline.arrRef spec5 w)
  | ⟨0, _⟩ => ((dat5 (atTc (W10 m)) c).arrAt_in 0 rfl _).trans ((A_eq5 (atTc (W10 m)) c 0).trans (W11_off m c main_v12 (by decide)).symm)
  | ⟨1, _⟩ => ((dat5 (atTc (W10 m)) c).arrAt_in 1 rfl _).trans ((A_eq5 (atTc (W10 m)) c 1).trans (W11_off m c main_v13 (by decide)).symm)
  | ⟨2, _⟩ => ((dat5 (atTc (W10 m)) c).arrAt_in 2 rfl _).trans ((A_eq5 (atTc (W10 m)) c 2).trans (W11_off m c main_v14 (by decide)).symm)
  | ⟨3, _⟩ => (W11_at m c).symm

/-- Every buffer that is none of the region's arrays is as the region found it. -/
theorem keep5 (c : Dev nD) (b : Ref sig .tc) (hb : b ∉ Finset.univ.image (Pipeline.arrRef spec5)) :
    atTc (W11 m) c b = atTc (W10 m) c b :=
  W11_off m c b fun e => hb (e ▸ Finset.mem_image.mpr ⟨3, Finset.mem_univ _, rfl⟩)

-- the library's lemmas are stated at a pipeline index under `Pipeline.pin`; matching them against this region's own
-- configuration unfolds definitions inside types
set_option backward.isDefEq.respectTransparency.types false in
/-- The last region as an item of the program: entered after the classifier's weights are prepared, left with `main_v15` holding the scores. -/
def reg5 : Pipeline.RegionSeg (pcfgs (F := F)) Gen.adm (pdats m) () defs₀ noVariants noPairs noLevel 5 where
  win := Gen.launch5.win.to₀
  block_pos := Gen.launch5.block_pos
  stage_whole := Gen.launch5.stage_whole
  K := PEmpty
  osem k := k.elim
  ho := Pipeline.OwnSemFacts.none _
  hbody c := (body_obligation5 (atTc (W10 m)) c).loose
  hwaits := Pipeline.hwaits_of_owed_zero _ _ _ _ noPairs noLevel 5 fun _ _ => rfl
  pre := between (W10 m)
  post := between (W11 m)
  X c := iprop(∃ r, prngReg c r)
  Y c := iprop(∃ r, prngReg c r)
  Z c := Pipeline.unscopedRest (Ix := Unit) (Name := ℕ) (U := UR sig nD τ) (Lvl := ℕ) spec5 c (atTc (W10 m) c)
  hentry c := by
    rw [Pipeline.ownSems0_none]
    have hs := Pipeline.arrays_of_unscopedBufs (p := 5) (pcfgs (F := F)) Gen.adm (pdats m) Gen.launch5.win Gen.launch5.arr_whole c
      ((pdats m 5 c).share_full fun _ => rfl) (atTc (W10 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 5 c) 0 rfl rfl); iexact Ho
    isplitl [Hg]; · iexact Hg
    iexact Hz
  hin c := by
    rw [show (pdats m 5 c).Φ 0 = Pipeline.ΦA spec5 c from rfl]; unfold Pipeline.ΦA
    iintro ⟨Hg, -, Hs⟩
    isplitl [Hs]; · iexact Hs
    iexact Hg
  hout c := by
    rw [Pipeline.ownSems0_none, show (pdats m 5 c).Φ (Fin.last _) = Pipeline.ΦA spec5 c from rfl]; unfold Pipeline.ΦA
    iintro ⟨Hs, Hg⟩
    isplitl [Hg]; · iexact Hg
    isplitr; · iempintro
    iexact Hs
  hexit c := by
    have hj := Pipeline.unscopedBufs_of_arrays (p := 5) (pcfgs (F := F)) Gen.adm (Ix := Unit) (Name := ℕ) (U := UR sig nD τ) (Lvl := ℕ)
      Gen.launch5.win Gen.launch5.arr_whole c (pdats m) ((pdats m 5 c).share_full fun _ => rfl)
      (atTc (W10 m) c) (atTc (W11 m) c) ((pdats m 5 c).arrAt · cfg5.N) (exit5 m c) (keep5 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 5 c) (Fin.last _) rfl); iexact Ho

/-! ## The program as its eleven items -/

/-- The items in order: a region, then the stretch that prepares the next region's operands, and so on; each host
    stretch is run from the contents the region before it left. -/
abbrev items : List (Pipeline.Seg (pcfgs (F := F)) Gen.adm (pdats m) () defs₀ noVariants noPairs noLevel) :=
  [ .region (reg0 m),
    .host (stretch hostOps1 hostOps1_sub Gen.hostOps1_fresh (W1 m)),
    .region (reg1 m),
    .host (stretch hostOps2 hostOps2_sub Gen.hostOps2_fresh (W3 m)),
    .region (reg2 m),
    .host (stretch hostOps3 hostOps3_sub Gen.hostOps3_fresh (W5 m)),
    .region (reg3 m),
    .host (stretch hostOps4 hostOps4_sub Gen.hostOps4_fresh (W7 m)),
    .region (reg4 m),
    .host (stretch hostOps5 hostOps5_sub Gen.hostOps5_fresh (W9 m)),
    .region (reg5 m) ]

/-- The printed program is those items run one after another. -/
theorem main_run (c : Dev nD) : main (F := F) c = Pipeline.Seg.run (items m) := (Gen.main_chain c).trans (by chain_rfl)

/-- A TensorCore buffer that is not scoped is one of those the state between items tracks. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

-- the launch theorem's implicit arguments are found by unifying its conclusion with the statement, which unfolds
-- definitions inside types
set_option backward.isDefEq.respectTransparency.types false in
/-- From any memory, with every semaphore at zero, every fair execution of the program terminates without fault, and
    at the end every unscoped buffer of every core holds what the chain of contents ends with.

    The launch hands each core its buffers at the launch contents, its register and an empty debt: that is the state
    before the first item.  Each item's final state is literally the next item's initial state.  The last state, read
    against the final memory, says buffer by buffer what the memory holds. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Wlast m c b) :=
  Pipeline.θ_run_regions_kit (pcfgs (F := F)) Gen.adm (pdats m) () cellOf_inj emb₁ defs₀ noVariants noPairs noLevel m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => .rfl,
      fun c => by
        show (iprop(StableHlo.held (c : Thread nD τ) (Pipeline.ucRefs τ sig) (W11 m c) ∗ carried c) : sProp 𝕄) ⊢ _
        iintro ⟨Hb, Hg, Ho⟩
        isplitl [Hb Hg]
        · isplitl [Hb]; · iexact Hb
          iexact Hg
        iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hb, -, Ho, -, Hg, -⟩, -⟩
      imodintro
      isplitl [Hb]; · iexact Hb
      isplitl [Hg]; · iexists _; iexact Hg
      iexists ∅; iexact Ho)
    (QY := fun c s => ∀ b ∈ Pipeline.ucRefs τ sig, s.mem ((c : Thread nD τ).1, b) = W11 m c b)
    (hfin := fun c s' => by
      iintro ⟨⟨Hb, -⟩, HSI⟩
      unfold StableHlo.held
      imodintro
      iapply (pointsTo_read_all (Pipeline.ucRefs τ sig) (fun b => ((c : Thread nD τ).1, b)) (W11 m c) s')
      isplitl [Hb] <;> iassumption)
    (hQ := fun s h c => h c)

/-! ## Reading the chain

No item writes an argument: a stretch writes only the two or three buffers it computes, a region only its result.  So
at an argument every stage of the chain still has the launch contents. -/

/-- The program's eight arguments. -/
abbrev argRefs : List (Ref sig .tc) := [main_arg0, main_arg1, main_arg2, main_arg3, main_arg4, main_arg5, main_arg6, main_arg7]

theorem ne_of_arg {r : Ref sig .tc} (h : r ∈ argRefs) (x : Ref sig .tc) (hx : x ∉ argRefs) : r ≠ x := fun e => hx (e ▸ h)
theorem notMem_of_arg {r : Ref sig .tc} (h : r ∈ argRefs) (l : List (Ref sig .tc)) (hl : ∀ x ∈ l, x ∉ argRefs) : r ∉ l :=
  fun hr => hl r hr h

theorem W1_arg (c : Dev nD) (r : Ref sig .tc) (h : r ∈ argRefs) : W1 m c r = m ((c : Thread nD τ).loc r) :=
  (W1_off m c r (ne_of_arg h main_v0 (by decide))).trans rfl
theorem W2_arg (c : Dev nD) (r : Ref sig .tc) (h : r ∈ argRefs) : W2 m c r = m ((c : Thread nD τ).loc r) :=
  (W2_off m c r (notMem_of_arg h Gen.hostOps1_W (by decide))).trans (W1_arg m c r h)
theorem W3_arg (c : Dev nD) (r : Ref sig .tc) (h : r ∈ argRefs) : W3 m c r = m ((c : Thread nD τ).loc r) :=
  (W3_off m c r (ne_of_arg h main_v4 (by decide))).trans (W2_arg m c r h)
theorem W4_arg (c : Dev nD) (r : Ref sig .tc) (h : r ∈ argRefs) : W4 m c r = m ((c : Thread nD τ).loc r) :=
  (W4_off m c r (notMem_of_arg h Gen.hostOps2_W (by decide))).trans (W3_arg m c r h)
theorem W5_arg (c : Dev nD) (r : Ref sig .tc) (h : r ∈ argRefs) : W5 m c r = m ((c : Thread nD τ).loc r) :=
  (W5_off m c r (ne_of_arg h main_v7 (by decide))).trans (W4_arg m c r h)
theorem W6_arg (c : Dev nD) (r : Ref sig .tc) (h : r ∈ argRefs) : W6 m c r = m ((c : Thread nD τ).loc r) :=
  (W6_off m c r (notMem_of_arg h Gen.hostOps3_W (by decide))).trans (W5_arg m c r h)
theorem W7_arg (c : Dev nD) (r : Ref sig .tc) (h : r ∈ argRefs) : W7 m c r = m ((c : Thread nD τ).loc r) :=
  (W7_off m c r (ne_of_arg h main_v9 (by decide))).trans (W6_arg m c r h)
theorem W8_arg (c : Dev nD) (r : Ref sig .tc) (h : r ∈ argRefs) : W8 m c r = m ((c : Thread nD τ).loc r) :=
  (W8_off m c r (notMem_of_arg h Gen.hostOps4_W (by decide))).trans (W7_arg m c r h)
theorem W9_arg (c : Dev nD) (r : Ref sig .tc) (h : r ∈ argRefs) : W9 m c r = m ((c : Thread nD τ).loc r) :=
  (W9_off m c r (ne_of_arg h main_v12 (by decide))).trans (W8_arg m c r h)
theorem W10_arg (c : Dev nD) (r : Ref sig .tc) (h : r ∈ argRefs) : W10 m c r = m ((c : Thread nD τ).loc r) :=
  (W10_off m c r (notMem_of_arg h Gen.hostOps5_W (by decide))).trans (W9_arg m c r h)
theorem W11_arg (c : Dev nD) (r : Ref sig .tc) (h : r ∈ argRefs) : W11 m c r = m ((c : Thread nD τ).loc r) :=
  (W11_off m c r (ne_of_arg h main_v15 (by decide))).trans (W10_arg m c r h)

/-! ## The end of the chain -/

/-- An argument's buffer ends as launched. -/
theorem Wlast_arg (c : Dev nD) (r : Ref sig .tc) (h : r ∈ argRefs) : Wlast m c r = m ((c : Thread nD τ).loc r) := W11_arg m c r h

/-- The hidden features at the end: what the second dense layer's write-backs left. -/
theorem Wlast_v12 (c : Dev nD) : Wlast m c main_v12 = (dat4 (atTc (W8 m)) c).arrAt 3 cfg4.N :=
  (W11_off m c main_v12 (by decide)).trans ((W10_off m c main_v12 (by decide)).trans (W9_at m c))

/-- The scores at the end: what the classifier's write-backs left. -/
theorem Wlast_v15 (c : Dev nD) : Wlast m c main_v15 = (dat5 (atTc (W10 m)) c).arrAt 3 cfg5.N := W11_at m c

/-- The program terminates from any memory and leaves its arguments as it found them. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs main_arg0 (by decide))).trans (Wlast_arg m c main_arg0 (by decide)),
     (h c _ (mem_ucRefs main_arg1 (by decide))).trans (Wlast_arg m c main_arg1 (by decide)),
     (h c _ (mem_ucRefs main_arg2 (by decide))).trans (Wlast_arg m c main_arg2 (by decide)),
     (h c _ (mem_ucRefs main_arg3 (by decide))).trans (Wlast_arg m c main_arg3 (by decide)),
     (h c _ (mem_ucRefs main_arg4 (by decide))).trans (Wlast_arg m c main_arg4 (by decide)),
     (h c _ (mem_ucRefs main_arg5 (by decide))).trans (Wlast_arg m c main_arg5 (by decide)),
     (h c _ (mem_ucRefs main_arg6 (by decide))).trans (Wlast_arg m c main_arg6 (by decide)),
     (h c _ (mem_ucRefs main_arg7 (by decide))).trans (Wlast_arg m c main_arg7 (by decide))⟩) (run_all m ρ)

/-- The same run, read at the two results as well: the hidden features and the scores end at the last contents of the
    chain, and the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v12) = Wlast m c main_v12
      ∧ r.2.mem ((c.tc : Thread nD τ).loc main_v15) = Wlast m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_ucRefs main_v12 (by decide)),
     h c _ (mem_ucRefs main_v15 (by decide)),
     (h c _ (mem_ucRefs main_arg0 (by decide))).trans (Wlast_arg m c main_arg0 (by decide)),
     (h c _ (mem_ucRefs main_arg1 (by decide))).trans (Wlast_arg m c main_arg1 (by decide)),
     (h c _ (mem_ucRefs main_arg2 (by decide))).trans (Wlast_arg m c main_arg2 (by decide)),
     (h c _ (mem_ucRefs main_arg3 (by decide))).trans (Wlast_arg m c main_arg3 (by decide)),
     (h c _ (mem_ucRefs main_arg4 (by decide))).trans (Wlast_arg m c main_arg4 (by decide)),
     (h c _ (mem_ucRefs main_arg5 (by decide))).trans (Wlast_arg m c main_arg5 (by decide)),
     (h c _ (mem_ucRefs main_arg6 (by decide))).trans (Wlast_arg m c main_arg6 (by decide)),
     (h c _ (mem_ucRefs main_arg7 (by decide))).trans (Wlast_arg m c main_arg7 (by decide))⟩) (run_all m ρ)

/-! ## What each region finds in its input arrays

A region's inputs are arguments, earlier regions' results, or the output of the stretch just before it: the scale
column (the column sums reshaped to a vector, their reciprocal square roots, reshaped to a column), a weight matrix
transposed, a bias vector made a row. -/

/-- The scale column in terms of the first region's result. -/
abbrev scaleCol (x : (⟨S1x8192, .f32⟩ : BufTy).Contents (Elt F)) : (⟨S8192x1, .f32⟩ : BufTy).Contents (Elt F) :=
  shapeCast S8192x1 (Host.rsqrt (shapeCast S8192 x shapeCasts_S1x8192_S8192 : (⟨S8192, .f32⟩ : BufTy).Contents (Elt F))
    : (⟨S8192, .f32⟩ : BufTy).Contents (Elt F)) shapeCasts_S8192_S8192x1

theorem Went0_arg1 (c : Dev nD) : W0 m c main_arg1 = m ((c : Thread nD τ).loc main_arg1) := rfl

theorem Went1_v0 (c : Dev nD) : W1 m c main_v0 = (dat0 (atTc (W0 m)) c).arrAt 1 cfg0.N := W1_at m c
theorem Went1_v2 (c : Dev nD) :
    (W2 m c main_v2 : (⟨S8192, .f32⟩ : BufTy).Contents (Elt F))
      = Host.rsqrt (shapeCast S8192 (W1 m c main_v0 : (⟨S1x8192, .f32⟩ : BufTy).Contents (Elt F)) shapeCasts_S1x8192_S8192
          : (⟨S8192, .f32⟩ : BufTy).Contents (Elt F)) := by
  unfold W2
  show StableHlo.after hostOps1 (W1 m c) (Proc.devRef .tc main_v2) = _
  after_results
  all_goals rfl
theorem Went1_v3 (c : Dev nD) :
    (W2 m c main_v3 : (⟨S8192x1, .f32⟩ : BufTy).Contents (Elt F)) = scaleCol (W1 m c main_v0) := by
  unfold W2
  show StableHlo.after hostOps1 (W1 m c) (Proc.devRef .tc main_v3) = _
  after_results
  all_goals rfl
theorem Went1_arg1 (c : Dev nD) : W2 m c main_arg1 = m ((c : Thread nD τ).loc main_arg1) := W2_arg m c main_arg1 (by decide)
theorem Went1_arg0 (c : Dev nD) : W2 m c main_arg0 = m ((c : Thread nD τ).loc main_arg0) := W2_arg m c main_arg0 (by decide)

theorem Went2_v4 (c : Dev nD) : W4 m c main_v4 = (dat1 (atTc (W2 m)) c).arrAt 4 cfg1.N :=
  (W4_off m c main_v4 (by decide)).trans (W3_at m c)
theorem Went2_v5 (c : Dev nD) :
    (W4 m c main_v5 : (⟨S512x512, .f32⟩ : BufTy).Contents (Elt F))
      = transpose S512x512 [1, 0] (m ((c : Thread nD τ).loc main_arg2) : (⟨S512x512, .f32⟩ : BufTy).Contents (Elt F)) transposes_S512x512_S512x512_1_0 := by
  rw [← W3_arg m c main_arg2 (by decide)]
  unfold W4
  show StableHlo.after hostOps2 (W3 m c) (Proc.devRef .tc main_v5) = _
  after_results
  all_goals rfl
theorem Went2_v6 (c : Dev nD) :
    (W4 m c main_v6 : (⟨S1x512, .f32⟩ : BufTy).Contents (Elt F))
      = shapeCast S1x512 (m ((c : Thread nD τ).loc main_arg3) : (⟨S512, .f32⟩ : BufTy).Contents (Elt F)) shapeCasts_S512_S1x512 := by
  rw [← W3_arg m c main_arg3 (by decide)]
  unfold W4
  show StableHlo.after hostOps2 (W3 m c) (Proc.devRef .tc main_v6) = _
  after_results
  all_goals rfl

theorem Went3_v2 (c : Dev nD) : W5 m c main_v2 = W2 m c main_v2 :=
  (W5_off m c main_v2 (by decide)).trans ((W4_off m c main_v2 (by decide)).trans (W3_off m c main_v2 (by decide)))
theorem Went3_v8' (c : Dev nD) :
    (W6 m c main_v8 : (⟨S8192x1, .f32⟩ : BufTy).Contents (Elt F))
      = shapeCast S8192x1 (W5 m c main_v2 : (⟨S8192, .f32⟩ : BufTy).Contents (Elt F)) shapeCasts_S8192_S8192x1 := by
  unfold W6
  show StableHlo.after hostOps3 (W5 m c) (Proc.devRef .tc main_v8) = _
  after_results
  all_goals rfl
/-- The second propagation finds the same scale column as the first. -/
theorem Went3_v8 (c : Dev nD) :
    (W6 m c main_v8 : (⟨S8192x1, .f32⟩ : BufTy).Contents (Elt F)) = scaleCol (W1 m c main_v0) := by
  rw [Went3_v8', Went3_v2, Went1_v2]
theorem Went3_arg1 (c : Dev nD) : W6 m c main_arg1 = m ((c : Thread nD τ).loc main_arg1) := W6_arg m c main_arg1 (by decide)
theorem Went3_v7 (c : Dev nD) : W6 m c main_v7 = (dat2 (atTc (W4 m)) c).arrAt 3 cfg2.N :=
  (W6_off m c main_v7 (by decide)).trans (W5_at m c)

theorem Went4_v9 (c : Dev nD) : W8 m c main_v9 = (dat3 (atTc (W6 m)) c).arrAt 4 cfg3.N :=
  (W8_off m c main_v9 (by decide)).trans (W7_at m c)
theorem Went4_v10 (c : Dev nD) :
    (W8 m c main_v10 : (⟨S512x512, .f32⟩ : BufTy).Contents (Elt F))
      = transpose S512x512 [1, 0] (m ((c : Thread nD τ).loc main_arg4) : (⟨S512x512, .f32⟩ : BufTy).Contents (Elt F)) transposes_S512x512_S512x512_1_0 := by
  rw [← W7_arg m c main_arg4 (by decide)]
  unfold W8
  show StableHlo.after hostOps4 (W7 m c) (Proc.devRef .tc main_v10) = _
  after_results
  all_goals rfl
theorem Went4_v11 (c : Dev nD) :
    (W8 m c main_v11 : (⟨S1x512, .f32⟩ : BufTy).Contents (Elt F))
      = shapeCast S1x512 (m ((c : Thread nD τ).loc main_arg5) : (⟨S512, .f32⟩ : BufTy).Contents (Elt F)) shapeCasts_S512_S1x512 := by
  rw [← W7_arg m c main_arg5 (by decide)]
  unfold W8
  show StableHlo.after hostOps4 (W7 m c) (Proc.devRef .tc main_v11) = _
  after_results
  all_goals rfl

theorem Went5_v12 (c : Dev nD) : W10 m c main_v12 = (dat4 (atTc (W8 m)) c).arrAt 3 cfg4.N :=
  (W10_off m c main_v12 (by decide)).trans (W9_at m c)
theorem Went5_v13 (c : Dev nD) :
    (W10 m c main_v13 : (⟨S512x32, .f32⟩ : BufTy).Contents (Elt F))
      = transpose S512x32 [1, 0] (m ((c : Thread nD τ).loc main_arg6) : (⟨S32x512, .f32⟩ : BufTy).Contents (Elt F)) transposes_S32x512_S512x32_1_0 := by
  rw [← W9_arg m c main_arg6 (by decide)]
  unfold W10
  show StableHlo.after hostOps5 (W9 m c) (Proc.devRef .tc main_v13) = _
  after_results
  all_goals rfl
theorem Went5_v14 (c : Dev nD) :
    (W10 m c main_v14 : (⟨S1x32, .f32⟩ : BufTy).Contents (Elt F))
      = shapeCast S1x32 (m ((c : Thread nD τ).loc main_arg7) : (⟨S32, .f32⟩ : BufTy).Contents (Elt F)) shapeCasts_S32_S1x32 := by
  rw [← W9_arg m c main_arg7 (by decide)]
  unfold W10
  show StableHlo.after hostOps5 (W9 m c) (Proc.devRef .tc main_v14) = _
  after_results
  all_goals rfl

end Cert.Kernel.KI

end
-- ==== Proof.KI.Colsum.lean ====
/-
  The first kernel of the network: the column sums of the adjacency matrix.

  The matrix `A` (8192 x 8192) is cut into 8 x 8 tiles of 1024 x 1024. The grid point `(c, r)` (column tile `c`,
  row tile `r`, `r` running fastest) sees tile `(r, c)` of `A` and the 1 x 1024 strip `c` of the result. The strip is
  visited by the eight consecutive points of one column tile and is written back to the result only after the
  last of them; in between it keeps what the point before left. At `r = 0` the body first fills the strip with
  zeros; at every point it then adds to each lane of the strip the sum of that lane's 1024 entries of the tile.

  So the strip after point `(c, r)` is, by recursion on the point,
      strip(c, 0)     = 0 + tilesum(c, 0)
      strip(c, r + 1) = strip(c, r) + tilesum(c, r + 1),
  where `tilesum` reduces a tile along its rows. This file states that recursion (`strip0`), shows that one run of
  the body takes the strip from one value to the next in each of its two cases (`run_first`, `run_later`), and
  packs the result as the data the pipeline's frame rule asks for (`dat0`, `body_obligation0`). Nothing here
  depends on what the float operations are: the sums are whatever `addf` and the lane reduction compute.
-/
import proofs.«143233_j59193239273550_1_alg».proof.Proof.Gen.KernelIdeal.Launch
import proofs.«143233_j59193239273550_1_alg».proof.Proof.Gen.KernelIdeal.Skeleton
import proofs.«143233_j59193239273550_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.KI

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two cases of the body -/

/-- The body's test "this is the first row tile", as it computes it from the grid coordinates: `r == 0`,
    widened to a word and compared with zero again. -/
abbrev firstRow (i : grid0.Coords) : Prop :=
  (Scalar.cmpi .ne (Scalar.extui (Scalar.cmpi .eq (BitVec.ofNat 32 (i 1).val) 0#32)) 0#32) = 1#1

/-- With `r` the fast axis of an 8 x 8 grid, the test holds exactly at the points divisible by 8. -/
theorem firstRow_iff : ∀ t : Fin cfg0.N, firstRow (grid0.coords t) ↔ t.val % 8 = 0 :=
  (by decide +kernel : ∀ t : Fin grid0.N, firstRow (grid0.coords t) ↔ t.val % 8 = 0)

/-- The offsets `(0, 0)` are the zero offsets. -/
theorem off00 : (![0, 0] : Fin 2 → Nat) = fun _ => 0 := funext fun a => by fin_cases a <;> rfl

/-- The strip of zeros the first row tile starts from. -/
abbrev zeros : Vec F S1x1024 .f32 := k0_pay1 (F := F)

/-- One accumulation: the strip `acc` plus, lane by lane, the sum of the tile `x` along its rows. -/
abbrev addTile (acc : Vec F S1x1024 .f32) (x : Vec F S1024x1024 .f32) : Vec F S1x1024 .f32 := k0_pay2 acc x

set_option maxHeartbeats 1000000 in
/-- FIRST ROW TILE. Whatever the strip's buffer held, the body overwrites all of it with zeros, reads the zeros
    back, and stores `0 + tilesum`: both stores cover the whole 1 x 1024 buffer, so the last one decides its
    contents, and the value it read back is the first store's. The tile's buffer is only read. -/
theorem run_first (c : Dev nD) (E : Set ℕ) (i : grid0.Coords)
    (tile : Memref sig .tc .vmem S1024x1024 .f32) (htile : tile.IsWhole)
    (strip : Memref sig .tc .vmem S1x1024 .f32) (hstrip : strip.IsWhole)
    (hc : firstRow i) (x : Vec F S1024x1024 .f32) (K : PUnit → sProp 𝕄) :
    iprop(owns (c : Thread nD τ) tile fullShare x ∗ (∃ d, owns (c : Thread nD τ) strip fullShare d)
        ∗ (iprop(owns (c : Thread nD τ) tile fullShare x ∗ owns (c : Thread nD τ) strip fullShare (addTile zeros x)) -∗ K ⟨⟩))
      ⊢ wp frame (wpE (defs₀ (F := F)) Variants.none c none) E (cc0__colsum_kernel i tile htile strip hstrip) K := by
  simp only [cc0__colsum_kernel_eq_skeleton]; unfold cc0__colsum_kernel_skel
  unfold owns
  iintro ⟨⟨%f0, %hf0, H0⟩, ⟨%d1, %f1, -, H1⟩, Hk⟩
  subst hf0
  sl_exec (disch := first | exact hc)
  sl_step
  iapply Hk
  isplitl [H0]
  · iexists f0; isplitr; · ipureintro; rfl
    iexact H0
  iexists _; isplitr
  swap; · iexact H1
  ipureintro
  rw [View.read_writes_eq_canon _ _ _ (fun y => ⟨_, List.mem_cons_self, View.mem_set_unit_zero off00 inb_S1x1024_S1x1024_0_0 y⟩),
    View.canon_cons_unit_zero (S := S1x1024) off00]
  sl_unfold_words
  rw [View.readCov_unit_zero (S := S1x1024) _ off00, View.readAt_eq_ld, View.ld_unit_zero (S := S1024x1024) off00]

set_option maxHeartbeats 1000000 in
/-- LATER ROW TILES. The test fails, nothing is reset: the body reads the strip `acc` the point before left and
    the tile, and stores `acc + tilesum` over the whole strip. -/
theorem run_later (c : Dev nD) (E : Set ℕ) (i : grid0.Coords)
    (tile : Memref sig .tc .vmem S1024x1024 .f32) (htile : tile.IsWhole)
    (strip : Memref sig .tc .vmem S1x1024 .f32) (hstrip : strip.IsWhole)
    (hc : ¬firstRow i) (x : Vec F S1024x1024 .f32) (acc : Vec F S1x1024 .f32) (K : PUnit → sProp 𝕄) :
    iprop(owns (c : Thread nD τ) tile fullShare x ∗ owns (c : Thread nD τ) strip fullShare acc
        ∗ (iprop(owns (c : Thread nD τ) tile fullShare x ∗ owns (c : Thread nD τ) strip fullShare (addTile acc x)) -∗ K ⟨⟩))
      ⊢ wp frame (wpE (defs₀ (F := F)) Variants.none c none) E (cc0__colsum_kernel i tile htile strip hstrip) K := by
  simp only [cc0__colsum_kernel_eq_skeleton]; unfold cc0__colsum_kernel_skel
  unfold owns
  iintro ⟨⟨%f0, %hf0, H0⟩, ⟨%f1, %hf1, H1⟩, Hk⟩
  subst hf0; subst hf1
  sl_exec (disch := first | exact hc)
  sl_step
  iapply Hk
  isplitl [H0]
  · iexists f0; isplitr; · ipureintro; rfl
    iexact H0
  iexists _; isplitr
  swap; · iexact H1
  ipureintro
  rw [View.read_writes_eq_canon _ _ _ (fun y => ⟨_, List.mem_cons_self, View.mem_set_unit_zero off00 inb_S1x1024_S1x1024_0_0 y⟩),
    View.canon_cons_unit_zero (S := S1x1024) off00]
  simp only [View.readAt_eq_ld, View.ld_unit_zero (S := S1x1024) off00, View.ld_unit_zero (S := S1024x1024) off00]

/-! ## The strip, point by point, over the contents the kernel is entered with -/

section Region
-- what each buffer of the core holds when the kernel is entered
variable (V : (c : Dev nD) → (b : Ref sig .tc) → Buf (Elt F) ((c : Thread nD τ).loc b))

/-- The block of window `w` at point `t`, read off its array as the kernel finds it: for the matrix, tile `(r, c)`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RECURSION. What the strip's buffer holds after the body at point `n`: at a multiple of 8 (a first row tile)
    `0 + tilesum`, elsewhere what point `n - 1` left plus `tilesum`. -/
def strip0 (c : Dev nD) : (n : ℕ) → n < cfg0.N → Vec F S1x1024 .f32
  | 0, h => addTile zeros (iblk0 V c 0 ⟨0, h⟩)
  | n + 1, h =>
    if (n + 1) % 8 = 0 then addTile zeros (iblk0 V c 0 ⟨n + 1, h⟩)
    else addTile (strip0 c n (Nat.lt_of_succ_lt h)) (iblk0 V c 0 ⟨n + 1, h⟩)

/-- The recursion at a first row tile. -/
theorem strip0_first (c : Dev nD) (t : Fin cfg0.N) (h0 : t.val % 8 = 0) :
    strip0 V c t.val t.isLt = addTile zeros (iblk0 V c 0 t) := by
  obtain ⟨n, hn⟩ := t
  cases n with
  | zero => rfl
  | succ n => exact if_pos h0

/-- The recursion at a later row tile. -/
theorem strip0_later (c : Dev nD) (t : Fin cfg0.N) (h0 : ¬t.val % 8 = 0) :
    strip0 V c t.val t.isLt
      = addTile (strip0 V c (t.val - 1) (Nat.lt_of_le_of_lt (Nat.sub_le _ _) t.isLt)) (iblk0 V c 0 t) := by
  obtain ⟨n, hn⟩ := t
  cases n with
  | zero => exact absurd (Nat.zero_mod _) h0
  | succ n => exact if_neg h0

/-! ## The data of the pipeline's frame rule -/

/-- The arrays as the kernel finds them; after the body at point `t` the tile's buffer still holds the tile and the
    strip's buffer holds `strip0` at `t`; the rest of the core passes through untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => strip0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = strip0 V c t.val t.isLt := by dsimp only [dat0]

/-- The tile's buffer holds tile `(r, c)` when the body runs at `(c, r)`: the window moves at every point and its
    blocks lie inside the matrix, so each point's fetch brings exactly that tile. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- At a later row tile the strip's buffer holds what the point before left: that point is in the same column tile
    and not its last row tile, so the strip was not written back in between, and the block lies inside its array. -/
theorem before0_1_later (c : Dev nD) (t : Fin cfg0.N) (h0 : ¬t.val % 8 = 0) (d) :
    (dat0 V c).before 1 t d = strip0 V c (t.val - 1) (Nat.lt_of_le_of_lt (Nat.sub_le _ _) t.isLt) := by
  rw [Dat.before_out_kept _ 1 rfl t (by omega)
    (Bool.eq_false_iff.mpr fun h => by have := (flush0_1 _).mp h; dsimp only at this; omega)
    (fun _ => rfl) (fun _ _ => rfl)]
  dsimp only [dat0]

/-! ## The body at a point of the grid -/

/-- What the pipeline hands the body at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: a multiple of 8 is a first row tile, where the strip's buffer may hold anything and
    ends at `0 + tilesum`; any other point finds the strip of the point before and adds to it. Either way the
    recursion `strip0` says the same. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [strip0_first V c t h0]
    iintro ⟨HΦ, Ho, ⟨%d0, H0⟩, ⟨%d1, H1⟩⟩
    iapply (run_first c Set.univ (grid0.coords t) _ _ _ _ ((firstRow_iff t).mpr h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [strip0_later V c t h0]
    simp only [before0_1_later V c t h0]
    iintro ⟨HΦ, Ho, ⟨%d0, H0⟩, ⟨%d1, H1⟩⟩
    iapply (run_later c Set.univ (grid0.coords t) _ _ _ _ (fun h => h0 ((firstRow_iff t).mp h)) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The body meets its obligation at every point of the grid. -/
theorem body_obligation0 (c : Dev nD) : BodyObligation (dat0 (F := F) V c) (defs₀ (F := F)) Variants.none () Set.univ := fun t => by
  rw [bigSep_W0, bigSep_W0]
  exact sound_body0 V c t

end Region

end Cert.KernelIdeal.KI

end
-- ==== Proof.KI.Gcn1.lean ====
/-
  The propagation kernel of the first layer, region by itself: one grid point of an 8 x 8 grid handles the
  1024 x 1024 block (i, k) of the adjacency matrix. Along a row of the grid (k = 0 … 7) a 1024 x 512 accumulator
  kept in scratch memory is cleared at k = 0, receives at every k the product of the adjacency block with the feature
  block k whose rows were first scaled by the column block k of the scale vector, and at k = 7 is scaled row by row
  by the block i of the same vector and stored as the output block i. The scale vector reaches the kernel twice,
  through two windows of one array, so each window holds half of it.

  This module states what the accumulator holds before every point (`acc1`), the proof data of the pipeline (`dat1`)
  and proves the obligation of the body at every point, for any float instance: nothing here reads a value.
-/
import proofs.«143233_j59193239273550_1_alg».proof.Proof.Gen.KernelIdeal.Launch
import proofs.«143233_j59193239273550_1_alg».proof.Proof.Gen.KernelIdeal.Skeleton
import proofs.«143233_j59193239273550_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at point `t`, read off the array the region finds at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at point `t = 8 i + k` under their literal shapes: rows `i` of the scale vector, rows `k` of
    the same vector, block `(i, k)` of the adjacency matrix, rows `k` of the features. -/
abbrev drow1 (c : Dev nD) (t : Fin cfg1.N) : Vec F S1024x1 .f32 := iblk1 V c 0 t
abbrev dcol1 (c : Dev nD) (t : Fin cfg1.N) : Vec F S1024x1 .f32 := iblk1 V c 1 t
abbrev ablk1 (c : Dev nD) (t : Fin cfg1.N) : Vec F S1024x1024 .f32 := iblk1 V c 2 t
abbrev bblk1 (c : Dev nD) (t : Fin cfg1.N) : Vec F S1024x512 .f32 := iblk1 V c 3 t

/-! ## The accumulator -/

/-- One step of the accumulation, at point `t`: the accumulator `a` plus the adjacency block times the feature block
    whose rows are scaled by the column block of the scale vector — the value the body stores into the scratch. -/
def step1 (c : Dev nD) (t : Fin cfg1.N) (a : Vec F S1024x512 .f32) : Vec F S1024x512 .f32 :=
  k1_pay2 (bblk1 V c t) (dcol1 V c t) (ablk1 V c t) a

/-- What the scratch holds BEFORE point `n` (after point `n - 1`): a step from zero where the point before began a row of the
    grid (`k = 0`), else a step from what it held before that point. Before a point that begins a row the value is never
    read (the body clears the scratch there); before the first point it is set to zero for definiteness. -/
def acc1 (c : Dev nD) : (n : Nat) → Vec F S1024x512 .f32
  | 0 => k1_pay1
  | n + 1 => if h : n < cfg1.N then step1 V c ⟨n, h⟩ (if n % 8 = 0 then k1_pay1 else acc1 c n) else acc1 c n

theorem acc1_zero (c : Dev nD) : acc1 V c 0 = k1_pay1 := rfl

/-- After point `t`: one step from zero at the start of a row, from the previous contents elsewhere. -/
theorem acc1_succ (c : Dev nD) (t : Fin cfg1.N) :
    acc1 V c (t.val + 1) = step1 V c t (if t.val % 8 = 0 then k1_pay1 else acc1 V c t.val) := by
  obtain ⟨n, hn⟩ := t
  show (if h : n < cfg1.N then step1 V c ⟨n, h⟩ (if n % 8 = 0 then k1_pay1 else acc1 V c n) else acc1 V c n) = _
  rw [dif_pos hn]

theorem acc1_succ_first (c : Dev nD) (t : Fin cfg1.N) (h : t.val % 8 = 0) :
    acc1 V c (t.val + 1) = step1 V c t k1_pay1 := by rw [acc1_succ, if_pos h]

theorem acc1_succ_later (c : Dev nD) (t : Fin cfg1.N) (h : ¬ t.val % 8 = 0) :
    acc1 V c (t.val + 1) = step1 V c t (acc1 V c t.val) := by rw [acc1_succ, if_neg h]

/-- What the body stores into the output's buffer at the end of a row: the accumulator after the point, its rows scaled by
    the row block of the scale vector. -/
def out1 (c : Dev nD) (t : Fin cfg1.N) : Vec F S1024x512 .f32 := k1_pay3 (acc1 V c (t.val + 1)) (drow1 V c t)

/-! ## The invariant between points -/

/-- The accumulator: a scoped buffer of the kernel's own, whole. -/
abbrev scM1 : Memref sig .tc .vmem S1024x512 .f32 := Memref.whole cc1_scratch0

/-- Before point `n`: the scratch at some contents, which inside a row of the grid are the accumulator's (`acc1`) and at the start
    of a row are anything; the other scoped buffers no window stages, untouched; the generator register at some state. -/
def Phi1 (c : Dev nD) (n : ℕ) : sProp 𝕄 :=
  iprop((∃ d, owns (c : Thread nD τ) scM1 fullShare d ∗ ⌜n % 8 ≠ 0 → d = acc1 V c n⌝)
    ∗ Pipeline.scopedRestBut (Ix := Unit) (Name := ℕ) (U := UR sig nD τ) (Lvl := ℕ) (Val := Elt F) spec1 c [cc1_scratch0]
    ∗ ∃ r, prngReg c r)

/-! ## The proof data -/

/-- The pipeline's proof data on core `c`: the arrays as the region finds them; after the body every input's buffer at its block and
    the output's at the scaled accumulator (`out1`: what the body stores there at the end of a row, the only points that write the block back);
    the invariant `Phi1`; the two windows on the scale vector hold its left and its right half share, the other inputs theirs whole;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

theorem Phi1_eq (c : Dev nD) (t : Fin (cfg1.N + 1)) : (dat1 V c).Φ t = Phi1 V c t.val := by dsimp only [dat1]
theorem owed1_eq (c : Dev nD) (t : Fin (cfg1.N + 1)) : (dat1 V c).owed t = 0 := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]

/-! ## Where the body branches, and where the output window is idle -/

/-- The body clears the scratch where the second grid coordinate is zero: the points `≡ 0 (mod 8)`. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- It stores the output where that coordinate is seven: the points `≡ 7 (mod 8)`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- Elsewhere the output window is idle and its block is not written back; at those points it is live. -/
theorem idle1_4 : ∀ t : Fin cfg1.N, ¬ t.val % 8 = 7 → cfg1.idle 4 (grid1.coords t) = true :=
  (by decide +kernel : ∀ t : Fin grid1.N, ¬ t.val % 8 = 7 → idle1 4 (grid1.coords t) = true)
theorem live1_4 : ∀ t : Fin cfg1.N, t.val % 8 = 7 → cfg1.idle 4 (grid1.coords t) = false :=
  (by decide +kernel : ∀ t : Fin grid1.N, t.val % 8 = 7 → idle1 4 (grid1.coords t) = false)
theorem noFlush1_4 (t : Fin cfg1.N) (h : ¬ t.val % 8 = 7) : (cfg1.win 4).flush t = false := by
  cases hf : (cfg1.win 4).flush t
  · rfl
  · exact absurd ((flush1_4 t).mp hf) h

/-! ## What the body finds in the input windows' buffers -/

/-- Each input window's current buffer holds its block at every point, fetched there or not: where it is not fetched its block
    index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## Entering and leaving the region -/

theorem Phi1_first' (c : Dev nD) : (Pipeline.ΦA spec1 c : sProp 𝕄) ⊢ Phi1 V c 0 := by
  unfold Pipeline.ΦA Phi1; rw [scopedRest1_split]
  iintro ⟨⟨⟨%f, Hs⟩, Hrest⟩, Hr⟩
  isplitl [Hs]
  · iexists f; isplitl [Hs]
    · rw [owns_whole]; iexact Hs
    · ipureintro; intro h; exact absurd rfl h
  isplitl [Hrest]; · iexact Hrest
  iexact Hr

theorem Phi1_last' (c : Dev nD) (n : ℕ) : Phi1 V c n ⊢ (Pipeline.ΦA spec1 c : sProp 𝕄) := by
  unfold Pipeline.ΦA Phi1; rw [scopedRest1_split]; simp only [owns_whole]
  iintro ⟨⟨%d, Hs, -⟩, Hrest, Hr⟩
  isplitl [Hs Hrest]
  · isplitl [Hs]
    · iexists d; iexact Hs
    · iexact Hrest
  iexact Hr

/-! ## The body on any staging memrefs

Every access of the body is through the whole of a memref: a load reads the contents, a store leaves its payload. -/

theorem hz2 : (![0, 0] : Fin 2 → Nat) = fun _ => 0 := funext fun a => by fin_cases a <;> rfl

set_option maxHeartbeats 1000000 in
/-- Inside a row of the grid (`0 < k < 7`): from the inputs' memrefs at their contents and the scratch at `xs`, the body leaves in
    the scratch one step of the accumulation from `xs`, and everything else, the output's memref included, as it was. -/
theorem sound_kernel1_mid (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond1_0 i) (hc1 : ¬cond1_1 i)
    (xr xc : Vec F S1024x1 .f32) (xa : Vec F S1024x1024 .f32) (xb xo xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k1_pay2 xb xc xa xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

set_option maxHeartbeats 1000000 in
/-- At the start of a row (`k = 0`): whatever the scratch holds, the body clears it and leaves in it one step of the accumulation from
    zero; everything else, the output's memref included, as it was. -/
theorem sound_kernel1_first (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : cond1_0 i) (hc1 : ¬cond1_1 i)
    (xr xc : Vec F S1024x1 .f32) (xa : Vec F S1024x1024 .f32) (xb xo : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ (∃ d, owns (c : Thread nD τ) arg7 fullShare d)
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k1_pay2 xb xc xa k1_pay1)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_cons_unit_zero (S := S1024x512) hz2, View.readCov_unit_zero (S := S1024x512) _ hz2]
  simp only [View.readAt_eq_ld, harg2.read_unread, harg3.read_unread, harg4.read_unread, harg5.read_unread,
    View.ld_unit_zero (S := S1024x512) hz2, View.ld_unit_zero (S := S1024x1) hz2, View.ld_unit_zero (S := S1024x1024) hz2]

set_option maxHeartbeats 1000000 in
/-- At the end of a row (`k = 7`): the step as inside a row, and then the output's memref, whatever it held, receives the new
    accumulator with its rows scaled. -/
theorem sound_kernel1_last (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond1_0 i) (hc1 : cond1_1 i)
    (xr xc : Vec F S1024x1 .f32) (xa : Vec F S1024x1024 .f32) (xb xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ (∃ d, owns (c : Thread nD τ) arg6 fullShare d) ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare (k1_pay3 (k1_pay2 xb xc xa xs) xr)
            ∗ owns (c : Thread nD τ) arg7 fullShare (k1_pay2 xb xc xa xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_cons_self, View.mem_set_unit_zero hz2 inb_S1024x512_S1024x512_0_0 y⟩)]
    rw [View.canon_unit_zero hz2, View.readCov_unit_zero (S := S1024x512) _ hz2]
    simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

/-! ## The body obligation, at a generic point -/

theorem live1_0 (t : Fin cfg1.N) : cfg1.idle 0 (grid1.coords t) = false := rfl
theorem live1_1 (t : Fin cfg1.N) : cfg1.idle 1 (grid1.coords t) = false := rfl
theorem live1_2 (t : Fin cfg1.N) : cfg1.idle 2 (grid1.coords t) = false := rfl
theorem live1_3 (t : Fin cfg1.N) : cfg1.idle 3 (grid1.coords t) = false := rfl

/-- What the body is called with at point `t`: the invariant, the core's dues, every window's current buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the next invariant, the dues, every buffer at what the body leaves in it (the output's, away from the
    end of a row, as it was handed it). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The input buffers hold their blocks; the position in the row says which of the three runs applies; the
    invariant hands the run the scratch — at the accumulator inside a row, at anything at its start — and takes it back at the
    accumulator after the point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, Phi1_eq, Phi1_eq]
  simp only [Fin.coe_castSucc, Fin.val_succ]
  rw [show (dat1 V c).leavesExact 0 t = owns (c : Thread nD τ) (st1_0 t) fullShare ((dat1 V c).after 0 t) from by
      unfold Dat.leavesExact; rw [live1_0 t], after1_0,
    show (dat1 V c).leavesExact 1 t = owns (c : Thread nD τ) (st1_1 t) fullShare ((dat1 V c).after 1 t) from by
      unfold Dat.leavesExact; rw [live1_1 t], after1_1,
    show (dat1 V c).leavesExact 2 t = owns (c : Thread nD τ) (st1_2 t) fullShare ((dat1 V c).after 2 t) from by
      unfold Dat.leavesExact; rw [live1_2 t], after1_2,
    show (dat1 V c).leavesExact 3 t = owns (c : Thread nD τ) (st1_3 t) fullShare ((dat1 V c).after 3 t) from by
      unfold Dat.leavesExact; rw [live1_3 t], after1_3]
  unfold Phi1
  by_cases h7 : t.val % 8 = 7
  · have h0 : ¬ t.val % 8 = 0 := by omega
    rw [show (dat1 V c).leavesExact 4 t = owns (c : Thread nD τ) (st1_4 t) fullShare ((dat1 V c).after 4 t) from by
      unfold Dat.leavesExact; rw [live1_4 t h7], after1_4]
    unfold out1; rw [acc1_succ_later V c t h0]; unfold step1
    iintro ⟨⟨⟨%d, HS, %hd⟩, Hrest, Hg⟩, Ho, ⟨%d0, H0⟩, ⟨%d1, H1⟩, ⟨%d2, H2⟩, ⟨%d3, H3⟩, ⟨%d4, H4⟩⟩
    obtain rfl := hd h0
    iapply (sound_kernel1_last c Set.univ (grid1.coords t) _ _ _ _ _ _ _ _ _ _ _ _ (fun h => h0 ((hcond1_0 t).mp h)) ((hcond1_1 t).mpr h7)
      (drow1 V c t) (dcol1 V c t) (ablk1 V c t) (bblk1 V c t) (acc1 V c t.val) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idle1_4 t h7) (noFlush1_4 t h7)]
    by_cases h0 : t.val % 8 = 0
    · rw [acc1_succ_first V c t h0]; unfold step1
      iintro ⟨⟨⟨%d, HS, -⟩, Hrest, Hg⟩, Ho, ⟨%d0, H0⟩, ⟨%d1, H1⟩, ⟨%d2, H2⟩, ⟨%d3, H3⟩, ⟨%d4, H4⟩⟩
      iapply (sound_kernel1_first c Set.univ (grid1.coords t) _ _ _ _ _ _ _ _ _ _ _ _ ((hcond1_0 t).mpr h0) (fun h => h7 ((hcond1_1 t).mp h))
        (drow1 V c t) (dcol1 V c t) (ablk1 V c t) (bblk1 V c t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4
    · rw [acc1_succ_later V c t h0]; unfold step1
      iintro ⟨⟨⟨%d, HS, %hd⟩, Hrest, Hg⟩, Ho, ⟨%d0, H0⟩, ⟨%d1, H1⟩, ⟨%d2, H2⟩, ⟨%d3, H3⟩, ⟨%d4, H4⟩⟩
      obtain rfl := hd h0
      iapply (sound_kernel1_mid c Set.univ (grid1.coords t) _ _ _ _ _ _ _ _ _ _ _ _ (fun h => h0 ((hcond1_0 t).mp h)) (fun h => h7 ((hcond1_1 t).mp h))
        (drow1 V c t) (dcol1 V c t) (ablk1 V c t) (bblk1 V c t) ((dat1 V c).before 4 t d4) (acc1 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Entering the region: the class invariant (every scoped buffer no window stages at some contents, the generator register at some
    state) is the invariant before the first point: there the scratch may hold anything. -/
theorem Phi1_first (c : Dev nD) : (Pipeline.ΦA spec1 c : sProp 𝕄) ⊢ (dat1 V c).Φ 0 := by
  rw [Phi1_eq]; exact Phi1_first' V c

/-- Leaving it: after the last point the invariant gives the class invariant back, the scratch's contents forgotten. -/
theorem Phi1_last (c : Dev nD) : (dat1 V c).Φ (Fin.last cfg1.N) ⊢ (Pipeline.ΦA spec1 c : sProp 𝕄) := by
  rw [Phi1_eq]; exact Phi1_last' V c _

end Cert.KernelIdeal.KI

end
-- ==== Proof.KI.Lin2.lean ====
/- The first dense layer of the network, as one region of the program: relu (X · Wt + b), computed
   2048 rows of X at a time.  The region walks a grid of four points; at point t it sees rows
   2048·t … 2048·t + 2047 of X (window 0), all of Wt (window 1), all of the bias row (window 2), and
   produces the same rows of the result (window 3).  The body reads its three inputs whole, does one
   matrix product into a zero accumulator, adds the bias row to every row, clamps below at zero and
   writes the block whole.  It also reads the output buffer once and throws the value away.

   This file fixes, for arbitrary contents V of the core's buffers when the region is entered, what
   every window's buffer holds after the body at each point, and proves that the body does exactly
   that at any point.  Nothing here depends on the float instance. -/
import proofs.«143233_j59193239273550_1_alg».proof.Proof.Gen.KernelIdeal.Launch
import proofs.«143233_j59193239273550_1_alg».proof.Proof.Gen.KernelIdeal.Skeleton
import proofs.«143233_j59193239273550_1_alg».proof.Proof.Gen.KernelIdeal.Points
import Idealize.ShloMosaic.Lib.Pipeline.FrameBody
import Idealize.ShloMosaic.Lib.Ring
import Idealize.ShloMosaic.Lib.Tactic

-- deciding that one rectangle as large as its buffer covers it walks the long axis coordinate by coordinate
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the shape of one block of the result, and the fact that a rectangle of that size at the origin fits in it
local notation "OB" => S2048x512
local notation "inbOB" => inb_S2048x512_S2048x512_0_0

-- what the core's buffers hold when the region is entered
variable (V : (c : Dev nD) → (b : Ref sig .tc) → Buf (Elt F) ((c : Thread nD τ).loc b))

/-! ## Blocks -/

/-- The part of window `w`'s array that point `t` looks at: rows 2048·t … of X or of the result, or
    the whole of Wt or of the bias row. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body writes -/

/-- Each of the four buffers, whole: every access of the body is through one of these. -/
abbrev whole2_x : Rect S2048x512 := Rect.unit (s := S2048x512) ![0, 0] S2048x512.size inb_S2048x512_S2048x512_0_0
abbrev whole2_w : Rect S512x512 := Rect.unit (s := S512x512) ![0, 0] S512x512.size inb_S512x512_S512x512_0_0
abbrev whole2_b : Rect S1x512 := Rect.unit (s := S1x512) ![0, 0] S1x512.size inb_S1x512_S1x512_0_0
abbrev whole2_o : Rect OB := Rect.unit (s := OB) ![0, 0] (Shape.size OB) inbOB

/-- The output buffer after the body, as a function of the three input buffers: the body's one
    store, over everything, of the skeleton's payload of what the three loads read. -/
def out2_3 (x0 : Vec F S2048x512 .f32) (x1 : Vec F S512x512 .f32) (x2 : Vec F S1x512 .f32) : Vec F OB .f32 :=
  View.canon [⟨whole2_o, k2_pay1 (View.ld x0 whole2_x) (View.ld x1 whole2_w) (View.ld x2 whole2_b)⟩]

/-- One store over the whole buffer leaves no index unwritten. -/
theorem out2_3_covers (p : Vec F OB .f32) (y : Shape.Idx OB) :
    ∃ pc ∈ ([⟨whole2_o, p⟩] : List (View.Piece (Elt F) OB .f32)), y ∈ pc.1.set :=
  View.cover_of_tiled [⟨whole2_o, p⟩] (Shape.size OB) (by rfl) y

/-! ## The body on four whole buffers -/

set_option maxHeartbeats 1000000 in
/-- Run on four whole buffers — the inputs reading `x0`, `x1`, `x2`, the output holding anything — the
    body ends with the inputs unchanged and the output reading `out2_3 x0 x1 x2`.  The load of the
    output buffer before the store reads whatever was there and the value is dropped. -/
theorem body2_on_buffers (c : Dev nD) (E : Set ℕ) (i : grid2.Coords)
    (bx : Memref sig .tc .vmem S2048x512 .f32) (hbx : bx.IsWhole) (bw : Memref sig .tc .vmem S512x512 .f32) (hbw : bw.IsWhole)
    (bb : Memref sig .tc .vmem S1x512 .f32) (hbb : bb.IsWhole) (bo : Memref sig .tc .vmem OB .f32) (hbo : bo.IsWhole)
    (x0 : Vec F S2048x512 .f32) (x1 : Vec F S512x512 .f32) (x2 : Vec F S1x512 .f32) (K : PUnit → sProp 𝕄) :
    iprop(owns (c : Thread nD τ) bx fullShare x0 ∗ owns (c : Thread nD τ) bw fullShare x1 ∗ owns (c : Thread nD τ) bb fullShare x2
        ∗ (∃ d, owns (c : Thread nD τ) bo fullShare d)
        ∗ (iprop(owns (c : Thread nD τ) bx fullShare x0 ∗ owns (c : Thread nD τ) bw fullShare x1 ∗ owns (c : Thread nD τ) bb fullShare x2
            ∗ owns (c : Thread nD τ) bo fullShare (out2_3 x0 x1 x2)) -∗ K ⟨⟩))
      ⊢ wp frame (wpE (defs₀ (F := F)) Variants.none c none) E (cc2__linear_kernel i bx hbx bw hbw bb hbb bo hbo) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output holds its old contents overwritten by the one store, which covers it
  iexists _; isplitr
  swap; · iexact H3
  ipureintro
  exact View.read_writes_eq_canon _ _ _ (out2_3_covers _)

/-! ## The region's proof data -/

/-- For core `c`: each window's array is what the region finds (`V`); after the body at point `t` an
    input buffer still holds its block and the output buffer holds `out2_3` of the three input
    blocks; the body keeps no state of its own, owes no other core anything and holds every array
    outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-! ## What the body finds in its input buffers

An input buffer holds its window's block at every point.  Where the pipeline fetched at that point
this is what a fetch does.  Where it did not — Wt and the bias row are fetched once, at the first
point — the block index has not moved since the previous point, the body left the block in place
there, and the two blocks are the same. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body at a point of the grid -/

/-- What the body is handed at point `t`: the invariant, the core's dues, and the four current
    buffers, each at what it holds before the body. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back: the same, each buffer at what the proof data say it holds after the body. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body does what `body2_on_buffers` says
    with the blocks for `x0`, `x1`, `x2`; the invariant and the dues are not looked at. -/
theorem body2_at (c : Dev nD) (t : Fin cfg2.N) :
    given2 V c t ⊢ wp frame (wpE (defs₀ (F := F)) Variants.none c none) Set.univ (bodyAt2 t) (fun _ => left2 V c t) := by
  unfold given2 left2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body2_on_buffers c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation2 (c : Dev nD) : BodyObligation (dat2 (F := F) V c) (defs₀ (F := F)) Variants.none () Set.univ := fun t => by
  rw [bigSep_W2, bigSep_W2]
  exact body2_at V c t

end Cert.KernelIdeal.KI

end
-- ==== Proof.KI.Gcn3.lean ====
/-
  The propagation kernel of the second layer, region by itself: one grid point of an 8 x 8 grid handles the
  1024 x 1024 block (i, k) of the adjacency matrix. Along a row of the grid (k = 0 … 7) a 1024 x 512 accumulator
  kept in scratch memory is cleared at k = 0, receives at every k the product of the adjacency block with the feature
  block k whose rows were first scaled by the column block k of the scale vector, and at k = 7 is scaled row by row
  by the block i of the same vector and stored as the output block i. The scale vector reaches the kernel twice,
  through two windows of one array, so each window holds half of it.

  This module states what the accumulator holds before every point (`acc3`), the proof data of the pipeline (`dat3`)
  and proves the obligation of the body at every point, for any float instance: nothing here reads a value.
-/
import proofs.«143233_j59193239273550_1_alg».proof.Proof.Gen.KernelIdeal.Launch
import proofs.«143233_j59193239273550_1_alg».proof.Proof.Gen.KernelIdeal.Skeleton
import proofs.«143233_j59193239273550_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at point `t`, read off the array the region finds at entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The four input blocks at point `t = 8 i + k` under their literal shapes: rows `i` of the scale vector, rows `k` of
    the same vector, block `(i, k)` of the adjacency matrix, rows `k` of the features. -/
abbrev drow3 (c : Dev nD) (t : Fin cfg3.N) : Vec F S1024x1 .f32 := iblk3 V c 0 t
abbrev dcol3 (c : Dev nD) (t : Fin cfg3.N) : Vec F S1024x1 .f32 := iblk3 V c 1 t
abbrev ablk3 (c : Dev nD) (t : Fin cfg3.N) : Vec F S1024x1024 .f32 := iblk3 V c 2 t
abbrev bblk3 (c : Dev nD) (t : Fin cfg3.N) : Vec F S1024x512 .f32 := iblk3 V c 3 t

/-! ## The accumulator -/

/-- One step of the accumulation, at point `t`: the accumulator `a` plus the adjacency block times the feature block
    whose rows are scaled by the column block of the scale vector — the value the body stores into the scratch. -/
def step3 (c : Dev nD) (t : Fin cfg3.N) (a : Vec F S1024x512 .f32) : Vec F S1024x512 .f32 :=
  k3_pay2 (bblk3 V c t) (dcol3 V c t) (ablk3 V c t) a

/-- What the scratch holds BEFORE point `n` (after point `n - 1`): a step from zero where the point before began a row of the
    grid (`k = 0`), else a step from what it held before that point. Before a point that begins a row the value is never
    read (the body clears the scratch there); before the first point it is set to zero for definiteness. -/
def acc3 (c : Dev nD) : (n : Nat) → Vec F S1024x512 .f32
  | 0 => k3_pay1
  | n + 1 => if h : n < cfg3.N then step3 V c ⟨n, h⟩ (if n % 8 = 0 then k3_pay1 else acc3 c n) else acc3 c n

theorem acc3_zero (c : Dev nD) : acc3 V c 0 = k3_pay1 := rfl

/-- After point `t`: one step from zero at the start of a row, from the previous contents elsewhere. -/
theorem acc3_succ (c : Dev nD) (t : Fin cfg3.N) :
    acc3 V c (t.val + 1) = step3 V c t (if t.val % 8 = 0 then k3_pay1 else acc3 V c t.val) := by
  obtain ⟨n, hn⟩ := t
  show (if h : n < cfg3.N then step3 V c ⟨n, h⟩ (if n % 8 = 0 then k3_pay1 else acc3 V c n) else acc3 V c n) = _
  rw [dif_pos hn]

theorem acc3_succ_first (c : Dev nD) (t : Fin cfg3.N) (h : t.val % 8 = 0) :
    acc3 V c (t.val + 1) = step3 V c t k3_pay1 := by rw [acc3_succ, if_pos h]

theorem acc3_succ_later (c : Dev nD) (t : Fin cfg3.N) (h : ¬ t.val % 8 = 0) :
    acc3 V c (t.val + 1) = step3 V c t (acc3 V c t.val) := by rw [acc3_succ, if_neg h]

/-- What the body stores into the output's buffer at the end of a row: the accumulator after the point, its rows scaled by
    the row block of the scale vector. -/
def out3 (c : Dev nD) (t : Fin cfg3.N) : Vec F S1024x512 .f32 := k3_pay3 (acc3 V c (t.val + 1)) (drow3 V c t)

/-! ## The invariant between points -/

/-- The accumulator: a scoped buffer of the kernel's own, whole. -/
abbrev scM3 : Memref sig .tc .vmem S1024x512 .f32 := Memref.whole cc3_scratch0

/-- Before point `n`: the scratch at some contents, which inside a row of the grid are the accumulator's (`acc3`) and at the start
    of a row are anything; the other scoped buffers no window stages, untouched; the generator register at some state. -/
def Phi3 (c : Dev nD) (n : ℕ) : sProp 𝕄 :=
  iprop((∃ d, owns (c : Thread nD τ) scM3 fullShare d ∗ ⌜n % 8 ≠ 0 → d = acc3 V c n⌝)
    ∗ Pipeline.scopedRestBut (Ix := Unit) (Name := ℕ) (U := UR sig nD τ) (Lvl := ℕ) (Val := Elt F) spec3 c [cc3_scratch0]
    ∗ ∃ r, prngReg c r)

/-! ## The proof data -/

/-- The pipeline's proof data on core `c`: the arrays as the region finds them; after the body every input's buffer at its block and
    the output's at the scaled accumulator (`out3`: what the body stores there at the end of a row, the only points that write the block back);
    the invariant `Phi3`; the two windows on the scale vector hold its left and its right half share, the other inputs theirs whole;
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := Phi3 V c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem Phi3_eq (c : Dev nD) (t : Fin (cfg3.N + 1)) : (dat3 V c).Φ t = Phi3 V c t.val := by dsimp only [dat3]
theorem owed3_eq (c : Dev nD) (t : Fin (cfg3.N + 1)) : (dat3 V c).owed t = 0 := by dsimp only [dat3]
theorem q3_0 (c : Dev nD) : (dat3 V c).q 0 = fullShare.left := by dsimp only [dat3]
theorem q3_1 (c : Dev nD) : (dat3 V c).q 1 = fullShare.right := by dsimp only [dat3]
theorem q3_2 (c : Dev nD) : (dat3 V c).q 2 = fullShare := by dsimp only [dat3]
theorem q3_3 (c : Dev nD) : (dat3 V c).q 3 = fullShare := by dsimp only [dat3]

/-! ## Where the body branches, and where the output window is idle -/

/-- The body clears the scratch where the second grid coordinate is zero: the points `≡ 0 (mod 8)`. -/
abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- It stores the output where that coordinate is seven: the points `≡ 7 (mod 8)`. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- Elsewhere the output window is idle and its block is not written back; at those points it is live. -/
theorem idle3_4 : ∀ t : Fin cfg3.N, ¬ t.val % 8 = 7 → cfg3.idle 4 (grid3.coords t) = true :=
  (by decide +kernel : ∀ t : Fin grid3.N, ¬ t.val % 8 = 7 → idle3 4 (grid3.coords t) = true)
theorem live3_4 : ∀ t : Fin cfg3.N, t.val % 8 = 7 → cfg3.idle 4 (grid3.coords t) = false :=
  (by decide +kernel : ∀ t : Fin grid3.N, t.val % 8 = 7 → idle3 4 (grid3.coords t) = false)
theorem noFlush3_4 (t : Fin cfg3.N) (h : ¬ t.val % 8 = 7) : (cfg3.win 4).flush t = false := by
  cases hf : (cfg3.win 4).flush t
  · rfl
  · exact absurd ((flush3_4 t).mp hf) h

/-! ## What the body finds in the input windows' buffers -/

/-- Each input window's current buffer holds its block at every point, fetched there or not: where it is not fetched its block
    index has not moved, and the body leaves the block in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## Entering and leaving the region -/

theorem Phi3_first' (c : Dev nD) : (Pipeline.ΦA spec3 c : sProp 𝕄) ⊢ Phi3 V c 0 := by
  unfold Pipeline.ΦA Phi3; rw [scopedRest3_split]
  iintro ⟨⟨⟨%f, Hs⟩, Hrest⟩, Hr⟩
  isplitl [Hs]
  · iexists f; isplitl [Hs]
    · rw [owns_whole]; iexact Hs
    · ipureintro; intro h; exact absurd rfl h
  isplitl [Hrest]; · iexact Hrest
  iexact Hr

theorem Phi3_last' (c : Dev nD) (n : ℕ) : Phi3 V c n ⊢ (Pipeline.ΦA spec3 c : sProp 𝕄) := by
  unfold Pipeline.ΦA Phi3; rw [scopedRest3_split]; simp only [owns_whole]
  iintro ⟨⟨%d, Hs, -⟩, Hrest, Hr⟩
  isplitl [Hs Hrest]
  · isplitl [Hs]
    · iexists d; iexact Hs
    · iexact Hrest
  iexact Hr

/-! ## The body on any staging memrefs

Every access of the body is through the whole of a memref: a load reads the contents, a store leaves its payload. -/

theorem hz2 : (![0, 0] : Fin 2 → Nat) = fun _ => 0 := funext fun a => by fin_cases a <;> rfl

set_option maxHeartbeats 1000000 in
/-- Inside a row of the grid (`0 < k < 7`): from the inputs' memrefs at their contents and the scratch at `xs`, the body leaves in
    the scratch one step of the accumulation from `xs`, and everything else, the output's memref included, as it was. -/
theorem sound_kernel3_mid (c : Dev nD) (E : Set ℕ) (i : grid3.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond3_0 i) (hc1 : ¬cond3_1 i)
    (xr xc : Vec F S1024x1 .f32) (xa : Vec F S1024x1024 .f32) (xb xo xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k3_pay2 xb xc xa xs)) -∗ K ⟨⟩))
      ⊢ wp frame (wpE (defs₀ (F := F)) Variants.none c none) E (cc3__gcn_matmul_kernel i arg2 harg2 arg3 harg3 arg4 harg4 arg5 harg5 arg6 harg6 arg7 harg7) K := by
  simp only [cc3__gcn_matmul_kernel_eq_skeleton]; unfold cc3__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

set_option maxHeartbeats 1000000 in
/-- At the start of a row (`k = 0`): whatever the scratch holds, the body clears it and leaves in it one step of the accumulation from
    zero; everything else, the output's memref included, as it was. -/
theorem sound_kernel3_first (c : Dev nD) (E : Set ℕ) (i : grid3.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : cond3_0 i) (hc1 : ¬cond3_1 i)
    (xr xc : Vec F S1024x1 .f32) (xa : Vec F S1024x1024 .f32) (xb xo : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ owns (c : Thread nD τ) arg6 fullShare xo ∗ (∃ d, owns (c : Thread nD τ) arg7 fullShare d)
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare xo
            ∗ owns (c : Thread nD τ) arg7 fullShare (k3_pay2 xb xc xa k3_pay1)) -∗ K ⟨⟩))
      ⊢ wp frame (wpE (defs₀ (F := F)) Variants.none c none) E (cc3__gcn_matmul_kernel i arg2 harg2 arg3 harg3 arg4 harg4 arg5 harg5 arg6 harg6 arg7 harg7) K := by
  simp only [cc3__gcn_matmul_kernel_eq_skeleton]; unfold cc3__gcn_matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_cons_unit_zero (S := S1024x512) hz2, View.readCov_unit_zero (S := S1024x512) _ hz2]
  simp only [View.readAt_eq_ld, harg2.read_unread, harg3.read_unread, harg4.read_unread, harg5.read_unread,
    View.ld_unit_zero (S := S1024x512) hz2, View.ld_unit_zero (S := S1024x1) hz2, View.ld_unit_zero (S := S1024x1024) hz2]

set_option maxHeartbeats 1000000 in
/-- At the end of a row (`k = 7`): the step as inside a row, and then the output's memref, whatever it held, receives the new
    accumulator with its rows scaled. -/
theorem sound_kernel3_last (c : Dev nD) (E : Set ℕ) (i : grid3.Coords)
    (arg2 : Memref sig .tc .vmem S1024x1 .f32) (harg2 : arg2.IsWhole) (arg3 : Memref sig .tc .vmem S1024x1 .f32) (harg3 : arg3.IsWhole)
    (arg4 : Memref sig .tc .vmem S1024x1024 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (hc0 : ¬cond3_0 i) (hc1 : cond3_1 i)
    (xr xc : Vec F S1024x1 .f32) (xa : Vec F S1024x1024 .f32) (xb xs : Vec F S1024x512 .f32) (K : PUnit → sProp 𝕄) :
    iprop(owns (c : Thread nD τ) arg2 fullShare xr ∗ owns (c : Thread nD τ) arg3 fullShare xc ∗ owns (c : Thread nD τ) arg4 fullShare xa
        ∗ owns (c : Thread nD τ) arg5 fullShare xb ∗ (∃ d, owns (c : Thread nD τ) arg6 fullShare d) ∗ owns (c : Thread nD τ) arg7 fullShare xs
        ∗ (iprop(owns (c : Thread nD τ) arg2 fullShare xr ∗ owns (c : Thread nD τ) arg3 fullShare xc ∗ owns (c : Thread nD τ) arg4 fullShare xa
            ∗ owns (c : Thread nD τ) arg5 fullShare xb ∗ owns (c : Thread nD τ) arg6 fullShare (k3_pay3 (k3_pay2 xb xc xa xs) xr)
            ∗ owns (c : Thread nD τ) arg7 fullShare (k3_pay2 xb xc xa xs)) -∗ K ⟨⟩))
      ⊢ wp frame (wpE (defs₀ (F := F)) Variants.none c none) E (cc3__gcn_matmul_kernel i arg2 harg2 arg3 harg3 arg4 harg4 arg5 harg5 arg6 harg6 arg7 harg7) K := by
  simp only [cc3__gcn_matmul_kernel_eq_skeleton]; unfold cc3__gcn_matmul_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_cons_self, View.mem_set_unit_zero hz2 inb_S1024x512_S1024x512_0_0 y⟩)]
    rw [View.canon_unit_zero hz2, View.readCov_unit_zero (S := S1024x512) _ hz2]
    simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]
  iexists _; isplitr
  swap; · iexact H7
  ipureintro
  sl_unfold_words
  rw [View.read_writes_eq_canon _ _ _ (fun y => ⟨_, List.mem_cons_self, View.mem_set_unit_zero hz2 inb_S1024x512_S1024x512_0_0 y⟩)]
  rw [View.canon_unit_zero hz2]
  simp only [View.readAt_eq_ld, harg2.read_unread, harg3.read_unread, harg4.read_unread, harg5.read_unread, harg7.read_unread,
    View.ld_unit_zero (S := S1024x512) hz2, View.ld_unit_zero (S := S1024x1) hz2, View.ld_unit_zero (S := S1024x1024) hz2]

/-! ## The body obligation, at a generic point -/

theorem live3_0 (t : Fin cfg3.N) : cfg3.idle 0 (grid3.coords t) = false := rfl
theorem live3_1 (t : Fin cfg3.N) : cfg3.idle 1 (grid3.coords t) = false := rfl
theorem live3_2 (t : Fin cfg3.N) : cfg3.idle 2 (grid3.coords t) = false := rfl
theorem live3_3 (t : Fin cfg3.N) : cfg3.idle 3 (grid3.coords t) = false := rfl

/-- What the body is called with at point `t`: the invariant, the core's dues, every window's current buffer at what it then holds; -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns: the next invariant, the dues, every buffer at what the body leaves in it (the output's, away from the
    end of a row, as it was handed it). -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The input buffers hold their blocks; the position in the row says which of the three runs applies; the
    invariant hands the run the scratch — at the accumulator inside a row, at anything at its start — and takes it back at the
    accumulator after the point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl, Phi3_eq, Phi3_eq]
  simp only [Fin.coe_castSucc, Fin.val_succ]
  rw [show (dat3 V c).leavesExact 0 t = owns (c : Thread nD τ) (st3_0 t) fullShare ((dat3 V c).after 0 t) from by
      unfold Dat.leavesExact; rw [live3_0 t], after3_0,
    show (dat3 V c).leavesExact 1 t = owns (c : Thread nD τ) (st3_1 t) fullShare ((dat3 V c).after 1 t) from by
      unfold Dat.leavesExact; rw [live3_1 t], after3_1,
    show (dat3 V c).leavesExact 2 t = owns (c : Thread nD τ) (st3_2 t) fullShare ((dat3 V c).after 2 t) from by
      unfold Dat.leavesExact; rw [live3_2 t], after3_2,
    show (dat3 V c).leavesExact 3 t = owns (c : Thread nD τ) (st3_3 t) fullShare ((dat3 V c).after 3 t) from by
      unfold Dat.leavesExact; rw [live3_3 t], after3_3]
  unfold Phi3
  by_cases h7 : t.val % 8 = 7
  · have h0 : ¬ t.val % 8 = 0 := by omega
    rw [show (dat3 V c).leavesExact 4 t = owns (c : Thread nD τ) (st3_4 t) fullShare ((dat3 V c).after 4 t) from by
      unfold Dat.leavesExact; rw [live3_4 t h7], after3_4]
    unfold out3; rw [acc3_succ_later V c t h0]; unfold step3
    iintro ⟨⟨⟨%d, HS, %hd⟩, Hrest, Hg⟩, Ho, ⟨%d0, H0⟩, ⟨%d1, H1⟩, ⟨%d2, H2⟩, ⟨%d3, H3⟩, ⟨%d4, H4⟩⟩
    obtain rfl := hd h0
    iapply (sound_kernel3_last c Set.univ (grid3.coords t) _ _ _ _ _ _ _ _ _ _ _ _ (fun h => h0 ((hcond3_0 t).mp h)) ((hcond3_1 t).mpr h7)
      (drow3 V c t) (dcol3 V c t) (ablk3 V c t) (bblk3 V c t) (acc3 V c t.val) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS]
      · iexists _; isplitl [HS]; · iexact HS
        ipureintro; intro _; rfl
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idle3_4 t h7) (noFlush3_4 t h7)]
    by_cases h0 : t.val % 8 = 0
    · rw [acc3_succ_first V c t h0]; unfold step3
      iintro ⟨⟨⟨%d, HS, -⟩, Hrest, Hg⟩, Ho, ⟨%d0, H0⟩, ⟨%d1, H1⟩, ⟨%d2, H2⟩, ⟨%d3, H3⟩, ⟨%d4, H4⟩⟩
      iapply (sound_kernel3_first c Set.univ (grid3.coords t) _ _ _ _ _ _ _ _ _ _ _ _ ((hcond3_0 t).mpr h0) (fun h => h7 ((hcond3_1 t).mp h))
        (drow3 V c t) (dcol3 V c t) (ablk3 V c t) (bblk3 V c t) ((dat3 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4
    · rw [acc3_succ_later V c t h0]; unfold step3
      iintro ⟨⟨⟨%d, HS, %hd⟩, Hrest, Hg⟩, Ho, ⟨%d0, H0⟩, ⟨%d1, H1⟩, ⟨%d2, H2⟩, ⟨%d3, H3⟩, ⟨%d4, H4⟩⟩
      obtain rfl := hd h0
      iapply (sound_kernel3_mid c Set.univ (grid3.coords t) _ _ _ _ _ _ _ _ _ _ _ _ (fun h => h0 ((hcond3_0 t).mp h)) (fun h => h7 ((hcond3_1 t).mp h))
        (drow3 V c t) (dcol3 V c t) (ablk3 V c t) (bblk3 V c t) ((dat3 V c).before 4 t d4) (acc3 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]
        · iexists _; isplitl [HS]; · iexact HS
          ipureintro; intro _; rfl
        isplitl [Hrest]; · iexact Hrest
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- Entering the region: the class invariant (every scoped buffer no window stages at some contents, the generator register at some
    state) is the invariant before the first point: there the scratch may hold anything. -/
theorem Phi3_first (c : Dev nD) : (Pipeline.ΦA spec3 c : sProp 𝕄) ⊢ (dat3 V c).Φ 0 := by
  rw [Phi3_eq]; exact Phi3_first' V c

/-- Leaving it: after the last point the invariant gives the class invariant back, the scratch's contents forgotten. -/
theorem Phi3_last (c : Dev nD) : (dat3 V c).Φ (Fin.last cfg3.N) ⊢ (Pipeline.ΦA spec3 c : sProp 𝕄) := by
  rw [Phi3_eq]; exact Phi3_last' V c _

end Cert.KernelIdeal.KI

end
-- ==== Proof.KI.Lin4.lean ====
/- The second dense layer of the network, as one region of the program: relu (X · Wt + b), computed
   2048 rows of X at a time.  The region walks a grid of four points; at point t it sees rows
   2048·t … 2048·t + 2047 of X (window 0), all of Wt (window 1), all of the bias row (window 2), and
   produces the same rows of the result (window 3).  The body reads its three inputs whole, does one
   matrix product into a zero accumulator, adds the bias row to every row, clamps below at zero and
   writes the block whole.  It also reads the output buffer once and throws the value away.

   This file fixes, for arbitrary contents V of the core's buffers when the region is entered, what
   every window's buffer holds after the body at each point, and proves that the body does exactly
   that at any point.  Nothing here depends on the float instance. -/
import proofs.«143233_j59193239273550_1_alg».proof.Proof.Gen.KernelIdeal.Launch
import proofs.«143233_j59193239273550_1_alg».proof.Proof.Gen.KernelIdeal.Skeleton
import proofs.«143233_j59193239273550_1_alg».proof.Proof.Gen.KernelIdeal.Points
import Idealize.ShloMosaic.Lib.Pipeline.FrameBody
import Idealize.ShloMosaic.Lib.Ring
import Idealize.ShloMosaic.Lib.Tactic

-- deciding that one rectangle as large as its buffer covers it walks the long axis coordinate by coordinate
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the shape of one block of the result, and the fact that a rectangle of that size at the origin fits in it
local notation "OB" => S2048x512
local notation "inbOB" => inb_S2048x512_S2048x512_0_0

-- what the core's buffers hold when the region is entered
variable (V : (c : Dev nD) → (b : Ref sig .tc) → Buf (Elt F) ((c : Thread nD τ).loc b))

/-! ## Blocks -/

/-- The part of window `w`'s array that point `t` looks at: rows 2048·t … of X or of the result, or
    the whole of Wt or of the bias row. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body writes -/

/-- Each of the four buffers, whole: every access of the body is through one of these. -/
abbrev whole4_x : Rect S2048x512 := Rect.unit (s := S2048x512) ![0, 0] S2048x512.size inb_S2048x512_S2048x512_0_0
abbrev whole4_w : Rect S512x512 := Rect.unit (s := S512x512) ![0, 0] S512x512.size inb_S512x512_S512x512_0_0
abbrev whole4_b : Rect S1x512 := Rect.unit (s := S1x512) ![0, 0] S1x512.size inb_S1x512_S1x512_0_0
abbrev whole4_o : Rect OB := Rect.unit (s := OB) ![0, 0] (Shape.size OB) inbOB

/-- The output buffer after the body, as a function of the three input buffers: the body's one
    store, over everything, of the skeleton's payload of what the three loads read. -/
def out4_3 (x0 : Vec F S2048x512 .f32) (x1 : Vec F S512x512 .f32) (x2 : Vec F S1x512 .f32) : Vec F OB .f32 :=
  View.canon [⟨whole4_o, k4_pay1 (View.ld x0 whole4_x) (View.ld x1 whole4_w) (View.ld x2 whole4_b)⟩]

/-- One store over the whole buffer leaves no index unwritten. -/
theorem out4_3_covers (p : Vec F OB .f32) (y : Shape.Idx OB) :
    ∃ pc ∈ ([⟨whole4_o, p⟩] : List (View.Piece (Elt F) OB .f32)), y ∈ pc.1.set :=
  View.cover_of_tiled [⟨whole4_o, p⟩] (Shape.size OB) (by rfl) y

/-! ## The body on four whole buffers -/

set_option maxHeartbeats 1000000 in
/-- Run on four whole buffers — the inputs reading `x0`, `x1`, `x2`, the output holding anything — the
    body ends with the inputs unchanged and the output reading `out4_3 x0 x1 x2`.  The load of the
    output buffer before the store reads whatever was there and the value is dropped. -/
theorem body4_on_buffers (c : Dev nD) (E : Set ℕ) (i : grid4.Coords)
    (bx : Memref sig .tc .vmem S2048x512 .f32) (hbx : bx.IsWhole) (bw : Memref sig .tc .vmem S512x512 .f32) (hbw : bw.IsWhole)
    (bb : Memref sig .tc .vmem S1x512 .f32) (hbb : bb.IsWhole) (bo : Memref sig .tc .vmem OB .f32) (hbo : bo.IsWhole)
    (x0 : Vec F S2048x512 .f32) (x1 : Vec F S512x512 .f32) (x2 : Vec F S1x512 .f32) (K : PUnit → sProp 𝕄) :
    iprop(owns (c : Thread nD τ) bx fullShare x0 ∗ owns (c : Thread nD τ) bw fullShare x1 ∗ owns (c : Thread nD τ) bb fullShare x2
        ∗ (∃ d, owns (c : Thread nD τ) bo fullShare d)
        ∗ (iprop(owns (c : Thread nD τ) bx fullShare x0 ∗ owns (c : Thread nD τ) bw fullShare x1 ∗ owns (c : Thread nD τ) bb fullShare x2
            ∗ owns (c : Thread nD τ) bo fullShare (out4_3 x0 x1 x2)) -∗ K ⟨⟩))
      ⊢ wp frame (wpE (defs₀ (F := F)) Variants.none c none) E (cc4__linear_kernel i bx hbx bw hbw bb hbb bo hbo) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output holds its old contents overwritten by the one store, which covers it
  iexists _; isplitr
  swap; · iexact H3
  ipureintro
  exact View.read_writes_eq_canon _ _ _ (out4_3_covers _)

/-! ## The region's proof data -/

/-- For core `c`: each window's array is what the region finds (`V`); after the body at point `t` an
    input buffer still holds its block and the output buffer holds `out4_3` of the three input
    blocks; the body keeps no state of its own, owes no other core anything and holds every array
    outright. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-! ## What the body finds in its input buffers

An input buffer holds its window's block at every point.  Where the pipeline fetched at that point
this is what a fetch does.  Where it did not — Wt and the bias row are fetched once, at the first
point — the block index has not moved since the previous point, the body left the block in place
there, and the two blocks are the same. -/

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-! ## The body at a point of the grid -/

/-- What the body is handed at point `t`: the invariant, the core's dues, and the four current
    buffers, each at what it holds before the body. -/
def given4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What it hands back: the same, each buffer at what the proof data say it holds after the body. -/
def left4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any point the input buffers hold their blocks, so the body does what `body4_on_buffers` says
    with the blocks for `x0`, `x1`, `x2`; the invariant and the dues are not looked at. -/
theorem body4_at (c : Dev nD) (t : Fin cfg4.N) :
    given4 V c t ⊢ wp frame (wpE (defs₀ (F := F)) Variants.none c none) Set.univ (bodyAt4 t) (fun _ => left4 V c t) := by
  unfold given4 left4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body4_on_buffers c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation4 (c : Dev nD) : BodyObligation (dat4 (F := F) V c) (defs₀ (F := F)) Variants.none () Set.univ := fun t => by
  rw [bigSep_W4, bigSep_W4]
  exact body4_at V c t

end Cert.KernelIdeal.KI

end
-- ==== Proof.KI.Lin5.lean ====
/- The classifier head of the network, as one region of the program: X · Wt + b, computed
   2048 rows of X at a time.  The region walks a grid of four points; at point t it sees rows
   2048·t … 2048·t + 2047 of X (window 0), all of Wt (window 1), all of the bias row (window 2), and
   produces the same rows of the result (window 3).  The body reads its three inputs whole, does one
   matrix product into a zero accumulator, adds the bias row to every row and
   writes the block whole.  It also reads the output buffer once and throws the value away.

   This file fixes, for arbitrary contents V of the core's buffers when the region is entered, what
   every window's buffer holds after the body at each point, and proves that the body does exactly
   that at any point.  Nothing here depends on the float instance. -/
import proofs.«143233_j59193239273550_1_alg».proof.Proof.Gen.KernelIdeal.Launch
import proofs.«143233_j59193239273550_1_alg».proof.Proof.Gen.KernelIdeal.Skeleton
import proofs.«143233_j59193239273550_1_alg».proof.Proof.Gen.KernelIdeal.Points
import Idealize.ShloMosaic.Lib.Pipeline.FrameBody
import Idealize.ShloMosaic.Lib.Ring
import Idealize.ShloMosaic.Lib.Tactic

-- deciding that one rectangle as large as its buffer covers it walks the long axis coordinate by coordinate
set_option maxRecDepth 16384

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the shape of one block of the result, and the fact that a rectangle of that size at the origin fits in it
local notation "OB" => S2048x32
local notation "inbOB" => inb_S2048x32_S2048x32_0_0

-- what the core's buffers hold when the region is entered
variable (V : (c : Dev nD) → (b : Ref sig .tc) → Buf (Elt F) ((c : Thread nD τ).loc b))

/-! ## Blocks -/

/-- The part of window `w`'s array that point `t` looks at: rows 2048·t … of X or of the result, or
    the whole of Wt or of the bias row. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body writes -/

/-- Each of the four buffers, whole: every access of the body is through one of these. -/
abbrev whole5_x : Rect S2048x512 := Rect.unit (s := S2048x512) ![0, 0] S2048x512.size inb_S2048x512_S2048x512_0_0
abbrev whole5_w : Rect S512x32 := Rect.unit (s := S512x32) ![0, 0] S512x32.size inb_S512x32_S512x32_0_0
abbrev whole5_b : Rect S1x32 := Rect.unit (s := S1x32) ![0, 0] S1x32.size inb_S1x32_S1x32_0_0
abbrev whole5_o : Rect OB := Rect.unit (s := OB) ![0, 0] (Shape.size OB) inbOB

/-- The output buffer after the body, as a function of the three input buffers: the body's one
    store, over everything, of the skeleton's payload of what the three loads read. -/
def out5_3 (x0 : Vec F S2048x512 .f32) (x1 : Vec F S512x32 .f32) (x2 : Vec F S1x32 .f32) : Vec F OB .f32 :=
  View.canon [⟨whole5_o, k5_pay1 (View.ld x0 whole5_x) (View.ld x1 whole5_w) (View.ld x2 whole5_b)⟩]

/-- One store over the whole buffer leaves no index unwritten. -/
theorem out5_3_covers (p : Vec F OB .f32) (y : Shape.Idx OB) :
    ∃ pc ∈ ([⟨whole5_o, p⟩] : List (View.Piece (Elt F) OB .f32)), y ∈ pc.1.set :=
  View.cover_of_tiled [⟨whole5_o, p⟩] (Shape.size OB) (by rfl) y

/-! ## The body on four whole buffers -/

set_option maxHeartbeats 1000000 in
/-- Run on four whole buffers — the inputs reading `x0`, `x1`, `x2`, the output holding anything — the
    body ends with the inputs unchanged and the output reading `out5_3 x0 x1 x2`.  The load of the
    output buffer before the store reads whatever was there and the value is dropped. -/
theorem body5_on_buffers (c : Dev nD) (E : Set ℕ) (i : grid5.Coords)
    (bx : Memref sig .tc .vmem S2048x512 .f32) (hbx : bx.IsWhole) (bw : Memref sig .tc .vmem S512x32 .f32) (hbw : bw.IsWhole)
    (bb : Memref sig .tc .vmem S1x32 .f32) (hbb : bb.IsWhole) (bo : Memref sig .tc .vmem OB .f32) (hbo : bo.IsWhole)
    (x0 : Vec F S2048x512 .f32) (x1 : Vec F S512x32 .f32) (x2 : Vec F S1x32 .f32) (K : PUnit → sProp 𝕄) :
    iprop(owns (c : Thread nD τ) bx fullShare x0 ∗ owns (c : Thread nD τ) bw fullShare x1 ∗ owns (c : Thread nD τ) bb fullShare x2
        ∗ (∃ d, owns (c : Thread nD τ) bo fullShare d)
        ∗ (iprop(owns (c : Thread nD τ) bx fullShare x0 ∗ owns (c : Thread nD τ) bw fullShare x1 ∗ owns (c : Thread nD τ) bb fullShare x2
            ∗ owns (c : Thread nD τ) bo fullShare (out5_3 x0 x1 x2)) -∗ K ⟨⟩))
      ⊢ wp frame (wpE (defs₀ (F := F)) Variants.none c none) E (cc5__linear_kernel i bx hbx bw hbw bb hbb bo hbo) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output holds its old contents overwritten by the one store, which covers it
  iexists _; isplitr
  swap; · iexact H3
  ipureintro
  exact View.read_writes_eq_canon _ _ _ (out5_3_covers _)

/-! ## The region's proof data -/

/-- For core `c`: each window's array is what the region finds (`V`); after the body at point `t` an
    input buffer still holds its block and the output buffer holds `out5_3` of the three input
    blocks; the body keeps no state of its own, owes no other core anything and holds every array
    outright. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-! ## What the body finds in its input buffers

An input buffer holds its window's block at every point.  Where the pipeline fetched at that point
this is what a fetch does.  Where it did not — Wt and the bias row are fetched once, at the first
point — the block index has not moved since the previous point, the body left the block in place
there, and the two blocks are the same. -/

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

/-! ## The body at a point of the grid -/

/-- What the body is handed at point `t`: the invariant, the core's dues, and the four current
    buffers, each at what it holds before the body. -/
def given5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- What it hands back: the same, each buffer at what the proof data say it holds after the body. -/
def left5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At any point the input buffers hold their blocks, so the body does what `body5_on_buffers` says
    with the blocks for `x0`, `x1`, `x2`; the invariant and the dues are not looked at. -/
theorem body5_at (c : Dev nD) (t : Fin cfg5.N) :
    given5 V c t ⊢ wp frame (wpE (defs₀ (F := F)) Variants.none c none) Set.univ (bodyAt5 t) (fun _ => left5 V c t) := by
  unfold given5 left5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (body5_on_buffers c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation5 (c : Dev nD) : BodyObligation (dat5 (F := F) V c) (defs₀ (F := F)) Variants.none () Set.univ := fun t => by
  rw [bigSep_W5, bigSep_W5]
  exact body5_at V c t

end Cert.KernelIdeal.KI

end
-- ==== Proof.KI.Run.lean ====
/- The whole program, run from start to finish.

   The network is computed by six kernel regions — the column sums of the adjacency matrix, a propagation, a dense
   layer, a second propagation, a second dense layer, the classifier — and between consecutive regions a few
   elementary operations on whole arrays that prepare the next region's operands: the column sums become the scale
   column (reshape, reciprocal square root, reshape), a weight matrix is transposed, a bias vector becomes a row.

   This file follows the contents of every buffer through those eleven items.  Each region changes one buffer, its
   result, to what its write-backs leave there; each stretch between regions changes the buffers it computes.  From
   the launch memory this fixes a chain of twelve valuations, and the statement proved is that every fair execution
   terminates and ends with every buffer at the last valuation of the chain.  Since no item writes an argument, the
   arguments end as launched; the two results end at what the second dense layer and the classifier wrote; and each
   region's inputs are read off the chain in terms of the arguments and the earlier regions' results.

   Nothing here depends on what the regions compute, only on which buffers they read and write, and nothing depends
   on the float instance. -/
import proofs.«143233_j59193239273550_1_alg».proof.Proof.Gen.KernelIdeal.Regions
import proofs.«143233_j59193239273550_1_alg».proof.Proof.KI.Colsum
import proofs.«143233_j59193239273550_1_alg».proof.Proof.KI.Gcn1
import proofs.«143233_j59193239273550_1_alg».proof.Proof.KI.Lin2
import proofs.«143233_j59193239273550_1_alg».proof.Proof.KI.Gcn3
import proofs.«143233_j59193239273550_1_alg».proof.Proof.KI.Lin4
import proofs.«143233_j59193239273550_1_alg».proof.Proof.KI.Lin5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the core's buffers hold between the items of the program

The program is eleven items: six kernel regions, and between consecutive regions a short stretch of reshapes,
transposes and one reciprocal square root.  A region changes exactly one buffer, its result; a stretch changes the
two or three buffers it computes.  So the contents after each item are the contents before it, overwritten in
those few places. -/

/-- A valuation of the device's buffers, read at the TensorCore's own references. -/
abbrev atTc (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := Gen.V0 m c
/-- After the column sums: `main_v0` holds what the first region's write-backs leave. -/
def W1 (c : Dev nD) : Valuation τ sig (Elt F) :=
  Function.update (W0 m c) main_v0 ((dat0 (atTc (W0 m)) c).arrAt 1 cfg0.N)
/-- After the scale vector is computed and reshaped to a column. -/
def W2 (c : Dev nD) : Valuation τ sig (Elt F) := StableHlo.after hostOps1 (W1 m c)
/-- After the first propagation: `main_v4`. -/
def W3 (c : Dev nD) : Valuation τ sig (Elt F) :=
  Function.update (W2 m c) main_v4 ((dat1 (atTc (W2 m)) c).arrAt 4 cfg1.N)
/-- After the first layer's weights are transposed and its bias made a row. -/
def W4 (c : Dev nD) : Valuation τ sig (Elt F) := StableHlo.after hostOps2 (W3 m c)
/-- After the first dense layer: `main_v7`. -/
def W5 (c : Dev nD) : Valuation τ sig (Elt F) :=
  Function.update (W4 m c) main_v7 ((dat2 (atTc (W4 m)) c).arrAt 3 cfg2.N)
/-- After the scale vector is reshaped a second time. -/
def W6 (c : Dev nD) : Valuation τ sig (Elt F) := StableHlo.after hostOps3 (W5 m c)
/-- After the second propagation: `main_v9`. -/
def W7 (c : Dev nD) : Valuation τ sig (Elt F) :=
  Function.update (W6 m c) main_v9 ((dat3 (atTc (W6 m)) c).arrAt 4 cfg3.N)
/-- After the second layer's weights and bias are prepared. -/
def W8 (c : Dev nD) : Valuation τ sig (Elt F) := StableHlo.after hostOps4 (W7 m c)
/-- After the second dense layer: `main_v12`, the hidden features. -/
def W9 (c : Dev nD) : Valuation τ sig (Elt F) :=
  Function.update (W8 m c) main_v12 ((dat4 (atTc (W8 m)) c).arrAt 3 cfg4.N)
/-- After the classifier's weights and bias are prepared. -/
def W10 (c : Dev nD) : Valuation τ sig (Elt F) := StableHlo.after hostOps5 (W9 m c)
/-- After the classifier: `main_v15`, the scores.  This is what the program ends with. -/
def W11 (c : Dev nD) : Valuation τ sig (Elt F) :=
  Function.update (W10 m c) main_v15 ((dat5 (atTc (W10 m)) c).arrAt 3 cfg5.N)
/-- The contents at the end of the program. -/
abbrev Wlast (c : Dev nD) : Valuation τ sig (Elt F) := W11 m c

/-! ### Reading the chain: at the buffer an item writes, and everywhere else -/

theorem W1_at (c : Dev nD) : W1 m c main_v0 = (dat0 (atTc (W0 m)) c).arrAt 1 cfg0.N := by
  unfold W1; exact Function.update_self _ _ _
theorem W1_off (c : Dev nD) (r : Ref sig .tc) (h : r ≠ main_v0) : W1 m c r = W0 m c r := by
  unfold W1; exact Function.update_of_ne (StableHlo.devRef_ne_of_ne h) _ _
theorem W2_off (c : Dev nD) (r : Ref sig .tc) (h : r ∉ Gen.hostOps1_W) : W2 m c r = W1 m c r :=
  StableHlo.after_of_writes_sub hostOps1 _ Gen.hostOps1_writes h
theorem W3_at (c : Dev nD) : W3 m c main_v4 = (dat1 (atTc (W2 m)) c).arrAt 4 cfg1.N := by
  unfold W3; exact Function.update_self _ _ _
theorem W3_off (c : Dev nD) (r : Ref sig .tc) (h : r ≠ main_v4) : W3 m c r = W2 m c r := by
  unfold W3; exact Function.update_of_ne (StableHlo.devRef_ne_of_ne h) _ _
theorem W4_off (c : Dev nD) (r : Ref sig .tc) (h : r ∉ Gen.hostOps2_W) : W4 m c r = W3 m c r :=
  StableHlo.after_of_writes_sub hostOps2 _ Gen.hostOps2_writes h
theorem W5_at (c : Dev nD) : W5 m c main_v7 = (dat2 (atTc (W4 m)) c).arrAt 3 cfg2.N := by
  unfold W5; exact Function.update_self _ _ _
theorem W5_off (c : Dev nD) (r : Ref sig .tc) (h : r ≠ main_v7) : W5 m c r = W4 m c r := by
  unfold W5; exact Function.update_of_ne (StableHlo.devRef_ne_of_ne h) _ _
theorem W6_off (c : Dev nD) (r : Ref sig .tc) (h : r ∉ Gen.hostOps3_W) : W6 m c r = W5 m c r :=
  StableHlo.after_of_writes_sub hostOps3 _ Gen.hostOps3_writes h
theorem W7_at (c : Dev nD) : W7 m c main_v9 = (dat3 (atTc (W6 m)) c).arrAt 4 cfg3.N := by
  unfold W7; exact Function.update_self _ _ _
theorem W7_off (c : Dev nD) (r : Ref sig .tc) (h : r ≠ main_v9) : W7 m c r = W6 m c r := by
  unfold W7; exact Function.update_of_ne (StableHlo.devRef_ne_of_ne h) _ _
theorem W8_off (c : Dev nD) (r : Ref sig .tc) (h : r ∉ Gen.hostOps4_W) : W8 m c r = W7 m c r :=
  StableHlo.after_of_writes_sub hostOps4 _ Gen.hostOps4_writes h
theorem W9_at (c : Dev nD) : W9 m c main_v12 = (dat4 (atTc (W8 m)) c).arrAt 3 cfg4.N := by
  unfold W9; exact Function.update_self _ _ _
theorem W9_off (c : Dev nD) (r : Ref sig .tc) (h : r ≠ main_v12) : W9 m c r = W8 m c r := by
  unfold W9; exact Function.update_of_ne (StableHlo.devRef_ne_of_ne h) _ _
theorem W10_off (c : Dev nD) (r : Ref sig .tc) (h : r ∉ Gen.hostOps5_W) : W10 m c r = W9 m c r :=
  StableHlo.after_of_writes_sub hostOps5 _ Gen.hostOps5_writes h
theorem W11_at (c : Dev nD) : W11 m c main_v15 = (dat5 (atTc (W10 m)) c).arrAt 3 cfg5.N := by
  unfold W11; exact Function.update_self _ _ _
theorem W11_off (c : Dev nD) (r : Ref sig .tc) (h : r ≠ main_v15) : W11 m c r = W10 m c r := by
  unfold W11; exact Function.update_of_ne (StableHlo.devRef_ne_of_ne h) _ _

/-! ## The proof data of the six regions, each taken at the contents its region is entered from -/

/-- One literal arm per region, so that the family at a numeral is that region's own data. -/
def pdats : (p : Fin 6) → (c : Dev nD) → Dat τ (Elt F) Unit ℕ (UR sig nD τ) ℕ (Pipeline.pin (pcfgs (F := F)) Gen.adm p) c
  | ⟨0, _⟩ => fun c => dat0 (atTc (W0 m)) c
  | ⟨1, _⟩ => fun c => dat1 (atTc (W2 m)) c
  | ⟨2, _⟩ => fun c => dat2 (atTc (W4 m)) c
  | ⟨3, _⟩ => fun c => dat3 (atTc (W6 m)) c
  | ⟨4, _⟩ => fun c => dat4 (atTc (W8 m)) c
  | ⟨5, _⟩ => fun c => dat5 (atTc (W10 m)) c

abbrev noVariants : Variants := Variants.none
/-- No core waits on another: no pair of a cell and an index carries a level. -/
abbrev noPairs : GSem nD τ sig → Finset Unit := fun _ => ∅
abbrev noLevel : GSem nD τ sig → Unit → ℕ := fun _ _ => 0

/-- What a core carries from item to item beside its buffers: its random-number register, in whatever state, and the
    record that it owes no other core anything. -/
abbrev carried (c : Dev nD) : sProp 𝕄 :=
  iprop((∃ r, prngReg c r) ∗ ∃ W, owes (c : Thread nD τ) (0 : CellTallies nD τ sig Unit) W)

/-- The state of a core between two items: every unscoped buffer at the contents `W`, and `carried`. -/
abbrev between (W : Dev nD → Valuation τ sig (Elt F)) (c : Dev nD) : sProp 𝕄 :=
  iprop(StableHlo.held (c : Thread nD τ) (Pipeline.ucRefs τ sig) (W c) ∗ carried c)

/-- A stretch of host operations run from the contents `W`: it ends at those contents pushed through the operations. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-! ## Small entailments used by every region -/

/-- Owing nothing, with no constraint on which waits were recorded, is what a region's data ask at a point where they
    owe nothing and bound nothing. -/
theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Dat.owesAt Pipeline.owesWithin Dat.bound
  rw [h0, hr]
  iintro ⟨%W, HO⟩
  iexists W
  isplitr
  · ipureintro; exact fun _ _ => Or.inl trivial
  iexact HO

/-- And back. -/
theorem owes_out {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Dat.owesAt Pipeline.owesWithin
  rw [h0]
  iintro ⟨%W, -, HO⟩
  iexists W
  iexact HO

/-! ## A region two of whose windows read one array

The two propagation regions are handed the scale column twice: once to be read along the rows of the block and once
along its columns.  The two windows cannot both own the buffer, so each holds one half of it: the full share of the
buffer is cut into its left and right halves on the way in and glued back on the way out.  The other windows own
their arrays outright, as everywhere else. -/

/-- A region's arrays as points-tos of the buffers behind them, each at the share the region's data say. -/
theorem arrays_shares {cfg : Cfg sig Λ₀} {c : Dev nD} (dat : Dat τ (Elt F) Unit ℕ (UR sig nD τ) ℕ cfg c)
    (harr : ∀ w, (cfg.spec w).arr.IsWhole)
    (G : (w : Fin cfg.W) → Buf (Elt F) ((cfg.win w).arr.view.loc (c : Thread nD τ))) :
    (dat.arrays G : sProp 𝕄)
      = bigSep Finset.univ fun w => ((((c : Thread nD τ).loc (Pipeline.arrRef cfg.spec w)) ↦{dat.share w} G w : sProp 𝕄)) := by
  unfold Dat.arrays
  exact bigSep_congr fun w _ => by rw [(harr w).set_eq_univ]

/-! ## Region 0: the column sums of the adjacency matrix -/

/-- When the region ends, each of its windows' arrays holds what the chain says: an input is as it was found, the
    result is what the write-backs left. -/
theorem exit0 (c : Dev nD) : ∀ w : Fin cfg0.W, (dat0 (atTc (W0 m)) c).arrAt w cfg0.N = atTc (W1 m) c (Pipeline.arrRef spec0 w)
  | ⟨0, _⟩ => ((dat0 (atTc (W0 m)) c).arrAt_in 0 rfl _).trans ((A_eq0 (atTc (W0 m)) c 0).trans (W1_off m c main_arg1 (by decide)).symm)
  | ⟨1, _⟩ => (W1_at m c).symm

/-- Every buffer that is none of the region's arrays is as the region found it. -/
theorem keep0 (c : Dev nD) (b : Ref sig .tc) (hb : b ∉ Finset.univ.image (Pipeline.arrRef spec0)) :
    atTc (W1 m) c b = atTc (W0 m) c b :=
  W1_off m c b fun e => hb (e ▸ Finset.mem_image.mpr ⟨1, Finset.mem_univ _, rfl⟩)

-- the library's lemmas are stated at a pipeline index under `Pipeline.pin`; matching them against this region's own
-- configuration unfolds definitions inside types
set_option backward.isDefEq.respectTransparency.types false in
/-- The first region as an item of the program: entered with the buffers as launched, left with `main_v0` holding the column sums' buffer.  Its two arrays are taken out of the core's buffers and put back; the register goes into the region's invariant and comes back; nothing is owed; the kernel has no semaphore of its own. -/
def reg0 : Pipeline.RegionSeg (pcfgs (F := F)) Gen.adm (pdats m) () defs₀ noVariants noPairs noLevel 0 where
  win := Gen.launch0.win.to₀
  block_pos := Gen.launch0.block_pos
  stage_whole := Gen.launch0.stage_whole
  K := PEmpty
  osem k := k.elim
  ho := Pipeline.OwnSemFacts.none _
  hbody c := (body_obligation0 (atTc (W0 m)) c).loose
  hwaits := Pipeline.hwaits_of_owed_zero _ _ _ _ noPairs noLevel 0 fun _ _ => rfl
  pre := between (W0 m)
  post := between (W1 m)
  X c := iprop(∃ r, prngReg c r)
  Y c := iprop(∃ r, prngReg c r)
  Z c := Pipeline.unscopedRest (Ix := Unit) (Name := ℕ) (U := UR sig nD τ) (Lvl := ℕ) spec0 c (atTc (W0 m) c)
  hentry c := by
    rw [Pipeline.ownSems0_none]
    have hs := Pipeline.arrays_of_unscopedBufs (p := 0) (pcfgs (F := F)) Gen.adm (pdats m) Gen.launch0.win Gen.launch0.arr_whole c
      ((pdats m 0 c).share_full fun _ => rfl) (atTc (W0 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 0 c) 0 rfl rfl); iexact Ho
    isplitl [Hg]; · iexact Hg
    iexact Hz
  hin c := by
    rw [show (pdats m 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]; unfold Pipeline.ΦA
    iintro ⟨Hs, Hg⟩
    isplitl [Hg]; · iexact Hg
    isplitr; · iempintro
    iexact Hs
  hexit c := by
    have hj := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (atTc (W0 m) c) (atTc (W1 m) c) ((pdats m 0 c).arrAt · cfg0.N) (exit0 m c) (keep0 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 0 c) (Fin.last _) rfl); iexact Ho

/-! ## Region 1: the first propagation -/

/-- The four buffers behind the region's five windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_arg1) ↦{fullShare} V main_arg1)
          ∗ (((c : Thread nD τ).loc main_arg0) ↦{fullShare} V main_arg0) ∗ (((c : Thread nD τ).loc main_v4) ↦{fullShare} V main_v4)) := by
  unfold Pipeline.arrBufs
  exact bigSep_eq_bigSepL_of_eq [main_v3, main_arg1, main_arg0, main_v4] (by decide) (by decide) _

section
variable (V : (c : Dev nD) → (b : Ref sig .tc) → Buf (Elt F) ((c : Thread nD τ).loc b))

/-- The share each window holds its array at: the two readers of the scale column a half each, the rest everything. -/
theorem share1_0 (c : Dev nD) : (dat1 V c).share 0 = fullShare.left := by
  unfold Dat.share; exact (if_neg (by decide)).trans (q1_0 V c)
theorem share1_1 (c : Dev nD) : (dat1 V c).share 1 = fullShare.right := by
  unfold Dat.share; exact (if_neg (by decide)).trans (q1_1 V c)
theorem share1_2 (c : Dev nD) : (dat1 V c).share 2 = fullShare := by
  unfold Dat.share; exact (if_neg (by decide)).trans (q1_2 V c)
theorem share1_3 (c : Dev nD) : (dat1 V c).share 3 = fullShare := by
  unfold Dat.share; exact (if_neg (by decide)).trans (q1_3 V c)
theorem share1_4 (c : Dev nD) : (dat1 V c).share 4 = fullShare := by
  unfold Dat.share; exact if_pos (by decide)

/-- The region's arrays, window by window, over those four buffers. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_arg1) ↦{fullShare} G 2) ∗ (((c : Thread nD τ).loc main_arg0) ↦{fullShare} G 3)
          ∗ (((c : Thread nD τ).loc main_v4) ↦{fullShare} G 4)) := by
  rw [arrays_shares (dat1 V c) Gen.arr_whole1 G, Gen.bigSep_W1, share1_0, share1_1, share1_2, share1_3, share1_4]
end

/-- When the region ends, each of its windows' arrays holds what the chain says. -/
theorem exit1 (c : Dev nD) : ∀ w : Fin cfg1.W, (dat1 (atTc (W2 m)) c).arrAt w cfg1.N = atTc (W3 m) c (Pipeline.arrRef spec1 w)
  | ⟨0, _⟩ => ((dat1 (atTc (W2 m)) c).arrAt_in 0 rfl _).trans ((A_eq1 (atTc (W2 m)) c 0).trans (W3_off m c main_v3 (by decide)).symm)
  | ⟨1, _⟩ => ((dat1 (atTc (W2 m)) c).arrAt_in 1 rfl _).trans ((A_eq1 (atTc (W2 m)) c 1).trans (W3_off m c main_v3 (by decide)).symm)
  | ⟨2, _⟩ => ((dat1 (atTc (W2 m)) c).arrAt_in 2 rfl _).trans ((A_eq1 (atTc (W2 m)) c 2).trans (W3_off m c main_arg1 (by decide)).symm)
  | ⟨3, _⟩ => ((dat1 (atTc (W2 m)) c).arrAt_in 3 rfl _).trans ((A_eq1 (atTc (W2 m)) c 3).trans (W3_off m c main_arg0 (by decide)).symm)
  | ⟨4, _⟩ => (W3_at m c).symm

/-- Every buffer that is none of the region's arrays is as the region found it. -/
theorem keep1 (c : Dev nD) (b : Ref sig .tc) (hb : b ∉ Finset.univ.image (Pipeline.arrRef spec1)) :
    atTc (W3 m) c b = atTc (W2 m) c b :=
  W3_off m c b fun e => hb (e ▸ Finset.mem_image.mpr ⟨4, Finset.mem_univ _, rfl⟩)

/-- Going in: the core's buffers are the region's arrays, the scale column cut in two, and the rest. -/
theorem enter1 (c : Dev nD) :
    (StableHlo.held (c : Thread nD τ) (Pipeline.ucRefs τ sig) (W2 m c) : sProp 𝕄)
      ⊢ iprop((dat1 (atTc (W2 m)) c).arrays ((dat1 (atTc (W2 m)) c).arrAt · 0)
          ∗ Pipeline.unscopedRest (Ix := Unit) (Name := ℕ) (U := UR sig nD τ) (Lvl := ℕ) spec1 c (atTc (W2 m) c)) := by
  have hG : ((dat1 (atTc (W2 m)) c).arrAt · 0) = fun w => atTc (W2 m) c (Pipeline.arrRef spec1 w) :=
    funext fun w => A_eq1 (atTc (W2 m)) c w
  rw [← Pipeline.unscopedBufs_held (Ix := Unit) (Name := ℕ) (U := UR sig nD τ) (Lvl := ℕ) c (W2 m c),
    Pipeline.unscopedBufs_split₀ cfgs 1 Gen.winFacts₀1.arr_unscoped c, hG, arrays1_eq,
    show (Pipeline.arrBufs (cfgs 1).spec c (fun b => W2 m c b) : sProp 𝕄) = Pipeline.arrBufs spec1 c (atTc (W2 m) c) from rfl,
    arrBufs1_eq]
  refine sep_mono ?_ .rfl
  iintro ⟨Hd, HA, HB, HO⟩
  ihave Hd := (pointsTo_share (PosShare.mem_left_op_right fullShare)).1 $$ Hd
  icases Hd with ⟨Hl, Hr⟩
  isplitl [Hl]; · iexact Hl
  isplitl [Hr]; · iexact Hr
  isplitl [HA]; · iexact HA
  isplitl [HB]; · iexact HB
  iexact HO

/-- Coming out: the halves glued back, the result in place, the rest untouched. -/
theorem leave1 (c : Dev nD) :
    (iprop((dat1 (atTc (W2 m)) c).arrays ((dat1 (atTc (W2 m)) c).arrAt · cfg1.N)
          ∗ Pipeline.unscopedRest (Ix := Unit) (Name := ℕ) (U := UR sig nD τ) (Lvl := ℕ) spec1 c (atTc (W2 m) c)) : sProp 𝕄)
      ⊢ StableHlo.held (c : Thread nD τ) (Pipeline.ucRefs τ sig) (W3 m c) := by
  have hG : ((dat1 (atTc (W2 m)) c).arrAt · cfg1.N) = fun w => atTc (W3 m) c (Pipeline.arrRef spec1 w) :=
    funext fun w => exit1 m c w
  rw [← Pipeline.unscopedBufs_held (Ix := Unit) (Name := ℕ) (U := UR sig nD τ) (Lvl := ℕ) c (W3 m c),
    Pipeline.unscopedBufs_split₀ cfgs 1 Gen.winFacts₀1.arr_unscoped c, hG, arrays1_eq,
    show (Pipeline.arrBufs (cfgs 1).spec c (fun b => W3 m c b) : sProp 𝕄) = Pipeline.arrBufs spec1 c (atTc (W3 m) c) from rfl,
    arrBufs1_eq]
  refine sep_mono ?_ (Entails.of_eq ?_)
  · iintro ⟨Hl, Hr, HA, HB, HO⟩
    isplitl [Hl Hr]
    · iapply (pointsTo_share (PosShare.mem_left_op_right fullShare)).2
      isplitl [Hl]; · iexact Hl
      iexact Hr
    isplitl [HA]; · iexact HA
    isplitl [HB]; · iexact HB
    iexact HO
  · unfold Pipeline.unscopedRest
    exact bigSep_congr fun b hb => congrArg (fun f : Buf (Elt F) ((c : Thread nD τ).loc b) => ((((c : Thread nD τ).loc b) ↦{fullShare} f : sProp 𝕄)))
      (keep1 m c b (Finset.mem_sdiff.mp hb).2).symm

-- the library's lemmas are stated at a pipeline index under `Pipeline.pin`; matching them against this region's own
-- configuration unfolds definitions inside types
set_option backward.isDefEq.respectTransparency.types false in
/-- The second region as an item of the program: entered after the scale column is computed, left with `main_v4` holding the propagated input features.  Besides what every region does, the scale column's buffer is cut in two for its two readers and glued back, and the accumulator the kernel keeps between grid points is found among the core's scoped buffers and returned to them. -/
def reg1 : Pipeline.RegionSeg (pcfgs (F := F)) Gen.adm (pdats m) () defs₀ noVariants noPairs noLevel 1 where
  win := Gen.winFacts₀1
  block_pos := Gen.block_pos1
  stage_whole := Gen.stage_whole1
  K := PEmpty
  osem k := k.elim
  ho := Pipeline.OwnSemFacts.none _
  hbody c := (body_obligation1 (atTc (W2 m)) c).loose
  hwaits := Pipeline.hwaits_of_owed_zero _ _ _ _ noPairs noLevel 1 fun _ _ => rfl
  pre := between (W2 m)
  post := between (W3 m)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none]
    iintro ⟨⟨Hb, Hg, Ho⟩, -, -⟩
    ihave Hs := (enter1 m c) $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 1 c) 0 rfl rfl); iexact Ho
    isplitl [Hg]; · iexact Hg
    iexact Hz
  hin c := by
    refine .trans ?_ (Phi1_first (atTc (W2 m)) c)
    unfold Pipeline.ΦA
    iintro ⟨Hg, -, Hs⟩
    isplitl [Hs]; · iexact Hs
    iexact Hg
  hout c := by
    rw [Pipeline.ownSems0_none]
    refine (Phi1_last (atTc (W2 m)) c).trans ?_
    unfold Pipeline.ΦA
    iintro ⟨Hs, Hg⟩
    isplitl [Hg]; · iexact Hg
    isplitr; · iempintro
    iexact Hs
  hexit c := by
    iintro ⟨Ha, Ho, Hg, Hz⟩
    imodintro
    isplitl [Ha Hz]
    · iapply (leave1 m c)
      isplitl [Ha]; · iexact Ha
      iexact Hz
    isplitl [Hg]; · iexact Hg
    iapply (owes_out (pdats m 1 c) (Fin.last _) rfl); iexact Ho

/-! ## Region 2: the first dense layer -/

/-- When the region ends, each of its windows' arrays holds what the chain says: an input is as it was found, the
    result is what the write-backs left. -/
theorem exit2 (c : Dev nD) : ∀ w : Fin cfg2.W, (dat2 (atTc (W4 m)) c).arrAt w cfg2.N = atTc (W5 m) c (Pipeline.arrRef spec2 w)
  | ⟨0, _⟩ => ((dat2 (atTc (W4 m)) c).arrAt_in 0 rfl _).trans ((A_eq2 (atTc (W4 m)) c 0).trans (W5_off m c main_v4 (by decide)).symm)
  | ⟨1, _⟩ => ((dat2 (atTc (W4 m)) c).arrAt_in 1 rfl _).trans ((A_eq2 (atTc (W4 m)) c 1).trans (W5_off m c main_v5 (by decide)).symm)
  | ⟨2, _⟩ => ((dat2 (atTc (W4 m)) c).arrAt_in 2 rfl _).trans ((A_eq2 (atTc (W4 m)) c 2).trans (W5_off m c main_v6 (by decide)).symm)
  | ⟨3, _⟩ => (W5_at m c).symm

/-- Every buffer that is none of the region's arrays is as the region found it. -/
theorem keep2 (c : Dev nD) (b : Ref sig .tc) (hb : b ∉ Finset.univ.image (Pipeline.arrRef spec2)) :
    atTc (W5 m) c b = atTc (W4 m) c b :=
  W5_off m c b fun e => hb (e ▸ Finset.mem_image.mpr ⟨3, Finset.mem_univ _, rfl⟩)

-- the library's lemmas are stated at a pipeline index under `Pipeline.pin`; matching them against this region's own
-- configuration unfolds definitions inside types
set_option backward.isDefEq.respectTransparency.types false in
/-- The third region as an item of the program: entered after the first layer's weights are prepared, left with `main_v7` holding the layer's output. -/
def reg2 : Pipeline.RegionSeg (pcfgs (F := F)) Gen.adm (pdats m) () defs₀ noVariants noPairs noLevel 2 where
  win := Gen.launch2.win.to₀
  block_pos := Gen.launch2.block_pos
  stage_whole := Gen.launch2.stage_whole
  K := PEmpty
  osem k := k.elim
  ho := Pipeline.OwnSemFacts.none _
  hbody c := (body_obligation2 (atTc (W4 m)) c).loose
  hwaits := Pipeline.hwaits_of_owed_zero _ _ _ _ noPairs noLevel 2 fun _ _ => rfl
  pre := between (W4 m)
  post := between (W5 m)
  X c := iprop(∃ r, prngReg c r)
  Y c := iprop(∃ r, prngReg c r)
  Z c := Pipeline.unscopedRest (Ix := Unit) (Name := ℕ) (U := UR sig nD τ) (Lvl := ℕ) spec2 c (atTc (W4 m) c)
  hentry c := by
    rw [Pipeline.ownSems0_none]
    have hs := Pipeline.arrays_of_unscopedBufs (p := 2) (pcfgs (F := F)) Gen.adm (pdats m) Gen.launch2.win Gen.launch2.arr_whole c
      ((pdats m 2 c).share_full fun _ => rfl) (atTc (W4 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 2 c) 0 rfl rfl); iexact Ho
    isplitl [Hg]; · iexact Hg
    iexact Hz
  hin c := by
    rw [show (pdats m 2 c).Φ 0 = Pipeline.ΦA spec2 c from rfl]; unfold Pipeline.ΦA
    iintro ⟨Hg, -, Hs⟩
    isplitl [Hs]; · iexact Hs
    iexact Hg
  hout c := by
    rw [Pipeline.ownSems0_none, show (pdats m 2 c).Φ (Fin.last _) = Pipeline.ΦA spec2 c from rfl]; unfold Pipeline.ΦA
    iintro ⟨Hs, Hg⟩
    isplitl [Hg]; · iexact Hg
    isplitr; · iempintro
    iexact Hs
  hexit c := by
    have hj := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (atTc (W4 m) c) (atTc (W5 m) c) ((pdats m 2 c).arrAt · cfg2.N) (exit2 m c) (keep2 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 2 c) (Fin.last _) rfl); iexact Ho

/-! ## Region 3: the second propagation -/

/-- The four buffers behind the region's five windows. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v8) ↦{fullShare} V main_v8) ∗ (((c : Thread nD τ).loc main_arg1) ↦{fullShare} V main_arg1)
          ∗ (((c : Thread nD τ).loc main_v7) ↦{fullShare} V main_v7) ∗ (((c : Thread nD τ).loc main_v9) ↦{fullShare} V main_v9)) := by
  unfold Pipeline.arrBufs
  exact bigSep_eq_bigSepL_of_eq [main_v8, main_arg1, main_v7, main_v9] (by decide) (by decide) _

section
variable (V : (c : Dev nD) → (b : Ref sig .tc) → Buf (Elt F) ((c : Thread nD τ).loc b))

/-- The share each window holds its array at: the two readers of the scale column a half each, the rest everything. -/
theorem share3_0 (c : Dev nD) : (dat3 V c).share 0 = fullShare.left := by
  unfold Dat.share; exact (if_neg (by decide)).trans (q3_0 V c)
theorem share3_1 (c : Dev nD) : (dat3 V c).share 1 = fullShare.right := by
  unfold Dat.share; exact (if_neg (by decide)).trans (q3_1 V c)
theorem share3_2 (c : Dev nD) : (dat3 V c).share 2 = fullShare := by
  unfold Dat.share; exact (if_neg (by decide)).trans (q3_2 V c)
theorem share3_3 (c : Dev nD) : (dat3 V c).share 3 = fullShare := by
  unfold Dat.share; exact (if_neg (by decide)).trans (q3_3 V c)
theorem share3_4 (c : Dev nD) : (dat3 V c).share 4 = fullShare := by
  unfold Dat.share; exact if_pos (by decide)

/-- The region's arrays, window by window, over those four buffers. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v8) ↦{fullShare.left} G 0) ∗ (((c : Thread nD τ).loc main_v8) ↦{fullShare.right} G 1)
          ∗ (((c : Thread nD τ).loc main_arg1) ↦{fullShare} G 2) ∗ (((c : Thread nD τ).loc main_v7) ↦{fullShare} G 3)
          ∗ (((c : Thread nD τ).loc main_v9) ↦{fullShare} G 4)) := by
  rw [arrays_shares (dat3 V c) Gen.arr_whole3 G, Gen.bigSep_W3, share3_0, share3_1, share3_2, share3_3, share3_4]
end

/-- When the region ends, each of its windows' arrays holds what the chain says. -/
theorem exit3 (c : Dev nD) : ∀ w : Fin cfg3.W, (dat3 (atTc (W6 m)) c).arrAt w cfg3.N = atTc (W7 m) c (Pipeline.arrRef spec3 w)
  | ⟨0, _⟩ => ((dat3 (atTc (W6 m)) c).arrAt_in 0 rfl _).trans ((A_eq3 (atTc (W6 m)) c 0).trans (W7_off m c main_v8 (by decide)).symm)
  | ⟨1, _⟩ => ((dat3 (atTc (W6 m)) c).arrAt_in 1 rfl _).trans ((A_eq3 (atTc (W6 m)) c 1).trans (W7_off m c main_v8 (by decide)).symm)
  | ⟨2, _⟩ => ((dat3 (atTc (W6 m)) c).arrAt_in 2 rfl _).trans ((A_eq3 (atTc (W6 m)) c 2).trans (W7_off m c main_arg1 (by decide)).symm)
  | ⟨3, _⟩ => ((dat3 (atTc (W6 m)) c).arrAt_in 3 rfl _).trans ((A_eq3 (atTc (W6 m)) c 3).trans (W7_off m c main_v7 (by decide)).symm)
  | ⟨4, _⟩ => (W7_at m c).symm

/-- Every buffer that is none of the region's arrays is as the region found it. -/
theorem keep3 (c : Dev nD) (b : Ref sig .tc) (hb : b ∉ Finset.univ.image (Pipeline.arrRef spec3)) :
    atTc (W7 m) c b = atTc (W6 m) c b :=
  W7_off m c b fun e => hb (e ▸ Finset.mem_image.mpr ⟨4, Finset.mem_univ _, rfl⟩)

/-- Going in: the core's buffers are the region's arrays, the scale column cut in two, and the rest. -/
theorem enter3 (c : Dev nD) :
    (StableHlo.held (c : Thread nD τ) (Pipeline.ucRefs τ sig) (W6 m c) : sProp 𝕄)
      ⊢ iprop((dat3 (atTc (W6 m)) c).arrays ((dat3 (atTc (W6 m)) c).arrAt · 0)
          ∗ Pipeline.unscopedRest (Ix := Unit) (Name := ℕ) (U := UR sig nD τ) (Lvl := ℕ) spec3 c (atTc (W6 m) c)) := by
  have hG : ((dat3 (atTc (W6 m)) c).arrAt · 0) = fun w => atTc (W6 m) c (Pipeline.arrRef spec3 w) :=
    funext fun w => A_eq3 (atTc (W6 m)) c w
  rw [← Pipeline.unscopedBufs_held (Ix := Unit) (Name := ℕ) (U := UR sig nD τ) (Lvl := ℕ) c (W6 m c),
    Pipeline.unscopedBufs_split₀ cfgs 3 Gen.winFacts₀3.arr_unscoped c, hG, arrays3_eq,
    show (Pipeline.arrBufs (cfgs 3).spec c (fun b => W6 m c b) : sProp 𝕄) = Pipeline.arrBufs spec3 c (atTc (W6 m) c) from rfl,
    arrBufs3_eq]
  refine sep_mono ?_ .rfl
  iintro ⟨Hd, HA, HB, HO⟩
  ihave Hd := (pointsTo_share (PosShare.mem_left_op_right fullShare)).1 $$ Hd
  icases Hd with ⟨Hl, Hr⟩
  isplitl [Hl]; · iexact Hl
  isplitl [Hr]; · iexact Hr
  isplitl [HA]; · iexact HA
  isplitl [HB]; · iexact HB
  iexact HO

/-- Coming out: the halves glued back, the result in place, the rest untouched. -/
theorem leave3 (c : Dev nD) :
    (iprop((dat3 (atTc (W6 m)) c).arrays ((dat3 (atTc (W6 m)) c).arrAt · cfg3.N)
          ∗ Pipeline.unscopedRest (Ix := Unit) (Name := ℕ) (U := UR sig nD τ) (Lvl := ℕ) spec3 c (atTc (W6 m) c)) : sProp 𝕄)
      ⊢ StableHlo.held (c : Thread nD τ) (Pipeline.ucRefs τ sig) (W7 m c) := by
  have hG : ((dat3 (atTc (W6 m)) c).arrAt · cfg3.N) = fun w => atTc (W7 m) c (Pipeline.arrRef spec3 w) :=
    funext fun w => exit3 m c w
  rw [← Pipeline.unscopedBufs_held (Ix := Unit) (Name := ℕ) (U := UR sig nD τ) (Lvl := ℕ) c (W7 m c),
    Pipeline.unscopedBufs_split₀ cfgs 3 Gen.winFacts₀3.arr_unscoped c, hG, arrays3_eq,
    show (Pipeline.arrBufs (cfgs 3).spec c (fun b => W7 m c b) : sProp 𝕄) = Pipeline.arrBufs spec3 c (atTc (W7 m) c) from rfl,
    arrBufs3_eq]
  refine sep_mono ?_ (Entails.of_eq ?_)
  · iintro ⟨Hl, Hr, HA, HB, HO⟩
    isplitl [Hl Hr]
    · iapply (pointsTo_share (PosShare.mem_left_op_right fullShare)).2
      isplitl [Hl]; · iexact Hl
      iexact Hr
    isplitl [HA]; · iexact HA
    isplitl [HB]; · iexact HB
    iexact HO
  · unfold Pipeline.unscopedRest
    exact bigSep_congr fun b hb => congrArg (fun f : Buf (Elt F) ((c : Thread nD τ).loc b) => ((((c : Thread nD τ).loc b) ↦{fullShare} f : sProp 𝕄)))
      (keep3 m c b (Finset.mem_sdiff.mp hb).2).symm

-- the library's lemmas are stated at a pipeline index under `Pipeline.pin`; matching them against this region's own
-- configuration unfolds definitions inside types
set_option backward.isDefEq.respectTransparency.types false in
/-- The fourth region as an item of the program: entered after the scale column is reshaped again, left with `main_v9` holding the propagated first-layer features; otherwise as the first propagation. -/
def reg3 : Pipeline.RegionSeg (pcfgs (F := F)) Gen.adm (pdats m) () defs₀ noVariants noPairs noLevel 3 where
  win := Gen.winFacts₀3
  block_pos := Gen.block_pos3
  stage_whole := Gen.stage_whole3
  K := PEmpty
  osem k := k.elim
  ho := Pipeline.OwnSemFacts.none _
  hbody c := (body_obligation3 (atTc (W6 m)) c).loose
  hwaits := Pipeline.hwaits_of_owed_zero _ _ _ _ noPairs noLevel 3 fun _ _ => rfl
  pre := between (W6 m)
  post := between (W7 m)
  X c := iprop(∃ r, prngReg c r)
  Y c := iprop(∃ r, prngReg c r)
  Z c := Pipeline.unscopedRest (Ix := Unit) (Name := ℕ) (U := UR sig nD τ) (Lvl := ℕ) spec3 c (atTc (W6 m) c)
  hentry c := by
    rw [Pipeline.ownSems0_none]
    iintro ⟨⟨Hb, Hg, Ho⟩, -, -⟩
    ihave Hs := (enter3 m c) $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 3 c) 0 rfl rfl); iexact Ho
    isplitl [Hg]; · iexact Hg
    iexact Hz
  hin c := by
    refine .trans ?_ (Phi3_first (atTc (W6 m)) c)
    unfold Pipeline.ΦA
    iintro ⟨Hg, -, Hs⟩
    isplitl [Hs]; · iexact Hs
    iexact Hg
  hout c := by
    rw [Pipeline.ownSems0_none]
    refine (Phi3_last (atTc (W6 m)) c).trans ?_
    unfold Pipeline.ΦA
    iintro ⟨Hs, Hg⟩
    isplitl [Hg]; · iexact Hg
    isplitr; · iempintro
    iexact Hs
  hexit c := by
    iintro ⟨Ha, Ho, Hg, Hz⟩
    imodintro
    isplitl [Ha Hz]
    · iapply (leave3 m c)
      isplitl [Ha]; · iexact Ha
      iexact Hz
    isplitl [Hg]; · iexact Hg
    iapply (owes_out (pdats m 3 c) (Fin.last _) rfl); iexact Ho

/-! ## Region 4: the second dense layer -/

/-- When the region ends, each of its windows' arrays holds what the chain says: an input is as it was found, the
    result is what the write-backs left. -/
theorem exit4 (c : Dev nD) : ∀ w : Fin cfg4.W, (dat4 (atTc (W8 m)) c).arrAt w cfg4.N = atTc (W9 m) c (Pipeline.arrRef spec4 w)
  | ⟨0, _⟩ => ((dat4 (atTc (W8 m)) c).arrAt_in 0 rfl _).trans ((A_eq4 (atTc (W8 m)) c 0).trans (W9_off m c main_v9 (by decide)).symm)
  | ⟨1, _⟩ => ((dat4 (atTc (W8 m)) c).arrAt_in 1 rfl _).trans ((A_eq4 (atTc (W8 m)) c 1).trans (W9_off m c main_v10 (by decide)).symm)
  | ⟨2, _⟩ => ((dat4 (atTc (W8 m)) c).arrAt_in 2 rfl _).trans ((A_eq4 (atTc (W8 m)) c 2).trans (W9_off m c main_v11 (by decide)).symm)
  | ⟨3, _⟩ => (W9_at m c).symm

/-- Every buffer that is none of the region's arrays is as the region found it. -/
theorem keep4 (c : Dev nD) (b : Ref sig .tc) (hb : b ∉ Finset.univ.image (Pipeline.arrRef spec4)) :
    atTc (W9 m) c b = atTc (W8 m) c b :=
  W9_off m c b fun e => hb (e ▸ Finset.mem_image.mpr ⟨3, Finset.mem_univ _, rfl⟩)

-- the library's lemmas are stated at a pipeline index under `Pipeline.pin`; matching them against this region's own
-- configuration unfolds definitions inside types
set_option backward.isDefEq.respectTransparency.types false in
/-- The fifth region as an item of the program: entered after the second layer's weights are prepared, left with `main_v12` holding the hidden features. -/
def reg4 : Pipeline.RegionSeg (pcfgs (F := F)) Gen.adm (pdats m) () defs₀ noVariants noPairs noLevel 4 where
  win := Gen.launch4.win.to₀
  block_pos := Gen.launch4.block_pos
  stage_whole := Gen.launch4.stage_whole
  K := PEmpty
  osem k := k.elim
  ho := Pipeline.OwnSemFacts.none _
  hbody c := (body_obligation4 (atTc (W8 m)) c).loose
  hwaits := Pipeline.hwaits_of_owed_zero _ _ _ _ noPairs noLevel 4 fun _ _ => rfl
  pre := between (W8 m)
  post := between (W9 m)
  X c := iprop(∃ r, prngReg c r)
  Y c := iprop(∃ r, prngReg c r)
  Z c := Pipeline.unscopedRest (Ix := Unit) (Name := ℕ) (U := UR sig nD τ) (Lvl := ℕ) spec4 c (atTc (W8 m) c)
  hentry c := by
    rw [Pipeline.ownSems0_none]
    have hs := Pipeline.arrays_of_unscopedBufs (p := 4) (pcfgs (F := F)) Gen.adm (pdats m) Gen.launch4.win Gen.launch4.arr_whole c
      ((pdats m 4 c).share_full fun _ => rfl) (atTc (W8 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 4 c) 0 rfl rfl); iexact Ho
    isplitl [Hg]; · iexact Hg
    iexact Hz
  hin c := by
    rw [show (pdats m 4 c).Φ 0 = Pipeline.ΦA spec4 c from rfl]; unfold Pipeline.ΦA
    iintro ⟨Hg, -, Hs⟩
    isplitl [Hs]; · iexact Hs
    iexact Hg
  hout c := by
    rw [Pipeline.ownSems0_none, show (pdats m 4 c).Φ (Fin.last _) = Pipeline.ΦA spec4 c from rfl]; unfold Pipeline.ΦA
    iintro ⟨Hs, Hg⟩
    isplitl [Hg]; · iexact Hg
    isplitr; · iempintro
    iexact Hs
  hexit c := by
    have hj := Pipeline.unscopedBufs_of_arrays (p := 4) (pcfgs (F := F)) Gen.adm (Ix := Unit) (Name := ℕ) (U := UR sig nD τ) (Lvl := ℕ)
      Gen.launch4.win Gen.launch4.arr_whole c (pdats m) ((pdats m 4 c).share_full fun _ => rfl)
      (atTc (W8 m) c) (atTc (W9 m) c) ((pdats m 4 c).arrAt · cfg4.N) (exit4 m c) (keep4 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 4 c) (Fin.last _) rfl); iexact Ho

/-! ## Region 5: the classifier -/

/-- When the region ends, each of its windows' arrays holds what the chain says: an input is as it was found, the
    result is what the write-backs left. -/
theorem exit5 (c : Dev nD) : ∀ w : Fin cfg5.W, (dat5 (atTc (W10 m)) c).arrAt w cfg5.N = atTc (W11 m) c (Pipeline.arrRef spec5 w)
  | ⟨0, _⟩ => ((dat5 (atTc (W10 m)) c).arrAt_in 0 rfl _).trans ((A_eq5 (atTc (W10 m)) c 0).trans (W11_off m c main_v12 (by decide)).symm)
  | ⟨1, _⟩ => ((dat5 (atTc (W10 m)) c).arrAt_in 1 rfl _).trans ((A_eq5 (atTc (W10 m)) c 1).trans (W11_off m c main_v13 (by decide)).symm)
  | ⟨2, _⟩ => ((dat5 (atTc (W10 m)) c).arrAt_in 2 rfl _).trans ((A_eq5 (atTc (W10 m)) c 2).trans (W11_off m c main_v14 (by decide)).symm)
  | ⟨3, _⟩ => (W11_at m c).symm

/-- Every buffer that is none of the region's arrays is as the region found it. -/
theorem keep5 (c : Dev nD) (b : Ref sig .tc) (hb : b ∉ Finset.univ.image (Pipeline.arrRef spec5)) :
    atTc (W11 m) c b = atTc (W10 m) c b :=
  W11_off m c b fun e => hb (e ▸ Finset.mem_image.mpr ⟨3, Finset.mem_univ _, rfl⟩)

-- the library's lemmas are stated at a pipeline index under `Pipeline.pin`; matching them against this region's own
-- configuration unfolds definitions inside types
set_option backward.isDefEq.respectTransparency.types false in
/-- The last region as an item of the program: entered after the classifier's weights are prepared, left with `main_v15` holding the scores. -/
def reg5 : Pipeline.RegionSeg (pcfgs (F := F)) Gen.adm (pdats m) () defs₀ noVariants noPairs noLevel 5 where
  win := Gen.launch5.win.to₀
  block_pos := Gen.launch5.block_pos
  stage_whole := Gen.launch5.stage_whole
  K := PEmpty
  osem k := k.elim
  ho := Pipeline.OwnSemFacts.none _
  hbody c := (body_obligation5 (atTc (W10 m)) c).loose
  hwaits := Pipeline.hwaits_of_owed_zero _ _ _ _ noPairs noLevel 5 fun _ _ => rfl
  pre := between (W10 m)
  post := between (W11 m)
  X c := iprop(∃ r, prngReg c r)
  Y c := iprop(∃ r, prngReg c r)
  Z c := Pipeline.unscopedRest (Ix := Unit) (Name := ℕ) (U := UR sig nD τ) (Lvl := ℕ) spec5 c (atTc (W10 m) c)
  hentry c := by
    rw [Pipeline.ownSems0_none]
    have hs := Pipeline.arrays_of_unscopedBufs (p := 5) (pcfgs (F := F)) Gen.adm (pdats m) Gen.launch5.win Gen.launch5.arr_whole c
      ((pdats m 5 c).share_full fun _ => rfl) (atTc (W10 m) c) fun _ => rfl
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]; · iapply (owes_in (pdats m 5 c) 0 rfl rfl); iexact Ho
    isplitl [Hg]; · iexact Hg
    iexact Hz
  hin c := by
    rw [show (pdats m 5 c).Φ 0 = Pipeline.ΦA spec5 c from rfl]; unfold Pipeline.ΦA
    iintro ⟨Hg, -, Hs⟩
    isplitl [Hs]; · iexact Hs
    iexact Hg
  hout c := by
    rw [Pipeline.ownSems0_none, show (pdats m 5 c).Φ (Fin.last _) = Pipeline.ΦA spec5 c from rfl]; unfold Pipeline.ΦA
    iintro ⟨Hs, Hg⟩
    isplitl [Hg]; · iexact Hg
    isplitr; · iempintro
    iexact Hs
  hexit c := by
    have hj := Pipeline.unscopedBufs_of_arrays (p := 5) (pcfgs (F := F)) Gen.adm (Ix := Unit) (Name := ℕ) (U := UR sig nD τ) (Lvl := ℕ)
      Gen.launch5.win Gen.launch5.arr_whole c (pdats m) ((pdats m 5 c).share_full fun _ => rfl)
      (atTc (W10 m) c) (atTc (W11 m) c) ((pdats m 5 c).arrAt · cfg5.N) (exit5 m c) (keep5 m c)
    rw [Pipeline.unscopedBufs_held] at hj
    iintro ⟨Ha, Ho, Hg, Hz⟩
    imodintro
    isplitl [Ha Hz]
    · iapply hj; isplitl [Ha] <;> iassumption
    isplitl [Hg]; · iexact Hg
    iapply (owes_out (pdats m 5 c) (Fin.last _) rfl); iexact Ho

/-! ## The program as its eleven items -/

/-- The items in order: a region, then the stretch that prepares the next region's operands, and so on; each host
    stretch is run from the contents the region before it left. -/
abbrev items : List (Pipeline.Seg (pcfgs (F := F)) Gen.adm (pdats m) () defs₀ noVariants noPairs noLevel) :=
  [ .region (reg0 m),
    .host (stretch hostOps1 hostOps1_sub Gen.hostOps1_fresh (W1 m)),
    .region (reg1 m),
    .host (stretch hostOps2 hostOps2_sub Gen.hostOps2_fresh (W3 m)),
    .region (reg2 m),
    .host (stretch hostOps3 hostOps3_sub Gen.hostOps3_fresh (W5 m)),
    .region (reg3 m),
    .host (stretch hostOps4 hostOps4_sub Gen.hostOps4_fresh (W7 m)),
    .region (reg4 m),
    .host (stretch hostOps5 hostOps5_sub Gen.hostOps5_fresh (W9 m)),
    .region (reg5 m) ]

/-- The printed program is those items run one after another. -/
theorem main_run (c : Dev nD) : main (F := F) c = Pipeline.Seg.run (items m) := (Gen.main_chain c).trans (by chain_rfl)

/-- A TensorCore buffer that is not scoped is one of those the state between items tracks. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

-- the launch theorem's implicit arguments are found by unifying its conclusion with the statement, which unfolds
-- definitions inside types
set_option backward.isDefEq.respectTransparency.types false in
/-- From any memory, with every semaphore at zero, every fair execution of the program terminates without fault, and
    at the end every unscoped buffer of every core holds what the chain of contents ends with.

    The launch hands each core its buffers at the launch contents, its register and an empty debt: that is the state
    before the first item.  Each item's final state is literally the next item's initial state.  The last state, read
    against the final memory, says buffer by buffer what the memory holds. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Wlast m c b) :=
  Pipeline.θ_run_regions_kit (pcfgs (F := F)) Gen.adm (pdats m) () cellOf_inj emb₁ defs₀ noVariants noPairs noLevel m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => .rfl,
      fun c => by
        show (iprop(StableHlo.held (c : Thread nD τ) (Pipeline.ucRefs τ sig) (W11 m c) ∗ carried c) : sProp 𝕄) ⊢ _
        iintro ⟨Hb, Hg, Ho⟩
        isplitl [Hb Hg]
        · isplitl [Hb]; · iexact Hb
          iexact Hg
        iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hb, -, Ho, -, Hg, -⟩, -⟩
      imodintro
      isplitl [Hb]; · iexact Hb
      isplitl [Hg]; · iexists _; iexact Hg
      iexists ∅; iexact Ho)
    (QY := fun c s => ∀ b ∈ Pipeline.ucRefs τ sig, s.mem ((c : Thread nD τ).1, b) = W11 m c b)
    (hfin := fun c s' => by
      iintro ⟨⟨Hb, -⟩, HSI⟩
      unfold StableHlo.held
      imodintro
      iapply (pointsTo_read_all (Pipeline.ucRefs τ sig) (fun b => ((c : Thread nD τ).1, b)) (W11 m c) s')
      isplitl [Hb] <;> iassumption)
    (hQ := fun s h c => h c)

/-! ## Reading the chain

No item writes an argument: a stretch writes only the two or three buffers it computes, a region only its result.  So
at an argument every stage of the chain still has the launch contents. -/

/-- The program's eight arguments. -/
abbrev argRefs : List (Ref sig .tc) := [main_arg0, main_arg1, main_arg2, main_arg3, main_arg4, main_arg5, main_arg6, main_arg7]

theorem ne_of_arg {r : Ref sig .tc} (h : r ∈ argRefs) (x : Ref sig .tc) (hx : x ∉ argRefs) : r ≠ x := fun e => hx (e ▸ h)
theorem notMem_of_arg {r : Ref sig .tc} (h : r ∈ argRefs) (l : List (Ref sig .tc)) (hl : ∀ x ∈ l, x ∉ argRefs) : r ∉ l :=
  fun hr => hl r hr h

theorem W1_arg (c : Dev nD) (r : Ref sig .tc) (h : r ∈ argRefs) : W1 m c r = m ((c : Thread nD τ).loc r) :=
  (W1_off m c r (ne_of_arg h main_v0 (by decide))).trans rfl
theorem W2_arg (c : Dev nD) (r : Ref sig .tc) (h : r ∈ argRefs) : W2 m c r = m ((c : Thread nD τ).loc r) :=
  (W2_off m c r (notMem_of_arg h Gen.hostOps1_W (by decide))).trans (W1_arg m c r h)
theorem W3_arg (c : Dev nD) (r : Ref sig .tc) (h : r ∈ argRefs) : W3 m c r = m ((c : Thread nD τ).loc r) :=
  (W3_off m c r (ne_of_arg h main_v4 (by decide))).trans (W2_arg m c r h)
theorem W4_arg (c : Dev nD) (r : Ref sig .tc) (h : r ∈ argRefs) : W4 m c r = m ((c : Thread nD τ).loc r) :=
  (W4_off m c r (notMem_of_arg h Gen.hostOps2_W (by decide))).trans (W3_arg m c r h)
theorem W5_arg (c : Dev nD) (r : Ref sig .tc) (h : r ∈ argRefs) : W5 m c r = m ((c : Thread nD τ).loc r) :=
  (W5_off m c r (ne_of_arg h main_v7 (by decide))).trans (W4_arg m c r h)
theorem W6_arg (c : Dev nD) (r : Ref sig .tc) (h : r ∈ argRefs) : W6 m c r = m ((c : Thread nD τ).loc r) :=
  (W6_off m c r (notMem_of_arg h Gen.hostOps3_W (by decide))).trans (W5_arg m c r h)
theorem W7_arg (c : Dev nD) (r : Ref sig .tc) (h : r ∈ argRefs) : W7 m c r = m ((c : Thread nD τ).loc r) :=
  (W7_off m c r (ne_of_arg h main_v9 (by decide))).trans (W6_arg m c r h)
theorem W8_arg (c : Dev nD) (r : Ref sig .tc) (h : r ∈ argRefs) : W8 m c r = m ((c : Thread nD τ).loc r) :=
  (W8_off m c r (notMem_of_arg h Gen.hostOps4_W (by decide))).trans (W7_arg m c r h)
theorem W9_arg (c : Dev nD) (r : Ref sig .tc) (h : r ∈ argRefs) : W9 m c r = m ((c : Thread nD τ).loc r) :=
  (W9_off m c r (ne_of_arg h main_v12 (by decide))).trans (W8_arg m c r h)
theorem W10_arg (c : Dev nD) (r : Ref sig .tc) (h : r ∈ argRefs) : W10 m c r = m ((c : Thread nD τ).loc r) :=
  (W10_off m c r (notMem_of_arg h Gen.hostOps5_W (by decide))).trans (W9_arg m c r h)
theorem W11_arg (c : Dev nD) (r : Ref sig .tc) (h : r ∈ argRefs) : W11 m c r = m ((c : Thread nD τ).loc r) :=
  (W11_off m c r (ne_of_arg h main_v15 (by decide))).trans (W10_arg m c r h)

/-! ## The end of the chain -/

/-- An argument's buffer ends as launched. -/
theorem Wlast_arg (c : Dev nD) (r : Ref sig .tc) (h : r ∈ argRefs) : Wlast m c r = m ((c : Thread nD τ).loc r) := W11_arg m c r h

/-- The hidden features at the end: what the second dense layer's write-backs left. -/
theorem Wlast_v12 (c : Dev nD) : Wlast m c main_v12 = (dat4 (atTc (W8 m)) c).arrAt 3 cfg4.N :=
  (W11_off m c main_v12 (by decide)).trans ((W10_off m c main_v12 (by decide)).trans (W9_at m c))

/-- The scores at the end: what the classifier's write-backs left. -/
theorem Wlast_v15 (c : Dev nD) : Wlast m c main_v15 = (dat5 (atTc (W10 m)) c).arrAt 3 cfg5.N := W11_at m c

/-- The program terminates from any memory and leaves its arguments as it found them. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs main_arg0 (by decide))).trans (Wlast_arg m c main_arg0 (by decide)),
     (h c _ (mem_ucRefs main_arg1 (by decide))).trans (Wlast_arg m c main_arg1 (by decide)),
     (h c _ (mem_ucRefs main_arg2 (by decide))).trans (Wlast_arg m c main_arg2 (by decide)),
     (h c _ (mem_ucRefs main_arg3 (by decide))).trans (Wlast_arg m c main_arg3 (by decide)),
     (h c _ (mem_ucRefs main_arg4 (by decide))).trans (Wlast_arg m c main_arg4 (by decide)),
     (h c _ (mem_ucRefs main_arg5 (by decide))).trans (Wlast_arg m c main_arg5 (by decide)),
     (h c _ (mem_ucRefs main_arg6 (by decide))).trans (Wlast_arg m c main_arg6 (by decide)),
     (h c _ (mem_ucRefs main_arg7 (by decide))).trans (Wlast_arg m c main_arg7 (by decide))⟩) (run_all m ρ)

/-- The same run, read at the two results as well: the hidden features and the scores end at the last contents of the
    chain, and the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v12) = Wlast m c main_v12
      ∧ r.2.mem ((c.tc : Thread nD τ).loc main_v15) = Wlast m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_ucRefs main_v12 (by decide)),
     h c _ (mem_ucRefs main_v15 (by decide)),
     (h c _ (mem_ucRefs main_arg0 (by decide))).trans (Wlast_arg m c main_arg0 (by decide)),
     (h c _ (mem_ucRefs main_arg1 (by decide))).trans (Wlast_arg m c main_arg1 (by decide)),
     (h c _ (mem_ucRefs main_arg2 (by decide))).trans (Wlast_arg m c main_arg2 (by decide)),
     (h c _ (mem_ucRefs main_arg3 (by decide))).trans (Wlast_arg m c main_arg3 (by decide)),
     (h c _ (mem_ucRefs main_arg4 (by decide))).trans (Wlast_arg m c main_arg4 (by decide)),
     (h c _ (mem_ucRefs main_arg5 (by decide))).trans (Wlast_arg m c main_arg5 (by decide)),
     (h c _ (mem_ucRefs main_arg6 (by decide))).trans (Wlast_arg m c main_arg6 (by decide)),
     (h c _ (mem_ucRefs main_arg7 (by decide))).trans (Wlast_arg m c main_arg7 (by decide))⟩) (run_all m ρ)

/-! ## What each region finds in its input arrays

A region's inputs are arguments, earlier regions' results, or the output of the stretch just before it: the scale
column (the column sums reshaped to a vector, their reciprocal square roots, reshaped to a column), a weight matrix
transposed, a bias vector made a row. -/

/-- The scale column in terms of the first region's result. -/
abbrev scaleCol (x : (⟨S1x8192, .f32⟩ : BufTy).Contents (Elt F)) : (⟨S8192x1, .f32⟩ : BufTy).Contents (Elt F) :=
  shapeCast S8192x1 (Host.rsqrt (shapeCast S8192 x shapeCasts_S1x8192_S8192 : (⟨S8192, .f32⟩ : BufTy).Contents (Elt F))
    : (⟨S8192, .f32⟩ : BufTy).Contents (Elt F)) shapeCasts_S8192_S8192x1

theorem Went0_arg1 (c : Dev nD) : W0 m c main_arg1 = m ((c : Thread nD τ).loc main_arg1) := rfl

theorem Went1_v0 (c : Dev nD) : W1 m c main_v0 = (dat0 (atTc (W0 m)) c).arrAt 1 cfg0.N := W1_at m c
theorem Went1_v2 (c : Dev nD) :
    (W2 m c main_v2 : (⟨S8192, .f32⟩ : BufTy).Contents (Elt F))
      = Host.rsqrt (shapeCast S8192 (W1 m c main_v0 : (⟨S1x8192, .f32⟩ : BufTy).Contents (Elt F)) shapeCasts_S1x8192_S8192
          : (⟨S8192, .f32⟩ : BufTy).Contents (Elt F)) := by
  unfold W2
  show StableHlo.after hostOps1 (W1 m c) (Proc.devRef .tc main_v2) = _
  after_results
  all_goals rfl
theorem Went1_v3 (c : Dev nD) :
    (W2 m c main_v3 : (⟨S8192x1, .f32⟩ : BufTy).Contents (Elt F)) = scaleCol (W1 m c main_v0) := by
  unfold W2
  show StableHlo.after hostOps1 (W1 m c) (Proc.devRef .tc main_v3) = _
  after_results
  all_goals rfl
theorem Went1_arg1 (c : Dev nD) : W2 m c main_arg1 = m ((c : Thread nD τ).loc main_arg1) := W2_arg m c main_arg1 (by decide)
theorem Went1_arg0 (c : Dev nD) : W2 m c main_arg0 = m ((c : Thread nD τ).loc main_arg0) := W2_arg m c main_arg0 (by decide)

theorem Went2_v4 (c : Dev nD) : W4 m c main_v4 = (dat1 (atTc (W2 m)) c).arrAt 4 cfg1.N :=
  (W4_off m c main_v4 (by decide)).trans (W3_at m c)
theorem Went2_v5 (c : Dev nD) :
    (W4 m c main_v5 : (⟨S512x512, .f32⟩ : BufTy).Contents (Elt F))
      = transpose S512x512 [1, 0] (m ((c : Thread nD τ).loc main_arg2) : (⟨S512x512, .f32⟩ : BufTy).Contents (Elt F)) transposes_S512x512_S512x512_1_0 := by
  rw [← W3_arg m c main_arg2 (by decide)]
  unfold W4
  show StableHlo.after hostOps2 (W3 m c) (Proc.devRef .tc main_v5) = _
  after_results
  all_goals rfl
theorem Went2_v6 (c : Dev nD) :
    (W4 m c main_v6 : (⟨S1x512, .f32⟩ : BufTy).Contents (Elt F))
      = shapeCast S1x512 (m ((c : Thread nD τ).loc main_arg3) : (⟨S512, .f32⟩ : BufTy).Contents (Elt F)) shapeCasts_S512_S1x512 := by
  rw [← W3_arg m c main_arg3 (by decide)]
  unfold W4
  show StableHlo.after hostOps2 (W3 m c) (Proc.devRef .tc main_v6) = _
  after_results
  all_goals rfl

theorem Went3_v2 (c : Dev nD) : W5 m c main_v2 = W2 m c main_v2 :=
  (W5_off m c main_v2 (by decide)).trans ((W4_off m c main_v2 (by decide)).trans (W3_off m c main_v2 (by decide)))
theorem Went3_v8' (c : Dev nD) :
    (W6 m c main_v8 : (⟨S8192x1, .f32⟩ : BufTy).Contents (Elt F))
      = shapeCast S8192x1 (W5 m c main_v2 : (⟨S8192, .f32⟩ : BufTy).Contents (Elt F)) shapeCasts_S8192_S8192x1 := by
  unfold W6
  show StableHlo.after hostOps3 (W5 m c) (Proc.devRef .tc main_v8) = _
  after_results
  all_goals rfl
/-- The second propagation finds the same scale column as the first. -/
theorem Went3_v8 (c : Dev nD) :
    (W6 m c main_v8 : (⟨S8192x1, .f32⟩ : BufTy).Contents (Elt F)) = scaleCol (W1 m c main_v0) := by
  rw [Went3_v8', Went3_v2, Went1_v2]
theorem Went3_arg1 (c : Dev nD) : W6 m c main_arg1 = m ((c : Thread nD τ).loc main_arg1) := W6_arg m c main_arg1 (by decide)
theorem Went3_v7 (c : Dev nD) : W6 m c main_v7 = (dat2 (atTc (W4 m)) c).arrAt 3 cfg2.N :=
  (W6_off m c main_v7 (by decide)).trans (W5_at m c)

theorem Went4_v9 (c : Dev nD) : W8 m c main_v9 = (dat3 (atTc (W6 m)) c).arrAt 4 cfg3.N :=
  (W8_off m c main_v9 (by decide)).trans (W7_at m c)
theorem Went4_v10 (c : Dev nD) :
    (W8 m c main_v10 : (⟨S512x512, .f32⟩ : BufTy).Contents (Elt F))
      = transpose S512x512 [1, 0] (m ((c : Thread nD τ).loc main_arg4) : (⟨S512x512, .f32⟩ : BufTy).Contents (Elt F)) transposes_S512x512_S512x512_1_0 := by
  rw [← W7_arg m c main_arg4 (by decide)]
  unfold W8
  show StableHlo.after hostOps4 (W7 m c) (Proc.devRef .tc main_v10) = _
  after_results
  all_goals rfl
theorem Went4_v11 (c : Dev nD) :
    (W8 m c main_v11 : (⟨S1x512, .f32⟩ : BufTy).Contents (Elt F))
      = shapeCast S1x512 (m ((c : Thread nD τ).loc main_arg5) : (⟨S512, .f32⟩ : BufTy).Contents (Elt F)) shapeCasts_S512_S1x512 := by
  rw [← W7_arg m c main_arg5 (by decide)]
  unfold W8
  show StableHlo.after hostOps4 (W7 m c) (Proc.devRef .tc main_v11) = _
  after_results
  all_goals rfl

theorem Went5_v12 (c : Dev nD) : W10 m c main_v12 = (dat4 (atTc (W8 m)) c).arrAt 3 cfg4.N :=
  (W10_off m c main_v12 (by decide)).trans (W9_at m c)
theorem Went5_v13 (c : Dev nD) :
    (W10 m c main_v13 : (⟨S512x32, .f32⟩ : BufTy).Contents (Elt F))
      = transpose S512x32 [1, 0] (m ((c : Thread nD τ).loc main_arg6) : (⟨S32x512, .f32⟩ : BufTy).Contents (Elt F)) transposes_S32x512_S512x32_1_0 := by
  rw [← W9_arg m c main_arg6 (by decide)]
  unfold W10
  show StableHlo.after hostOps5 (W9 m c) (Proc.devRef .tc main_v13) = _
  after_results
  all_goals rfl
theorem Went5_v14 (c : Dev nD) :
    (W10 m c main_v14 : (⟨S1x32, .f32⟩ : BufTy).Contents (Elt F))
      = shapeCast S1x32 (m ((c : Thread nD τ).loc main_arg7) : (⟨S32, .f32⟩ : BufTy).Contents (Elt F)) shapeCasts_S32_S1x32 := by
  rw [← W9_arg m c main_arg7 (by decide)]
  unfold W10
  show StableHlo.after hostOps5 (W9 m c) (Proc.devRef .tc main_v14) = _
  after_results
  all_goals rfl

end Cert.KernelIdeal.KI

end
-- ==== Proof.Spec.lean ====
/-
  The mathematics of a two-layer graph convolution, stated once over plain coordinates and extended reals, for both
  programs to be read against.

  `A` is an 8192 x 8192 adjacency matrix. Its column sums `colsum A j = Σ_i A i j` give the scale
  `dscale A j = (colsum A j)^(-1/2)`. One propagation step applies the symmetrically scaled matrix
  `Ã i k = d i * A i k * d k` to a feature matrix `B`:
    * the fused form scales the features first and the rows last, `(Σ_k A i k * (B k n * d k)) * d i` (`propFused`);
    * the plain form builds `Ã` entry by entry and multiplies, `Σ_k ((d i * A i k) * d k) * B k n` (`propPlain`).
  The two agree whenever every `d`, `A` and `B` entry is a real number: the scale `d i` distributes over the sum.
  They differ when `d i` is infinite and the sum has terms of both signs, which is why the column sums must be positive.
  A layer is a propagation, an affine map `X ↦ X Wᵀ + b` (`affine`) and a rectifier `max · 0`; the network is two layers
  and one more affine map.
-/
import Idealize.ShloMosaic.PureOps.Ideal

noncomputable section

open scoped BigOperators

namespace Cert.GcnSpec

open Idealize.ShloMosaic

/-- The sum of column `j`. -/
def colsum (A : Fin 8192 → Fin 8192 → EReal) (j : Fin 8192) : EReal := ∑ i : Fin 8192, A i j

/-- The scale of node `j`: the inverse square root of its column sum. -/
def dscale (A : Fin 8192 → Fin 8192 → EReal) (j : Fin 8192) : EReal := Ideal.rsqrt (colsum A j)

/-- One propagation, fused: features scaled by `d k` before the product, rows by `d i` after it. -/
def propFused (A : Fin 8192 → Fin 8192 → EReal) (d : Fin 8192 → EReal) (B : Fin 8192 → Fin 512 → EReal)
    (i : Fin 8192) (n : Fin 512) : EReal :=
  (∑ k : Fin 8192, A i k * (B k n * d k)) * d i

/-- One propagation, plain: the scaled matrix `(d i * A i k) * d k` times the features. -/
def propPlain (A : Fin 8192 → Fin 8192 → EReal) (d : Fin 8192 → EReal) (B : Fin 8192 → Fin 512 → EReal)
    (i : Fin 8192) (n : Fin 512) : EReal :=
  ∑ k : Fin 8192, ((d i * A i k) * d k) * B k n

/-- The affine map `X ↦ X Wᵀ + b`, entry `(i, o)`. -/
def affine {N O : Nat} (X : Fin 8192 → Fin N → EReal) (W : Fin O → Fin N → EReal) (b : Fin O → EReal)
    (i : Fin 8192) (o : Fin O) : EReal :=
  (∑ n : Fin N, X i n * W o n) + b o

/-- The rectifier, entry by entry. -/
def relu {N : Nat} (X : Fin 8192 → Fin N → EReal) (i : Fin 8192) (o : Fin N) : EReal := max (X i o) 0

/-- The hidden features after two layers, with propagation `prop`. -/
def hidden (prop : (Fin 8192 → Fin 8192 → EReal) → (Fin 8192 → EReal) → (Fin 8192 → Fin 512 → EReal) → Fin 8192 → Fin 512 → EReal)
    (A : Fin 8192 → Fin 8192 → EReal) (x : Fin 8192 → Fin 512 → EReal)
    (W1 : Fin 512 → Fin 512 → EReal) (b1 : Fin 512 → EReal) (W2 : Fin 512 → Fin 512 → EReal) (b2 : Fin 512 → EReal) :
    Fin 8192 → Fin 512 → EReal :=
  relu (affine (prop A (dscale A) (relu (affine (prop A (dscale A) x) W1 b1))) W2 b2)

/-- The class scores: one more affine map of the hidden features. -/
def scores (h : Fin 8192 → Fin 512 → EReal) (FW : Fin 32 → Fin 512 → EReal) (Fb : Fin 32 → EReal) :
    Fin 8192 → Fin 32 → EReal :=
  affine h FW Fb

end Cert.GcnSpec

end
-- ==== Proof.KI.ColsumValue.lean ====
/-
  What the column-sum kernel leaves in its result, over the extended reals.

  With the float operations read as the extended reals' (`addf` is `+`, the lane reduction of a 1024 x 1024 tile is
  the sum of each of its columns, the zero word is `0`), one accumulation step adds to lane `l` of the strip the sum
  `Σ_k tile (k, l)`. The strip of column tile `c` is reset at its first row tile and written back after its last, so
  what is written back at lane `l` is
      0 + Σ_{r < 8} Σ_{k < 1024} A (1024 r + k, 1024 c + l)  =  Σ_{i < 8192} A (i, 1024 c + l),
  the 8192 rows being the 8 row tiles of 1024 rows. The eight strips tile the 1 x 8192 result and each is written
  once, so entry `(0, j)` of the result ends as the sum of column `j` of `A` (`arrAt0`).
-/
import proofs.«143233_j59193239273550_1_alg».proof.Proof.KI.Colsum
import proofs.«143233_j59193239273550_1_alg».proof.Proof.Spec
import Idealize.ShloMosaic.Lib.Pipeline.Value
import Idealize.ShloMosaic.Lib.ValueIdx
import Idealize.ShloMosaic.PureOps.Ideal.Laws
import Mathlib.Logic.Equiv.Fin.Basic
import Mathlib.Algebra.BigOperators.Fin

set_option maxRecDepth 16384

noncomputable section

open scoped BigOperators

namespace Cert.KernelIdeal.KI

open Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The strip of zeros reads zero at every lane. -/
theorem zeros_apply (y : S1x1024.Idx) : (zeros (F := Ideal) y : EReal) = 0 := by
  show Ideal.ofBits .f32 0x00000000#32 = 0
  exact Ideal.ofBits_zero_f32

/-- One accumulation at a lane, over the extended reals: the strip's entry plus the sum of the tile's column. -/
theorem addTile_apply (acc : Vec Ideal S1x1024 .f32) (x : Vec Ideal S1024x1024 .f32) (y : S1x1024.Idx) :
    (addTile acc x y : EReal) = acc y + ∑ k : Fin 1024, x (ix2 k (y 1)) := by
  unfold addTile k0_pay2
  dsimp only
  rw [addf_apply, shapeCast_self]
  congr 1
  refine (shapeCast_addUnit_apply (n := 1) ![1024] _ _ y).trans ?_
  refine (Ideal.multiReduction_add_single (φ := .f32) x 0x00000000#32 reduces_S1024x1024_S1024 _ _ (fun a => y a.succ)).trans ?_
  refine Finset.sum_congr rfl fun k _ => congrArg x (funext fun a => ?_)
  match a with
  | ⟨0, _⟩ => rfl
  | ⟨1, _⟩ => rfl

/-! ## Where a point's tile sits in the matrix -/

/-- The adjacency matrix as the kernel finds it, as a function of its coordinates over the extended reals. -/
abbrev matA (c : Dev nD) : (⟨2, ![8192, 8192]⟩ : Shape).Idx → EReal := V c main_arg1

/-- Point `t = 8c + r` of the grid fetches row tile `r = t % 8` and column tile `c = t / 8` of the matrix. -/
theorem tileIndex : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)

/-- and works on strip `c = t / 8` of the result. -/
theorem stripIndex : ∀ t : Fin cfg0.N, win0_1.index t 0 = 0 ∧ win0_1.index t 1 = t.val / 8 :=
  (by decide +kernel : ∀ t : Fin grid0.N, win0_1.index t 0 = 0 ∧ win0_1.index t 1 = t.val / 8)

/-- Entry `(k, l)` of the tile at point `t` is entry `(1024 (t % 8) + k, 1024 (t / 8) + l)` of the matrix. -/
theorem iblk0_apply (c : Dev nD) (t : Fin cfg0.N) (k l : Fin 1024) (i j : Fin 8192)
    (hi : i.val = 1024 * (t.val % 8) + k.val) (hj : j.val = 1024 * (t.val / 8) + l.val) :
    (iblk0 V c 0 t (ix2 k l) : EReal) = matA V c (ix2 i j) := by
  unfold iblk0
  rw [View.read_apply]
  show V c main_arg1 _ = V c main_arg1 _
  congr 1
  funext a
  apply Fin.ext
  match a with
  | ⟨0, _⟩ => show win0_0.index t 0 * 1024 + 1 * k.val = i.val; rw [(tileIndex t).1, hi]; omega
  | ⟨1, _⟩ => show win0_0.index t 1 * 1024 + 1 * l.val = j.val; rw [(tileIndex t).2, hj]; omega

/-! ## The strip after the last row tile of a column tile -/

/-- The sum of the tile at point `n` along its rows, at lane `l` (zero past the grid). -/
def tileSum (c : Dev nD) (n : ℕ) (l : Fin 1024) : EReal :=
  if h : n < cfg0.N then ∑ k : Fin 1024, (iblk0 V c 0 ⟨n, h⟩ (ix2 k l) : EReal) else 0

/-- At point `t` the strip holds, at each lane, the tile sums of its column tile from the first row tile up to
    `t`'s own: the reset at the first of them starts from zero and every later point adds its tile's. -/
theorem strip0_run (c : Dev nD) (t : Fin cfg0.N) (y : S1x1024.Idx) :
    (strip0 V c t.val t.isLt y : EReal)
      = ∑ s ∈ Finset.range (t.val % 8 + 1), tileSum V c (8 * (t.val / 8) + s) (y 1) := by
  have h' : 8 * (t.val / 8) + t.val % 8 < cfg0.N := by rw [Nat.div_add_mod]; exact t.isLt
  rw [Pipeline.eq_accAt_of_mod (strip0 V c) 8
      (fun n h => addTile zeros (iblk0 V c 0 ⟨n, h⟩)) (fun n h acc => addTile acc (iblk0 V c 0 ⟨n, h⟩))
      (fun n h h0 => strip0_first V c ⟨n, h⟩ h0)
      (fun n h h0 => strip0_later V c ⟨n + 1, h⟩ h0)
      (by decide) t.val t.isLt h']
  rw [Pipeline.accAt_add_apply (β := EReal) _ _ (fun _ => (0 : EReal)) (fun n y => tileSum V c n (y 1)) (8 * (t.val / 8)) 7 ?_ ?_
    (t.val % 8) (by omega) h' y, zero_add]
  · intro h i
    show (addTile zeros (iblk0 V c 0 ⟨8 * (t.val / 8), h⟩) i : EReal) = 0 + tileSum V c (8 * (t.val / 8)) (i 1)
    rw [addTile_apply, zeros_apply]; unfold tileSum; rw [dif_pos h]
  · intro n h acc i _ _
    show (addTile acc (iblk0 V c 0 ⟨n, h⟩) i : EReal) = acc i + tileSum V c n (i 1)
    rw [addTile_apply]; unfold tileSum; rw [dif_pos h]

/-- The eight tile sums of column tile `q` at lane `l` add up to column `1024 q + l` of the matrix: its 8192 rows
    are the 8 row tiles of 1024 rows each. -/
theorem column_split (c : Dev nD) (q : ℕ) (hq : q < 8) (l : Fin 1024) (j : Fin 8192) (hj : j.val = 1024 * q + l.val) :
    ∑ s ∈ Finset.range 8, tileSum V c (8 * q + s) l = ∑ i : Fin 8192, matA V c (ix2 i j) := by
  rw [Finset.sum_range,
    ← Equiv.sum_comp (finProdFinEquiv : Fin 8 × Fin 1024 ≃ Fin 8192) (fun i : Fin 8192 => matA V c (ix2 i j)),
    Fintype.sum_prod_type]
  refine Finset.sum_congr rfl fun s _ => ?_
  have hN : 8 * q + s.val < cfg0.N := by rw [show cfg0.N = 64 from N_0]; omega
  unfold tileSum; rw [dif_pos hN]
  refine Finset.sum_congr rfl fun k _ => ?_
  exact iblk0_apply V c ⟨8 * q + s.val, hN⟩ k l _ j
    (by show k.val + 1024 * s.val = 1024 * ((8 * q + s.val) % 8) + k.val; omega)
    (by show j.val = 1024 * ((8 * q + s.val) / 8) + l.val; omega)

/-! ## The result array after the kernel -/

/-- The column sums, as contents of the 1 x 8192 result array. -/
def colSums (c : Dev nD) : Buf (Elt Ideal) ((cfg0.win 1).arr.view.loc (c.tc : Thread nD τ)) :=
  fun y => (∑ i : Fin 8192, matA V c (ix2 i (y 1)) : EReal)

/-- What a point that writes its strip back writes is that strip of the column sums: such a point is the last row
    tile of its column tile, where the strip holds all eight tile sums, that is the whole columns. -/
theorem flushed0 (c : Dev nD) (t : Fin cfg0.N) (hf : (cfg0.win 1).flush t = true) :
    (dat0 V c).flushed 1 t = ((cfg0.win 1).blk t).view.read (Elt Ideal) (colSums V c) := by
  have h7 : t.val % 8 = 7 := (flush0_1 t).mp hf
  have hN : t.val < 64 := lt_of_lt_of_eq t.isLt (show cfg0.N = 64 from N_0)
  funext y
  show ((dat0 V c).after 1 t ((cfg0.win 1).xinj (cfg0.grid.coords t) y) : EReal) = _
  rw [after0_1, strip0_run V c t, h7]
  rw [View.read_apply]
  show _ = (∑ i : Fin 8192, matA V c (ix2 i _) : EReal)
  refine column_split V c (t.val / 8) (by omega) _ _ ?_
  show win0_1.index t 1 * 1024 + 1 * (y 1).val = 1024 * (t.val / 8) + (y 1).val
  rw [(stripIndex t).2]; omega

/-- THE COLUMN SUMS. After the kernel, entry `(0, j)` of the result array is the sum of column `j` of the matrix the
    kernel was entered with: column `j` lies in strip `j / 1024`, which the last row tile of that column tile writes
    back holding the whole columns, and no later point touches it. -/
theorem arrAt0 (c : Dev nD) (j : Fin 8192) :
    ((dat0 (F := Ideal) V c).arrAt 1 cfg0.N (ix2 0 j) : EReal) = ∑ i : Fin 8192, matA V c (ix2 i j) := by
  have hN : cfg0.N = 64 := N_0
  have hj : j.val < 8192 := j.isLt
  let t : Fin cfg0.N := ⟨8 * (j.val / 1024) + 7, by omega⟩
  have hf : (cfg0.win 1).flush t = true := (flush0_1 t).mpr (by show (8 * (j.val / 1024) + 7) % 8 = 7; omega)
  refine ((dat0 V c).arrAt_apply_of_mem 1 (colSums V c) (flushed0 V c) cfg0.N t (ix2 0 j) t.isLt hf ?_).trans rfl
  show (ix2 0 j : S1x8192.Idx) ∈ ((View.whole main_v0).slice (win0_1.rect t)).set
  rw [View.set_slice_whole, Rect.mem_set_unit]
  intro a
  match a with
  | ⟨0, _⟩ =>
    show win0_1.index t 0 * 1 ≤ 0 ∧ 0 < win0_1.index t 0 * 1 + 1
    rw [(stripIndex t).1]; omega
  | ⟨1, _⟩ =>
    show win0_1.index t 1 * 1024 ≤ j.val ∧ j.val < win0_1.index t 1 * 1024 + 1024
    rw [(stripIndex t).2]; show (8 * (j.val / 1024) + 7) / 8 * 1024 ≤ j.val ∧ j.val < (8 * (j.val / 1024) + 7) / 8 * 1024 + 1024; omega

/-- The same, in the words of the specification: the result array holds `colsum A`. -/
theorem arrAt0_colsum (c : Dev nD) (j : Fin 8192) :
    ((dat0 (F := Ideal) V c).arrAt 1 cfg0.N (ix2 0 j) : EReal) = Cert.GcnSpec.colsum (fun i k => matA V c (ix2 i k)) j :=
  arrAt0 V c j

end Cert.KernelIdeal.KI

end
-- ==== Proof.KI.GcnOps.lean ====
/-
  Three facts about plain arithmetic on blocks, used by both propagation regions of the graph convolution.

  * A product of a [1024,1024] block by a [1024,512] block onto a zero accumulator, read at entry (p, q), is the
    finite sum over the inner coordinate k of left (p, k) times right (k, q).
  * A [1024,1] column spread along 512 lanes reads, at (p, q), the column's entry of row p.
  * A sum over 8192 consecutive indices is the sum, over the 8 tiles of 1024 indices, of each tile's sum.
-/
import proofs.«143233_j59193239273550_1_alg».proof.Proof.Gen.KernelIdeal
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

noncomputable section

open scoped BigOperators

namespace Cert.KernelIdeal.KI

open Cert.KernelIdeal Idealize.ShloMosaic Idealize.ShloMosaic.ValueIdx

/-! ## The block product at an entry -/

/-- The left operand's row coordinate is the output's row. -/
theorem gcnDot_lhs_0 (j : S1024x512.Idx) (u : dot_S1024x1024_S1024x512_S1024x512_1_0_0_1_n_n.contr.Idx) :
    (dot_S1024x1024_S1024x512_S1024x512_1_0_0_1_n_n.lhsIdx j u 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl

/-- The left operand's column coordinate is the inner coordinate. -/
theorem gcnDot_lhs_1 (j : S1024x512.Idx) (u : dot_S1024x1024_S1024x512_S1024x512_1_0_0_1_n_n.contr.Idx) :
    (dot_S1024x1024_S1024x512_S1024x512_1_0_0_1_n_n.lhsIdx j u 1).val = (u ⟨0, by decide⟩).val :=
  dot_S1024x1024_S1024x512_S1024x512_1_0_0_1_n_n.lhsIdx_val_of_single rfl j u

/-- The right operand's row coordinate is the inner coordinate. -/
theorem gcnDot_rhs_0 (j : S1024x512.Idx) (u : dot_S1024x1024_S1024x512_S1024x512_1_0_0_1_n_n.contr.Idx) :
    (dot_S1024x1024_S1024x512_S1024x512_1_0_0_1_n_n.rhsIdx j u 0).val = (u ⟨0, by decide⟩).val :=
  dot_S1024x1024_S1024x512_S1024x512_1_0_0_1_n_n.rhsIdx_val_of_single rfl j u

/-- The right operand's column coordinate is the output's column. -/
theorem gcnDot_rhs_1 (j : S1024x512.Idx) (u : dot_S1024x1024_S1024x512_S1024x512_1_0_0_1_n_n.contr.Idx) :
    (dot_S1024x1024_S1024x512_S1024x512_1_0_0_1_n_n.rhsIdx j u 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- Over the extended reals the block product onto zero is the textbook sum of products along the inner coordinate. -/
theorem gcnDot_apply {φ₁ φ₂ : FTy} (a : FVec Ideal S1024x1024 φ₁) (b : FVec Ideal S1024x512 φ₂) (p : Fin 1024) (q : Fin 512) :
    matmul dot_S1024x1024_S1024x512_S1024x512_1_0_0_1_n_n none a b (constant (F := Ideal) S1024x512 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun ax => Fin.ext (by
    match ax with
    | ⟨0, _⟩ => exact gcnDot_lhs_0 _ _
    | ⟨1, _⟩ => exact (gcnDot_lhs_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun ax => Fin.ext (by
    match ax with
    | ⟨0, _⟩ => exact (gcnDot_rhs_0 _ _).trans hk
    | ⟨1, _⟩ => exact gcnDot_rhs_1 _ _)
  rw [el, er]

/-! ## A column spread along the lanes -/

/-- Entry (p, q) of a [1024,1] column spread to [1024,512] is the column's entry of row p. -/
theorem colSpread_apply {α : Type} (v : S1024x1.Idx → α) (h : S1024x1.Broadcasts S1024x512) (p : Fin 1024) (q : Fin 512) :
    broadcastTo S1024x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## A long sum cut into eight tiles -/

/-- A natural number as an index below 8192 (its remainder; the identity on numbers already below). -/
def wrap (n : Nat) : Fin 8192 := ⟨n % 8192, Nat.mod_lt _ (by decide)⟩

theorem wrap_of_lt {n : Nat} (h : n < 8192) : wrap n = ⟨n, h⟩ := Fin.ext (Nat.mod_eq_of_lt h)

theorem wrap_val_of_lt {n : Nat} (h : n < 8192) : (wrap n).val = n := Nat.mod_eq_of_lt h

/-- The sum of the eight tile sums is the sum over all 8192 indices: position 1024 b + r runs over every index once. -/
theorem sum_tiles {β : Type*} [AddCommMonoid β] (g : Fin 8192 → β) :
    ∑ b ∈ Finset.range 8, ∑ r : Fin 1024, g (wrap (1024 * b + r.val)) = ∑ k : Fin 8192, g k := by
  have e : ∀ (b : Fin 8) (r : Fin 1024), wrap (1024 * b.val + r.val) = (finProdFinEquiv (b, r) : Fin (8 * 1024)) := fun b r =>
    Fin.ext (by
      show (1024 * b.val + r.val) % 8192 = r.val + 1024 * b.val
      have := b.isLt; have := r.isLt; omega)
  calc ∑ b ∈ Finset.range 8, ∑ r : Fin 1024, g (wrap (1024 * b + r.val))
      = ∑ b : Fin 8, ∑ r : Fin 1024, g (finProdFinEquiv (b, r) : Fin (8 * 1024)) := by
        rw [Finset.sum_range (fun b => ∑ r : Fin 1024, g (wrap (1024 * b + r.val)))]
        exact Finset.sum_congr rfl fun b _ => Finset.sum_congr rfl fun r _ => by rw [e]
    _ = ∑ x : Fin 8 × Fin 1024, g (finProdFinEquiv x : Fin (8 * 1024)) := (Fintype.sum_prod_type (fun x : Fin 8 × Fin 1024 => g (finProdFinEquiv x : Fin (8 * 1024)))).symm
    _ = ∑ k : Fin 8192, g k := Equiv.sum_comp (finProdFinEquiv : Fin 8 × Fin 1024 ≃ Fin (8 * 1024)) g

end Cert.KernelIdeal.KI

end
-- ==== Proof.KI.Gcn1Value.lean ====
/-
  The value of the first propagation region of the graph convolution, over the extended reals.

  The region walks an 8 x 8 grid of points (i, k), k running fastest. It keeps a [1024,512] accumulator: at k = 0 the
  accumulator is cleared; at every point it grows by the product of the (i, k) tile of the adjacency matrix with the
  k-th row tile of the features, each feature row first scaled by that node's factor; at k = 7 the accumulator, each row
  scaled by that row's factor, becomes row tile i of the result. Read entry by entry this is
      result (r, n) = (Σ_k A (r, k) * (B (k, n) * d k)) * d r,
  the sum running over all 8192 nodes k: eight tile sums of 1024 terms each, collected one after another.
-/
import proofs.«143233_j59193239273550_1_alg».proof.Proof.KI.Gcn1
import proofs.«143233_j59193239273550_1_alg».proof.Proof.KI.GcnOps
import Idealize.ShloMosaic.Lib.Pipeline.Value
import Idealize.ShloMosaic.Lib.ValueIdx
import Idealize.ShloMosaic.PureOps.Ideal.Laws

noncomputable section

open scoped BigOperators

namespace Cert.KernelIdeal.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The three stored values, entry by entry -/

/-- The cleared accumulator is zero at every entry. -/
theorem k1_pay1_apply (p : Fin 1024) (q : Fin 512) : k1_pay1 (F := Ideal) (ix2 p q) = 0 := by
  unfold k1_pay1
  rw [shapeCast_self]
  exact Ideal.ofBits_zero_f32

/-- One step of the accumulation: the old entry plus the tile product's entry, the feature rows scaled first. -/
theorem k1_pay2_apply (v3 : Vec Ideal S1024x512 .f32) (v4 : Vec Ideal S1024x1 .f32) (v9 : Vec Ideal S1024x1024 .f32)
    (v11 : Vec Ideal S1024x512 .f32) (p : Fin 1024) (q : Fin 512) :
    k1_pay2 v3 v4 v9 v11 (ix2 p q)
      = v11 (ix2 p q) + ∑ k : Fin 1024, v9 (ix2 p k) * (v3 (ix2 k q) * v4 (ix2 k (0 : Fin 1))) := by
  unfold k1_pay2
  rw [shapeCast_self, addf_apply, gcnDot_apply]
  refine congrArg (v11 (ix2 p q) + ·) (Finset.sum_congr rfl fun k _ => ?_)
  rw [truncf_apply, truncf_apply, mulf_apply, colSpread_apply]
  simp only [shapeCast_self]

/-- The value handed out at the end of a row tile: the accumulator's entry times the row's factor. -/
theorem k1_pay3_apply (v20 : Vec Ideal S1024x512 .f32) (v21 : Vec Ideal S1024x1 .f32) (p : Fin 1024) (q : Fin 512) :
    k1_pay3 v20 v21 (ix2 p q) = v20 (ix2 p q) * v21 (ix2 p (0 : Fin 1)) := by
  unfold k1_pay3
  rw [mulf_apply, colSpread_apply, shapeCast_self]

variable (V : (c : Dev nD) → (b : Ref sig .tc) → Buf (Elt Ideal) ((c : Thread nD τ).loc b))

/-! ## The arrays the region reads, under their plain shapes -/

/-- The adjacency matrix A as the region finds it. -/
abbrev adj1 (c : Dev nD) : Vec Ideal S8192x8192 .f32 := V c main_arg1
/-- The feature matrix B as the region finds it. -/
abbrev feat1 (c : Dev nD) : Vec Ideal S8192x512 .f32 := V c main_arg0
/-- The column of node factors d as the region finds it. -/
abbrev scale1 (c : Dev nD) : Vec Ideal S8192x1 .f32 := V c main_v3

/-! ## Where each window's block sits in its array -/

/-- Point t = 8 i + k of the grid: the row windows (the row factors, the result) sit at block i = t / 8, the column
    windows (the column factors, the features) at block k = t % 8, the adjacency window at block (i, k). -/
theorem tileIndex1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

/-- The adjacency tile at point t holds rows 1024 (t / 8) + p and columns 1024 (t % 8) + s of the matrix. -/
theorem ablk1_apply (c : Dev nD) (t : Fin cfg1.N) (p s : Fin 1024) :
    ablk1 V c t (ix2 p s)
      = adj1 V c (ix2 (wrap (1024 * (t.val / 8) + p.val)) (wrap (1024 * (t.val % 8) + s.val))) := by
  have hN : t.val < 64 := lt_of_lt_of_eq t.isLt N_1
  have hp := p.isLt
  have hs := s.isLt
  obtain ⟨-, -, -, -, e0, e1, -⟩ := tileIndex1 t
  show adj1 V c (((cfg1.win 2).blk t).view.emb (ix2 p s)) = _
  refine congrArg (adj1 V c) (funext fun a => Fin.ext ?_)
  match a with
  | ⟨0, _⟩ =>
    show win1_2.index t (0 : Fin 2) * 1024 + 1 * p.val = (wrap (1024 * (t.val / 8) + p.val)).val
    rw [wrap_val_of_lt (by omega), e0]; omega
  | ⟨1, _⟩ =>
    show win1_2.index t (1 : Fin 2) * 1024 + 1 * s.val = (wrap (1024 * (t.val % 8) + s.val)).val
    rw [wrap_val_of_lt (by omega), e1]; omega

/-- The feature tile at point t holds rows 1024 (t % 8) + s of the features, all 512 columns. -/
theorem bblk1_apply (c : Dev nD) (t : Fin cfg1.N) (s : Fin 1024) (q : Fin 512) :
    bblk1 V c t (ix2 s q) = feat1 V c (ix2 (wrap (1024 * (t.val % 8) + s.val)) q) := by
  have hN : t.val < 64 := lt_of_lt_of_eq t.isLt N_1
  have hs := s.isLt
  have hq := q.isLt
  obtain ⟨-, -, -, -, -, -, e0, e1, -⟩ := tileIndex1 t
  show feat1 V c (((cfg1.win 3).blk t).view.emb (ix2 s q)) = _
  refine congrArg (feat1 V c) (funext fun a => Fin.ext ?_)
  match a with
  | ⟨0, _⟩ =>
    show win1_3.index t (0 : Fin 2) * 1024 + 1 * s.val = (wrap (1024 * (t.val % 8) + s.val)).val
    rw [wrap_val_of_lt (by omega), e0]; omega
  | ⟨1, _⟩ =>
    show win1_3.index t (1 : Fin 2) * 512 + 1 * q.val = q.val
    rw [e1]; omega

/-- The column factors at point t are the factors of nodes 1024 (t % 8) + s. -/
theorem dcol1_apply (c : Dev nD) (t : Fin cfg1.N) (s : Fin 1024) :
    dcol1 V c t (ix2 s (0 : Fin 1)) = scale1 V c (ix2 (wrap (1024 * (t.val % 8) + s.val)) (0 : Fin 1)) := by
  have hN : t.val < 64 := lt_of_lt_of_eq t.isLt N_1
  have hs := s.isLt
  obtain ⟨-, -, e0, e1, -⟩ := tileIndex1 t
  show scale1 V c (((cfg1.win 1).blk t).view.emb (ix2 s (0 : Fin 1))) = _
  refine congrArg (scale1 V c) (funext fun a => Fin.ext ?_)
  match a with
  | ⟨0, _⟩ =>
    show win1_1.index t (0 : Fin 2) * 1024 + 1 * s.val = (wrap (1024 * (t.val % 8) + s.val)).val
    rw [wrap_val_of_lt (by omega), e0]; omega
  | ⟨1, _⟩ =>
    show win1_1.index t (1 : Fin 2) * 1 + 1 * 0 = 0
    rw [e1]

/-- The row factors at point t are the factors of nodes 1024 (t / 8) + p. -/
theorem drow1_apply (c : Dev nD) (t : Fin cfg1.N) (p : Fin 1024) :
    drow1 V c t (ix2 p (0 : Fin 1)) = scale1 V c (ix2 (wrap (1024 * (t.val / 8) + p.val)) (0 : Fin 1)) := by
  have hN : t.val < 64 := lt_of_lt_of_eq t.isLt N_1
  have hp := p.isLt
  obtain ⟨e0, e1, -⟩ := tileIndex1 t
  show scale1 V c (((cfg1.win 0).blk t).view.emb (ix2 p (0 : Fin 1))) = _
  refine congrArg (scale1 V c) (funext fun a => Fin.ext ?_)
  match a with
  | ⟨0, _⟩ =>
    show win1_0.index t (0 : Fin 2) * 1024 + 1 * p.val = (wrap (1024 * (t.val / 8) + p.val)).val
    rw [wrap_val_of_lt (by omega), e0]; omega
  | ⟨1, _⟩ =>
    show win1_0.index t (1 : Fin 2) * 1 + 1 * 0 = 0
    rw [e1]

/-! ## The accumulator inside a row tile -/

/-- The share of column tile b in the sum for result entry (r, n): the 1024 products over the nodes of that tile. -/
def tileSum1 (c : Dev nD) (r : Fin 8192) (n : Fin 512) (b : Nat) : EReal :=
  ∑ s : Fin 1024, adj1 V c (ix2 r (wrap (1024 * b + s.val)))
    * (feat1 V c (ix2 (wrap (1024 * b + s.val)) n) * scale1 V c (ix2 (wrap (1024 * b + s.val)) (0 : Fin 1)))

/-- One step at point t adds, at entry (p, q), the share of column tile t % 8 for row 1024 (t / 8) + p. -/
theorem step1_apply (c : Dev nD) (t : Fin cfg1.N) (a : Vec Ideal S1024x512 .f32) (p : Fin 1024) (q : Fin 512) :
    step1 V c t a (ix2 p q) = a (ix2 p q) + tileSum1 V c (wrap (1024 * (t.val / 8) + p.val)) q (t.val % 8) := by
  unfold step1
  rw [k1_pay2_apply]
  refine congrArg (a (ix2 p q) + ·) (Finset.sum_congr rfl fun s _ => ?_)
  rw [ablk1_apply, bblk1_apply, dcol1_apply]

/-- Inside row tile i, after the point of column tile k the accumulator holds, at entry (p, q), the shares of the column
    tiles 0 … k for row 1024 i + p: it was cleared at k = 0 and has grown by one share at every point since. -/
theorem acc1_run (c : Dev nD) (i : Nat) (hi : i < 8) (p : Fin 1024) (q : Fin 512) :
    ∀ (k : Nat), k < 8 →
      acc1 V c (8 * i + k + 1) (ix2 p q) = ∑ b ∈ Finset.range (k + 1), tileSum1 V c (wrap (1024 * i + p.val)) q b
  | 0, _ => by
    have ht : 8 * i < cfg1.N := by rw [show cfg1.N = 64 from N_1]; omega
    have e := congrFun (acc1_succ_first V c ⟨8 * i, ht⟩ (by show 8 * i % 8 = 0; omega)) (ix2 p q)
    refine e.trans ?_
    rw [step1_apply, k1_pay1_apply, zero_add, Finset.sum_range_one]
    show tileSum1 V c (wrap (1024 * (8 * i / 8) + p.val)) q (8 * i % 8) = _
    rw [show 8 * i / 8 = i by omega, show 8 * i % 8 = 0 by omega]
  | k + 1, hk => by
    have ht : 8 * i + (k + 1) < cfg1.N := by rw [show cfg1.N = 64 from N_1]; omega
    have e := congrFun (acc1_succ_later V c ⟨8 * i + (k + 1), ht⟩ (by show ¬(8 * i + (k + 1)) % 8 = 0; omega)) (ix2 p q)
    refine e.trans ?_
    rw [step1_apply, Finset.sum_range_succ _ (k + 1)]
    show acc1 V c (8 * i + k + 1) (ix2 p q) + tileSum1 V c (wrap (1024 * ((8 * i + (k + 1)) / 8) + p.val)) q ((8 * i + (k + 1)) % 8) = _
    rw [acc1_run c i hi p q k (by omega), show (8 * i + (k + 1)) / 8 = i by omega, show (8 * i + (k + 1)) % 8 = k + 1 by omega]

/-! ## The result array -/

/-- One propagation, entry (r, n): the sum over all nodes k of A (r, k) * (B (k, n) * d k), times d r. -/
def prop1 (c : Dev nD) (r : Fin 8192) (n : Fin 512) : EReal :=
  (∑ k : Fin 8192, adj1 V c (ix2 r k) * (feat1 V c (ix2 k n) * scale1 V c (ix2 k (0 : Fin 1))))
    * scale1 V c (ix2 r (0 : Fin 1))

/-- The eight shares of a row make up the sum over all nodes. -/
theorem sum_tileSum1 (c : Dev nD) (r : Fin 8192) (n : Fin 512) :
    ∑ b ∈ Finset.range 8, tileSum1 V c r n b
      = ∑ k : Fin 8192, adj1 V c (ix2 r k) * (feat1 V c (ix2 k n) * scale1 V c (ix2 k (0 : Fin 1))) :=
  sum_tiles fun k => adj1 V c (ix2 r k) * (feat1 V c (ix2 k n) * scale1 V c (ix2 k (0 : Fin 1)))

/-- The result array as one function of the arrays the region finds. -/
abbrev res1 (c : Dev nD) : Buf (Elt Ideal) ((c : Thread nD τ).loc main_v4) := fun j => prop1 V c (j 0) (j 1)

/-- What the last point of row tile i hands out, at entry (p, q), is the propagation's entry (1024 i + p, q). -/
theorem out1_apply (c : Dev nD) (t : Fin cfg1.N) (h7 : t.val % 8 = 7) (p : Fin 1024) (q : Fin 512) :
    out1 V c t (ix2 p q) = prop1 V c (wrap (1024 * (t.val / 8) + p.val)) q := by
  have hN : t.val < 64 := lt_of_lt_of_eq t.isLt N_1
  unfold out1
  rw [k1_pay3_apply, drow1_apply]
  have e : t.val + 1 = 8 * (t.val / 8) + 7 + 1 := by omega
  rw [e, acc1_run V c (t.val / 8) (by omega) p q 7 (by decide), sum_tileSum1]
  rfl

/-- An index of the result array lies in the block of point t exactly when each coordinate lies in the block's range. -/
theorem mem_rowTile1 (t : Fin cfg1.N) (j : S8192x512.Idx) :
    j ∈ ((cfg1.win 4).blk t).view.set ↔ ∀ a : Fin 2, win1_4.index t a * S1024x512.size a ≤ (j a).val
      ∧ (j a).val < win1_4.index t a * S1024x512.size a + S1024x512.size a := by
  show j ∈ ((View.whole main_v4).slice (win1_4.rect t)).set ↔ _
  rw [View.set_slice_whole, Rect.mem_set_unit]
  exact Iff.rfl

/-- What a point that ends a row tile writes back is its block of the propagation's result. -/
theorem written1_eq (c : Dev nD) (t : Fin cfg1.N) (hf : (cfg1.win 4).flush t = true) :
    (dat1 V c).flushed 4 t = ((cfg1.win 4).blk t).view.read (Elt Ideal) (res1 V c) := by
  have h7 : t.val % 8 = 7 := (flush1_4 t).mp hf
  have hN : t.val < 64 := lt_of_lt_of_eq t.isLt N_1
  obtain ⟨-, -, -, -, -, -, -, -, e0, e1⟩ := tileIndex1 t
  show (cfg1.win 4).cut (grid1.coords t) ((dat1 V c).after 4 t) = _
  rw [after1_4]
  funext j
  obtain ⟨p, q, rfl⟩ : ∃ (p : Fin 1024) (q : Fin 512), j = ix2 p q := ⟨j 0, j 1, eq_ix2 j⟩
  have hp := p.isLt
  have hq := q.isLt
  show out1 V c t (ix2 p q)
    = prop1 V c ((((cfg1.win 4).blk t).view.emb (ix2 p q)) 0) ((((cfg1.win 4).blk t).view.emb (ix2 p q)) 1)
  rw [out1_apply V c t h7]
  congr 1
  · apply Fin.ext
    show (wrap (1024 * (t.val / 8) + p.val)).val = win1_4.index t (0 : Fin 2) * 1024 + 1 * p.val
    rw [wrap_val_of_lt (by omega), e0]; omega
  · apply Fin.ext
    show q.val = win1_4.index t (1 : Fin 2) * 512 + 1 * q.val
    rw [e1]; omega

/-- Every entry of the result lies in the block of the point that ends its row tile. -/
theorem cover1 (j : S8192x512.Idx) :
    ∃ t : Fin cfg1.N, (cfg1.win 4).flush t = true ∧ j ∈ ((cfg1.win 4).blk t).view.set := by
  have h0 : (j 0).val < 8192 := (j 0).isLt
  have h1 : (j 1).val < 512 := (j 1).isLt
  have ht : 8 * ((j 0).val / 1024) + 7 < cfg1.N := by rw [show cfg1.N = 64 from N_1]; omega
  refine ⟨⟨8 * ((j 0).val / 1024) + 7, ht⟩, (flush1_4 _).mpr (by show (8 * ((j 0).val / 1024) + 7) % 8 = 7; omega), ?_⟩
  obtain ⟨-, -, -, -, -, -, -, -, e0, e1⟩ := tileIndex1 ⟨8 * ((j 0).val / 1024) + 7, ht⟩
  have e0' : win1_4.index ⟨8 * ((j 0).val / 1024) + 7, ht⟩ (0 : Fin 2) = (j 0).val / 1024 := by
    rw [e0]; show (8 * ((j 0).val / 1024) + 7) / 8 = _; omega
  rw [mem_rowTile1]
  intro a
  match a with
  | ⟨0, _⟩ =>
    show win1_4.index ⟨8 * ((j 0).val / 1024) + 7, ht⟩ (0 : Fin 2) * 1024 ≤ (j 0).val
      ∧ (j 0).val < win1_4.index ⟨8 * ((j 0).val / 1024) + 7, ht⟩ (0 : Fin 2) * 1024 + 1024
    rw [e0']; omega
  | ⟨1, _⟩ =>
    show win1_4.index ⟨8 * ((j 0).val / 1024) + 7, ht⟩ (1 : Fin 2) * 512 ≤ (j 1).val
      ∧ (j 1).val < win1_4.index ⟨8 * ((j 0).val / 1024) + 7, ht⟩ (1 : Fin 2) * 512 + 512
    rw [e1]; omega

/-- After the region the result array holds the propagation's result. -/
theorem resultArr1 (c : Dev nD) : (dat1 V c).arrAt 4 cfg1.N = res1 V c :=
  (dat1 V c).arrAt_eq_of_cover 4 (res1 V c) (written1_eq V c) cover1

/-- Entry (i, n) of the result array after the region: (Σ_k A (i, k) * (B (k, n) * d k)) * d i. -/
theorem arrAt1 (c : Dev nD) (i : Fin 8192) (n : Fin 512) :
    (dat1 (F := Ideal) V c).arrAt 4 cfg1.N (ix2 i n)
      = (∑ k : Fin 8192, adj1 V c (ix2 i k) * (feat1 V c (ix2 k n) * scale1 V c (ix2 k (0 : Fin 1))))
        * scale1 V c (ix2 i (0 : Fin 1)) :=
  congrFun (resultArr1 V c) (ix2 i n)

end Cert.KernelIdeal.KI

end
-- ==== Proof.KI.Gcn3Value.lean ====
/-
  The value of the second propagation region of the graph convolution, over the extended reals.

  The region walks an 8 x 8 grid of points (i, k), k running fastest. It keeps a [1024,512] accumulator: at k = 0 the
  accumulator is cleared; at every point it grows by the product of the (i, k) tile of the adjacency matrix with the
  k-th row tile of the features, each feature row first scaled by that node's factor; at k = 7 the accumulator, each row
  scaled by that row's factor, becomes row tile i of the result. Read entry by entry this is
      result (r, n) = (Σ_k A (r, k) * (B (k, n) * d k)) * d r,
  the sum running over all 8192 nodes k: eight tile sums of 1024 terms each, collected one after another.
-/
import proofs.«143233_j59193239273550_1_alg».proof.Proof.KI.Gcn3
import proofs.«143233_j59193239273550_1_alg».proof.Proof.KI.GcnOps
import Idealize.ShloMosaic.Lib.Pipeline.Value
import Idealize.ShloMosaic.Lib.ValueIdx
import Idealize.ShloMosaic.PureOps.Ideal.Laws

noncomputable section

open scoped BigOperators

namespace Cert.KernelIdeal.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The three stored values, entry by entry -/

/-- The cleared accumulator is zero at every entry. -/
theorem k3_pay1_apply (p : Fin 1024) (q : Fin 512) : k3_pay1 (F := Ideal) (ix2 p q) = 0 := by
  unfold k3_pay1
  rw [shapeCast_self]
  exact Ideal.ofBits_zero_f32

/-- One step of the accumulation: the old entry plus the tile product's entry, the feature rows scaled first. -/
theorem k3_pay2_apply (v3 : Vec Ideal S1024x512 .f32) (v4 : Vec Ideal S1024x1 .f32) (v9 : Vec Ideal S1024x1024 .f32)
    (v11 : Vec Ideal S1024x512 .f32) (p : Fin 1024) (q : Fin 512) :
    k3_pay2 v3 v4 v9 v11 (ix2 p q)
      = v11 (ix2 p q) + ∑ k : Fin 1024, v9 (ix2 p k) * (v3 (ix2 k q) * v4 (ix2 k (0 : Fin 1))) := by
  unfold k3_pay2
  rw [shapeCast_self, addf_apply, gcnDot_apply]
  refine congrArg (v11 (ix2 p q) + ·) (Finset.sum_congr rfl fun k _ => ?_)
  rw [truncf_apply, truncf_apply, mulf_apply, colSpread_apply]
  simp only [shapeCast_self]

/-- The value handed out at the end of a row tile: the accumulator's entry times the row's factor. -/
theorem k3_pay3_apply (v20 : Vec Ideal S1024x512 .f32) (v21 : Vec Ideal S1024x1 .f32) (p : Fin 1024) (q : Fin 512) :
    k3_pay3 v20 v21 (ix2 p q) = v20 (ix2 p q) * v21 (ix2 p (0 : Fin 1)) := by
  unfold k3_pay3
  rw [mulf_apply, colSpread_apply, shapeCast_self]

variable (V : (c : Dev nD) → (b : Ref sig .tc) → Buf (Elt Ideal) ((c : Thread nD τ).loc b))

/-! ## The arrays the region reads, under their plain shapes -/

/-- The adjacency matrix A as the region finds it. -/
abbrev adj3 (c : Dev nD) : Vec Ideal S8192x8192 .f32 := V c main_arg1
/-- The feature matrix B as the region finds it. -/
abbrev feat3 (c : Dev nD) : Vec Ideal S8192x512 .f32 := V c main_v7
/-- The column of node factors d as the region finds it. -/
abbrev scale3 (c : Dev nD) : Vec Ideal S8192x1 .f32 := V c main_v8

/-! ## Where each window's block sits in its array -/

/-- Point t = 8 i + k of the grid: the row windows (the row factors, the result) sit at block i = t / 8, the column
    windows (the column factors, the features) at block k = t % 8, the adjacency window at block (i, k). -/
theorem tileIndex3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8
    ∧ win3_3.index t (0 : Fin 2) = t.val % 8 ∧ win3_3.index t (1 : Fin 2) = 0
    ∧ win3_4.index t (0 : Fin 2) = t.val / 8 ∧ win3_4.index t (1 : Fin 2) = 0 :=
  (by decide +kernel : ∀ t : Fin grid3.N, _)

/-- The adjacency tile at point t holds rows 1024 (t / 8) + p and columns 1024 (t % 8) + s of the matrix. -/
theorem ablk3_apply (c : Dev nD) (t : Fin cfg3.N) (p s : Fin 1024) :
    ablk3 V c t (ix2 p s)
      = adj3 V c (ix2 (wrap (1024 * (t.val / 8) + p.val)) (wrap (1024 * (t.val % 8) + s.val))) := by
  have hN : t.val < 64 := lt_of_lt_of_eq t.isLt N_3
  have hp := p.isLt
  have hs := s.isLt
  obtain ⟨-, -, -, -, e0, e1, -⟩ := tileIndex3 t
  show adj3 V c (((cfg3.win 2).blk t).view.emb (ix2 p s)) = _
  refine congrArg (adj3 V c) (funext fun a => Fin.ext ?_)
  match a with
  | ⟨0, _⟩ =>
    show win3_2.index t (0 : Fin 2) * 1024 + 1 * p.val = (wrap (1024 * (t.val / 8) + p.val)).val
    rw [wrap_val_of_lt (by omega), e0]; omega
  | ⟨1, _⟩ =>
    show win3_2.index t (1 : Fin 2) * 1024 + 1 * s.val = (wrap (1024 * (t.val % 8) + s.val)).val
    rw [wrap_val_of_lt (by omega), e1]; omega

/-- The feature tile at point t holds rows 1024 (t % 8) + s of the features, all 512 columns. -/
theorem bblk3_apply (c : Dev nD) (t : Fin cfg3.N) (s : Fin 1024) (q : Fin 512) :
    bblk3 V c t (ix2 s q) = feat3 V c (ix2 (wrap (1024 * (t.val % 8) + s.val)) q) := by
  have hN : t.val < 64 := lt_of_lt_of_eq t.isLt N_3
  have hs := s.isLt
  have hq := q.isLt
  obtain ⟨-, -, -, -, -, -, e0, e1, -⟩ := tileIndex3 t
  show feat3 V c (((cfg3.win 3).blk t).view.emb (ix2 s q)) = _
  refine congrArg (feat3 V c) (funext fun a => Fin.ext ?_)
  match a with
  | ⟨0, _⟩ =>
    show win3_3.index t (0 : Fin 2) * 1024 + 1 * s.val = (wrap (1024 * (t.val % 8) + s.val)).val
    rw [wrap_val_of_lt (by omega), e0]; omega
  | ⟨1, _⟩ =>
    show win3_3.index t (1 : Fin 2) * 512 + 1 * q.val = q.val
    rw [e1]; omega

/-- The column factors at point t are the factors of nodes 1024 (t % 8) + s. -/
theorem dcol3_apply (c : Dev nD) (t : Fin cfg3.N) (s : Fin 1024) :
    dcol3 V c t (ix2 s (0 : Fin 1)) = scale3 V c (ix2 (wrap (1024 * (t.val % 8) + s.val)) (0 : Fin 1)) := by
  have hN : t.val < 64 := lt_of_lt_of_eq t.isLt N_3
  have hs := s.isLt
  obtain ⟨-, -, e0, e1, -⟩ := tileIndex3 t
  show scale3 V c (((cfg3.win 1).blk t).view.emb (ix2 s (0 : Fin 1))) = _
  refine congrArg (scale3 V c) (funext fun a => Fin.ext ?_)
  match a with
  | ⟨0, _⟩ =>
    show win3_1.index t (0 : Fin 2) * 1024 + 1 * s.val = (wrap (1024 * (t.val % 8) + s.val)).val
    rw [wrap_val_of_lt (by omega), e0]; omega
  | ⟨1, _⟩ =>
    show win3_1.index t (1 : Fin 2) * 1 + 1 * 0 = 0
    rw [e1]

/-- The row factors at point t are the factors of nodes 1024 (t / 8) + p. -/
theorem drow3_apply (c : Dev nD) (t : Fin cfg3.N) (p : Fin 1024) :
    drow3 V c t (ix2 p (0 : Fin 1)) = scale3 V c (ix2 (wrap (1024 * (t.val / 8) + p.val)) (0 : Fin 1)) := by
  have hN : t.val < 64 := lt_of_lt_of_eq t.isLt N_3
  have hp := p.isLt
  obtain ⟨e0, e1, -⟩ := tileIndex3 t
  show scale3 V c (((cfg3.win 0).blk t).view.emb (ix2 p (0 : Fin 1))) = _
  refine congrArg (scale3 V c) (funext fun a => Fin.ext ?_)
  match a with
  | ⟨0, _⟩ =>
    show win3_0.index t (0 : Fin 2) * 1024 + 1 * p.val = (wrap (1024 * (t.val / 8) + p.val)).val
    rw [wrap_val_of_lt (by omega), e0]; omega
  | ⟨1, _⟩ =>
    show win3_0.index t (1 : Fin 2) * 1 + 1 * 0 = 0
    rw [e1]

/-! ## The accumulator inside a row tile -/

/-- The share of column tile b in the sum for result entry (r, n): the 1024 products over the nodes of that tile. -/
def tileSum3 (c : Dev nD) (r : Fin 8192) (n : Fin 512) (b : Nat) : EReal :=
  ∑ s : Fin 1024, adj3 V c (ix2 r (wrap (1024 * b + s.val)))
    * (feat3 V c (ix2 (wrap (1024 * b + s.val)) n) * scale3 V c (ix2 (wrap (1024 * b + s.val)) (0 : Fin 1)))

/-- One step at point t adds, at entry (p, q), the share of column tile t % 8 for row 1024 (t / 8) + p. -/
theorem step3_apply (c : Dev nD) (t : Fin cfg3.N) (a : Vec Ideal S1024x512 .f32) (p : Fin 1024) (q : Fin 512) :
    step3 V c t a (ix2 p q) = a (ix2 p q) + tileSum3 V c (wrap (1024 * (t.val / 8) + p.val)) q (t.val % 8) := by
  unfold step3
  rw [k3_pay2_apply]
  refine congrArg (a (ix2 p q) + ·) (Finset.sum_congr rfl fun s _ => ?_)
  rw [ablk3_apply, bblk3_apply, dcol3_apply]

/-- Inside row tile i, after the point of column tile k the accumulator holds, at entry (p, q), the shares of the column
    tiles 0 … k for row 1024 i + p: it was cleared at k = 0 and has grown by one share at every point since. -/
theorem acc3_run (c : Dev nD) (i : Nat) (hi : i < 8) (p : Fin 1024) (q : Fin 512) :
    ∀ (k : Nat), k < 8 →
      acc3 V c (8 * i + k + 1) (ix2 p q) = ∑ b ∈ Finset.range (k + 1), tileSum3 V c (wrap (1024 * i + p.val)) q b
  | 0, _ => by
    have ht : 8 * i < cfg3.N := by rw [show cfg3.N = 64 from N_3]; omega
    have e := congrFun (acc3_succ_first V c ⟨8 * i, ht⟩ (by show 8 * i % 8 = 0; omega)) (ix2 p q)
    refine e.trans ?_
    rw [step3_apply, k3_pay1_apply, zero_add, Finset.sum_range_one]
    show tileSum3 V c (wrap (1024 * (8 * i / 8) + p.val)) q (8 * i % 8) = _
    rw [show 8 * i / 8 = i by omega, show 8 * i % 8 = 0 by omega]
  | k + 1, hk => by
    have ht : 8 * i + (k + 1) < cfg3.N := by rw [show cfg3.N = 64 from N_3]; omega
    have e := congrFun (acc3_succ_later V c ⟨8 * i + (k + 1), ht⟩ (by show ¬(8 * i + (k + 1)) % 8 = 0; omega)) (ix2 p q)
    refine e.trans ?_
    rw [step3_apply, Finset.sum_range_succ _ (k + 1)]
    show acc3 V c (8 * i + k + 1) (ix2 p q) + tileSum3 V c (wrap (1024 * ((8 * i + (k + 1)) / 8) + p.val)) q ((8 * i + (k + 1)) % 8) = _
    rw [acc3_run c i hi p q k (by omega), show (8 * i + (k + 1)) / 8 = i by omega, show (8 * i + (k + 1)) % 8 = k + 1 by omega]

/-! ## The result array -/

/-- One propagation, entry (r, n): the sum over all nodes k of A (r, k) * (B (k, n) * d k), times d r. -/
def prop3 (c : Dev nD) (r : Fin 8192) (n : Fin 512) : EReal :=
  (∑ k : Fin 8192, adj3 V c (ix2 r k) * (feat3 V c (ix2 k n) * scale3 V c (ix2 k (0 : Fin 1))))
    * scale3 V c (ix2 r (0 : Fin 1))

/-- The eight shares of a row make up the sum over all nodes. -/
theorem sum_tileSum3 (c : Dev nD) (r : Fin 8192) (n : Fin 512) :
    ∑ b ∈ Finset.range 8, tileSum3 V c r n b
      = ∑ k : Fin 8192, adj3 V c (ix2 r k) * (feat3 V c (ix2 k n) * scale3 V c (ix2 k (0 : Fin 1))) :=
  sum_tiles fun k => adj3 V c (ix2 r k) * (feat3 V c (ix2 k n) * scale3 V c (ix2 k (0 : Fin 1)))

/-- The result array as one function of the arrays the region finds. -/
abbrev res3 (c : Dev nD) : Buf (Elt Ideal) ((c : Thread nD τ).loc main_v9) := fun j => prop3 V c (j 0) (j 1)

/-- What the last point of row tile i hands out, at entry (p, q), is the propagation's entry (1024 i + p, q). -/
theorem out3_apply (c : Dev nD) (t : Fin cfg3.N) (h7 : t.val % 8 = 7) (p : Fin 1024) (q : Fin 512) :
    out3 V c t (ix2 p q) = prop3 V c (wrap (1024 * (t.val / 8) + p.val)) q := by
  have hN : t.val < 64 := lt_of_lt_of_eq t.isLt N_3
  unfold out3
  rw [k3_pay3_apply, drow3_apply]
  have e : t.val + 1 = 8 * (t.val / 8) + 7 + 1 := by omega
  rw [e, acc3_run V c (t.val / 8) (by omega) p q 7 (by decide), sum_tileSum3]
  rfl

/-- An index of the result array lies in the block of point t exactly when each coordinate lies in the block's range. -/
theorem mem_rowTile3 (t : Fin cfg3.N) (j : S8192x512.Idx) :
    j ∈ ((cfg3.win 4).blk t).view.set ↔ ∀ a : Fin 2, win3_4.index t a * S1024x512.size a ≤ (j a).val
      ∧ (j a).val < win3_4.index t a * S1024x512.size a + S1024x512.size a := by
  show j ∈ ((View.whole main_v9).slice (win3_4.rect t)).set ↔ _
  rw [View.set_slice_whole, Rect.mem_set_unit]
  exact Iff.rfl

/-- What a point that ends a row tile writes back is its block of the propagation's result. -/
theorem written3_eq (c : Dev nD) (t : Fin cfg3.N) (hf : (cfg3.win 4).flush t = true) :
    (dat3 V c).flushed 4 t = ((cfg3.win 4).blk t).view.read (Elt Ideal) (res3 V c) := by
  have h7 : t.val % 8 = 7 := (flush3_4 t).mp hf
  have hN : t.val < 64 := lt_of_lt_of_eq t.isLt N_3
  obtain ⟨-, -, -, -, -, -, -, -, e0, e1⟩ := tileIndex3 t
  show (cfg3.win 4).cut (grid3.coords t) ((dat3 V c).after 4 t) = _
  rw [after3_4]
  funext j
  obtain ⟨p, q, rfl⟩ : ∃ (p : Fin 1024) (q : Fin 512), j = ix2 p q := ⟨j 0, j 1, eq_ix2 j⟩
  have hp := p.isLt
  have hq := q.isLt
  show out3 V c t (ix2 p q)
    = prop3 V c ((((cfg3.win 4).blk t).view.emb (ix2 p q)) 0) ((((cfg3.win 4).blk t).view.emb (ix2 p q)) 1)
  rw [out3_apply V c t h7]
  congr 1
  · apply Fin.ext
    show (wrap (1024 * (t.val / 8) + p.val)).val = win3_4.index t (0 : Fin 2) * 1024 + 1 * p.val
    rw [wrap_val_of_lt (by omega), e0]; omega
  · apply Fin.ext
    show q.val = win3_4.index t (1 : Fin 2) * 512 + 1 * q.val
    rw [e1]; omega

/-- Every entry of the result lies in the block of the point that ends its row tile. -/
theorem cover3 (j : S8192x512.Idx) :
    ∃ t : Fin cfg3.N, (cfg3.win 4).flush t = true ∧ j ∈ ((cfg3.win 4).blk t).view.set := by
  have h0 : (j 0).val < 8192 := (j 0).isLt
  have h1 : (j 1).val < 512 := (j 1).isLt
  have ht : 8 * ((j 0).val / 1024) + 7 < cfg3.N := by rw [show cfg3.N = 64 from N_3]; omega
  refine ⟨⟨8 * ((j 0).val / 1024) + 7, ht⟩, (flush3_4 _).mpr (by show (8 * ((j 0).val / 1024) + 7) % 8 = 7; omega), ?_⟩
  obtain ⟨-, -, -, -, -, -, -, -, e0, e1⟩ := tileIndex3 ⟨8 * ((j 0).val / 1024) + 7, ht⟩
  have e0' : win3_4.index ⟨8 * ((j 0).val / 1024) + 7, ht⟩ (0 : Fin 2) = (j 0).val / 1024 := by
    rw [e0]; show (8 * ((j 0).val / 1024) + 7) / 8 = _; omega
  rw [mem_rowTile3]
  intro a
  match a with
  | ⟨0, _⟩ =>
    show win3_4.index ⟨8 * ((j 0).val / 1024) + 7, ht⟩ (0 : Fin 2) * 1024 ≤ (j 0).val
      ∧ (j 0).val < win3_4.index ⟨8 * ((j 0).val / 1024) + 7, ht⟩ (0 : Fin 2) * 1024 + 1024
    rw [e0']; omega
  | ⟨1, _⟩ =>
    show win3_4.index ⟨8 * ((j 0).val / 1024) + 7, ht⟩ (1 : Fin 2) * 512 ≤ (j 1).val
      ∧ (j 1).val < win3_4.index ⟨8 * ((j 0).val / 1024) + 7, ht⟩ (1 : Fin 2) * 512 + 512
    rw [e1]; omega

/-- After the region the result array holds the propagation's result. -/
theorem resultArr3 (c : Dev nD) : (dat3 V c).arrAt 4 cfg3.N = res3 V c :=
  (dat3 V c).arrAt_eq_of_cover 4 (res3 V c) (written3_eq V c) cover3

/-- Entry (i, n) of the result array after the region: (Σ_k A (i, k) * (B (k, n) * d k)) * d i. -/
theorem arrAt3 (c : Dev nD) (i : Fin 8192) (n : Fin 512) :
    (dat3 (F := Ideal) V c).arrAt 4 cfg3.N (ix2 i n)
      = (∑ k : Fin 8192, adj3 V c (ix2 i k) * (feat3 V c (ix2 k n) * scale3 V c (ix2 k (0 : Fin 1))))
        * scale3 V c (ix2 i (0 : Fin 1)) :=
  congrFun (resultArr3 V c) (ix2 i n)

end Cert.KernelIdeal.KI

end
-- ==== Proof.KI.Lin2Value.lean ====
/- The first dense layer, read entry by entry over the extended reals.

   Lin2 says what the region's body leaves in the output buffer at each of the four grid points, as a
   function of the three input blocks.  Here that function is evaluated: entry (p, o) of the block is
       max (Σ_n x0 (p, n) · x1 (n, o) + x2 (0, o)) 0
   because the changes of float format are the identity on extended reals, the product into a zero
   accumulator is the plain sum, and the bias row is repeated down the rows.  Point t sees rows
   2048·t … 2048·t + 2047 of X and writes the same rows of the result, and the four row ranges cover
   the 8192 rows; so after the region, for every i and o, entry (i, o) of the result is
       max (Σ_n X (i, n) · Wt (n, o) + b (0, o)) 0. -/
import proofs.«143233_j59193239273550_1_alg».proof.Proof.KI.Lin2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KI

open Idealize.ShloMosaic Idealize.ShloMosaic.TcCoe Idealize.SL.Sem
open Idealize.ShloMosaic.Pipeline (Dat)
open Idealize.ShloMosaic.ValueIdx
open Cert.KernelIdeal.Gen
open scoped BigOperators

variable (V : (c : Dev nD) → (b : Ref sig .tc) → Buf (Elt Ideal) ((c : Thread nD τ).loc b))

-- the result's side of the region: the shape of one block of the result and of the whole result, the
-- number of its columns, the product's dimension record and the fact that the bias row repeats over a block
local notation "OB" => S2048x512
local notation "OA" => S8192x512
local notation "NO" => 512
local notation "dotL" => dot_S2048x512_S512x512_S2048x512_1_0_0_1_n_n
local notation "bcBO" => broadcasts_S1x512_S2048x512

/-! ## The body's one store, evaluated -/

theorem zero_offsets2 : (![0, 0] : Fin 2 → Nat) = fun _ => 0 := funext fun a => by fin_cases a <;> rfl

/-- One store over the whole buffer leaves its payload, and a load of a whole buffer reads it all:
    the output buffer after the body is the payload of the three input buffers. -/
theorem out2_3_eq_pay {F : FTy → Type} [FloatOps F] (x0 : Vec F S2048x512 .f32) (x1 : Vec F S512x512 .f32) (x2 : Vec F S1x512 .f32) :
    out2_3 x0 x1 x2 = k2_pay1 x0 x1 x2 := by
  unfold out2_3
  rw [View.canon_unit_zero zero_offsets2]
  simp only [View.ld_unit_zero (S := S2048x512) zero_offsets2, View.ld_unit_zero (S := S512x512) zero_offsets2,
    View.ld_unit_zero (S := S1x512) zero_offsets2]

/-! ## The matrix product at an entry

The product contracts the second axis of the left factor with the first of the right; the left
factor's first axis and the right factor's second are kept.  So at output entry `i` and contraction
index `q` the left factor is read at `(i 0, q)` and the right at `(q, i 1)`. -/

theorem lhs2_row (i : (OB).Idx) (q : (dotL).contr.Idx) :
    ((dotL).lhsIdx i q 0).val = (i 0).val := by
  unfold DotDims.lhsIdx
  rw [dif_neg (show ¬(0 : Fin S2048x512.rank) ∈ (dotL).lhsBatch by decide), dif_pos (show (0 : Fin S2048x512.rank) ∈ (dotL).lhsNonContracting by decide)]
  rfl
theorem lhs2_col (i : (OB).Idx) (q : (dotL).contr.Idx) :
    ((dotL).lhsIdx i q 1).val = (q ⟨0, by decide⟩).val :=
  (dotL).lhsIdx_val_of_single rfl i q
theorem rhs2_row (i : (OB).Idx) (q : (dotL).contr.Idx) :
    ((dotL).rhsIdx i q 0).val = (q ⟨0, by decide⟩).val :=
  (dotL).rhsIdx_val_of_single rfl i q
theorem rhs2_col (i : (OB).Idx) (q : (dotL).contr.Idx) :
    ((dotL).rhsIdx i q 1).val = (i 1).val := by
  unfold DotDims.rhsIdx
  rw [dif_neg (show ¬(1 : Fin S512x512.rank) ∈ (dotL).rhsBatch by decide), dif_pos (show (1 : Fin S512x512.rank) ∈ (dotL).rhsNonContracting by decide)]
  rfl

/-- The block product into the zero accumulator, at entry (p, o): the sum over the 512 inner indices
    of the products of the entries. -/
theorem prod2_apply {φ₁ φ₂ : FTy} (a : FVec Ideal S2048x512 φ₁) (b : FVec Ideal S512x512 φ₂) (p : Fin 2048) (o : Fin NO) :
    FloatOps.matmul dotL none a b (constant OB .f32 0x00000000#32) (ix2 p o)
      = ∑ n : Fin 512, a (ix2 p n) * b (ix2 n o) := by
  rw [Ideal.matmul_constant_zero_apply, ← Equiv.sum_comp (contrEquiv1 dotL 512 rfl rfl).symm]
  refine Finset.sum_congr rfl fun k _ => ?_
  have hk := contrEquiv1_symm_val dotL 512 rfl rfl k
  have el : (dotL).lhsIdx (ix2 p o) ((contrEquiv1 dotL 512 rfl rfl).symm k) = ix2 p k :=
    funext fun ax => Fin.ext (by
      match ax with
      | ⟨0, _⟩ => exact lhs2_row _ _
      | ⟨1, _⟩ => exact (lhs2_col _ _).trans hk)
  have er : (dotL).rhsIdx (ix2 p o) ((contrEquiv1 dotL 512 rfl rfl).symm k) = ix2 k o :=
    funext fun ax => Fin.ext (by
      match ax with
      | ⟨0, _⟩ => exact (rhs2_row _ _).trans hk
      | ⟨1, _⟩ => exact rhs2_col _ _)
  rw [el, er]

/-! ## The payload at an entry -/

/-- Entry (p, o) of relu (x0 · x1 + x2): the inner sum plus the bias at column o, clamped below at 0. -/
theorem pay2_apply (x0 : Vec Ideal S2048x512 .f32) (x1 : Vec Ideal S512x512 .f32) (x2 : Vec Ideal S1x512 .f32)
    (p : Fin 2048) (o : Fin NO) :
    k2_pay1 (F := Ideal) x0 x1 x2 (ix2 p o)
      = max ((∑ n : Fin 512, x0 (ix2 p n) * x1 (ix2 n o)) + x2 (ix2 (0 : Fin 1) o)) 0 := by
  have hprod : matmul (F := Ideal) dotL none
      (truncf .bf16 (shapeCast S2048x512 x0 shapeCasts_S2048x512_S2048x512) bitsLt_bf16_f32)
      (truncf .bf16 (shapeCast S512x512 x1 shapeCasts_S512x512_S512x512) bitsLt_bf16_f32)
      (constant OB .f32 0x00000000#32) (ix2 p o) = ∑ n : Fin 512, x0 (ix2 p n) * x1 (ix2 n o) := by
    refine (prod2_apply _ _ p o).trans ?_
    simp only [truncf_apply, shapeCast_self]
  have hbias : broadcastTo OB (shapeCast S1x512 x2 shapeCasts_S1x512_S1x512) bcBO (ix2 p o) = x2 (ix2 (0 : Fin 1) o) := by
    rw [shapeCast_self]; exact broadcastTo_1b_ab_apply x2 _ p o
  unfold k2_pay1
  exact congrArg₂ max (congrArg₂ (· + ·) hprod hbias) Ideal.ofBits_zero_f32

/-! ## The layer over whole arrays -/

/-- relu (X · Wt + b), entry (i, o), for an 8192 × 512 X. -/
def lin2 (X : Vec Ideal S8192x512 .f32) (W : Vec Ideal S512x512 .f32) (B : Vec Ideal S1x512 .f32) : Vec Ideal OA .f32 :=
  fun i => max ((∑ n : Fin 512, X (ix2 (i 0) n) * W (ix2 n (i 1))) + B (ix2 (0 : Fin 1) (i 1))) 0

/-- If `x0` is rows 2048·r … of `X`, then entry `j` of the body's result on `x0`, `W`, `B` is entry
    (2048·r + j 0, j 1) of the layer on `X`, `W`, `B`: the inner sum only reads row `j 0` of `x0`. -/
theorem block2_entry (x0 : Vec Ideal S2048x512 .f32) (x1 : Vec Ideal S512x512 .f32) (x2 : Vec Ideal S1x512 .f32)
    (X : Vec Ideal S8192x512 .f32) (W : Vec Ideal S512x512 .f32) (B : Vec Ideal S1x512 .f32) (r : Nat)
    (h0 : ∀ (y : S2048x512.Idx) (k : S8192x512.Idx), (k 0).val = 2048 * r + (y 0).val → (k 1).val = (y 1).val → x0 y = X k)
    (h1 : x1 = W) (h2 : x2 = B) (j : (OB).Idx) (i : (OA).Idx)
    (hi0 : (i 0).val = 2048 * r + (j 0).val) (hi1 : (i 1).val = (j 1).val) :
    k2_pay1 (F := Ideal) x0 x1 x2 j = lin2 X W B i := by
  subst h1 h2
  obtain ⟨p, o, rfl⟩ : ∃ (p : Fin 2048) (o : Fin NO), j = ix2 p o := ⟨j 0, j 1, eq_ix2 j⟩
  have hi0' : (i 0).val = 2048 * r + p.val := hi0
  have e1 : i 1 = o := Fin.ext hi1
  have hs : ∀ n : Fin 512, x0 (ix2 p n) = X (ix2 (i 0) n) := fun n => h0 (ix2 p n) (ix2 (i 0) n) hi0' rfl
  rw [pay2_apply]
  unfold lin2
  simp only [hs, e1]

/-! ## The blocks as parts of the arrays -/

abbrev xarr2 (c : Dev nD) : Vec Ideal S8192x512 .f32 := V c main_v4
abbrev warr2 (c : Dev nD) : Vec Ideal S512x512 .f32 := V c main_v5
abbrev barr2 (c : Dev nD) : Vec Ideal S1x512 .f32 := V c main_v6

/-- Where each window's block sits at point `t`: X's and the result's at block row `t`, Wt's and the
    bias row's at the origin. -/
theorem blockpos2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `y` of X's block at point `t` is entry (2048·t + y 0, y 1) of X. -/
theorem xblk2_apply (c : Dev nD) (t : Fin cfg2.N) (y : S2048x512.Idx) (k : S8192x512.Idx)
    (hk0 : (k 0).val = 2048 * t.val + (y 0).val) (hk1 : (k 1).val = (y 1).val) :
    (iblk2 V c 0 t : Vec Ideal S2048x512 .f32) y = xarr2 V c k := by
  obtain ⟨e0, e1, -⟩ := blockpos2 t
  unfold iblk2
  rw [View.read_apply]
  show V c main_v4 _ = V c main_v4 _
  congr 1
  funext a
  apply Fin.ext
  match a with
  | ⟨0, _⟩ => show win2_0.index t (0 : Fin 2) * 2048 + 1 * (y 0).val = (k 0).val; rw [e0, hk0]; omega
  | ⟨1, _⟩ => show win2_0.index t (1 : Fin 2) * 512 + 1 * (y 1).val = (k 1).val; rw [e1, hk1]; omega

/-- Wt's block at any point is Wt. -/
theorem wblk2_eq (c : Dev nD) (t : Fin cfg2.N) : (iblk2 V c 1 t : Vec Ideal S512x512 .f32) = warr2 V c := by
  obtain ⟨-, -, e0, e1, -⟩ := blockpos2 t
  funext y
  unfold iblk2
  rw [View.read_apply]
  show V c main_v5 _ = V c main_v5 y
  congr 1
  funext a
  apply Fin.ext
  match a with
  | ⟨0, _⟩ => show win2_1.index t (0 : Fin 2) * 512 + 1 * (y 0).val = (y 0).val; rw [e0]; omega
  | ⟨1, _⟩ => show win2_1.index t (1 : Fin 2) * NO + 1 * (y 1).val = (y 1).val; rw [e1]; omega

/-- The bias row's block at any point is the bias row. -/
theorem bblk2_eq (c : Dev nD) (t : Fin cfg2.N) : (iblk2 V c 2 t : Vec Ideal S1x512 .f32) = barr2 V c := by
  obtain ⟨-, -, -, -, e0, e1, -⟩ := blockpos2 t
  funext y
  unfold iblk2
  rw [View.read_apply]
  show V c main_v6 _ = V c main_v6 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * NO + 1 * (y 1).val = (y 1).val; rw [e1]; omega

/-! ## From the blocks to the array -/

/-- What point `t` writes back is rows 2048·t … of the layer on the arrays the region found. -/
theorem flushed2_3_eq (c : Dev nD) (t : Fin cfg2.N) :
    (dat2 V c).flushed 3 t = ((cfg2.win 3).blk t).view.read (Elt Ideal) (lin2 (xarr2 V c) (warr2 V c) (barr2 V c)) := by
  obtain ⟨-, -, -, -, -, -, e0, e1⟩ := blockpos2 t
  show (cfg2.win 3).cut (grid2.coords t) ((dat2 V c).after 3 t) = _
  rw [after2_3, out2_3_eq_pay]
  funext j
  show k2_pay1 (F := Ideal) (iblk2 V c 0 t) (iblk2 V c 1 t) (iblk2 V c 2 t) j
    = lin2 (xarr2 V c) (warr2 V c) (barr2 V c) (((cfg2.win 3).blk t).view.emb j)
  refine block2_entry (iblk2 V c 0 t) (iblk2 V c 1 t) (iblk2 V c 2 t) (xarr2 V c) (warr2 V c) (barr2 V c) t.val
    (fun y k hk0 hk1 => xblk2_apply V c t y k hk0 hk1) (wblk2_eq V c t) (bblk2_eq V c t) j (((cfg2.win 3).blk t).view.emb j) ?_ ?_
  · show win2_3.index t (0 : Fin 2) * 2048 + 1 * (j 0).val = 2048 * t.val + (j 0).val; rw [e0]; omega
  · show win2_3.index t (1 : Fin 2) * NO + 1 * (j 1).val = (j 1).val; rw [e1]; omega

/-- An entry of the result array is in point `t`'s block when each coordinate is in the block's range. -/
theorem mem_blk2_3 (t : Fin cfg2.N) (i : (OA).Idx) :
    i ∈ ((cfg2.win 3).blk t).view.set ↔ ∀ a : Fin 2, win2_3.index t a * (OB).size a ≤ (i a).val ∧ (i a).val < win2_3.index t a * (OB).size a + (OB).size a := by
  show i ∈ ((View.whole main_v7).slice (win2_3.rect t)).set ↔ _
  rw [View.set_slice_whole, Rect.mem_set_unit]
  exact Iff.rfl

/-- Row `r` of the result is written by point `r / 2048`, and every point writes back. -/
theorem covered2_3 (i : (OA).Idx) : ∃ t : Fin cfg2.N, (cfg2.win 3).flush t = true ∧ i ∈ ((cfg2.win 3).blk t).view.set := by
  have hi0 : (i 0).val < 8192 := idx2_lt0 i
  have hi1 : (i 1).val < NO := idx2_lt1 i
  have hN : cfg2.N = 4 := N_2
  refine ⟨⟨(i 0).val / 2048, by rw [hN]; omega⟩, flush2_3 _, ?_⟩
  rw [mem_blk2_3]
  obtain ⟨-, -, -, -, -, -, e0, e1⟩ := blockpos2 ⟨(i 0).val / 2048, by rw [hN]; omega⟩
  intro a
  match a with
  | ⟨0, _⟩ =>
    show win2_3.index ⟨(i 0).val / 2048, _⟩ (0 : Fin 2) * 2048 ≤ (i 0).val ∧ (i 0).val < win2_3.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win2_3.index ⟨(i 0).val / 2048, _⟩ (1 : Fin 2) * NO ≤ (i 1).val ∧ (i 1).val < win2_3.index ⟨(i 0).val / 2048, _⟩ (1 : Fin 2) * NO + NO
    rw [e1]; omega

/-- After the region the result array is the layer on the arrays the region found. -/
theorem arr2_3_eq (c : Dev nD) : (dat2 V c).arrAt 3 cfg2.N = lin2 (xarr2 V c) (warr2 V c) (barr2 V c) :=
  (dat2 V c).arrAt_eq_of_cover 3 (lin2 (xarr2 V c) (warr2 V c) (barr2 V c)) (fun t _ => flushed2_3_eq V c t) covered2_3

/-- The result array after the region, at its literal type. -/
abbrev oarr2 (c : Dev nD) : Vec Ideal OA .f32 := (dat2 V c).arrAt 3 cfg2.N

/-- Entry (i, o) of the result array after the region. -/
theorem arrAt2 (c : Dev nD) (i : Fin 8192) (o : Fin NO) :
    oarr2 V c (ix2 i o)
      = max ((∑ n : Fin 512, xarr2 V c (ix2 i n) * warr2 V c (ix2 n o)) + barr2 V c (ix2 (0 : Fin 1) o)) 0 :=
  congrFun (arr2_3_eq V c) (ix2 i o)

end Cert.KernelIdeal.KI

end
-- ==== Proof.KI.Lin4Value.lean ====
/- The second dense layer, read entry by entry over the extended reals.

   Lin4 says what the region's body leaves in the output buffer at each of the four grid points, as a
   function of the three input blocks.  Here that function is evaluated: entry (p, o) of the block is
       max (Σ_n x0 (p, n) · x1 (n, o) + x2 (0, o)) 0
   because the changes of float format are the identity on extended reals, the product into a zero
   accumulator is the plain sum, and the bias row is repeated down the rows.  Point t sees rows
   2048·t … 2048·t + 2047 of X and writes the same rows of the result, and the four row ranges cover
   the 8192 rows; so after the region, for every i and o, entry (i, o) of the result is
       max (Σ_n X (i, n) · Wt (n, o) + b (0, o)) 0. -/
import proofs.«143233_j59193239273550_1_alg».proof.Proof.KI.Lin4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KI

open Idealize.ShloMosaic Idealize.ShloMosaic.TcCoe Idealize.SL.Sem
open Idealize.ShloMosaic.Pipeline (Dat)
open Idealize.ShloMosaic.ValueIdx
open Cert.KernelIdeal.Gen
open scoped BigOperators

variable (V : (c : Dev nD) → (b : Ref sig .tc) → Buf (Elt Ideal) ((c : Thread nD τ).loc b))

-- the result's side of the region: the shape of one block of the result and of the whole result, the
-- number of its columns, the product's dimension record and the fact that the bias row repeats over a block
local notation "OB" => S2048x512
local notation "OA" => S8192x512
local notation "NO" => 512
local notation "dotL" => dot_S2048x512_S512x512_S2048x512_1_0_0_1_n_n
local notation "bcBO" => broadcasts_S1x512_S2048x512

/-! ## The body's one store, evaluated -/

theorem zero_offsets4 : (![0, 0] : Fin 2 → Nat) = fun _ => 0 := funext fun a => by fin_cases a <;> rfl

/-- One store over the whole buffer leaves its payload, and a load of a whole buffer reads it all:
    the output buffer after the body is the payload of the three input buffers. -/
theorem out4_3_eq_pay {F : FTy → Type} [FloatOps F] (x0 : Vec F S2048x512 .f32) (x1 : Vec F S512x512 .f32) (x2 : Vec F S1x512 .f32) :
    out4_3 x0 x1 x2 = k4_pay1 x0 x1 x2 := by
  unfold out4_3
  rw [View.canon_unit_zero zero_offsets4]
  simp only [View.ld_unit_zero (S := S2048x512) zero_offsets4, View.ld_unit_zero (S := S512x512) zero_offsets4,
    View.ld_unit_zero (S := S1x512) zero_offsets4]

/-! ## The matrix product at an entry

The product contracts the second axis of the left factor with the first of the right; the left
factor's first axis and the right factor's second are kept.  So at output entry `i` and contraction
index `q` the left factor is read at `(i 0, q)` and the right at `(q, i 1)`. -/

theorem lhs4_row (i : (OB).Idx) (q : (dotL).contr.Idx) :
    ((dotL).lhsIdx i q 0).val = (i 0).val := by
  unfold DotDims.lhsIdx
  rw [dif_neg (show ¬(0 : Fin S2048x512.rank) ∈ (dotL).lhsBatch by decide), dif_pos (show (0 : Fin S2048x512.rank) ∈ (dotL).lhsNonContracting by decide)]
  rfl
theorem lhs4_col (i : (OB).Idx) (q : (dotL).contr.Idx) :
    ((dotL).lhsIdx i q 1).val = (q ⟨0, by decide⟩).val :=
  (dotL).lhsIdx_val_of_single rfl i q
theorem rhs4_row (i : (OB).Idx) (q : (dotL).contr.Idx) :
    ((dotL).rhsIdx i q 0).val = (q ⟨0, by decide⟩).val :=
  (dotL).rhsIdx_val_of_single rfl i q
theorem rhs4_col (i : (OB).Idx) (q : (dotL).contr.Idx) :
    ((dotL).rhsIdx i q 1).val = (i 1).val := by
  unfold DotDims.rhsIdx
  rw [dif_neg (show ¬(1 : Fin S512x512.rank) ∈ (dotL).rhsBatch by decide), dif_pos (show (1 : Fin S512x512.rank) ∈ (dotL).rhsNonContracting by decide)]
  rfl

/-- The block product into the zero accumulator, at entry (p, o): the sum over the 512 inner indices
    of the products of the entries. -/
theorem prod4_apply {φ₁ φ₂ : FTy} (a : FVec Ideal S2048x512 φ₁) (b : FVec Ideal S512x512 φ₂) (p : Fin 2048) (o : Fin NO) :
    FloatOps.matmul dotL none a b (constant OB .f32 0x00000000#32) (ix2 p o)
      = ∑ n : Fin 512, a (ix2 p n) * b (ix2 n o) := by
  rw [Ideal.matmul_constant_zero_apply, ← Equiv.sum_comp (contrEquiv1 dotL 512 rfl rfl).symm]
  refine Finset.sum_congr rfl fun k _ => ?_
  have hk := contrEquiv1_symm_val dotL 512 rfl rfl k
  have el : (dotL).lhsIdx (ix2 p o) ((contrEquiv1 dotL 512 rfl rfl).symm k) = ix2 p k :=
    funext fun ax => Fin.ext (by
      match ax with
      | ⟨0, _⟩ => exact lhs4_row _ _
      | ⟨1, _⟩ => exact (lhs4_col _ _).trans hk)
  have er : (dotL).rhsIdx (ix2 p o) ((contrEquiv1 dotL 512 rfl rfl).symm k) = ix2 k o :=
    funext fun ax => Fin.ext (by
      match ax with
      | ⟨0, _⟩ => exact (rhs4_row _ _).trans hk
      | ⟨1, _⟩ => exact rhs4_col _ _)
  rw [el, er]

/-! ## The payload at an entry -/

/-- Entry (p, o) of relu (x0 · x1 + x2): the inner sum plus the bias at column o, clamped below at 0. -/
theorem pay4_apply (x0 : Vec Ideal S2048x512 .f32) (x1 : Vec Ideal S512x512 .f32) (x2 : Vec Ideal S1x512 .f32)
    (p : Fin 2048) (o : Fin NO) :
    k4_pay1 (F := Ideal) x0 x1 x2 (ix2 p o)
      = max ((∑ n : Fin 512, x0 (ix2 p n) * x1 (ix2 n o)) + x2 (ix2 (0 : Fin 1) o)) 0 := by
  have hprod : matmul (F := Ideal) dotL none
      (truncf .bf16 (shapeCast S2048x512 x0 shapeCasts_S2048x512_S2048x512) bitsLt_bf16_f32)
      (truncf .bf16 (shapeCast S512x512 x1 shapeCasts_S512x512_S512x512) bitsLt_bf16_f32)
      (constant OB .f32 0x00000000#32) (ix2 p o) = ∑ n : Fin 512, x0 (ix2 p n) * x1 (ix2 n o) := by
    refine (prod4_apply _ _ p o).trans ?_
    simp only [truncf_apply, shapeCast_self]
  have hbias : broadcastTo OB (shapeCast S1x512 x2 shapeCasts_S1x512_S1x512) bcBO (ix2 p o) = x2 (ix2 (0 : Fin 1) o) := by
    rw [shapeCast_self]; exact broadcastTo_1b_ab_apply x2 _ p o
  unfold k4_pay1
  exact congrArg₂ max (congrArg₂ (· + ·) hprod hbias) Ideal.ofBits_zero_f32

/-! ## The layer over whole arrays -/

/-- relu (X · Wt + b), entry (i, o), for an 8192 × 512 X. -/
def lin4 (X : Vec Ideal S8192x512 .f32) (W : Vec Ideal S512x512 .f32) (B : Vec Ideal S1x512 .f32) : Vec Ideal OA .f32 :=
  fun i => max ((∑ n : Fin 512, X (ix2 (i 0) n) * W (ix2 n (i 1))) + B (ix2 (0 : Fin 1) (i 1))) 0

/-- If `x0` is rows 2048·r … of `X`, then entry `j` of the body's result on `x0`, `W`, `B` is entry
    (2048·r + j 0, j 1) of the layer on `X`, `W`, `B`: the inner sum only reads row `j 0` of `x0`. -/
theorem block4_entry (x0 : Vec Ideal S2048x512 .f32) (x1 : Vec Ideal S512x512 .f32) (x2 : Vec Ideal S1x512 .f32)
    (X : Vec Ideal S8192x512 .f32) (W : Vec Ideal S512x512 .f32) (B : Vec Ideal S1x512 .f32) (r : Nat)
    (h0 : ∀ (y : S2048x512.Idx) (k : S8192x512.Idx), (k 0).val = 2048 * r + (y 0).val → (k 1).val = (y 1).val → x0 y = X k)
    (h1 : x1 = W) (h2 : x2 = B) (j : (OB).Idx) (i : (OA).Idx)
    (hi0 : (i 0).val = 2048 * r + (j 0).val) (hi1 : (i 1).val = (j 1).val) :
    k4_pay1 (F := Ideal) x0 x1 x2 j = lin4 X W B i := by
  subst h1 h2
  obtain ⟨p, o, rfl⟩ : ∃ (p : Fin 2048) (o : Fin NO), j = ix2 p o := ⟨j 0, j 1, eq_ix2 j⟩
  have hi0' : (i 0).val = 2048 * r + p.val := hi0
  have e1 : i 1 = o := Fin.ext hi1
  have hs : ∀ n : Fin 512, x0 (ix2 p n) = X (ix2 (i 0) n) := fun n => h0 (ix2 p n) (ix2 (i 0) n) hi0' rfl
  rw [pay4_apply]
  unfold lin4
  simp only [hs, e1]

/-! ## The blocks as parts of the arrays -/

abbrev xarr4 (c : Dev nD) : Vec Ideal S8192x512 .f32 := V c main_v9
abbrev warr4 (c : Dev nD) : Vec Ideal S512x512 .f32 := V c main_v10
abbrev barr4 (c : Dev nD) : Vec Ideal S1x512 .f32 := V c main_v11

/-- Where each window's block sits at point `t`: X's and the result's at block row `t`, Wt's and the
    bias row's at the origin. -/
theorem blockpos4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry `y` of X's block at point `t` is entry (2048·t + y 0, y 1) of X. -/
theorem xblk4_apply (c : Dev nD) (t : Fin cfg4.N) (y : S2048x512.Idx) (k : S8192x512.Idx)
    (hk0 : (k 0).val = 2048 * t.val + (y 0).val) (hk1 : (k 1).val = (y 1).val) :
    (iblk4 V c 0 t : Vec Ideal S2048x512 .f32) y = xarr4 V c k := by
  obtain ⟨e0, e1, -⟩ := blockpos4 t
  unfold iblk4
  rw [View.read_apply]
  show V c main_v9 _ = V c main_v9 _
  congr 1
  funext a
  apply Fin.ext
  match a with
  | ⟨0, _⟩ => show win4_0.index t (0 : Fin 2) * 2048 + 1 * (y 0).val = (k 0).val; rw [e0, hk0]; omega
  | ⟨1, _⟩ => show win4_0.index t (1 : Fin 2) * 512 + 1 * (y 1).val = (k 1).val; rw [e1, hk1]; omega

/-- Wt's block at any point is Wt. -/
theorem wblk4_eq (c : Dev nD) (t : Fin cfg4.N) : (iblk4 V c 1 t : Vec Ideal S512x512 .f32) = warr4 V c := by
  obtain ⟨-, -, e0, e1, -⟩ := blockpos4 t
  funext y
  unfold iblk4
  rw [View.read_apply]
  show V c main_v10 _ = V c main_v10 y
  congr 1
  funext a
  apply Fin.ext
  match a with
  | ⟨0, _⟩ => show win4_1.index t (0 : Fin 2) * 512 + 1 * (y 0).val = (y 0).val; rw [e0]; omega
  | ⟨1, _⟩ => show win4_1.index t (1 : Fin 2) * NO + 1 * (y 1).val = (y 1).val; rw [e1]; omega

/-- The bias row's block at any point is the bias row. -/
theorem bblk4_eq (c : Dev nD) (t : Fin cfg4.N) : (iblk4 V c 2 t : Vec Ideal S1x512 .f32) = barr4 V c := by
  obtain ⟨-, -, -, -, e0, e1, -⟩ := blockpos4 t
  funext y
  unfold iblk4
  rw [View.read_apply]
  show V c main_v11 _ = V c main_v11 y
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * NO + 1 * (y 1).val = (y 1).val; rw [e1]; omega

/-! ## From the blocks to the array -/

/-- What point `t` writes back is rows 2048·t … of the layer on the arrays the region found. -/
theorem flushed4_3_eq (c : Dev nD) (t : Fin cfg4.N) :
    (dat4 V c).flushed 3 t = ((cfg4.win 3).blk t).view.read (Elt Ideal) (lin4 (xarr4 V c) (warr4 V c) (barr4 V c)) := by
  obtain ⟨-, -, -, -, -, -, e0, e1⟩ := blockpos4 t
  show (cfg4.win 3).cut (grid4.coords t) ((dat4 V c).after 3 t) = _
  rw [after4_3, out4_3_eq_pay]
  funext j
  show k4_pay1 (F := Ideal) (iblk4 V c 0 t) (iblk4 V c 1 t) (iblk4 V c 2 t) j
    = lin4 (xarr4 V c) (warr4 V c) (barr4 V c) (((cfg4.win 3).blk t).view.emb j)
  refine block4_entry (iblk4 V c 0 t) (iblk4 V c 1 t) (iblk4 V c 2 t) (xarr4 V c) (warr4 V c) (barr4 V c) t.val
    (fun y k hk0 hk1 => xblk4_apply V c t y k hk0 hk1) (wblk4_eq V c t) (bblk4_eq V c t) j (((cfg4.win 3).blk t).view.emb j) ?_ ?_
  · show win4_3.index t (0 : Fin 2) * 2048 + 1 * (j 0).val = 2048 * t.val + (j 0).val; rw [e0]; omega
  · show win4_3.index t (1 : Fin 2) * NO + 1 * (j 1).val = (j 1).val; rw [e1]; omega

/-- An entry of the result array is in point `t`'s block when each coordinate is in the block's range. -/
theorem mem_blk4_3 (t : Fin cfg4.N) (i : (OA).Idx) :
    i ∈ ((cfg4.win 3).blk t).view.set ↔ ∀ a : Fin 2, win4_3.index t a * (OB).size a ≤ (i a).val ∧ (i a).val < win4_3.index t a * (OB).size a + (OB).size a := by
  show i ∈ ((View.whole main_v12).slice (win4_3.rect t)).set ↔ _
  rw [View.set_slice_whole, Rect.mem_set_unit]
  exact Iff.rfl

/-- Row `r` of the result is written by point `r / 2048`, and every point writes back. -/
theorem covered4_3 (i : (OA).Idx) : ∃ t : Fin cfg4.N, (cfg4.win 3).flush t = true ∧ i ∈ ((cfg4.win 3).blk t).view.set := by
  have hi0 : (i 0).val < 8192 := idx2_lt0 i
  have hi1 : (i 1).val < NO := idx2_lt1 i
  have hN : cfg4.N = 4 := N_4
  refine ⟨⟨(i 0).val / 2048, by rw [hN]; omega⟩, flush4_3 _, ?_⟩
  rw [mem_blk4_3]
  obtain ⟨-, -, -, -, -, -, e0, e1⟩ := blockpos4 ⟨(i 0).val / 2048, by rw [hN]; omega⟩
  intro a
  match a with
  | ⟨0, _⟩ =>
    show win4_3.index ⟨(i 0).val / 2048, _⟩ (0 : Fin 2) * 2048 ≤ (i 0).val ∧ (i 0).val < win4_3.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win4_3.index ⟨(i 0).val / 2048, _⟩ (1 : Fin 2) * NO ≤ (i 1).val ∧ (i 1).val < win4_3.index ⟨(i 0).val / 2048, _⟩ (1 : Fin 2) * NO + NO
    rw [e1]; omega

/-- After the region the result array is the layer on the arrays the region found. -/
theorem arr4_3_eq (c : Dev nD) : (dat4 V c).arrAt 3 cfg4.N = lin4 (xarr4 V c) (warr4 V c) (barr4 V c) :=
  (dat4 V c).arrAt_eq_of_cover 3 (lin4 (xarr4 V c) (warr4 V c) (barr4 V c)) (fun t _ => flushed4_3_eq V c t) covered4_3

/-- The result array after the region, at its literal type. -/
abbrev oarr4 (c : Dev nD) : Vec Ideal OA .f32 := (dat4 V c).arrAt 3 cfg4.N

/-- Entry (i, o) of the result array after the region. -/
theorem arrAt4 (c : Dev nD) (i : Fin 8192) (o : Fin NO) :
    oarr4 V c (ix2 i o)
      = max ((∑ n : Fin 512, xarr4 V c (ix2 i n) * warr4 V c (ix2 n o)) + barr4 V c (ix2 (0 : Fin 1) o)) 0 :=
  congrFun (arr4_3_eq V c) (ix2 i o)

end Cert.KernelIdeal.KI

end
-- ==== Proof.KI.Lin5Value.lean ====
/- The classifier head, read entry by entry over the extended reals.

   Lin5 says what the region's body leaves in the output buffer at each of the four grid points, as a
   function of the three input blocks.  Here that function is evaluated: entry (p, o) of the block is
       Σ_n x0 (p, n) · x1 (n, o) + x2 (0, o)
   because the changes of float format are the identity on extended reals, the product into a zero
   accumulator is the plain sum, and the bias row is repeated down the rows.  Point t sees rows
   2048·t … 2048·t + 2047 of X and writes the same rows of the result, and the four row ranges cover
   the 8192 rows; so after the region, for every i and o, entry (i, o) of the result is
       Σ_n X (i, n) · Wt (n, o) + b (0, o). -/
import proofs.«143233_j59193239273550_1_alg».proof.Proof.KI.Lin5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KI

open Idealize.ShloMosaic Idealize.ShloMosaic.TcCoe Idealize.SL.Sem
open Idealize.ShloMosaic.Pipeline (Dat)
open Idealize.ShloMosaic.ValueIdx
open Cert.KernelIdeal.Gen
open scoped BigOperators

variable (V : (c : Dev nD) → (b : Ref sig .tc) → Buf (Elt Ideal) ((c : Thread nD τ).loc b))

-- the result's side of the region: the shape of one block of the result and of the whole result, the
-- number of its columns, the product's dimension record and the fact that the bias row repeats over a block
local notation "OB" => S2048x32
local notation "OA" => S8192x32
local notation "NO" => 32
local notation "dotL" => dot_S2048x512_S512x32_S2048x32_1_0_0_1_n_n
local notation "bcBO" => broadcasts_S1x32_S2048x32

/-! ## The body's one store, evaluated -/

theorem zero_offsets5 : (![0, 0] : Fin 2 → Nat) = fun _ => 0 := funext fun a => by fin_cases a <;> rfl

/-- One store over the whole buffer leaves its payload, and a load of a whole buffer reads it all:
    the output buffer after the body is the payload of the three input buffers. -/
theorem out5_3_eq_pay {F : FTy → Type} [FloatOps F] (x0 : Vec F S2048x512 .f32) (x1 : Vec F S512x32 .f32) (x2 : Vec F S1x32 .f32) :
    out5_3 x0 x1 x2 = k5_pay1 x0 x1 x2 := by
  unfold out5_3
  rw [View.canon_unit_zero zero_offsets5]
  simp only [View.ld_unit_zero (S := S2048x512) zero_offsets5, View.ld_unit_zero (S := S512x32) zero_offsets5,
    View.ld_unit_zero (S := S1x32) zero_offsets5]

/-! ## The matrix product at an entry

The product contracts the second axis of the left factor with the first of the right; the left
factor's first axis and the right factor's second are kept.  So at output entry `i` and contraction
index `q` the left factor is read at `(i 0, q)` and the right at `(q, i 1)`. -/

theorem lhs5_row (i : (OB).Idx) (q : (dotL).contr.Idx) :
    ((dotL).lhsIdx i q 0).val = (i 0).val := by
  unfold DotDims.lhsIdx
  rw [dif_neg (show ¬(0 : Fin S2048x512.rank) ∈ (dotL).lhsBatch by decide), dif_pos (show (0 : Fin S2048x512.rank) ∈ (dotL).lhsNonContracting by decide)]
  rfl
theorem lhs5_col (i : (OB).Idx) (q : (dotL).contr.Idx) :
    ((dotL).lhsIdx i q 1).val = (q ⟨0, by decide⟩).val :=
  (dotL).lhsIdx_val_of_single rfl i q
theorem rhs5_row (i : (OB).Idx) (q : (dotL).contr.Idx) :
    ((dotL).rhsIdx i q 0).val = (q ⟨0, by decide⟩).val :=
  (dotL).rhsIdx_val_of_single rfl i q
theorem rhs5_col (i : (OB).Idx) (q : (dotL).contr.Idx) :
    ((dotL).rhsIdx i q 1).val = (i 1).val := by
  unfold DotDims.rhsIdx
  rw [dif_neg (show ¬(1 : Fin S512x32.rank) ∈ (dotL).rhsBatch by decide), dif_pos (show (1 : Fin S512x32.rank) ∈ (dotL).rhsNonContracting by decide)]
  rfl

/-- The block product into the zero accumulator, at entry (p, o): the sum over the 512 inner indices
    of the products of the entries. -/
theorem prod5_apply {φ₁ φ₂ : FTy} (a : FVec Ideal S2048x512 φ₁) (b : FVec Ideal S512x32 φ₂) (p : Fin 2048) (o : Fin NO) :
    FloatOps.matmul dotL none a b (constant OB .f32 0x00000000#32) (ix2 p o)
      = ∑ n : Fin 512, a (ix2 p n) * b (ix2 n o) := by
  rw [Ideal.matmul_constant_zero_apply, ← Equiv.sum_comp (contrEquiv1 dotL 512 rfl rfl).symm]
  refine Finset.sum_congr rfl fun k _ => ?_
  have hk := contrEquiv1_symm_val dotL 512 rfl rfl k
  have el : (dotL).lhsIdx (ix2 p o) ((contrEquiv1 dotL 512 rfl rfl).symm k) = ix2 p k :=
    funext fun ax => Fin.ext (by
      match ax with
      | ⟨0, _⟩ => exact lhs5_row _ _
      | ⟨1, _⟩ => exact (lhs5_col _ _).trans hk)
  have er : (dotL).rhsIdx (ix2 p o) ((contrEquiv1 dotL 512 rfl rfl).symm k) = ix2 k o :=
    funext fun ax => Fin.ext (by
      match ax with
      | ⟨0, _⟩ => exact (rhs5_row _ _).trans hk
      | ⟨1, _⟩ => exact rhs5_col _ _)
  rw [el, er]

/-! ## The payload at an entry -/

/-- Entry (p, o) of x0 · x1 + x2: the inner sum plus the bias at column o. -/
theorem pay5_apply (x0 : Vec Ideal S2048x512 .f32) (x1 : Vec Ideal S512x32 .f32) (x2 : Vec Ideal S1x32 .f32)
    (p : Fin 2048) (o : Fin NO) :
    k5_pay1 (F := Ideal) x0 x1 x2 (ix2 p o)
      = (∑ n : Fin 512, x0 (ix2 p n) * x1 (ix2 n o)) + x2 (ix2 (0 : Fin 1) o) := by
  have hprod : matmul (F := Ideal) dotL none
      (truncf .bf16 (shapeCast S2048x512 x0 shapeCasts_S2048x512_S2048x512) bitsLt_bf16_f32)
      (truncf .bf16 (shapeCast S512x32 x1 shapeCasts_S512x32_S512x32) bitsLt_bf16_f32)
      (constant OB .f32 0x00000000#32) (ix2 p o) = ∑ n : Fin 512, x0 (ix2 p n) * x1 (ix2 n o) := by
    refine (prod5_apply _ _ p o).trans ?_
    simp only [truncf_apply, shapeCast_self]
  have hbias : broadcastTo OB (shapeCast S1x32 x2 shapeCasts_S1x32_S1x32) bcBO (ix2 p o) = x2 (ix2 (0 : Fin 1) o) := by
    rw [shapeCast_self]; exact broadcastTo_1b_ab_apply x2 _ p o
  unfold k5_pay1
  exact congrArg₂ (· + ·) hprod hbias

/-! ## The layer over whole arrays -/

/-- X · Wt + b, entry (i, o), for an 8192 × 512 X and 32 result columns. -/
def lin5 (X : Vec Ideal S8192x512 .f32) (W : Vec Ideal S512x32 .f32) (B : Vec Ideal S1x32 .f32) : Vec Ideal OA .f32 :=
  fun i => (∑ n : Fin 512, X (ix2 (i 0) n) * W (ix2 n (i 1))) + B (ix2 (0 : Fin 1) (i 1))

/-- If `x0` is rows 2048·r … of `X`, then entry `j` of the body's result on `x0`, `W`, `B` is entry
    (2048·r + j 0, j 1) of the layer on `X`, `W`, `B`: the inner sum only reads row `j 0` of `x0`. -/
theorem block5_entry (x0 : Vec Ideal S2048x512 .f32) (x1 : Vec Ideal S512x32 .f32) (x2 : Vec Ideal S1x32 .f32)
    (X : Vec Ideal S8192x512 .f32) (W : Vec Ideal S512x32 .f32) (B : Vec Ideal S1x32 .f32) (r : Nat)
    (h0 : ∀ (y : S2048x512.Idx) (k : S8192x512.Idx), (k 0).val = 2048 * r + (y 0).val → (k 1).val = (y 1).val → x0 y = X k)
    (h1 : x1 = W) (h2 : x2 = B) (j : (OB).Idx) (i : (OA).Idx)
    (hi0 : (i 0).val = 2048 * r + (j 0).val) (hi1 : (i 1).val = (j 1).val) :
    k5_pay1 (F := Ideal) x0 x1 x2 j = lin5 X W B i := by
  subst h1 h2
  obtain ⟨p, o, rfl⟩ : ∃ (p : Fin 2048) (o : Fin NO), j = ix2 p o := ⟨j 0, j 1, eq_ix2 j⟩
  have hi0' : (i 0).val = 2048 * r + p.val := hi0
  have e1 : i 1 = o := Fin.ext hi1
  have hs : ∀ n : Fin 512, x0 (ix2 p n) = X (ix2 (i 0) n) := fun n => h0 (ix2 p n) (ix2 (i 0) n) hi0' rfl
  rw [pay5_apply]
  unfold lin5
  simp only [hs, e1]

/-! ## The blocks as parts of the arrays -/

abbrev xarr5 (c : Dev nD) : Vec Ideal S8192x512 .f32 := V c main_v12
abbrev warr5 (c : Dev nD) : Vec Ideal S512x32 .f32 := V c main_v13
abbrev barr5 (c : Dev nD) : Vec Ideal S1x32 .f32 := V c main_v14

/-- Where each window's block sits at point `t`: X's and the result's at block row `t`, Wt's and the
    bias row's at the origin. -/
theorem blockpos5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Entry `y` of X's block at point `t` is entry (2048·t + y 0, y 1) of X. -/
theorem xblk5_apply (c : Dev nD) (t : Fin cfg5.N) (y : S2048x512.Idx) (k : S8192x512.Idx)
    (hk0 : (k 0).val = 2048 * t.val + (y 0).val) (hk1 : (k 1).val = (y 1).val) :
    (iblk5 V c 0 t : Vec Ideal S2048x512 .f32) y = xarr5 V c k := by
  obtain ⟨e0, e1, -⟩ := blockpos5 t
  unfold iblk5
  rw [View.read_apply]
  show V c main_v12 _ = V c main_v12 _
  congr 1
  funext a
  apply Fin.ext
  match a with
  | ⟨0, _⟩ => show win5_0.index t (0 : Fin 2) * 2048 + 1 * (y 0).val = (k 0).val; rw [e0, hk0]; omega
  | ⟨1, _⟩ => show win5_0.index t (1 : Fin 2) * 512 + 1 * (y 1).val = (k 1).val; rw [e1, hk1]; omega

/-- Wt's block at any point is Wt. -/
theorem wblk5_eq (c : Dev nD) (t : Fin cfg5.N) : (iblk5 V c 1 t : Vec Ideal S512x32 .f32) = warr5 V c := by
  obtain ⟨-, -, e0, e1, -⟩ := blockpos5 t
  funext y
  unfold iblk5
  rw [View.read_apply]
  show V c main_v13 _ = V c main_v13 y
  congr 1
  funext a
  apply Fin.ext
  match a with
  | ⟨0, _⟩ => show win5_1.index t (0 : Fin 2) * 512 + 1 * (y 0).val = (y 0).val; rw [e0]; omega
  | ⟨1, _⟩ => show win5_1.index t (1 : Fin 2) * NO + 1 * (y 1).val = (y 1).val; rw [e1]; omega

/-- The bias row's block at any point is the bias row. -/
theorem bblk5_eq (c : Dev nD) (t : Fin cfg5.N) : (iblk5 V c 2 t : Vec Ideal S1x32 .f32) = barr5 V c := by
  obtain ⟨-, -, -, -, e0, e1, -⟩ := blockpos5 t
  funext y
  unfold iblk5
  rw [View.read_apply]
  show V c main_v14 _ = V c main_v14 y
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * NO + 1 * (y 1).val = (y 1).val; rw [e1]; omega

/-! ## From the blocks to the array -/

/-- What point `t` writes back is rows 2048·t … of the layer on the arrays the region found. -/
theorem flushed5_3_eq (c : Dev nD) (t : Fin cfg5.N) :
    (dat5 V c).flushed 3 t = ((cfg5.win 3).blk t).view.read (Elt Ideal) (lin5 (xarr5 V c) (warr5 V c) (barr5 V c)) := by
  obtain ⟨-, -, -, -, -, -, e0, e1⟩ := blockpos5 t
  show (cfg5.win 3).cut (grid5.coords t) ((dat5 V c).after 3 t) = _
  rw [after5_3, out5_3_eq_pay]
  funext j
  show k5_pay1 (F := Ideal) (iblk5 V c 0 t) (iblk5 V c 1 t) (iblk5 V c 2 t) j
    = lin5 (xarr5 V c) (warr5 V c) (barr5 V c) (((cfg5.win 3).blk t).view.emb j)
  refine block5_entry (iblk5 V c 0 t) (iblk5 V c 1 t) (iblk5 V c 2 t) (xarr5 V c) (warr5 V c) (barr5 V c) t.val
    (fun y k hk0 hk1 => xblk5_apply V c t y k hk0 hk1) (wblk5_eq V c t) (bblk5_eq V c t) j (((cfg5.win 3).blk t).view.emb j) ?_ ?_
  · show win5_3.index t (0 : Fin 2) * 2048 + 1 * (j 0).val = 2048 * t.val + (j 0).val; rw [e0]; omega
  · show win5_3.index t (1 : Fin 2) * NO + 1 * (j 1).val = (j 1).val; rw [e1]; omega

/-- An entry of the result array is in point `t`'s block when each coordinate is in the block's range. -/
theorem mem_blk5_3 (t : Fin cfg5.N) (i : (OA).Idx) :
    i ∈ ((cfg5.win 3).blk t).view.set ↔ ∀ a : Fin 2, win5_3.index t a * (OB).size a ≤ (i a).val ∧ (i a).val < win5_3.index t a * (OB).size a + (OB).size a := by
  show i ∈ ((View.whole main_v15).slice (win5_3.rect t)).set ↔ _
  rw [View.set_slice_whole, Rect.mem_set_unit]
  exact Iff.rfl

/-- Row `r` of the result is written by point `r / 2048`, and every point writes back. -/
theorem covered5_3 (i : (OA).Idx) : ∃ t : Fin cfg5.N, (cfg5.win 3).flush t = true ∧ i ∈ ((cfg5.win 3).blk t).view.set := by
  have hi0 : (i 0).val < 8192 := idx2_lt0 i
  have hi1 : (i 1).val < NO := idx2_lt1 i
  have hN : cfg5.N = 4 := N_5
  refine ⟨⟨(i 0).val / 2048, by rw [hN]; omega⟩, flush5_3 _, ?_⟩
  rw [mem_blk5_3]
  obtain ⟨-, -, -, -, -, -, e0, e1⟩ := blockpos5 ⟨(i 0).val / 2048, by rw [hN]; omega⟩
  intro a
  match a with
  | ⟨0, _⟩ =>
    show win5_3.index ⟨(i 0).val / 2048, _⟩ (0 : Fin 2) * 2048 ≤ (i 0).val ∧ (i 0).val < win5_3.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win5_3.index ⟨(i 0).val / 2048, _⟩ (1 : Fin 2) * NO ≤ (i 1).val ∧ (i 1).val < win5_3.index ⟨(i 0).val / 2048, _⟩ (1 : Fin 2) * NO + NO
    rw [e1]; omega

/-- After the region the result array is the layer on the arrays the region found. -/
theorem arr5_3_eq (c : Dev nD) : (dat5 V c).arrAt 3 cfg5.N = lin5 (xarr5 V c) (warr5 V c) (barr5 V c) :=
  (dat5 V c).arrAt_eq_of_cover 3 (lin5 (xarr5 V c) (warr5 V c) (barr5 V c)) (fun t _ => flushed5_3_eq V c t) covered5_3

/-- The result array after the region, at its literal type. -/
abbrev oarr5 (c : Dev nD) : Vec Ideal OA .f32 := (dat5 V c).arrAt 3 cfg5.N

/-- Entry (i, o) of the result array after the region. -/
theorem arrAt5 (c : Dev nD) (i : Fin 8192) (o : Fin NO) :
    oarr5 V c (ix2 i o)
      = (∑ n : Fin 512, xarr5 V c (ix2 i n) * warr5 V c (ix2 n o)) + barr5 V c (ix2 (0 : Fin 1) o) :=
  congrFun (arr5_3_eq V c) (ix2 i o)

end Cert.KernelIdeal.KI

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI.KernelValue.lean ====
/-
  The kernel program's two results as functions of its arguments.

  The program is six kernel regions with a few whole-array operations between consecutive regions. Each region's result
  array is known as a closed form of the arrays the region finds, and what every region finds is known in terms of the
  arguments, the earlier regions' results, and the reshaped, transposed or inverse-square-rooted copies made between
  regions. Substituting stage by stage:

    * the first region leaves the column sums Σ_i A i j in the only row of a [1, 8192] array;
    * read as a vector, passed entry by entry through the reciprocal square root and read as a column, they become the
      scale d k = (Σ_i A i k)^(-1/2) at (k, 0);
    * the first propagation leaves (Σ_k A i k * (X k n * d k)) * d i;
    * the first dense layer finds its weights transposed, Wt (n, o) = W (o, n), and its bias as a row, and leaves
      max ((Σ_n P i n * W o n) + b o) 0;
    * the second propagation and the second dense layer repeat these two steps on the first layer's features, with the
      same scale column;
    * the classifier is one more affine map of the hidden features, without the rectifier.

  Written with the specification's functions these are its hidden features and class scores in the fused form of the
  propagation. Arrays are read through mat and vec, which turn an index-addressed array into a function of its
  coordinates.
-/
import proofs.«143233_j59193239273550_1_alg».proof.Proof.KI.Run
import proofs.«143233_j59193239273550_1_alg».proof.Proof.KI.ColsumValue
import proofs.«143233_j59193239273550_1_alg».proof.Proof.KI.Gcn1Value
import proofs.«143233_j59193239273550_1_alg».proof.Proof.KI.Gcn3Value
import proofs.«143233_j59193239273550_1_alg».proof.Proof.KI.Lin2Value
import proofs.«143233_j59193239273550_1_alg».proof.Proof.KI.Lin4Value
import proofs.«143233_j59193239273550_1_alg».proof.Proof.KI.Lin5Value
import proofs.«143233_j59193239273550_1_alg».proof.Proof.Spec
import proofs.«143233_j59193239273550_1_alg».proof.Proof.LibKeepdims
import Idealize.ShloMosaic.Lib.ValueLayout
import Idealize.ShloMosaic.Lib.ValueIdx
import Idealize.ShloMosaic.Lib.Pipeline.Value

noncomputable section

open scoped BigOperators

namespace Cert.KernelIdeal.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-! ## The arguments, and arrays read by coordinates -/

/-- The input features. -/
abbrev argX : Vec Ideal S8192x512 .f32 := m ((c : Thread nD τ).loc main_arg0)
/-- The adjacency matrix. -/
abbrev argA : Vec Ideal S8192x8192 .f32 := m ((c : Thread nD τ).loc main_arg1)
/-- The first layer's weights. -/
abbrev argW1 : Vec Ideal S512x512 .f32 := m ((c : Thread nD τ).loc main_arg2)
/-- The first layer's bias. -/
abbrev argB1 : Vec Ideal S512 .f32 := m ((c : Thread nD τ).loc main_arg3)
/-- The second layer's weights. -/
abbrev argW2 : Vec Ideal S512x512 .f32 := m ((c : Thread nD τ).loc main_arg4)
/-- The second layer's bias. -/
abbrev argB2 : Vec Ideal S512 .f32 := m ((c : Thread nD τ).loc main_arg5)
/-- The classifier's weights. -/
abbrev argFW : Vec Ideal S32x512 .f32 := m ((c : Thread nD τ).loc main_arg6)
/-- The classifier's bias. -/
abbrev argFb : Vec Ideal S32 .f32 := m ((c : Thread nD τ).loc main_arg7)

/-- A rank-two array read by its two coordinates. -/
abbrev mat {a b : Nat} (v : (⟨2, ![a, b]⟩ : Shape).Idx → EReal) : Fin a → Fin b → EReal := fun i k => v (ix2 i k)

/-- A rank-one array read by its coordinate. -/
abbrev vec {a : Nat} (v : (⟨1, ![a]⟩ : Shape).Idx → EReal) : Fin a → EReal := fun o => v (ix1 o)

/-! ## The specification's intermediate stages on the arguments -/

/-- The node scale of the adjacency argument. -/
abbrev specD : Fin 8192 → EReal := GcnSpec.dscale (mat (argA m c))
/-- The first propagation, of the input features. -/
abbrev specP1 : Fin 8192 → Fin 512 → EReal := GcnSpec.propFused (mat (argA m c)) (specD m c) (mat (argX m c))
/-- The first layer's features. -/
abbrev specH1 : Fin 8192 → Fin 512 → EReal := GcnSpec.relu (GcnSpec.affine (specP1 m c) (mat (argW1 m c)) (vec (argB1 m c)))
/-- The second propagation, of the first layer's features. -/
abbrev specP2 : Fin 8192 → Fin 512 → EReal := GcnSpec.propFused (mat (argA m c)) (specD m c) (specH1 m c)
/-- The hidden features after both layers. -/
abbrev specH2 : Fin 8192 → Fin 512 → EReal :=
  GcnSpec.hidden GcnSpec.propFused (mat (argA m c)) (mat (argX m c)) (mat (argW1 m c)) (vec (argB1 m c)) (mat (argW2 m c)) (vec (argB2 m c))

/-! ## The scale -/

/-- The only row of the first region's result holds the column sums of the adjacency argument. -/
theorem colsum_at (j : Fin 8192) :
    (W1 m c main_v0 : Vec Ideal S1x8192 .f32) (ix2 (0 : Fin 1) j) = GcnSpec.colsum (mat (argA m c)) j := by
  rw [Went1_v0]
  exact arrAt0_colsum (atTc (W0 m)) c j

/-- The scale column made from that result holds, in row k, the inverse square root of column k's sum: the column is the
    vector at the same position, the vector is the reciprocal square root entry by entry, and the vector of sums is the
    row at the same position. -/
theorem scaleCol_at (k : Fin 8192) (u : Fin 1) :
    (scaleCol (W1 m c main_v0) : Vec Ideal S8192x1 .f32) (ix2 k u) = specD m c k := by
  dsimp only [scaleCol]
  rw [Cert.LibKeepdims.shapeCast_a_a1_apply]
  show Ideal.rsqrt (shapeCast S8192 (W1 m c main_v0 : Vec Ideal S1x8192 .f32) shapeCasts_S1x8192_S8192 (ix1 k))
    = Ideal.rsqrt (GcnSpec.colsum (mat (argA m c)) k)
  rw [shapeCast_1a_a_apply, colsum_at]

/-- The scale column the first propagation finds. -/
theorem scale1_at (k : Fin 8192) (u : Fin 1) : scale1 (atTc (W2 m)) c (ix2 k u) = specD m c k := by
  show (W2 m c main_v3 : Vec Ideal S8192x1 .f32) (ix2 k u) = _
  rw [Went1_v3]
  exact scaleCol_at m c k u

/-- The scale column the second propagation finds is the same. -/
theorem scale3_at (k : Fin 8192) (u : Fin 1) : scale3 (atTc (W6 m)) c (ix2 k u) = specD m c k := by
  show (W6 m c main_v8 : Vec Ideal S8192x1 .f32) (ix2 k u) = _
  rw [Went3_v8]
  exact scaleCol_at m c k u

/-! ## The first layer -/

/-- The first propagation's result, as the first dense layer finds it. -/
theorem prop1_at (i : Fin 8192) (n : Fin 512) : xarr2 (atTc (W4 m)) c (ix2 i n) = specP1 m c i n := by
  show (W4 m c main_v4 : Vec Ideal S8192x512 .f32) (ix2 i n) = _
  rw [Went2_v4]
  refine (arrAt1 (atTc (W2 m)) c i n).trans ?_
  have hA : adj1 (atTc (W2 m)) c = argA m c := Went1_arg1 m c
  have hX : feat1 (atTc (W2 m)) c = argX m c := Went1_arg0 m c
  rw [hA, hX]
  simp only [scale1_at m c]
  rfl

/-- The transposed first-layer weights: entry (n, o) is the weights' entry (o, n). -/
theorem w1T_at (n o : Fin 512) : warr2 (atTc (W4 m)) c (ix2 n o) = mat (argW1 m c) o n := by
  show (W4 m c main_v5 : Vec Ideal S512x512 .f32) (ix2 n o) = _
  rw [Went2_v5]
  exact transpose_ix2_apply _ _ n o

/-- The first-layer bias as a row: entry (0, o) is the bias's entry o. -/
theorem b1row_at (u : Fin 1) (o : Fin 512) : barr2 (atTc (W4 m)) c (ix2 u o) = vec (argB1 m c) o := by
  show (W4 m c main_v6 : Vec Ideal S1x512 .f32) (ix2 u o) = _
  rw [Went2_v6]
  exact shapeCast_a_1a_apply _ _ u o

/-- The first dense layer's result, as the second propagation finds it. -/
theorem layer1_at (i : Fin 8192) (o : Fin 512) : feat3 (atTc (W6 m)) c (ix2 i o) = specH1 m c i o := by
  show (W6 m c main_v7 : Vec Ideal S8192x512 .f32) (ix2 i o) = _
  rw [Went3_v7]
  refine (arrAt2 (atTc (W4 m)) c i o).trans ?_
  simp only [prop1_at m c, w1T_at m c, b1row_at m c]
  rfl

/-! ## The second layer -/

/-- The second propagation's result, as the second dense layer finds it. -/
theorem prop2_at (i : Fin 8192) (n : Fin 512) : xarr4 (atTc (W8 m)) c (ix2 i n) = specP2 m c i n := by
  show (W8 m c main_v9 : Vec Ideal S8192x512 .f32) (ix2 i n) = _
  rw [Went4_v9]
  refine (arrAt3 (atTc (W6 m)) c i n).trans ?_
  have hA : adj3 (atTc (W6 m)) c = argA m c := Went3_arg1 m c
  rw [hA]
  simp only [layer1_at m c, scale3_at m c]
  rfl

/-- The transposed second-layer weights. -/
theorem w2T_at (n o : Fin 512) : warr4 (atTc (W8 m)) c (ix2 n o) = mat (argW2 m c) o n := by
  show (W8 m c main_v10 : Vec Ideal S512x512 .f32) (ix2 n o) = _
  rw [Went4_v10]
  exact transpose_ix2_apply _ _ n o

/-- The second-layer bias as a row. -/
theorem b2row_at (u : Fin 1) (o : Fin 512) : barr4 (atTc (W8 m)) c (ix2 u o) = vec (argB2 m c) o := by
  show (W8 m c main_v11 : Vec Ideal S1x512 .f32) (ix2 u o) = _
  rw [Went4_v11]
  exact shapeCast_a_1a_apply _ _ u o

/-- The second dense layer's result array holds the specification's hidden features. -/
theorem hidden_at (i : Fin 8192) (o : Fin 512) : oarr4 (atTc (W8 m)) c (ix2 i o) = specH2 m c i o := by
  refine (arrAt4 (atTc (W8 m)) c i o).trans ?_
  simp only [prop2_at m c, w2T_at m c, b2row_at m c]
  rfl

/-! ## The class scores -/

/-- The hidden features as the classifier finds them. -/
theorem hidden5_at (i : Fin 8192) (o : Fin 512) : xarr5 (atTc (W10 m)) c (ix2 i o) = specH2 m c i o := by
  show (W10 m c main_v12 : Vec Ideal S8192x512 .f32) (ix2 i o) = _
  rw [Went5_v12]
  exact hidden_at m c i o

/-- The transposed classifier weights: entry (n, o) is the weights' entry (o, n). -/
theorem fwT_at (n : Fin 512) (o : Fin 32) : warr5 (atTc (W10 m)) c (ix2 n o) = mat (argFW m c) o n := by
  show (W10 m c main_v13 : Vec Ideal S512x32 .f32) (ix2 n o) = _
  rw [Went5_v13]
  exact transpose_ix2_apply _ _ n o

/-- The classifier bias as a row. -/
theorem fbrow_at (u : Fin 1) (o : Fin 32) : barr5 (atTc (W10 m)) c (ix2 u o) = vec (argFb m c) o := by
  show (W10 m c main_v14 : Vec Ideal S1x32 .f32) (ix2 u o) = _
  rw [Went5_v14]
  exact shapeCast_a_1a_apply _ _ u o

/-- The classifier's result array holds the specification's class scores. -/
theorem scores_at (i : Fin 8192) (o : Fin 32) :
    oarr5 (atTc (W10 m)) c (ix2 i o) = GcnSpec.scores (specH2 m c) (mat (argFW m c)) (vec (argFb m c)) i o := by
  refine (arrAt5 (atTc (W10 m)) c i o).trans ?_
  simp only [hidden5_at m c, fwT_at m c, fbrow_at m c]
  rfl

/-! ## The two results as functions of the index -/

/-- The program's first result is the specification's hidden features with the fused propagation. -/
theorem kernel_hidden :
    (Wlast m c main_v12 : Vec Ideal S8192x512 .f32)
      = fun j => GcnSpec.hidden GcnSpec.propFused (mat (argA m c)) (mat (argX m c)) (mat (argW1 m c)) (vec (argB1 m c))
          (mat (argW2 m c)) (vec (argB2 m c)) (j 0) (j 1) := by
  funext j
  obtain ⟨i, o, rfl⟩ : ∃ (i : Fin 8192) (o : Fin 512), j = ix2 i o := ⟨j 0, j 1, eq_ix2 j⟩
  rw [Wlast_v12]
  exact hidden_at m c i o

/-- The program's second result is the specification's class scores of those hidden features. -/
theorem kernel_scores :
    (Wlast m c main_v15 : Vec Ideal S8192x32 .f32)
      = fun j => GcnSpec.scores (GcnSpec.hidden GcnSpec.propFused (mat (argA m c)) (mat (argX m c)) (mat (argW1 m c)) (vec (argB1 m c))
          (mat (argW2 m c)) (vec (argB2 m c))) (mat (argFW m c)) (vec (argFb m c)) (j 0) (j 1) := by
  funext j
  obtain ⟨i, o, rfl⟩ : ∃ (i : Fin 8192) (o : Fin 32), j = ix2 i o := ⟨j 0, j 1, eq_ix2 j⟩
  rw [Wlast_v15]
  exact scores_at m c i o

end Cert.KernelIdeal.KI

end
-- ==== Proof.RefValue.lean ====
/-
  The reference program's two results, read as the two-layer graph convolution of the shared specification.

  The program computes, from the adjacency matrix `A`, the column sums `Σ_i A i j` (a sum over the first axis onto a
  zero initial value), the scale `d j = (Σ_i A i j)^(-1/2)`, and the scaled matrix entry by entry as
  `(d i * A i k) * d k`: the scale broadcast down the rows times `A`, then times the scale broadcast along the columns.
  A layer multiplies the scaled matrix into the features (`Σ_k ((d i * A i k) * d k) * B k n`, the plain propagation),
  applies the affine map `X ↦ X Wᵀ + b` — the transposed weight read at the swapped index, the bias repeated on every
  row — and the rectifier `max · 0`, the zero being a broadcast scalar. Two layers give the hidden features, the first
  result; one more affine map of them gives the class scores, the second result.

  Each stage below is read at an index given by its coordinates; the closing statements are the two results as functions
  of the index. Arrays are read through `mat` and `vec`, which turn an index-addressed array into a function of its
  coordinates.
-/
import proofs.«143233_j59193239273550_1_alg».proof.Proof.Gen.ReferenceIdeal.Read
import proofs.«143233_j59193239273550_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.StableHlo Idealize.ShloMosaic.ValueIdx

/-- A rank-two array read by its two coordinates. -/
abbrev mat {a b : Nat} (v : (⟨2, ![a, b]⟩ : Shape).Idx → EReal) : Fin a → Fin b → EReal := fun i k => v (ix2 i k)

/-- A rank-one array read by its coordinate. -/
abbrev vec {a : Nat} (v : (⟨1, ![a]⟩ : Shape).Idx → EReal) : Fin a → EReal := fun o => v (ix1 o)

/-- The reduction over axis 0 with initial value zero, then the inverse square root: the node scale. -/
theorem scale_at (a1 : (⟨S8192x8192, .f32⟩ : BufTy).Contents (Elt Ideal)) (k : Fin 8192) :
    val_main_v1 (F := Ideal) a1 (ix1 k) = Cert.GcnSpec.dscale (mat a1) k := by
  have e : ∀ q : Fin 8192, idx_main_v0 (ix1 k) q = ix2 q k := fun q =>
    funext fun a => Fin.ext (by match a with | ⟨0, _⟩ => rfl | ⟨1, _⟩ => rfl)
  rw [val_main_v1_apply, val_main_v0_apply, val_main_cst_apply]
  simp only [e, Ideal.hostUnary_rsqrt_def, Ideal.ofBits_def, Ideal.ofBits_zero_f32, zero_add]
  rfl

/-- The scaled matrix entry by entry: the row scale times the entry, then times the column scale. -/
theorem scaled_at (a1 : (⟨S8192x8192, .f32⟩ : BufTy).Contents (Elt Ideal)) (i k : Fin 8192) :
    val_main_v7 (F := Ideal) a1 (ix2 i k)
      = (Cert.GcnSpec.dscale (mat a1) i * mat a1 i k) * Cert.GcnSpec.dscale (mat a1) k := by
  have e0 : idx_main_v2 (idx_main_v3 (ix2 i k)) = ix1 i :=
    funext fun a => Fin.ext (by match a with | ⟨0, _⟩ => rfl)
  have e1 : idx_main_v5 (idx_main_v6 (ix2 i k)) = ix1 k :=
    funext fun a => Fin.ext (by match a with | ⟨0, _⟩ => rfl)
  rw [val_main_v7_apply, val_main_v4_apply, val_main_v3_apply, val_main_v2_apply, val_main_v6_apply,
    val_main_v5_apply, e0, e1, scale_at, scale_at]
  rfl

/-! ## The first layer -/

/-- The scaled matrix times the input features. -/
theorem prop1_at (a0 : (⟨S8192x512, .f32⟩ : BufTy).Contents (Elt Ideal)) (a1 : (⟨S8192x8192, .f32⟩ : BufTy).Contents (Elt Ideal))
    (i : Fin 8192) (n : Fin 512) :
    val_main_v8 (F := Ideal) a0 a1 (ix2 i n)
      = Cert.GcnSpec.propPlain (mat a1) (Cert.GcnSpec.dscale (mat a1)) (mat a0) i n := by
  have el : ∀ k : Fin 8192, lidx_main_v8 (ix2 i n) k = ix2 i k := fun k =>
    funext fun a => Fin.ext (by match a with | ⟨0, _⟩ => rfl | ⟨1, _⟩ => rfl)
  have er : ∀ k : Fin 8192, ridx_main_v8 (ix2 i n) k = ix2 k n := fun k =>
    funext fun a => Fin.ext (by match a with | ⟨0, _⟩ => rfl | ⟨1, _⟩ => rfl)
  rw [val_main_v8_apply]
  simp only [el, er, scaled_at]
  rfl

/-- The first affine map: the product with the transposed weights read at the swapped index, plus the bias row. -/
theorem lin1_at (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (i : Fin 8192) (o : Fin 512) :
    val_main_v13 (F := Ideal) a0 a1 a2 a3 (ix2 i o)
      = Cert.GcnSpec.affine (Cert.GcnSpec.propPlain (mat a1) (Cert.GcnSpec.dscale (mat a1)) (mat a0)) (mat a2) (vec a3) i o := by
  have el : ∀ k : Fin 512, lidx_main_v10 (ix2 i o) k = ix2 i k := fun k =>
    funext fun a => Fin.ext (by match a with | ⟨0, _⟩ => rfl | ⟨1, _⟩ => rfl)
  have er : ∀ k : Fin 512, idx_main_v9 (ridx_main_v10 (ix2 i o) k) = ix2 o k := fun k =>
    funext fun a => Fin.ext (by match a with | ⟨0, _⟩ => rfl | ⟨1, _⟩ => rfl)
  have eb : idx_main_v11 (idx_main_v12 (ix2 i o)) = ix1 o :=
    funext fun a => Fin.ext (by match a with | ⟨0, _⟩ => rfl)
  rw [val_main_v13_apply, val_main_v10_apply, val_main_v12_apply, val_main_v11_apply, eb]
  simp only [val_main_v9_apply, el, er, prop1_at]
  rfl

/-- The first rectifier: the maximum with the broadcast zero. -/
theorem act1_at (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (i : Fin 8192) (o : Fin 512) :
    val_main_v14 (F := Ideal) a0 a1 a2 a3 (ix2 i o)
      = Cert.GcnSpec.relu (Cert.GcnSpec.affine (Cert.GcnSpec.propPlain (mat a1) (Cert.GcnSpec.dscale (mat a1)) (mat a0)) (mat a2) (vec a3)) i o := by
  rw [val_main_v14_apply, val_main_call0_v0_apply, val_main_call0_cst_apply, lin1_at]
  simp only [Ideal.maximumf_def, Ideal.ofBits_def, Ideal.ofBits_zero_f32]
  rfl

/-! ## The second layer -/

/-- The hidden features after the first layer, by coordinates. -/
abbrev layer1 (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal)) :
    Fin 8192 → Fin 512 → EReal :=
  Cert.GcnSpec.relu (Cert.GcnSpec.affine (Cert.GcnSpec.propPlain (mat a1) (Cert.GcnSpec.dscale (mat a1)) (mat a0)) (mat a2) (vec a3))

/-- The scaled matrix times the first layer's features. -/
theorem prop2_at (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (i : Fin 8192) (n : Fin 512) :
    val_main_v15 (F := Ideal) a0 a1 a2 a3 (ix2 i n)
      = Cert.GcnSpec.propPlain (mat a1) (Cert.GcnSpec.dscale (mat a1)) (layer1 a0 a1 a2 a3) i n := by
  have el : ∀ k : Fin 8192, lidx_main_v15 (ix2 i n) k = ix2 i k := fun k =>
    funext fun a => Fin.ext (by match a with | ⟨0, _⟩ => rfl | ⟨1, _⟩ => rfl)
  have er : ∀ k : Fin 8192, ridx_main_v15 (ix2 i n) k = ix2 k n := fun k =>
    funext fun a => Fin.ext (by match a with | ⟨0, _⟩ => rfl | ⟨1, _⟩ => rfl)
  rw [val_main_v15_apply]
  simp only [el, er, scaled_at, act1_at]
  rfl

/-- The second affine map. -/
theorem lin2_at (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (a4 : (⟨S512x512, .f32⟩ : BufTy).Contents (Elt Ideal)) (a5 : (⟨S512, .f32⟩ : BufTy).Contents (Elt Ideal))
    (i : Fin 8192) (o : Fin 512) :
    val_main_v20 (F := Ideal) a0 a1 a2 a3 a4 a5 (ix2 i o)
      = Cert.GcnSpec.affine (Cert.GcnSpec.propPlain (mat a1) (Cert.GcnSpec.dscale (mat a1)) (layer1 a0 a1 a2 a3)) (mat a4) (vec a5) i o := by
  have el : ∀ k : Fin 512, lidx_main_v17 (ix2 i o) k = ix2 i k := fun k =>
    funext fun a => Fin.ext (by match a with | ⟨0, _⟩ => rfl | ⟨1, _⟩ => rfl)
  have er : ∀ k : Fin 512, idx_main_v16 (ridx_main_v17 (ix2 i o) k) = ix2 o k := fun k =>
    funext fun a => Fin.ext (by match a with | ⟨0, _⟩ => rfl | ⟨1, _⟩ => rfl)
  have eb : idx_main_v18 (idx_main_v19 (ix2 i o)) = ix1 o :=
    funext fun a => Fin.ext (by match a with | ⟨0, _⟩ => rfl)
  rw [val_main_v20_apply, val_main_v17_apply, val_main_v19_apply, val_main_v18_apply, eb]
  simp only [val_main_v16_apply, el, er, prop2_at]
  rfl

/-- The second rectifier: the hidden features of the specification, with the plain propagation. -/
theorem act2_at (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (a4 : (⟨S512x512, .f32⟩ : BufTy).Contents (Elt Ideal)) (a5 : (⟨S512, .f32⟩ : BufTy).Contents (Elt Ideal))
    (i : Fin 8192) (o : Fin 512) :
    val_main_v21 (F := Ideal) a0 a1 a2 a3 a4 a5 (ix2 i o)
      = Cert.GcnSpec.hidden Cert.GcnSpec.propPlain (mat a1) (mat a0) (mat a2) (vec a3) (mat a4) (vec a5) i o := by
  rw [val_main_v21_apply, val_main_call1_v0_apply, val_main_call1_cst_apply, lin2_at]
  simp only [Ideal.maximumf_def, Ideal.ofBits_def, Ideal.ofBits_zero_f32]
  rfl

/-! ## The class scores -/

/-- The last affine map, of the hidden features. -/
theorem scores_at (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (a4 : (⟨S512x512, .f32⟩ : BufTy).Contents (Elt Ideal)) (a5 : (⟨S512, .f32⟩ : BufTy).Contents (Elt Ideal))
    (a6 : (⟨S32x512, .f32⟩ : BufTy).Contents (Elt Ideal)) (a7 : (⟨S32, .f32⟩ : BufTy).Contents (Elt Ideal))
    (i : Fin 8192) (o : Fin 32) :
    val_main_v26 (F := Ideal) a0 a1 a2 a3 a4 a5 a6 a7 (ix2 i o)
      = Cert.GcnSpec.scores (Cert.GcnSpec.hidden Cert.GcnSpec.propPlain (mat a1) (mat a0) (mat a2) (vec a3) (mat a4) (vec a5))
          (mat a6) (vec a7) i o := by
  have el : ∀ k : Fin 512, lidx_main_v23 (ix2 i o) k = ix2 i k := fun k =>
    funext fun a => Fin.ext (by match a with | ⟨0, _⟩ => rfl | ⟨1, _⟩ => rfl)
  have er : ∀ k : Fin 512, idx_main_v22 (ridx_main_v23 (ix2 i o) k) = ix2 o k := fun k =>
    funext fun a => Fin.ext (by match a with | ⟨0, _⟩ => rfl | ⟨1, _⟩ => rfl)
  have eb : idx_main_v24 (idx_main_v25 (ix2 i o)) = ix1 o :=
    funext fun a => Fin.ext (by match a with | ⟨0, _⟩ => rfl)
  rw [val_main_v26_apply, val_main_v23_apply, val_main_v25_apply, val_main_v24_apply, eb]
  simp only [val_main_v22_apply, el, er, act2_at]
  rfl

/-! ## The two results as functions of the index -/

/-- The reference's first result is the specification's hidden features with the plain propagation. -/
theorem ref_hidden (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (a4 : (⟨S512x512, .f32⟩ : BufTy).Contents (Elt Ideal)) (a5 : (⟨S512, .f32⟩ : BufTy).Contents (Elt Ideal)) :
    val_main_v21 (F := Ideal) a0 a1 a2 a3 a4 a5
      = fun j => Cert.GcnSpec.hidden Cert.GcnSpec.propPlain (mat a1) (mat a0) (mat a2) (vec a3) (mat a4) (vec a5) (j 0) (j 1) := by
  funext j
  obtain ⟨i, o, rfl⟩ : ∃ (i : Fin 8192) (o : Fin 512), j = ix2 i o := ⟨j 0, j 1, eq_ix2 j⟩
  exact act2_at a0 a1 a2 a3 a4 a5 i o

/-- The reference's second result is the specification's class scores of those hidden features. -/
theorem ref_scores (a0 : (⟨S8192x512, .f32⟩ : BufTy).Contents (Elt Ideal)) (a1 : (⟨S8192x8192, .f32⟩ : BufTy).Contents (Elt Ideal))
    (a2 : (⟨S512x512, .f32⟩ : BufTy).Contents (Elt Ideal)) (a3 : (⟨S512, .f32⟩ : BufTy).Contents (Elt Ideal))
    (a4 : (⟨S512x512, .f32⟩ : BufTy).Contents (Elt Ideal)) (a5 : (⟨S512, .f32⟩ : BufTy).Contents (Elt Ideal))
    (a6 : (⟨S32x512, .f32⟩ : BufTy).Contents (Elt Ideal)) (a7 : (⟨S32, .f32⟩ : BufTy).Contents (Elt Ideal)) :
    val_main_v26 (F := Ideal) a0 a1 a2 a3 a4 a5 a6 a7
      = fun j => Cert.GcnSpec.scores (Cert.GcnSpec.hidden Cert.GcnSpec.propPlain (mat a1) (mat a0) (mat a2) (vec a3) (mat a4) (vec a5))
          (mat a6) (vec a7) (j 0) (j 1) := by
  funext j
  obtain ⟨i, o, rfl⟩ : ∃ (i : Fin 8192) (o : Fin 32), j = ix2 i o := ⟨j 0, j 1, eq_ix2 j⟩
  exact scores_at a0 a1 a2 a3 a4 a5 a6 a7 i o

end Cert.ReferenceIdeal.RefValue

end
-- ==== Proof.SpecLaws.lean ====
/-
  The algebra that joins the two arrangements of a graph-convolution layer.

  An extended real is called REAL here when it is the image of a real number (neither infinity). Real values are closed
  under sums, products and the rectifier, so every intermediate array of the network is real once the inputs and the
  scale are. On real values the extended reals' arithmetic is the reals': the row scale distributes over the
  propagation's sum, and the fused and the plain propagation agree. The scale itself is real because a positive real
  column sum has a real inverse square root.
-/
import proofs.«143233_j59193239273550_1_alg».proof.Proof.Spec
import Mathlib.Data.EReal.Basic
import Mathlib.Algebra.BigOperators.Ring.Finset

noncomputable section

open scoped BigOperators

namespace Cert.GcnSpec

open Idealize.ShloMosaic

/-- An extended real that is a real number: the coercion of some `r : ℝ`. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of a real value and zero is one of the two. -/
theorem IsReal.max_zero {x : EReal} (hx : IsReal x) : IsReal (max x 0) := by
  rcases max_choice x 0 with h | h <;> rw [h]
  exacts [hx, IsReal.zero]

/-- The coercion commutes with a finite sum. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A finite sum of real values is real. -/
theorem IsReal.sum {ι : Type*} (s : Finset ι) (f : ι → EReal) (h : ∀ i ∈ s, IsReal (f i)) : IsReal (∑ i ∈ s, f i) := by
  classical
  revert h
  refine Finset.induction_on s (fun _ => by simpa using IsReal.zero) fun a s ha ih h => ?_
  rw [Finset.sum_insert ha]
  exact (h a (Finset.mem_insert_self a s)).add (ih fun i hi => h i (Finset.mem_insert_of_mem hi))

/-! ## The two propagations agree on real values -/

/-- With real entries throughout, scaling the rows after the sum is scaling each term: the fused propagation is the
    plain one. -/
theorem propFused_eq_propPlain (A : Fin 8192 → Fin 8192 → EReal) (d : Fin 8192 → EReal) (B : Fin 8192 → Fin 512 → EReal)
    (hA : ∀ i k, IsReal (A i k)) (hd : ∀ k, IsReal (d k)) (hB : ∀ k n, IsReal (B k n)) :
    propFused A d B = propPlain A d B := by
  choose a ha using hA
  choose δ hδ using hd
  choose b hb using hB
  obtain rfl : A = fun i k => (a i k : EReal) := funext fun i => funext fun k => ha i k
  obtain rfl : d = fun k => (δ k : EReal) := funext hδ
  obtain rfl : B = fun k n => (b k n : EReal) := funext fun k => funext fun n => hb k n
  funext i n
  show (∑ k : Fin 8192, (a i k : EReal) * ((b k n : EReal) * (δ k : EReal))) * (δ i : EReal)
    = ∑ k : Fin 8192, (((δ i : EReal) * (a i k : EReal)) * (δ k : EReal)) * (b k n : EReal)
  simp only [← EReal.coe_mul, ← coe_sum]
  rw [Finset.sum_mul]
  exact congrArg _ (Finset.sum_congr rfl fun k _ => by ring)

/-! ## Real values are kept by every layer -/

theorem propFused_real (A : Fin 8192 → Fin 8192 → EReal) (d : Fin 8192 → EReal) (B : Fin 8192 → Fin 512 → EReal)
    (hA : ∀ i k, IsReal (A i k)) (hd : ∀ k, IsReal (d k)) (hB : ∀ k n, IsReal (B k n)) :
    ∀ i n, IsReal (propFused A d B i n) := fun i n =>
  (IsReal.sum _ _ fun k _ => (hA i k).mul ((hB k n).mul (hd k))).mul (hd i)

theorem propPlain_real (A : Fin 8192 → Fin 8192 → EReal) (d : Fin 8192 → EReal) (B : Fin 8192 → Fin 512 → EReal)
    (hA : ∀ i k, IsReal (A i k)) (hd : ∀ k, IsReal (d k)) (hB : ∀ k n, IsReal (B k n)) :
    ∀ i n, IsReal (propPlain A d B i n) := fun i n =>
  IsReal.sum _ _ fun k _ => (((hd i).mul (hA i k)).mul (hd k)).mul (hB k n)

theorem affine_real {N O : Nat} (X : Fin 8192 → Fin N → EReal) (W : Fin O → Fin N → EReal) (b : Fin O → EReal)
    (hX : ∀ i n, IsReal (X i n)) (hW : ∀ o n, IsReal (W o n)) (hb : ∀ o, IsReal (b o)) :
    ∀ i o, IsReal (affine X W b i o) := fun i o =>
  (IsReal.sum _ _ fun n _ => (hX i n).mul (hW o n)).add (hb o)

theorem relu_real {N : Nat} (X : Fin 8192 → Fin N → EReal) (hX : ∀ i n, IsReal (X i n)) :
    ∀ i o, IsReal (relu X i o) := fun i o => (hX i o).max_zero

/-! ## The scale -/

/-- The column sums of a matrix of real entries are real. -/
theorem colsum_real (A : Fin 8192 → Fin 8192 → EReal) (hA : ∀ i k, IsReal (A i k)) : ∀ j, IsReal (colsum A j) :=
  fun j => IsReal.sum _ _ fun i _ => hA i j

/-- A positive real column sum has a real inverse square root. -/
theorem dscale_real (A : Fin 8192 → Fin 8192 → EReal) (hA : ∀ i k, IsReal (A i k)) (hpos : ∀ j, 0 < colsum A j) :
    ∀ j, IsReal (dscale A j) := by
  intro j
  obtain ⟨r, hr⟩ := colsum_real A hA j
  have hr0 : 0 < r := by have := hpos j; rwa [hr, EReal.coe_pos] at this
  unfold dscale
  rw [hr, Ideal.rsqrt_coe, if_neg (not_lt.2 hr0.le), if_neg hr0.ne']
  exact IsReal.coe _

/-! ## The network -/

/-- The hidden features are real, with either propagation. -/
theorem hidden_plain_real (A : Fin 8192 → Fin 8192 → EReal) (x : Fin 8192 → Fin 512 → EReal)
    (W1 : Fin 512 → Fin 512 → EReal) (b1 : Fin 512 → EReal) (W2 : Fin 512 → Fin 512 → EReal) (b2 : Fin 512 → EReal)
    (hA : ∀ i k, IsReal (A i k)) (hx : ∀ k n, IsReal (x k n)) (hW1 : ∀ o n, IsReal (W1 o n)) (hb1 : ∀ o, IsReal (b1 o))
    (hW2 : ∀ o n, IsReal (W2 o n)) (hb2 : ∀ o, IsReal (b2 o)) (hpos : ∀ j, 0 < colsum A j) :
    ∀ i o, IsReal (hidden propPlain A x W1 b1 W2 b2 i o) := by
  have hd := dscale_real A hA hpos
  exact relu_real _ (affine_real _ _ _ (propPlain_real A _ _ hA hd
    (relu_real _ (affine_real _ _ _ (propPlain_real A _ x hA hd hx) hW1 hb1))) hW2 hb2)

/-- Two layers built on the fused propagation equal two layers built on the plain one, on real inputs with positive
    column sums: each layer's propagation is applied to real features. -/
theorem hidden_fused_eq_plain (A : Fin 8192 → Fin 8192 → EReal) (x : Fin 8192 → Fin 512 → EReal)
    (W1 : Fin 512 → Fin 512 → EReal) (b1 : Fin 512 → EReal) (W2 : Fin 512 → Fin 512 → EReal) (b2 : Fin 512 → EReal)
    (hA : ∀ i k, IsReal (A i k)) (hx : ∀ k n, IsReal (x k n)) (hW1 : ∀ o n, IsReal (W1 o n)) (hb1 : ∀ o, IsReal (b1 o))
    (hpos : ∀ j, 0 < colsum A j) :
    hidden propFused A x W1 b1 W2 b2 = hidden propPlain A x W1 b1 W2 b2 := by
  have hd := dscale_real A hA hpos
  unfold hidden
  rw [propFused_eq_propPlain A (dscale A) x hA hd hx,
    propFused_eq_propPlain A (dscale A) _ hA hd
      (relu_real _ (affine_real _ _ _ (propPlain_real A _ x hA hd hx) hW1 hb1))]

/-- The class scores of real hidden features under real weights are real. -/
theorem scores_real (h : Fin 8192 → Fin 512 → EReal) (FW : Fin 32 → Fin 512 → EReal) (Fb : Fin 32 → EReal)
    (hh : ∀ i n, IsReal (h i n)) (hFW : ∀ o n, IsReal (FW o n)) (hFb : ∀ o, IsReal (Fb o)) :
    ∀ i o, IsReal (scores h FW Fb i o) := affine_real h FW Fb hh hFW hFb

end Cert.GcnSpec

end
-- ==== Proof.PreDecode.lean ====
/-
  From the printed precondition to what the algebra asks of the inputs.

  The precondition is a conjunction of nine tests. Eight say of an input array that every entry's magnitude is below
  plus infinity; over the extended reals the magnitude of an entry is the larger of the entry and its negation, which is
  plus infinity at both infinities, so an entry that passes is a real number. The ninth says that every column sum of
  the adjacency matrix, taken from zero, is above zero. Each test is an "and" over all indices that came out one, so it
  holds at every index.
-/
import proofs.«143233_j59193239273550_1_alg».proof.Pre_finite_inputs
import proofs.«143233_j59193239273550_1_alg».proof.Proof.SpecLaws
import Idealize.ShloMosaic.Lib.ReduceAll
import Idealize.ShloMosaic.Lib.IdealHost

noncomputable section

open scoped BigOperators

namespace Cert.GcnSpec

open Idealize.ShloMosaic Idealize.ShloMosaic.ValueIdx Cert.Pre_finite_inputs

/-- The scalar shape has one index. -/
instance : Subsingleton S_.Idx := ⟨fun a b => funext fun d => d.elim0⟩

/-- The pattern the tests compare against is plus infinity. -/
theorem ofBits_inf_f32 : Ideal.ofBits .f32 0x7F800000#32 = ⊤ := by simp [Ideal.ofBits, Ideal.ieee]

/-- A decided proposition, as a one-bit word, is one exactly when the proposition holds. -/
theorem ofBool_decide_eq_one_iff (p : Prop) [Decidable p] : BitVec.ofBool (decide p) = 1#1 ↔ p := by
  by_cases hp : p <;> simp [hp]

/-- An entry whose magnitude is below plus infinity is a real number: at either infinity the magnitude is plus
    infinity. -/
theorem isReal_of_abs_lt_inf (x : EReal)
    (h : FloatOps.cmpf (F := Ideal) (φ := .f32) .olt (FloatOps.hostAbsf x) (FloatOps.ofBits .f32 0x7F800000#32) = 1#1) :
    IsReal x := by
  change BitVec.ofBool (decide (max x (-x) < Ideal.ofBits .f32 0x7F800000#32)) = 1#1 at h
  rw [ofBits_inf_f32] at h
  induction x using EReal.rec with
  | bot => simp at h
  | top => simp at h
  | coe r => exact ⟨r, rfl⟩

/-- One "every entry is finite" test that came out one gives a real number at every index. -/
theorem isReal_of_all_finite {S : Shape} (x : FVec Ideal S .f32) (hb : S_.BroadcastsInDim S (![] : Fin 0 → Fin S.rank))
    {axes : List (Fin S.rank)} (hr : S.ReducesTo axes S_) (hu : 0 < S_.numel)
    (e : Host.reduce IntOp.andi (cmpf .olt (Host.absf x) (broadcastInDim S ![] hb (constant S_ .f32 0x7F800000#32)))
      (constantI S_ 1 1#1) hr hu ix0 = 1#1) (i : S.Idx) : IsReal (x i) :=
  isReal_of_abs_lt_inf (x i) (Host.reduce_andi_all _ _ hr hu ix0 e i)

/-- The precondition, read: all eight inputs are real at every index, and every column sum of the adjacency matrix is
    positive. -/
theorem pre_decode [Cert.Pre_finite_inputs.Facts]
    (a0 : FVec Ideal S8192x512 .f32) (a1 : FVec Ideal S8192x8192 .f32) (a2 : FVec Ideal S512x512 .f32)
    (a3 : FVec Ideal S512 .f32) (a4 : FVec Ideal S512x512 .f32) (a5 : FVec Ideal S512 .f32)
    (a6 : FVec Ideal S32x512 .f32) (a7 : FVec Ideal S32 .f32)
    (h : Cert.Pre_finite_inputs.fn (F := Ideal) a0 a1 a2 a3 a4 a5 a6 a7 = fun _ => 1#1) :
    (∀ j, IsReal (a0 j)) ∧ (∀ j, IsReal (a1 j)) ∧ (∀ j, IsReal (a2 j)) ∧ (∀ j, IsReal (a3 j)) ∧ (∀ j, IsReal (a4 j))
      ∧ (∀ j, IsReal (a5 j)) ∧ (∀ j, IsReal (a6 j)) ∧ (∀ j, IsReal (a7 j))
      ∧ ∀ j : Fin 8192, 0 < colsum (fun i k => a1 (ix2 i k)) j := by
  have h0 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  refine ⟨isReal_of_all_finite a0 _ _ _ e0, isReal_of_all_finite a1 _ _ _ e1, isReal_of_all_finite a2 _ _ _ e2,
    isReal_of_all_finite a3 _ _ _ e3, isReal_of_all_finite a4 _ _ _ e4, isReal_of_all_finite a5 _ _ _ e5,
    isReal_of_all_finite a6 _ _ _ e6, isReal_of_all_finite a7 _ _ _ e7, fun j => ?_⟩
  have e := Host.reduce_andi_all _ _ _ _ ix0 e8 (ix1 j)
  have hR : Shape.Reduces S8192x8192 [0] S8192 := by decide
  change BitVec.ofBool (decide (Ideal.ofBits .f32 0x00000000#32
      < Ideal.hostReduceAdd Facts.reducesTo_S8192x8192_S8192_d0 a1 (Ideal.ofBits .f32 0x00000000#32) (ix1 j))) = 1#1 at e
  rw [ofBool_decide_eq_one_iff, Ideal.hostReduceAdd_single _ hR, Ideal.ofBits_zero_f32, zero_add] at e
  refine lt_of_lt_of_eq e ?_
  show ∑ k : Fin 8192, a1 (hR.lift (ix1 j) k) = ∑ i : Fin 8192, a1 (ix2 i j)
  refine Finset.sum_congr rfl fun k _ => congrArg a1 (funext fun a => ?_)
  match a with
  | ⟨0, _⟩ => rfl
  | ⟨1, _⟩ => rfl

end Cert.GcnSpec

end
-- ==== Proof.lean ====
/-
  A two-layer graph convolution, computed by six tiled matrix kernels, against its plain array reference.

  Both programs form the node scale d = (column sums of A)^(-1/2), apply the scaled adjacency d_i A_ik d_k to the
  features twice, each time followed by an affine map and a rectifier, and end with one more affine map. They differ
  in one place only: the kernels scale the features by d_k before the product and the rows by d_i after it, while the
  reference scales the matrix entry by entry first. Over the reals these are the same number, because d_i distributes
  over the sum; over the extended reals they are not once some d_i is infinite, so the statement carries the condition
  that every column sum of A is positive, beside the finiteness of every input. Under it every scale is a positive
  real, every intermediate entry is real, and the two results agree entry by entry.

  The pieces: what each kernel region leaves in its result array, as a closed expression of what it found (one module
  per region); the run of the whole program, region after region, with the contents of every array between them; the
  reference's results read operation by operation; the algebra joining the fused and the plain propagation; and the
  reading of the stated condition as "every entry is real, every column sum positive".
-/
import proofs.«143233_j59193239273550_1_alg».proof.Defs
import proofs.«143233_j59193239273550_1_alg».proof.Proof.Gen.Kernel
import proofs.«143233_j59193239273550_1_alg».proof.Proof.Gen.KernelIdeal
import proofs.«143233_j59193239273550_1_alg».proof.Proof.Gen.ReferenceIdeal
import proofs.«143233_j59193239273550_1_alg».proof.Proof.Gen.Pre_finite_inputs
import proofs.«143233_j59193239273550_1_alg».proof.Proof.Gen.ReferenceIdeal.Run
import proofs.«143233_j59193239273550_1_alg».proof.Proof.Gen.ReferenceIdeal.Read
import proofs.«143233_j59193239273550_1_alg».proof.Proof.K.Run
import proofs.«143233_j59193239273550_1_alg».proof.Proof.KI.Run
import proofs.«143233_j59193239273550_1_alg».proof.Proof.KI.KernelValue
import proofs.«143233_j59193239273550_1_alg».proof.Proof.RefValue
import proofs.«143233_j59193239273550_1_alg».proof.Proof.SpecLaws
import proofs.«143233_j59193239273550_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three programs run, fault nowhere, and leave their arguments as they found them -/

theorem frame_kernel : Cert.frame_Kernel := fun m ρ _ => Cert.Kernel.KI.frame (F := Bits) m ρ

theorem frame_kernelIdeal : Cert.frame_KernelIdeal := fun m ρ _ => Cert.KernelIdeal.KI.frame (F := Ideal) m ρ

/-- The reference is host operations only: its run names both results, and the arguments' part of that is the frame. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-! ## The two results agree -/

/-- The hidden features: the reference's last rectified stage, read at the kernel program's own arguments, is what the
    kernel program leaves in its first result. Both are the two-layer expression of the specification, the reference
    with the plain propagation and the kernels with the fused one; the stated condition makes every entry of A, x, W1,
    b1 real and every column sum of A positive, which is what lets the scale d_i move across the sum. -/
theorem hidden_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v21 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.KI.Wlast m c Cert.KernelIdeal.main_v12 := by
  have hd := Cert.GcnSpec.pre_decode _ _ _ _ _ _ _ _ (hpre c)
  rw [Cert.ReferenceIdeal.RefValue.ref_hidden, Cert.KernelIdeal.KI.kernel_hidden,
    Cert.GcnSpec.hidden_fused_eq_plain _ _ _ _ _ _ (fun i k => hd.2.1 (ix2 i k)) (fun k n => hd.1 (ix2 k n))
      (fun o n => hd.2.2.1 (ix2 o n)) (fun o => hd.2.2.2.1 (ix1 o)) hd.2.2.2.2.2.2.2.2]
  rfl

/-- The scores: one more affine map of the hidden features on both sides, so the same condition and the same law. -/
theorem scores_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.KI.Wlast m c Cert.KernelIdeal.main_v15 := by
  have hd := Cert.GcnSpec.pre_decode _ _ _ _ _ _ _ _ (hpre c)
  rw [Cert.ReferenceIdeal.RefValue.ref_scores, Cert.KernelIdeal.KI.kernel_scores,
    Cert.GcnSpec.hidden_fused_eq_plain _ _ _ _ _ _ (fun i k => hd.2.1 (ix2 i k)) (fun k n => hd.1 (ix2 k n))
      (fun o n => hd.2.2.1 (ix2 o n)) (fun o => hd.2.2.2.1 (ix1 o)) hd.2.2.2.2.2.2.2.2]
  rfl

/-- From memories that agree on the arguments, the kernel program ends with its two result arrays at the run's last
    contents, and the reference ends with the same two arrays: its composed terms, rewritten to the kernel program's
    arguments, are the stages `hidden_agree` and `scores_agree` speak of. -/
theorem algebraic : Cert.algebraic_KernelIdeal_ReferenceIdeal := by
  intro m ρ m' ρ' hpre hagree
  refine ⟨fun c => Cert.KernelIdeal.KI.Wlast m c Cert.KernelIdeal.main_v12,
    fun c => Cert.KernelIdeal.KI.Wlast m c Cert.KernelIdeal.main_v15,
    Cert.KernelIdeal.KI.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, -, -⟩ := hagree c
    rw [h0, h1, h2, h3, h4, h5]
    exact (Cert.ReferenceIdeal.Read.val_main_v21_eq _ _ _ _ _ _).trans (hidden_agree m hpre c)
  · obtain ⟨h0, h1, h2, h3, h4, h5, h6, h7⟩ := hagree c
    rw [h0, h1, h2, h3, h4, h5, h6, h7]
    exact (Cert.ReferenceIdeal.Read.val_main_v26_eq _ _ _ _ _ _ _ _).trans (scores_agree m hpre c)

/-- The claim: the three frames, the idealization's ledger (empty: the idealized program is the printed text read at
    the extended reals) and the agreement of the results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
